-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S512x256 : Shape := ⟨2, ![512, 256]⟩
abbrev S_ : Shape := ⟨0, ![]⟩

class Facts : Prop where
  bcast_S_S512x256 : S_.BroadcastsInDim S512x256 (![] : Fin 0 → Fin S512x256.rank)
  reducesTo_S512x256_S_d0_1 : S512x256.ReducesTo [0, 1] S_
  h_S_ : 0 < S_.numel

variable [Facts]

def fn {F : FTy → Type} [FloatOps F] (main_arg0 : FVec F S512x256 .f32) : IVec S_ 1 :=
  let main_v0 : FVec F S512x256 .f32 := Host.absf main_arg0
  let main_cst : FVec F S_ .f32 := constant S_ .f32 0x7F800000#32
  let main_v1 : FVec F S512x256 .f32 := broadcastInDim S512x256 ![] bcast_S_S512x256 main_cst
  let main_v2 : IVec S512x256 1 := cmpf .olt main_v0 main_v1
  let main_c : IVec S_ 1 := constantI S_ 1 1#1
  let main_v3 : IVec S_ 1 := (fun x v => Host.reduce IntOp.andi x v reducesTo_S512x256_S_d0_1 h_S_) main_v2 main_c
  main_v3
-- ==== Pre_finite_inputs_ReferenceIdeal.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  main_v3
-- ==== Kernel.lean ====
abbrev S512x256 : Shape := ⟨2, ![512, 256]⟩
abbrev S1x256 : Shape := ⟨2, ![1, 256]⟩
abbrev S16x1x256 : Shape := ⟨3, ![16, 1, 256]⟩
abbrev S16 : Shape := ⟨1, ![16]⟩
abbrev S_ : Shape := ⟨0, ![]⟩
abbrev S256 : Shape := ⟨1, ![256]⟩
abbrev S1 : Shape := ⟨1, ![1]⟩
abbrev S1x1x256 : Shape := ⟨3, ![1, 1, 256]⟩
abbrev S16x256 : Shape := ⟨2, ![16, 256]⟩

abbrev nBuf : Space → Nat
  | .hbm => 2
  | .vmem => 4
  | .smem => 0
  | _ => 0

abbrev bufTy : (tb : Table) → Fin (tcTables nBuf tb) → BufTy
  | .hbm, ⟨0, _⟩ => ⟨S512x256, .f32⟩
  | .hbm, ⟨1, _⟩ => ⟨S1x256, .f32⟩
  | .local _ .vmem, ⟨0, _⟩ => ⟨S512x256, .f32⟩
  | .local _ .vmem, ⟨1, _⟩ => ⟨S1x256, .f32⟩
  | .local _ .vmem, ⟨2, _⟩ => ⟨S1x256, .f32⟩
  | .local _ .vmem, ⟨3, _⟩ => ⟨S16x1x256, .f32⟩
  | _, _ => ⟨S512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_10 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2 : BitVec 32 := 1#32
  let v8 : BitVec 32 := Scalar.addi v2 c1_i32_2
  let c16_i32_3 : BitVec 32 := 16#32
  let c0_i32 : BitVec 32 := 0#32
  let v9 : BitVec 1 := Scalar.cmpi .eq c16_i32_3 c0_i32
  let c1_i32_4 : BitVec 32 := 1#32
  let v10 : BitVec 32 := Scalar.select v9 c1_i32_4 c16_i32_3
  let v11 : BitVec 32 := Scalar.remsi v8 v10
  let c0_i32_6 : BitVec 32 := 0#32
  let v13 : BitVec 1 := Scalar.cmpi .slt v11 c0_i32_6
  let c0_i32_7 : BitVec 32 := 0#32
  let v14 : BitVec 1 := Scalar.cmpi .slt v10 c0_i32_7
  let v15 : BitVec 1 := Scalar.xori v13 v14
  let c0_i32_5 : BitVec 32 := 0#32
  let v12 : BitVec 1 := Scalar.cmpi .ne v11 c0_i32_5
  let v16 : BitVec 1 := Scalar.andi v15 v12
  let v17 : BitVec 32 := Scalar.addi v11 v10
  let v18 : BitVec 32 := Scalar.select v16 v17 v11
  let c1_i32_9 : BitVec 32 := 1#32
  let v19 : BitVec 32 := Scalar.muli v18 c1_i32_9
  let v20 : BitVec 32 := Scalar.addi c0_i32_10 v19
  v20.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v21 : BitVec 32 := Scalar.addi v2 c2_i32
  let c16_i32_11 : BitVec 32 := 16#32
  let c0_i32_12 : BitVec 32 := 0#32
  let v22 : BitVec 1 := Scalar.cmpi .eq c16_i32_11 c0_i32_12
  let c1_i32_13 : BitVec 32 := 1#32
  let v23 : BitVec 32 := Scalar.select v22 c1_i32_13 c16_i32_11
  let v24 : BitVec 32 := Scalar.remsi v21 v23
  let c0_i32_15 : BitVec 32 := 0#32
  let v26 : BitVec 1 := Scalar.cmpi .slt v24 c0_i32_15
  let c0_i32_16 : BitVec 32 := 0#32
  let v27 : BitVec 1 := Scalar.cmpi .slt v23 c0_i32_16
  let v28 : BitVec 1 := Scalar.xori v26 v27
  let c0_i32_14 : BitVec 32 := 0#32
  let v25 : BitVec 1 := Scalar.cmpi .ne v24 c0_i32_14
  let v29 : BitVec 1 := Scalar.andi v28 v25
  let v30 : BitVec 32 := Scalar.addi v24 v23
  let v31 : BitVec 32 := Scalar.select v29 v30 v24
  let c1_i32_18 : BitVec 32 := 1#32
  let v32 : BitVec 32 := Scalar.muli v31 c1_i32_18
  let v33 : BitVec 32 := Scalar.addi c0_i32_19 v32
  v33.toNat
def k0_dev3 (d0 : Dev nD) : Nat :=
  let c0_i32_28 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v34 : BitVec 32 := Scalar.addi v2 c3_i32
  let c16_i32_20 : BitVec 32 := 16#32
  let c0_i32_21 : BitVec 32 := 0#32
  let v35 : BitVec 1 := Scalar.cmpi .eq c16_i32_20 c0_i32_21
  let c1_i32_22 : BitVec 32 := 1#32
  let v36 : BitVec 32 := Scalar.select v35 c1_i32_22 c16_i32_20
  let v37 : BitVec 32 := Scalar.remsi v34 v36
  let c0_i32_24 : BitVec 32 := 0#32
  let v39 : BitVec 1 := Scalar.cmpi .slt v37 c0_i32_24
  let c0_i32_25 : BitVec 32 := 0#32
  let v40 : BitVec 1 := Scalar.cmpi .slt v36 c0_i32_25
  let v41 : BitVec 1 := Scalar.xori v39 v40
  let c0_i32_23 : BitVec 32 := 0#32
  let v38 : BitVec 1 := Scalar.cmpi .ne v37 c0_i32_23
  let v42 : BitVec 1 := Scalar.andi v41 v38
  let v43 : BitVec 32 := Scalar.addi v37 v36
  let v44 : BitVec 32 := Scalar.select v42 v43 v37
  let c1_i32_27 : BitVec 32 := 1#32
  let v45 : BitVec 32 := Scalar.muli v44 c1_i32_27
  let v46 : BitVec 32 := Scalar.addi c0_i32_28 v45
  v46.toNat
def k0_dev4 (d0 : Dev nD) : Nat :=
  let c0_i32_37 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v47 : BitVec 32 := Scalar.addi v2 c4_i32
  let c16_i32_29 : BitVec 32 := 16#32
  let c0_i32_30 : BitVec 32 := 0#32
  let v48 : BitVec 1 := Scalar.cmpi .eq c16_i32_29 c0_i32_30
  let c1_i32_31 : BitVec 32 := 1#32
  let v49 : BitVec 32 := Scalar.select v48 c1_i32_31 c16_i32_29
  let v50 : BitVec 32 := Scalar.remsi v47 v49
  let c0_i32_33 : BitVec 32 := 0#32
  let v52 : BitVec 1 := Scalar.cmpi .slt v50 c0_i32_33
  let c0_i32_34 : BitVec 32 := 0#32
  let v53 : BitVec 1 := Scalar.cmpi .slt v49 c0_i32_34
  let v54 : BitVec 1 := Scalar.xori v52 v53
  let c0_i32_32 : BitVec 32 := 0#32
  let v51 : BitVec 1 := Scalar.cmpi .ne v50 c0_i32_32
  let v55 : BitVec 1 := Scalar.andi v54 v51
  let v56 : BitVec 32 := Scalar.addi v50 v49
  let v57 : BitVec 32 := Scalar.select v55 v56 v50
  let c1_i32_36 : BitVec 32 := 1#32
  let v58 : BitVec 32 := Scalar.muli v57 c1_i32_36
  let v59 : BitVec 32 := Scalar.addi c0_i32_37 v58
  v59.toNat
def k0_dev5 (d0 : Dev nD) : Nat :=
  let c0_i32_46 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v60 : BitVec 32 := Scalar.addi v2 c5_i32
  let c16_i32_38 : BitVec 32 := 16#32
  let c0_i32_39 : BitVec 32 := 0#32
  let v61 : BitVec 1 := Scalar.cmpi .eq c16_i32_38 c0_i32_39
  let c1_i32_40 : BitVec 32 := 1#32
  let v62 : BitVec 32 := Scalar.select v61 c1_i32_40 c16_i32_38
  let v63 : BitVec 32 := Scalar.remsi v60 v62
  let c0_i32_42 : BitVec 32 := 0#32
  let v65 : BitVec 1 := Scalar.cmpi .slt v63 c0_i32_42
  let c0_i32_43 : BitVec 32 := 0#32
  let v66 : BitVec 1 := Scalar.cmpi .slt v62 c0_i32_43
  let v67 : BitVec 1 := Scalar.xori v65 v66
  let c0_i32_41 : BitVec 32 := 0#32
  let v64 : BitVec 1 := Scalar.cmpi .ne v63 c0_i32_41
  let v68 : BitVec 1 := Scalar.andi v67 v64
  let v69 : BitVec 32 := Scalar.addi v63 v62
  let v70 : BitVec 32 := Scalar.select v68 v69 v63
  let c1_i32_45 : BitVec 32 := 1#32
  let v71 : BitVec 32 := Scalar.muli v70 c1_i32_45
  let v72 : BitVec 32 := Scalar.addi c0_i32_46 v71
  v72.toNat
def k0_dev6 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v73 : BitVec 32 := Scalar.addi v2 c6_i32
  let c16_i32_47 : BitVec 32 := 16#32
  let c0_i32_48 : BitVec 32 := 0#32
  let v74 : BitVec 1 := Scalar.cmpi .eq c16_i32_47 c0_i32_48
  let c1_i32_49 : BitVec 32 := 1#32
  let v75 : BitVec 32 := Scalar.select v74 c1_i32_49 c16_i32_47
  let v76 : BitVec 32 := Scalar.remsi v73 v75
  let c0_i32_51 : BitVec 32 := 0#32
  let v78 : BitVec 1 := Scalar.cmpi .slt v76 c0_i32_51
  let c0_i32_52 : BitVec 32 := 0#32
  let v79 : BitVec 1 := Scalar.cmpi .slt v75 c0_i32_52
  let v80 : BitVec 1 := Scalar.xori v78 v79
  let c0_i32_50 : BitVec 32 := 0#32
  let v77 : BitVec 1 := Scalar.cmpi .ne v76 c0_i32_50
  let v81 : BitVec 1 := Scalar.andi v80 v77
  let v82 : BitVec 32 := Scalar.addi v76 v75
  let v83 : BitVec 32 := Scalar.select v81 v82 v76
  let c1_i32_54 : BitVec 32 := 1#32
  let v84 : BitVec 32 := Scalar.muli v83 c1_i32_54
  let v85 : BitVec 32 := Scalar.addi c0_i32_55 v84
  v85.toNat
def k0_dev7 (d0 : Dev nD) : Nat :=
  let c0_i32_64 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v86 : BitVec 32 := Scalar.addi v2 c7_i32
  let c16_i32_56 : BitVec 32 := 16#32
  let c0_i32_57 : BitVec 32 := 0#32
  let v87 : BitVec 1 := Scalar.cmpi .eq c16_i32_56 c0_i32_57
  let c1_i32_58 : BitVec 32 := 1#32
  let v88 : BitVec 32 := Scalar.select v87 c1_i32_58 c16_i32_56
  let v89 : BitVec 32 := Scalar.remsi v86 v88
  let c0_i32_60 : BitVec 32 := 0#32
  let v91 : BitVec 1 := Scalar.cmpi .slt v89 c0_i32_60
  let c0_i32_61 : BitVec 32 := 0#32
  let v92 : BitVec 1 := Scalar.cmpi .slt v88 c0_i32_61
  let v93 : BitVec 1 := Scalar.xori v91 v92
  let c0_i32_59 : BitVec 32 := 0#32
  let v90 : BitVec 1 := Scalar.cmpi .ne v89 c0_i32_59
  let v94 : BitVec 1 := Scalar.andi v93 v90
  let v95 : BitVec 32 := Scalar.addi v89 v88
  let v96 : BitVec 32 := Scalar.select v94 v95 v89
  let c1_i32_63 : BitVec 32 := 1#32
  let v97 : BitVec 32 := Scalar.muli v96 c1_i32_63
  let v98 : BitVec 32 := Scalar.addi c0_i32_64 v97
  v98.toNat
def k0_dev8 (d0 : Dev nD) : Nat :=
  let c0_i32_73 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v99 : BitVec 32 := Scalar.addi v2 c8_i32
  let c16_i32_65 : BitVec 32 := 16#32
  let c0_i32_66 : BitVec 32 := 0#32
  let v100 : BitVec 1 := Scalar.cmpi .eq c16_i32_65 c0_i32_66
  let c1_i32_67 : BitVec 32 := 1#32
  let v101 : BitVec 32 := Scalar.select v100 c1_i32_67 c16_i32_65
  let v102 : BitVec 32 := Scalar.remsi v99 v101
  let c0_i32_69 : BitVec 32 := 0#32
  let v104 : BitVec 1 := Scalar.cmpi .slt v102 c0_i32_69
  let c0_i32_70 : BitVec 32 := 0#32
  let v105 : BitVec 1 := Scalar.cmpi .slt v101 c0_i32_70
  let v106 : BitVec 1 := Scalar.xori v104 v105
  let c0_i32_68 : BitVec 32 := 0#32
  let v103 : BitVec 1 := Scalar.cmpi .ne v102 c0_i32_68
  let v107 : BitVec 1 := Scalar.andi v106 v103
  let v108 : BitVec 32 := Scalar.addi v102 v101
  let v109 : BitVec 32 := Scalar.select v107 v108 v102
  let c1_i32_72 : BitVec 32 := 1#32
  let v110 : BitVec 32 := Scalar.muli v109 c1_i32_72
  let v111 : BitVec 32 := Scalar.addi c0_i32_73 v110
  v111.toNat
def k0_dev9 (d0 : Dev nD) : Nat :=
  let c0_i32_82 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v112 : BitVec 32 := Scalar.addi v2 c9_i32
  let c16_i32_74 : BitVec 32 := 16#32
  let c0_i32_75 : BitVec 32 := 0#32
  let v113 : BitVec 1 := Scalar.cmpi .eq c16_i32_74 c0_i32_75
  let c1_i32_76 : BitVec 32 := 1#32
  let v114 : BitVec 32 := Scalar.select v113 c1_i32_76 c16_i32_74
  let v115 : BitVec 32 := Scalar.remsi v112 v114
  let c0_i32_78 : BitVec 32 := 0#32
  let v117 : BitVec 1 := Scalar.cmpi .slt v115 c0_i32_78
  let c0_i32_79 : BitVec 32 := 0#32
  let v118 : BitVec 1 := Scalar.cmpi .slt v114 c0_i32_79
  let v119 : BitVec 1 := Scalar.xori v117 v118
  let c0_i32_77 : BitVec 32 := 0#32
  let v116 : BitVec 1 := Scalar.cmpi .ne v115 c0_i32_77
  let v120 : BitVec 1 := Scalar.andi v119 v116
  let v121 : BitVec 32 := Scalar.addi v115 v114
  let v122 : BitVec 32 := Scalar.select v120 v121 v115
  let c1_i32_81 : BitVec 32 := 1#32
  let v123 : BitVec 32 := Scalar.muli v122 c1_i32_81
  let v124 : BitVec 32 := Scalar.addi c0_i32_82 v123
  v124.toNat
def k0_dev10 (d0 : Dev nD) : Nat :=
  let c0_i32_91 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v125 : BitVec 32 := Scalar.addi v2 c10_i32
  let c16_i32_83 : BitVec 32 := 16#32
  let c0_i32_84 : BitVec 32 := 0#32
  let v126 : BitVec 1 := Scalar.cmpi .eq c16_i32_83 c0_i32_84
  let c1_i32_85 : BitVec 32 := 1#32
  let v127 : BitVec 32 := Scalar.select v126 c1_i32_85 c16_i32_83
  let v128 : BitVec 32 := Scalar.remsi v125 v127
  let c0_i32_87 : BitVec 32 := 0#32
  let v130 : BitVec 1 := Scalar.cmpi .slt v128 c0_i32_87
  let c0_i32_88 : BitVec 32 := 0#32
  let v131 : BitVec 1 := Scalar.cmpi .slt v127 c0_i32_88
  let v132 : BitVec 1 := Scalar.xori v130 v131
  let c0_i32_86 : BitVec 32 := 0#32
  let v129 : BitVec 1 := Scalar.cmpi .ne v128 c0_i32_86
  let v133 : BitVec 1 := Scalar.andi v132 v129
  let v134 : BitVec 32 := Scalar.addi v128 v127
  let v135 : BitVec 32 := Scalar.select v133 v134 v128
  let c1_i32_90 : BitVec 32 := 1#32
  let v136 : BitVec 32 := Scalar.muli v135 c1_i32_90
  let v137 : BitVec 32 := Scalar.addi c0_i32_91 v136
  v137.toNat
def k0_dev11 (d0 : Dev nD) : Nat :=
  let c0_i32_100 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v138 : BitVec 32 := Scalar.addi v2 c11_i32
  let c16_i32_92 : BitVec 32 := 16#32
  let c0_i32_93 : BitVec 32 := 0#32
  let v139 : BitVec 1 := Scalar.cmpi .eq c16_i32_92 c0_i32_93
  let c1_i32_94 : BitVec 32 := 1#32
  let v140 : BitVec 32 := Scalar.select v139 c1_i32_94 c16_i32_92
  let v141 : BitVec 32 := Scalar.remsi v138 v140
  let c0_i32_96 : BitVec 32 := 0#32
  let v143 : BitVec 1 := Scalar.cmpi .slt v141 c0_i32_96
  let c0_i32_97 : BitVec 32 := 0#32
  let v144 : BitVec 1 := Scalar.cmpi .slt v140 c0_i32_97
  let v145 : BitVec 1 := Scalar.xori v143 v144
  let c0_i32_95 : BitVec 32 := 0#32
  let v142 : BitVec 1 := Scalar.cmpi .ne v141 c0_i32_95
  let v146 : BitVec 1 := Scalar.andi v145 v142
  let v147 : BitVec 32 := Scalar.addi v141 v140
  let v148 : BitVec 32 := Scalar.select v146 v147 v141
  let c1_i32_99 : BitVec 32 := 1#32
  let v149 : BitVec 32 := Scalar.muli v148 c1_i32_99
  let v150 : BitVec 32 := Scalar.addi c0_i32_100 v149
  v150.toNat
def k0_dev12 (d0 : Dev nD) : Nat :=
  let c0_i32_109 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v151 : BitVec 32 := Scalar.addi v2 c12_i32
  let c16_i32_101 : BitVec 32 := 16#32
  let c0_i32_102 : BitVec 32 := 0#32
  let v152 : BitVec 1 := Scalar.cmpi .eq c16_i32_101 c0_i32_102
  let c1_i32_103 : BitVec 32 := 1#32
  let v153 : BitVec 32 := Scalar.select v152 c1_i32_103 c16_i32_101
  let v154 : BitVec 32 := Scalar.remsi v151 v153
  let c0_i32_105 : BitVec 32 := 0#32
  let v156 : BitVec 1 := Scalar.cmpi .slt v154 c0_i32_105
  let c0_i32_106 : BitVec 32 := 0#32
  let v157 : BitVec 1 := Scalar.cmpi .slt v153 c0_i32_106
  let v158 : BitVec 1 := Scalar.xori v156 v157
  let c0_i32_104 : BitVec 32 := 0#32
  let v155 : BitVec 1 := Scalar.cmpi .ne v154 c0_i32_104
  let v159 : BitVec 1 := Scalar.andi v158 v155
  let v160 : BitVec 32 := Scalar.addi v154 v153
  let v161 : BitVec 32 := Scalar.select v159 v160 v154
  let c1_i32_108 : BitVec 32 := 1#32
  let v162 : BitVec 32 := Scalar.muli v161 c1_i32_108
  let v163 : BitVec 32 := Scalar.addi c0_i32_109 v162
  v163.toNat
def k0_dev13 (d0 : Dev nD) : Nat :=
  let c0_i32_118 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v164 : BitVec 32 := Scalar.addi v2 c13_i32
  let c16_i32_110 : BitVec 32 := 16#32
  let c0_i32_111 : BitVec 32 := 0#32
  let v165 : BitVec 1 := Scalar.cmpi .eq c16_i32_110 c0_i32_111
  let c1_i32_112 : BitVec 32 := 1#32
  let v166 : BitVec 32 := Scalar.select v165 c1_i32_112 c16_i32_110
  let v167 : BitVec 32 := Scalar.remsi v164 v166
  let c0_i32_114 : BitVec 32 := 0#32
  let v169 : BitVec 1 := Scalar.cmpi .slt v167 c0_i32_114
  let c0_i32_115 : BitVec 32 := 0#32
  let v170 : BitVec 1 := Scalar.cmpi .slt v166 c0_i32_115
  let v171 : BitVec 1 := Scalar.xori v169 v170
  let c0_i32_113 : BitVec 32 := 0#32
  let v168 : BitVec 1 := Scalar.cmpi .ne v167 c0_i32_113
  let v172 : BitVec 1 := Scalar.andi v171 v168
  let v173 : BitVec 32 := Scalar.addi v167 v166
  let v174 : BitVec 32 := Scalar.select v172 v173 v167
  let c1_i32_117 : BitVec 32 := 1#32
  let v175 : BitVec 32 := Scalar.muli v174 c1_i32_117
  let v176 : BitVec 32 := Scalar.addi c0_i32_118 v175
  v176.toNat
def k0_dev14 (d0 : Dev nD) : Nat :=
  let c0_i32_127 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v177 : BitVec 32 := Scalar.addi v2 c14_i32
  let c16_i32_119 : BitVec 32 := 16#32
  let c0_i32_120 : BitVec 32 := 0#32
  let v178 : BitVec 1 := Scalar.cmpi .eq c16_i32_119 c0_i32_120
  let c1_i32_121 : BitVec 32 := 1#32
  let v179 : BitVec 32 := Scalar.select v178 c1_i32_121 c16_i32_119
  let v180 : BitVec 32 := Scalar.remsi v177 v179
  let c0_i32_123 : BitVec 32 := 0#32
  let v182 : BitVec 1 := Scalar.cmpi .slt v180 c0_i32_123
  let c0_i32_124 : BitVec 32 := 0#32
  let v183 : BitVec 1 := Scalar.cmpi .slt v179 c0_i32_124
  let v184 : BitVec 1 := Scalar.xori v182 v183
  let c0_i32_122 : BitVec 32 := 0#32
  let v181 : BitVec 1 := Scalar.cmpi .ne v180 c0_i32_122
  let v185 : BitVec 1 := Scalar.andi v184 v181
  let v186 : BitVec 32 := Scalar.addi v180 v179
  let v187 : BitVec 32 := Scalar.select v185 v186 v180
  let c1_i32_126 : BitVec 32 := 1#32
  let v188 : BitVec 32 := Scalar.muli v187 c1_i32_126
  let v189 : BitVec 32 := Scalar.addi c0_i32_127 v188
  v189.toNat
def k0_dev15 (d0 : Dev nD) : Nat :=
  let c0_i32_136 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v190 : BitVec 32 := Scalar.addi v2 c15_i32
  let c16_i32_128 : BitVec 32 := 16#32
  let c0_i32_129 : BitVec 32 := 0#32
  let v191 : BitVec 1 := Scalar.cmpi .eq c16_i32_128 c0_i32_129
  let c1_i32_130 : BitVec 32 := 1#32
  let v192 : BitVec 32 := Scalar.select v191 c1_i32_130 c16_i32_128
  let v193 : BitVec 32 := Scalar.remsi v190 v192
  let c0_i32_132 : BitVec 32 := 0#32
  let v195 : BitVec 1 := Scalar.cmpi .slt v193 c0_i32_132
  let c0_i32_133 : BitVec 32 := 0#32
  let v196 : BitVec 1 := Scalar.cmpi .slt v192 c0_i32_133
  let v197 : BitVec 1 := Scalar.xori v195 v196
  let c0_i32_131 : BitVec 32 := 0#32
  let v194 : BitVec 1 := Scalar.cmpi .ne v193 c0_i32_131
  let v198 : BitVec 1 := Scalar.andi v197 v194
  let v199 : BitVec 32 := Scalar.addi v193 v192
  let v200 : BitVec 32 := Scalar.select v198 v199 v193
  let c1_i32_135 : BitVec 32 := 1#32
  let v201 : BitVec 32 := Scalar.muli v200 c1_i32_135
  let v202 : BitVec 32 := Scalar.addi c0_i32_136 v201
  v202.toNat
def k0_off1 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_154 : BitVec 32 := 0#32
  let c0_i32_155 : BitVec 32 := 0#32
  ![v2.toNat, 0, 0]
def k0_dev16 (d0 : Dev nD) : Nat :=
  let c0_i32_153 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_143 : BitVec 32 := 1#32
  let v210 : BitVec 32 := Scalar.addi v2 c1_i32_143
  let c16_i32_144 : BitVec 32 := 16#32
  let c0_i32_145 : BitVec 32 := 0#32
  let v211 : BitVec 1 := Scalar.cmpi .eq c16_i32_144 c0_i32_145
  let c1_i32_146 : BitVec 32 := 1#32
  let v212 : BitVec 32 := Scalar.select v211 c1_i32_146 c16_i32_144
  let v213 : BitVec 32 := Scalar.remsi v210 v212
  let c0_i32_148 : BitVec 32 := 0#32
  let v215 : BitVec 1 := Scalar.cmpi .slt v213 c0_i32_148
  let c0_i32_149 : BitVec 32 := 0#32
  let v216 : BitVec 1 := Scalar.cmpi .slt v212 c0_i32_149
  let v217 : BitVec 1 := Scalar.xori v215 v216
  let c0_i32_147 : BitVec 32 := 0#32
  let v214 : BitVec 1 := Scalar.cmpi .ne v213 c0_i32_147
  let v218 : BitVec 1 := Scalar.andi v217 v214
  let v219 : BitVec 32 := Scalar.addi v213 v212
  let v220 : BitVec 32 := Scalar.select v218 v219 v213
  let c1_i32_152 : BitVec 32 := 1#32
  let v221 : BitVec 32 := Scalar.muli v220 c1_i32_152
  let v222 : BitVec 32 := Scalar.addi c0_i32_153 v221
  v222.toNat
def k0_dev17 (d0 : Dev nD) : Nat :=
  let c0_i32_166 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_156 : BitVec 32 := 2#32
  let v229 : BitVec 32 := Scalar.addi v2 c2_i32_156
  let c16_i32_157 : BitVec 32 := 16#32
  let c0_i32_158 : BitVec 32 := 0#32
  let v230 : BitVec 1 := Scalar.cmpi .eq c16_i32_157 c0_i32_158
  let c1_i32_159 : BitVec 32 := 1#32
  let v231 : BitVec 32 := Scalar.select v230 c1_i32_159 c16_i32_157
  let v232 : BitVec 32 := Scalar.remsi v229 v231
  let c0_i32_161 : BitVec 32 := 0#32
  let v234 : BitVec 1 := Scalar.cmpi .slt v232 c0_i32_161
  let c0_i32_162 : BitVec 32 := 0#32
  let v235 : BitVec 1 := Scalar.cmpi .slt v231 c0_i32_162
  let v236 : BitVec 1 := Scalar.xori v234 v235
  let c0_i32_160 : BitVec 32 := 0#32
  let v233 : BitVec 1 := Scalar.cmpi .ne v232 c0_i32_160
  let v237 : BitVec 1 := Scalar.andi v236 v233
  let v238 : BitVec 32 := Scalar.addi v232 v231
  let v239 : BitVec 32 := Scalar.select v237 v238 v232
  let c1_i32_165 : BitVec 32 := 1#32
  let v240 : BitVec 32 := Scalar.muli v239 c1_i32_165
  let v241 : BitVec 32 := Scalar.addi c0_i32_166 v240
  v241.toNat
def k0_dev18 (d0 : Dev nD) : Nat :=
  let c0_i32_179 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_169 : BitVec 32 := 3#32
  let v248 : BitVec 32 := Scalar.addi v2 c3_i32_169
  let c16_i32_170 : BitVec 32 := 16#32
  let c0_i32_171 : BitVec 32 := 0#32
  let v249 : BitVec 1 := Scalar.cmpi .eq c16_i32_170 c0_i32_171
  let c1_i32_172 : BitVec 32 := 1#32
  let v250 : BitVec 32 := Scalar.select v249 c1_i32_172 c16_i32_170
  let v251 : BitVec 32 := Scalar.remsi v248 v250
  let c0_i32_174 : BitVec 32 := 0#32
  let v253 : BitVec 1 := Scalar.cmpi .slt v251 c0_i32_174
  let c0_i32_175 : BitVec 32 := 0#32
  let v254 : BitVec 1 := Scalar.cmpi .slt v250 c0_i32_175
  let v255 : BitVec 1 := Scalar.xori v253 v254
  let c0_i32_173 : BitVec 32 := 0#32
  let v252 : BitVec 1 := Scalar.cmpi .ne v251 c0_i32_173
  let v256 : BitVec 1 := Scalar.andi v255 v252
  let v257 : BitVec 32 := Scalar.addi v251 v250
  let v258 : BitVec 32 := Scalar.select v256 v257 v251
  let c1_i32_178 : BitVec 32 := 1#32
  let v259 : BitVec 32 := Scalar.muli v258 c1_i32_178
  let v260 : BitVec 32 := Scalar.addi c0_i32_179 v259
  v260.toNat
def k0_dev19 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_182 : BitVec 32 := 4#32
  let v267 : BitVec 32 := Scalar.addi v2 c4_i32_182
  let c16_i32_183 : BitVec 32 := 16#32
  let c0_i32_184 : BitVec 32 := 0#32
  let v268 : BitVec 1 := Scalar.cmpi .eq c16_i32_183 c0_i32_184
  let c1_i32_185 : BitVec 32 := 1#32
  let v269 : BitVec 32 := Scalar.select v268 c1_i32_185 c16_i32_183
  let v270 : BitVec 32 := Scalar.remsi v267 v269
  let c0_i32_187 : BitVec 32 := 0#32
  let v272 : BitVec 1 := Scalar.cmpi .slt v270 c0_i32_187
  let c0_i32_188 : BitVec 32 := 0#32
  let v273 : BitVec 1 := Scalar.cmpi .slt v269 c0_i32_188
  let v274 : BitVec 1 := Scalar.xori v272 v273
  let c0_i32_186 : BitVec 32 := 0#32
  let v271 : BitVec 1 := Scalar.cmpi .ne v270 c0_i32_186
  let v275 : BitVec 1 := Scalar.andi v274 v271
  let v276 : BitVec 32 := Scalar.addi v270 v269
  let v277 : BitVec 32 := Scalar.select v275 v276 v270
  let c1_i32_191 : BitVec 32 := 1#32
  let v278 : BitVec 32 := Scalar.muli v277 c1_i32_191
  let v279 : BitVec 32 := Scalar.addi c0_i32_192 v278
  v279.toNat
def k0_dev20 (d0 : Dev nD) : Nat :=
  let c0_i32_205 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_195 : BitVec 32 := 5#32
  let v286 : BitVec 32 := Scalar.addi v2 c5_i32_195
  let c16_i32_196 : BitVec 32 := 16#32
  let c0_i32_197 : BitVec 32 := 0#32
  let v287 : BitVec 1 := Scalar.cmpi .eq c16_i32_196 c0_i32_197
  let c1_i32_198 : BitVec 32 := 1#32
  let v288 : BitVec 32 := Scalar.select v287 c1_i32_198 c16_i32_196
  let v289 : BitVec 32 := Scalar.remsi v286 v288
  let c0_i32_200 : BitVec 32 := 0#32
  let v291 : BitVec 1 := Scalar.cmpi .slt v289 c0_i32_200
  let c0_i32_201 : BitVec 32 := 0#32
  let v292 : BitVec 1 := Scalar.cmpi .slt v288 c0_i32_201
  let v293 : BitVec 1 := Scalar.xori v291 v292
  let c0_i32_199 : BitVec 32 := 0#32
  let v290 : BitVec 1 := Scalar.cmpi .ne v289 c0_i32_199
  let v294 : BitVec 1 := Scalar.andi v293 v290
  let v295 : BitVec 32 := Scalar.addi v289 v288
  let v296 : BitVec 32 := Scalar.select v294 v295 v289
  let c1_i32_204 : BitVec 32 := 1#32
  let v297 : BitVec 32 := Scalar.muli v296 c1_i32_204
  let v298 : BitVec 32 := Scalar.addi c0_i32_205 v297
  v298.toNat
def k0_dev21 (d0 : Dev nD) : Nat :=
  let c0_i32_218 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_208 : BitVec 32 := 6#32
  let v305 : BitVec 32 := Scalar.addi v2 c6_i32_208
  let c16_i32_209 : BitVec 32 := 16#32
  let c0_i32_210 : BitVec 32 := 0#32
  let v306 : BitVec 1 := Scalar.cmpi .eq c16_i32_209 c0_i32_210
  let c1_i32_211 : BitVec 32 := 1#32
  let v307 : BitVec 32 := Scalar.select v306 c1_i32_211 c16_i32_209
  let v308 : BitVec 32 := Scalar.remsi v305 v307
  let c0_i32_213 : BitVec 32 := 0#32
  let v310 : BitVec 1 := Scalar.cmpi .slt v308 c0_i32_213
  let c0_i32_214 : BitVec 32 := 0#32
  let v311 : BitVec 1 := Scalar.cmpi .slt v307 c0_i32_214
  let v312 : BitVec 1 := Scalar.xori v310 v311
  let c0_i32_212 : BitVec 32 := 0#32
  let v309 : BitVec 1 := Scalar.cmpi .ne v308 c0_i32_212
  let v313 : BitVec 1 := Scalar.andi v312 v309
  let v314 : BitVec 32 := Scalar.addi v308 v307
  let v315 : BitVec 32 := Scalar.select v313 v314 v308
  let c1_i32_217 : BitVec 32 := 1#32
  let v316 : BitVec 32 := Scalar.muli v315 c1_i32_217
  let v317 : BitVec 32 := Scalar.addi c0_i32_218 v316
  v317.toNat
def k0_dev22 (d0 : Dev nD) : Nat :=
  let c0_i32_231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_221 : BitVec 32 := 7#32
  let v324 : BitVec 32 := Scalar.addi v2 c7_i32_221
  let c16_i32_222 : BitVec 32 := 16#32
  let c0_i32_223 : BitVec 32 := 0#32
  let v325 : BitVec 1 := Scalar.cmpi .eq c16_i32_222 c0_i32_223
  let c1_i32_224 : BitVec 32 := 1#32
  let v326 : BitVec 32 := Scalar.select v325 c1_i32_224 c16_i32_222
  let v327 : BitVec 32 := Scalar.remsi v324 v326
  let c0_i32_226 : BitVec 32 := 0#32
  let v329 : BitVec 1 := Scalar.cmpi .slt v327 c0_i32_226
  let c0_i32_227 : BitVec 32 := 0#32
  let v330 : BitVec 1 := Scalar.cmpi .slt v326 c0_i32_227
  let v331 : BitVec 1 := Scalar.xori v329 v330
  let c0_i32_225 : BitVec 32 := 0#32
  let v328 : BitVec 1 := Scalar.cmpi .ne v327 c0_i32_225
  let v332 : BitVec 1 := Scalar.andi v331 v328
  let v333 : BitVec 32 := Scalar.addi v327 v326
  let v334 : BitVec 32 := Scalar.select v332 v333 v327
  let c1_i32_230 : BitVec 32 := 1#32
  let v335 : BitVec 32 := Scalar.muli v334 c1_i32_230
  let v336 : BitVec 32 := Scalar.addi c0_i32_231 v335
  v336.toNat
def k0_dev23 (d0 : Dev nD) : Nat :=
  let c0_i32_244 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_234 : BitVec 32 := 8#32
  let v343 : BitVec 32 := Scalar.addi v2 c8_i32_234
  let c16_i32_235 : BitVec 32 := 16#32
  let c0_i32_236 : BitVec 32 := 0#32
  let v344 : BitVec 1 := Scalar.cmpi .eq c16_i32_235 c0_i32_236
  let c1_i32_237 : BitVec 32 := 1#32
  let v345 : BitVec 32 := Scalar.select v344 c1_i32_237 c16_i32_235
  let v346 : BitVec 32 := Scalar.remsi v343 v345
  let c0_i32_239 : BitVec 32 := 0#32
  let v348 : BitVec 1 := Scalar.cmpi .slt v346 c0_i32_239
  let c0_i32_240 : BitVec 32 := 0#32
  let v349 : BitVec 1 := Scalar.cmpi .slt v345 c0_i32_240
  let v350 : BitVec 1 := Scalar.xori v348 v349
  let c0_i32_238 : BitVec 32 := 0#32
  let v347 : BitVec 1 := Scalar.cmpi .ne v346 c0_i32_238
  let v351 : BitVec 1 := Scalar.andi v350 v347
  let v352 : BitVec 32 := Scalar.addi v346 v345
  let v353 : BitVec 32 := Scalar.select v351 v352 v346
  let c1_i32_243 : BitVec 32 := 1#32
  let v354 : BitVec 32 := Scalar.muli v353 c1_i32_243
  let v355 : BitVec 32 := Scalar.addi c0_i32_244 v354
  v355.toNat
def k0_dev24 (d0 : Dev nD) : Nat :=
  let c0_i32_257 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_247 : BitVec 32 := 9#32
  let v362 : BitVec 32 := Scalar.addi v2 c9_i32_247
  let c16_i32_248 : BitVec 32 := 16#32
  let c0_i32_249 : BitVec 32 := 0#32
  let v363 : BitVec 1 := Scalar.cmpi .eq c16_i32_248 c0_i32_249
  let c1_i32_250 : BitVec 32 := 1#32
  let v364 : BitVec 32 := Scalar.select v363 c1_i32_250 c16_i32_248
  let v365 : BitVec 32 := Scalar.remsi v362 v364
  let c0_i32_252 : BitVec 32 := 0#32
  let v367 : BitVec 1 := Scalar.cmpi .slt v365 c0_i32_252
  let c0_i32_253 : BitVec 32 := 0#32
  let v368 : BitVec 1 := Scalar.cmpi .slt v364 c0_i32_253
  let v369 : BitVec 1 := Scalar.xori v367 v368
  let c0_i32_251 : BitVec 32 := 0#32
  let v366 : BitVec 1 := Scalar.cmpi .ne v365 c0_i32_251
  let v370 : BitVec 1 := Scalar.andi v369 v366
  let v371 : BitVec 32 := Scalar.addi v365 v364
  let v372 : BitVec 32 := Scalar.select v370 v371 v365
  let c1_i32_256 : BitVec 32 := 1#32
  let v373 : BitVec 32 := Scalar.muli v372 c1_i32_256
  let v374 : BitVec 32 := Scalar.addi c0_i32_257 v373
  v374.toNat
def k0_dev25 (d0 : Dev nD) : Nat :=
  let c0_i32_270 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_260 : BitVec 32 := 10#32
  let v381 : BitVec 32 := Scalar.addi v2 c10_i32_260
  let c16_i32_261 : BitVec 32 := 16#32
  let c0_i32_262 : BitVec 32 := 0#32
  let v382 : BitVec 1 := Scalar.cmpi .eq c16_i32_261 c0_i32_262
  let c1_i32_263 : BitVec 32 := 1#32
  let v383 : BitVec 32 := Scalar.select v382 c1_i32_263 c16_i32_261
  let v384 : BitVec 32 := Scalar.remsi v381 v383
  let c0_i32_265 : BitVec 32 := 0#32
  let v386 : BitVec 1 := Scalar.cmpi .slt v384 c0_i32_265
  let c0_i32_266 : BitVec 32 := 0#32
  let v387 : BitVec 1 := Scalar.cmpi .slt v383 c0_i32_266
  let v388 : BitVec 1 := Scalar.xori v386 v387
  let c0_i32_264 : BitVec 32 := 0#32
  let v385 : BitVec 1 := Scalar.cmpi .ne v384 c0_i32_264
  let v389 : BitVec 1 := Scalar.andi v388 v385
  let v390 : BitVec 32 := Scalar.addi v384 v383
  let v391 : BitVec 32 := Scalar.select v389 v390 v384
  let c1_i32_269 : BitVec 32 := 1#32
  let v392 : BitVec 32 := Scalar.muli v391 c1_i32_269
  let v393 : BitVec 32 := Scalar.addi c0_i32_270 v392
  v393.toNat
def k0_dev26 (d0 : Dev nD) : Nat :=
  let c0_i32_283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_273 : BitVec 32 := 11#32
  let v400 : BitVec 32 := Scalar.addi v2 c11_i32_273
  let c16_i32_274 : BitVec 32 := 16#32
  let c0_i32_275 : BitVec 32 := 0#32
  let v401 : BitVec 1 := Scalar.cmpi .eq c16_i32_274 c0_i32_275
  let c1_i32_276 : BitVec 32 := 1#32
  let v402 : BitVec 32 := Scalar.select v401 c1_i32_276 c16_i32_274
  let v403 : BitVec 32 := Scalar.remsi v400 v402
  let c0_i32_278 : BitVec 32 := 0#32
  let v405 : BitVec 1 := Scalar.cmpi .slt v403 c0_i32_278
  let c0_i32_279 : BitVec 32 := 0#32
  let v406 : BitVec 1 := Scalar.cmpi .slt v402 c0_i32_279
  let v407 : BitVec 1 := Scalar.xori v405 v406
  let c0_i32_277 : BitVec 32 := 0#32
  let v404 : BitVec 1 := Scalar.cmpi .ne v403 c0_i32_277
  let v408 : BitVec 1 := Scalar.andi v407 v404
  let v409 : BitVec 32 := Scalar.addi v403 v402
  let v410 : BitVec 32 := Scalar.select v408 v409 v403
  let c1_i32_282 : BitVec 32 := 1#32
  let v411 : BitVec 32 := Scalar.muli v410 c1_i32_282
  let v412 : BitVec 32 := Scalar.addi c0_i32_283 v411
  v412.toNat
def k0_dev27 (d0 : Dev nD) : Nat :=
  let c0_i32_296 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_286 : BitVec 32 := 12#32
  let v419 : BitVec 32 := Scalar.addi v2 c12_i32_286
  let c16_i32_287 : BitVec 32 := 16#32
  let c0_i32_288 : BitVec 32 := 0#32
  let v420 : BitVec 1 := Scalar.cmpi .eq c16_i32_287 c0_i32_288
  let c1_i32_289 : BitVec 32 := 1#32
  let v421 : BitVec 32 := Scalar.select v420 c1_i32_289 c16_i32_287
  let v422 : BitVec 32 := Scalar.remsi v419 v421
  let c0_i32_291 : BitVec 32 := 0#32
  let v424 : BitVec 1 := Scalar.cmpi .slt v422 c0_i32_291
  let c0_i32_292 : BitVec 32 := 0#32
  let v425 : BitVec 1 := Scalar.cmpi .slt v421 c0_i32_292
  let v426 : BitVec 1 := Scalar.xori v424 v425
  let c0_i32_290 : BitVec 32 := 0#32
  let v423 : BitVec 1 := Scalar.cmpi .ne v422 c0_i32_290
  let v427 : BitVec 1 := Scalar.andi v426 v423
  let v428 : BitVec 32 := Scalar.addi v422 v421
  let v429 : BitVec 32 := Scalar.select v427 v428 v422
  let c1_i32_295 : BitVec 32 := 1#32
  let v430 : BitVec 32 := Scalar.muli v429 c1_i32_295
  let v431 : BitVec 32 := Scalar.addi c0_i32_296 v430
  v431.toNat
def k0_dev28 (d0 : Dev nD) : Nat :=
  let c0_i32_309 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_299 : BitVec 32 := 13#32
  let v438 : BitVec 32 := Scalar.addi v2 c13_i32_299
  let c16_i32_300 : BitVec 32 := 16#32
  let c0_i32_301 : BitVec 32 := 0#32
  let v439 : BitVec 1 := Scalar.cmpi .eq c16_i32_300 c0_i32_301
  let c1_i32_302 : BitVec 32 := 1#32
  let v440 : BitVec 32 := Scalar.select v439 c1_i32_302 c16_i32_300
  let v441 : BitVec 32 := Scalar.remsi v438 v440
  let c0_i32_304 : BitVec 32 := 0#32
  let v443 : BitVec 1 := Scalar.cmpi .slt v441 c0_i32_304
  let c0_i32_305 : BitVec 32 := 0#32
  let v444 : BitVec 1 := Scalar.cmpi .slt v440 c0_i32_305
  let v445 : BitVec 1 := Scalar.xori v443 v444
  let c0_i32_303 : BitVec 32 := 0#32
  let v442 : BitVec 1 := Scalar.cmpi .ne v441 c0_i32_303
  let v446 : BitVec 1 := Scalar.andi v445 v442
  let v447 : BitVec 32 := Scalar.addi v441 v440
  let v448 : BitVec 32 := Scalar.select v446 v447 v441
  let c1_i32_308 : BitVec 32 := 1#32
  let v449 : BitVec 32 := Scalar.muli v448 c1_i32_308
  let v450 : BitVec 32 := Scalar.addi c0_i32_309 v449
  v450.toNat
def k0_dev29 (d0 : Dev nD) : Nat :=
  let c0_i32_322 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_312 : BitVec 32 := 14#32
  let v457 : BitVec 32 := Scalar.addi v2 c14_i32_312
  let c16_i32_313 : BitVec 32 := 16#32
  let c0_i32_314 : BitVec 32 := 0#32
  let v458 : BitVec 1 := Scalar.cmpi .eq c16_i32_313 c0_i32_314
  let c1_i32_315 : BitVec 32 := 1#32
  let v459 : BitVec 32 := Scalar.select v458 c1_i32_315 c16_i32_313
  let v460 : BitVec 32 := Scalar.remsi v457 v459
  let c0_i32_317 : BitVec 32 := 0#32
  let v462 : BitVec 1 := Scalar.cmpi .slt v460 c0_i32_317
  let c0_i32_318 : BitVec 32 := 0#32
  let v463 : BitVec 1 := Scalar.cmpi .slt v459 c0_i32_318
  let v464 : BitVec 1 := Scalar.xori v462 v463
  let c0_i32_316 : BitVec 32 := 0#32
  let v461 : BitVec 1 := Scalar.cmpi .ne v460 c0_i32_316
  let v465 : BitVec 1 := Scalar.andi v464 v461
  let v466 : BitVec 32 := Scalar.addi v460 v459
  let v467 : BitVec 32 := Scalar.select v465 v466 v460
  let c1_i32_321 : BitVec 32 := 1#32
  let v468 : BitVec 32 := Scalar.muli v467 c1_i32_321
  let v469 : BitVec 32 := Scalar.addi c0_i32_322 v468
  v469.toNat
def k0_dev30 (d0 : Dev nD) : Nat :=
  let c0_i32_335 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_325 : BitVec 32 := 15#32
  let v476 : BitVec 32 := Scalar.addi v2 c15_i32_325
  let c16_i32_326 : BitVec 32 := 16#32
  let c0_i32_327 : BitVec 32 := 0#32
  let v477 : BitVec 1 := Scalar.cmpi .eq c16_i32_326 c0_i32_327
  let c1_i32_328 : BitVec 32 := 1#32
  let v478 : BitVec 32 := Scalar.select v477 c1_i32_328 c16_i32_326
  let v479 : BitVec 32 := Scalar.remsi v476 v478
  let c0_i32_330 : BitVec 32 := 0#32
  let v481 : BitVec 1 := Scalar.cmpi .slt v479 c0_i32_330
  let c0_i32_331 : BitVec 32 := 0#32
  let v482 : BitVec 1 := Scalar.cmpi .slt v478 c0_i32_331
  let v483 : BitVec 1 := Scalar.xori v481 v482
  let c0_i32_329 : BitVec 32 := 0#32
  let v480 : BitVec 1 := Scalar.cmpi .ne v479 c0_i32_329
  let v484 : BitVec 1 := Scalar.andi v483 v480
  let v485 : BitVec 32 := Scalar.addi v479 v478
  let v486 : BitVec 32 := Scalar.select v484 v485 v479
  let c1_i32_334 : BitVec 32 := 1#32
  let v487 : BitVec 32 := Scalar.muli v486 c1_i32_334
  let v488 : BitVec 32 := Scalar.addi c0_i32_335 v487
  v488.toNat
def k0_off2 (d0 : Dev nD) (c1_i32_338 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v495 : BitVec 32 := Scalar.subi v2 c1_i32_338
  let c16_i32_339 : BitVec 32 := 16#32
  let c0_i32_340 : BitVec 32 := 0#32
  let v496 : BitVec 1 := Scalar.cmpi .eq c16_i32_339 c0_i32_340
  let c1_i32_341 : BitVec 32 := 1#32
  let v497 : BitVec 32 := Scalar.select v496 c1_i32_341 c16_i32_339
  let v498 : BitVec 32 := Scalar.remsi v495 v497
  let c0_i32_343 : BitVec 32 := 0#32
  let v500 : BitVec 1 := Scalar.cmpi .slt v498 c0_i32_343
  let c0_i32_344 : BitVec 32 := 0#32
  let v501 : BitVec 1 := Scalar.cmpi .slt v497 c0_i32_344
  let v502 : BitVec 1 := Scalar.xori v500 v501
  let c0_i32_342 : BitVec 32 := 0#32
  let v499 : BitVec 1 := Scalar.cmpi .ne v498 c0_i32_342
  let v503 : BitVec 1 := Scalar.andi v502 v499
  let v504 : BitVec 32 := Scalar.addi v498 v497
  let v505 : BitVec 32 := Scalar.select v503 v504 v498
  let c0_i32_349 : BitVec 32 := 0#32
  let c0_i32_350 : BitVec 32 := 0#32
  ![v505.toNat, 0, 0]
abbrev stage0_0 : Fin 1 → Memref sig .tc .vmem S512x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  inb_S16x1x256_S16x1x256_0_0_0 : ∀ a, (![0, 0, 0] : Fin 3 → Nat) a + S16x1x256.size a ≤ S16x1x256.size a
  h_S16x1x256 : 0 < S16x1x256.numel
  shapeCasts_S16x1x256_S16x1x256 : S16x1x256.ShapeCasts S16x1x256
  hamt_1 : (1#32 : BitVec 32).msb = false
  inb_S512x256_S512x256_0_0 : ∀ a, (![0, 0] : Fin 2 → Nat) a + S512x256.size a ≤ S512x256.size a
  h_S512x256 : 0 < S512x256.numel
  shapeCasts_S512x256_S512x256 : S512x256.ShapeCasts S512x256
  reduces_S512x256_S256 : S512x256.Reduces [0] S256
  shapeCasts_S256_S1x256 : S256.ShapeCasts S1x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  hamt_15 : (15#32 : BitVec 32).msb = false
  inb_S16_S1_1 : ∀ a, (![1] : Fin 1 → Nat) a + S1.size a ≤ S16.size a
  squeezes_S1_S_ : S1.Squeezes S_
  squeezes_S1x1x256_S1x256 : S1x1x256.Squeezes S1x256
  inb_S16_S1_2 : ∀ a, (![2] : Fin 1 → Nat) a + S1.size a ≤ S16.size a
  inb_S16_S1_3 : ∀ a, (![3] : Fin 1 → Nat) a + S1.size a ≤ S16.size a
  inb_S16_S1_4 : ∀ a, (![4] : Fin 1 → Nat) a + S1.size a ≤ S16.size a
  inb_S16_S1_5 : ∀ a, (![5] : Fin 1 → Nat) a + S1.size a ≤ S16.size a
  inb_S16_S1_6 : ∀ a, (![6] : Fin 1 → Nat) a + S1.size a ≤ S16.size a
  inb_S16_S1_7 : ∀ a, (![7] : Fin 1 → Nat) a + S1.size a ≤ S16.size a
  inb_S16_S1_8 : ∀ a, (![8] : Fin 1 → Nat) a + S1.size a ≤ S16.size a
  inb_S16_S1_9 : ∀ a, (![9] : Fin 1 → Nat) a + S1.size a ≤ S16.size a
  inb_S16_S1_10 : ∀ a, (![10] : Fin 1 → Nat) a + S1.size a ≤ S16.size a
  inb_S16_S1_11 : ∀ a, (![11] : Fin 1 → Nat) a + S1.size a ≤ S16.size a
  inb_S16_S1_12 : ∀ a, (![12] : Fin 1 → Nat) a + S1.size a ≤ S16.size a
  inb_S16_S1_13 : ∀ a, (![13] : Fin 1 → Nat) a + S1.size a ≤ S16.size a
  inb_S16_S1_14 : ∀ a, (![14] : Fin 1 → Nat) a + S1.size a ≤ S16.size a
  inb_S16_S1_15 : ∀ a, (![15] : Fin 1 → Nat) a + S1.size a ≤ S16.size a
  shapeCasts_S16x1x256_S16x256 : S16x1x256.ShapeCasts S16x256
  reduces_S16x256_S256 : S16x256.Reduces [0] S256
  hcc0_scratch2 : 2 + S16.numel ≤ 34
  hcc0_scratch3 : 18 + S16.numel ≤ 34
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off1_inb : ∀ d0 : Dev nD, ∀ a, (k0_off1 d0) a + S1x1x256.size a ≤ S16x1x256.size a
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off2_inb : ∀ d0 : Dev nD, ∀ (r : Fin 15), ∀ a, (k0_off2 d0 (BitVec.ofNat 32 (1 + r.val))) a + S1x1x256.size a ≤ S16x1x256.size a
  hstage0_0 : ∀ j, (stage0_0 j).IsWhole
  hstage0_1 : ∀ j, (stage0_1 j).IsWhole

variable [Facts₀]

abbrev cc0_scratch2 : DmaSems sig S16 := SemArray.consecutive 2 S16 hcc0_scratch2
abbrev cc0_scratch3 : DmaSems sig S16 := SemArray.consecutive 18 S16 hcc0_scratch3

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S256 : Shape := ⟨1, ![256]⟩
abbrev S1x256 : Shape := ⟨2, ![1, 256]⟩

abbrev nBuf : Space → Nat
  | .hbm => 4
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S_, .f32⟩
  | .hbm, ⟨2, _⟩ => ⟨S256, .f32⟩
  | .hbm, ⟨3, _⟩ => ⟨S1x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  reducesTo_S8192x256_S256_d0 : S8192x256.ReducesTo [0] S256
  h_S_ : 0 < S_.numel
  bcast_S256_S1x256_1 : S256.BroadcastsInDim S1x256 (![1] : Fin 1 → Fin S1x256.rank)

variable [Facts₀]

class Facts : Prop extends Facts₀ where

variable [Facts]
-- ==== Proof.Spec.lean ====
/-
  What one device computes, as a pure function of every device's block of the input.
  Each device reduces its own 512 rows to their column maxima, sends that row to every other device, and
  takes the maximum of its own row and the fifteen it receives; the slot of its gather buffer that belongs
  to itself is never written after its initialisation to minus infinity, the neutral element of the maximum.
  The definitions are over the payload terms of the kernel's skeleton, for any float instance.
-/
import proofs.«900923_g7700000000000924_dist_max_ax0_shard0_i_m512_n256_v7x_i16_f32_1_alg».proof.Proof.Gen.KernelIdeal.Skeleton
import Idealize.ShloMosaic.Lib.ValueIdx

noncomputable section

namespace Cert.KernelIdeal.Spec

open Idealize.ShloMosaic Idealize.ShloMosaic.ValueIdx Cert.KernelIdeal Cert.KernelIdeal.Gen

variable {F : FTy → Type} [FloatOps F]

/-- The column maxima of one device's block, as the kernel stores them in its send buffer. -/
def colMax (x : Vec F S512x256 .f32) : Vec F S1x256 .f32 := k0_pay3 x

/-- The device a row of the gather buffer belongs to. -/
def rowDev (i : S16x1x256.Idx) : Dev nD := ⟨(i 0).val, (i 0).isLt⟩

/-- The column a gather-buffer index names, as an index of one row. -/
def rowIdx (i : S16x1x256.Idx) : S1x256.Idx := ix2 (n0 := 1) (n1 := 256) (i 1) (i 2)

/-- What device `c`'s gather buffer holds once every peer's row has landed: row `r` is device `r`'s column
    maxima, and the device's own row the minus infinity it was initialised to. -/
def gathered (X : Dev nD → Vec F S512x256 .f32) (c : Dev nD) : Vec F S16x1x256 .f32 :=
  fun i => if rowDev i = c then (k0_pay1 (F := F)) i else colMax (X (rowDev i)) (rowIdx i)

/-- Device `c`'s result: the maximum of its own column maxima and the column maxima over its gather buffer. -/
def result (X : Dev nD → Vec F S512x256 .f32) (c : Dev nD) : Vec F S1x256 .f32 :=
  k0_pay4 (k0_pay2 (X c)) (gathered X c)

end Cert.KernelIdeal.Spec

end
-- ==== Proof.Protocol.lean ====
/-
  The devices' protocol, stated once for every float instance.
  Sixteen devices. Device `c` initialises its gather buffer to minus infinity, tells each of its fifteen peers
  (`peer c j`, the device `j + 1` places further round the mesh) through that peer's barrier semaphore that
  the row of `c`'s gather buffer reserved for the peer may be written, reduces its block to its column maxima,
  waits for the fifteen peers' words, copies its column maxima into its own row of every peer's gather buffer
  (send semaphore `j + 1` here, receive semaphore `j + 1` there), waits for the fifteen rows addressed to it
  (receive semaphore `j + 1`: the row of `src c j`, the device `j + 1` places back), takes the maximum, and
  waits for its own fifteen copies to have been read out.
  Under the rounds discipline every cell has one round. A barrier cell has fifteen duties of one unit, duty
  `j` paid by `src c j` and handing `c` that device's row `c`, still at its initial contents; a receive cell
  one duty, handing the landed row at its final contents; a send cell one duty, handing back the share of the
  send buffer lent to the copy.
-/
import proofs.«900923_g7700000000000924_dist_max_ax0_shard0_i_m512_n256_v7x_i16_f32_1_alg».proof.Proof.Spec
import proofs.«900923_g7700000000000924_dist_max_ax0_shard0_i_m512_n256_v7x_i16_f32_1_alg».proof.Proof.Gen.KernelIdeal
import proofs.«900923_g7700000000000924_dist_max_ax0_shard0_i_m512_n256_v7x_i16_f32_1_alg».proof.Proof.Gen.KernelIdeal.Skeleton
import proofs.«900923_g7700000000000924_dist_max_ax0_shard0_i_m512_n256_v7x_i16_f32_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

/-! ## The resource algebra: the pipeline library's copy and the protocol's, duties named by `Fin 15` -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The mesh -/

/-- The device `j + 1` places after `c`: the target of `c`'s copy number `j`. -/
def peer (c : Dev nD) (j : Fin 15) : Dev nD := ⟨(c.val + j.val + 1) % 16, Nat.mod_lt _ (by decide)⟩
/-- The device `j + 1` places before `c`: the source of the copy `c` receives on cell `j`. -/
def src (c : Dev nD) (j : Fin 15) : Dev nD := ⟨(c.val + 15 - j.val) % 16, Nat.mod_lt _ (by decide)⟩

/-! ## The memrefs and the cells -/

/- The four buffers the body is called with, as whole-buffer memrefs: each is `Memref.whole` of its buffer, so its view
   is the buffer taken whole. -/
def xM : Memref sig .tc .vmem S512x256 .f32 := Memref.whole cc0_stg0_0
def oM : Memref sig .tc .vmem S1x256 .f32 := Memref.whole cc0_stg1_0
def ownM : Memref sig .tc .vmem S1x256 .f32 := Memref.whole cc0_scratch0
def commM : Memref sig .tc .vmem S16x1x256 .f32 := Memref.whole cc0_scratch1
theorem xM_whole : xM.IsWhole := Memref.isWhole_whole _
theorem oM_whole : oM.IsWhole := Memref.isWhole_whole _
theorem ownM_whole : ownM.IsWhole := Memref.isWhole_whole _
theorem commM_whole : commM.IsWhole := Memref.isWhole_whole _
/-- Row `i` of the gather buffer, as the kernel addresses it: the one-row slice at offsets (i, 0, 0), squeezed to one row. -/
abbrev rowM (i : Dev nD) : Memref sig .tc .vmem S1x256 .f32 :=
  ((commM.slice (Rect.unit (s := S16x1x256) (k0_off1 i) S1x1x256.size (k0_off1_inb i)) (fun _ => rfl)).squeeze S1x256 squeezes_S1x1x256_S1x256)

abbrev barS : Sem sig := (SemArray.scalar (sig.barrier 0 rfl) : Sems sig S_).sem
/-- Send semaphore `j + 1` of the sixteen (the first is never used). -/
def sendS (j : Fin 15) : DmaSem sig := ⟨3 + j.val, by have := j.isLt; show 3 + j.val < 34; omega⟩
/-- Receive semaphore `j + 1` of the sixteen (the first is never used). -/
def recvS (j : Fin 15) : DmaSem sig := ⟨19 + j.val, by have := j.isLt; show 19 + j.val < 34; omega⟩
/-- The two scratch semaphores no copy names. -/
abbrev idleS₀ : DmaSem sig := ⟨2, by decide⟩
abbrev idleS₁ : DmaSem sig := ⟨18, by decide⟩

abbrev barCell (c : Dev nD) : GSem nD τ sig := ((c : Thread nD τ), .reg barS)
abbrev sendCell (c : Dev nD) (j : Fin 15) : GSem nD τ sig := ((c : Thread nD τ), .dma (sendS j))
abbrev recvCell (c : Dev nD) (j : Fin 15) : GSem nD τ sig := ((c : Thread nD τ), .dma (recvS j))

/-- The kernel's own (scoped) semaphores as the launch theorem indexes them: the thirty-two scratch ones. -/
abbrev osem : Fin 32 → SemLoc sig := fun k => .dma ⟨2 + k.val, by have := k.isLt; show 2 + k.val < 34; omega⟩

/-- The protocol's cells of one device: the barrier, the fifteen send cells, the fifteen receive cells. -/
def csem (k : Fin 31) : SemLoc sig :=
  if h0 : k.val = 0 then .reg barS
  else if h1 : k.val ≤ 15 then .dma (sendS ⟨k.val - 1, by omega⟩)
  else .dma (recvS ⟨k.val - 16, by have := k.isLt; omega⟩)
abbrev kcell (ck : Dev nD × Fin 31) : GSem nD τ sig := ((ck.1 : Thread nD τ), csem ck.2)
abbrev kb : Fin 31 := 0
abbrev ks (j : Fin 15) : Fin 31 := ⟨1 + j.val, by have := j.isLt; omega⟩
abbrev kr (j : Fin 15) : Fin 31 := ⟨16 + j.val, by have := j.isLt; omega⟩

/-- One row's credit. -/
abbrev N : ℕ := (Memref.whole cc0_scratch0 : Memref sig .tc .vmem S1x256 .f32).view.dmaCredit
theorem N_pos : 0 < N := View.dmaCredit_pos _ (by decide)

/-! ## Contents -/

/-- Device `c`'s block of the input, as its staging buffer holds it. -/
def xstg (c : Dev nD) : (cc0_stg0_0 : Ref sig .tc).ty.Contents (Elt F) :=
  (win0_0.blk (0 : Fin 1)).view.read (Elt F) (m ((c : Thread nD τ).loc main_arg0))
/-- The send buffer once written: the block's column maxima. -/
def ownC (c : Dev nD) : (cc0_scratch0 : Ref sig .tc).ty.Contents (Elt F) := Spec.colMax (xstg m c)
/-- The gather buffer as initialised. -/
def initC : (cc0_scratch1 : Ref sig .tc).ty.Contents (Elt F) := k0_pay1 (F := F)
/-- The gather buffer once every row has landed. -/
def gathC (c : Dev nD) : (cc0_scratch1 : Ref sig .tc).ty.Contents (Elt F) := Spec.gathered (xstg m) c
/-- The result. -/
def outC (c : Dev nD) : (cc0_stg1_0 : Ref sig .tc).ty.Contents (Elt F) := Spec.result (xstg m) c

/-- The send buffer of device `c` held at share `q`. -/
def ownPts (c : Dev nD) (q : PosShare TreeShare) (f : Buf (Elt F) ((ownM : Memref sig .tc .vmem S1x256 .f32).view.loc (c : Thread nD τ))) : sProp 𝕄 :=
  (ownM : Memref sig .tc .vmem S1x256 .f32).view.loc (c : Thread nD τ) ↦[(ownM : Memref sig .tc .vmem S1x256 .f32).view.set]{q} f
/-- Row `r` of device `d`'s gather buffer. -/
def rowPts (d r : Dev nD) (f : Buf (Elt F) ((rowM r).view.loc (d : Thread nD τ))) : sProp 𝕄 :=
  (rowM r).view.loc (d : Thread nD τ) ↦[(rowM r).view.set]{fullShare} f

omit [FloatOps F] in
instance ownPts_storable (c : Dev nD) (q) (f) : BI.Storable (upEmb : UEmb _ 𝕄) (ownPts (F := F) c q f) := by unfold ownPts; infer_instance
omit [FloatOps F] in
instance rowPts_storable (d r : Dev nD) (f) : BI.Storable (upEmb : UEmb _ 𝕄) (rowPts (F := F) d r f) := by unfold rowPts; infer_instance

/-! ## The schedule -/

/-- Which copy a DMA semaphore serves: `(false, j)` for send semaphore `j + 1`, `(true, j)` for receive semaphore `j + 1`. -/
def xferIdx : SemLoc sig → Option (Bool × Fin 15)
  | .dma q => if h : 3 ≤ q.val ∧ q.val < 18 then some (false, ⟨q.val - 3, by omega⟩)
      else if h' : 19 ≤ q.val ∧ q.val < 34 then some (true, ⟨q.val - 19, by omega⟩) else none
  | _ => none

abbrev IsBar (g : GSem nD τ sig) : Prop := g.1.2 = .tc ∧ g.2 = .reg barS
abbrev IsXfer (g : GSem nD τ sig) : Prop := g.1.2 = .tc ∧ (xferIdx g.2).isSome

/-- One round. A barrier cell: fifteen duties of one unit, duty `j` handing over row `c` of `src c j`'s gather
    buffer at its initial contents. A send cell: one duty of a row's credit, handing back the lent share of the
    send buffer. A receive cell: one duty of a row's credit, handing over the landed row. -/
def Rd : Rounds.Schedule (GSem nD τ sig) (Fin 15) 𝕄 where
  duties g r := if r = 0 ∧ IsBar g then Finset.univ else if r = 0 ∧ IsXfer g then {0} else ∅
  unitless _ := False
  amount g _ _ := if g.2 = .reg barS then 1 else N
  payload g _ d :=
    if g.2 = .reg barS then rowPts (src g.1.1 d) g.1.1 initC
    else match xferIdx g.2 with
      | some (false, j) => ownPts g.1.1 (shareTok fullShare 15 j) (ownC m g.1.1)
      | some (true, j) => rowPts g.1.1 (src g.1.1 j) (gathC m g.1.1)
      | none => iprop(emp)
  amount_pos g _ _ _ := by
    by_cases h : g.2 = .reg barS
    · rw [if_pos h]; exact Nat.one_pos
    · rw [if_neg h]; exact N_pos

instance Rd_payload_storable (g : GSem nD τ sig) (r : ℕ) (d : Fin 15) :
    BI.Storable (upEmb : UEmb _ 𝕄) ((Rd (F := F) m).payload g r d) := by
  show BI.Storable upEmb (if g.2 = .reg barS then rowPts (src g.1.1 d) g.1.1 initC
    else match xferIdx g.2 with
      | some (false, j) => ownPts g.1.1 (shareTok fullShare 15 j) (ownC m g.1.1)
      | some (true, j) => rowPts g.1.1 (src g.1.1 j) (gathC m g.1.1)
      | none => iprop(emp))
  split
  · exact rowPts_storable _ _ _
  · split
    · exact ownPts_storable _ _ _
    · exact rowPts_storable _ _ _
    · infer_instance

/-! ## What each device owes at launch; the levels -/

abbrev rT (c : Dev nD) (j : Fin 15) : CellTallies nD τ sig Unit := tallyAt (recvCell (peer c j) j) () N
abbrev bT (c : Dev nD) (j : Fin 15) : CellTallies nD τ sig Unit := tallyAt (barCell (peer c j)) () 1

/-- What is left to pay once the barrier signals are out: the fifteen rows' credit. -/
def OR (c : Dev nD) : CellTallies nD τ sig Unit := rT c 14 + rT c 13 + rT c 12 + rT c 11 + rT c 10 + rT c 9 + rT c 8 + rT c 7 + rT c 6 + rT c 5 + rT c 4 + rT c 3 + rT c 2 + rT c 1 + rT c 0
/-- At launch: those, and one unit to each peer's barrier cell; the summands stand in the reverse of the order in
    which the program pays them. -/
def O₀ (c : Dev nD) : CellTallies nD τ sig Unit := rT c 14 + rT c 13 + rT c 12 + rT c 11 + rT c 10 + rT c 9 + rT c 8 + rT c 7 + rT c 6 + rT c 5 + rT c 4 + rT c 3 + rT c 2 + rT c 1 + rT c 0 + bT c 14 + bT c 13 + bT c 12 + bT c 11 + bT c 10 + bT c 9 + bT c 8 + bT c 7 + bT c 6 + bT c 5 + bT c 4 + bT c 3 + bT c 2 + bT c 1 + bT c 0

def L (g : GSem nD τ sig) : Finset Unit := if g.1.2 = .tc then {()} else ∅
/-- Barrier cells at 1, receive cells at 2, everything else (staging, send, idle) at 0. -/
def lv (g : GSem nD τ sig) (_ : Unit) : ℕ :=
  if g.2 = .reg barS then 1 else match xferIdx g.2 with | some (true, _) => 2 | _ => 0

/-! ## The ghost state and the pipeline's proof data -/

/-- Every cell's invariant at the names the launch allocated, and that every cell's round 0 is reached. -/
def records (K : Dev nD × Fin 31 → ℕ) : sProp 𝕄 :=
  iprop((bigSep Finset.univ fun ck : Dev nD × Fin 31 => cellInv ER (Rd m) (K ck) (kcell ck))
    ∗ bigSep Finset.univ fun ck : Dev nD × Fin 31 => reached ER (kcell ck) 0)

instance records_persistent (K : Dev nD × Fin 31 → ℕ) : BI.Persistent (records m K) := by unfold records; infer_instance

/-- The tokens of the duties device `c` pays: duty `j` of `peer c j`'s barrier cell, the duty of `peer c j`'s receive
    cell `j`, the duty of its own send cell `j`. -/
def payToks (c : Dev nD) : sProp 𝕄 :=
  iprop((bigSep Finset.univ fun j : Fin 15 => dutyTok ER (barCell (peer c j)) 0 j)
    ∗ (bigSep Finset.univ fun j : Fin 15 => dutyTok ER (recvCell (peer c j) j) 0 0)
    ∗ (bigSep Finset.univ fun j : Fin 15 => dutyTok ER (sendCell c j) 0 0))
/-- Its positions on its own thirty-one cells. -/
def positions (c : Dev nD) : sProp 𝕄 := bigSep Finset.univ fun k : Fin 31 => atPos ER (kcell (c, k)) 0 ∅ 0

def ghost (K : Dev nD × Fin 31 → ℕ) (c : Dev nD) : sProp 𝕄 := iprop(records m K ∗ positions c ∗ payToks c)

/-- What device `c`'s body starts from beside its buffers: the ghost state at some names, its credit on its
    barrier cell and on its fifteen receive cells, the two idle semaphores at zero, the level facts. -/
def start (c : Dev nD) : sProp 𝕄 :=
  iprop((∃ K, ghost m K c) ∗ cred (tallyAt (barCell c) () 15)
    ∗ (bigSep Finset.univ fun j : Fin 15 => cred (tallyAt (recvCell c j) () N))
    ∗ (semVal ((c : Thread nD τ), .dma idleS₀) 0 ∗ semVal ((c : Thread nD τ), .dma idleS₁) 0) ∗ levAts L lv)

def Φ₀ (c : Dev nD) : sProp 𝕄 :=
  iprop(start m c ∗ (∃ f, ((c : Thread nD τ).loc cc0_scratch0) ↦{fullShare} f) ∗ (∃ f, ((c : Thread nD τ).loc cc0_scratch1) ↦{fullShare} f))
/-- After the body: both scratch buffers at their final contents, the thirty own cells closed at zero, the idle two untouched. -/
def Φ₁ (c : Dev nD) : sProp 𝕄 :=
  iprop((((c : Thread nD τ).loc cc0_scratch0) ↦{fullShare} ownC m c) ∗ (((c : Thread nD τ).loc cc0_scratch1) ↦{fullShare} gathC m c)
    ∗ (bigSep Finset.univ fun j : Fin 15 => semVal (sendCell c j) 0)
    ∗ (bigSep Finset.univ fun j : Fin 15 => semVal (recvCell c j) 0)
    ∗ (semVal ((c : Thread nD τ), .dma idleS₀) 0 ∗ semVal ((c : Thread nD τ), .dma idleS₁) 0))

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.KernelIdeal.Proto

end
-- ==== Proof.Mesh.lean ====
/-
  Arithmetic on the mesh of sixteen devices, and the names of its cells.
  `peer c j` is the device `j + 1` places after `c` and `src c j` the device `j + 1` places before it; for a
  fixed `j` the two are inverse permutations of the mesh, and for a fixed device each is injective in `j` and
  never the device itself. The kernel computes the device a signal or a copy addresses, and the row a receive
  wait names, by word arithmetic on its own position: each of those chains is evaluated at the sixteen devices
  and equals the corresponding `peer` or `src`. The thirty semaphores the kernel slices out of its two arrays
  are the send and receive semaphores of the protocol, and the thirty-one cells of a device are distinct.
-/
import proofs.«900923_g7700000000000924_dist_max_ax0_shard0_i_m512_n256_v7x_i16_f32_1_alg».proof.Proof.Protocol

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

/-! ## The two shifts -/

theorem src_peer (c : Dev nD) (j : Fin 15) : src (peer c j) j = c := by revert c j; decide
theorem peer_src (c : Dev nD) (j : Fin 15) : peer (src c j) j = c := by revert c j; decide
theorem peer_ne_self (c : Dev nD) (j : Fin 15) : peer c j ≠ c := by revert c j; decide
theorem src_ne_self (c : Dev nD) (j : Fin 15) : src c j ≠ c := by revert c j; decide
theorem peer_inj (c : Dev nD) {j j' : Fin 15} (h : peer c j = peer c j') : j = j' := by
  revert c j j'; decide +kernel
theorem src_inj (c : Dev nD) {j j' : Fin 15} (h : src c j = src c j') : j = j' := by
  revert c j j'; decide +kernel
theorem peer_eq_iff (c d : Dev nD) (j : Fin 15) : peer c j = d ↔ c = src d j :=
  ⟨fun h => by rw [← h, src_peer], fun h => by rw [h, peer_src]⟩

/-- For each `j` the shift by `j + 1` places permutes the mesh: the pairs (device, `j`) are carried to
    (its `j`-th peer, `j`), and back by `src`. -/
def ring : Dev nD × Fin 15 ≃ Dev nD × Fin 15 where
  toFun p := (peer p.1 p.2, p.2)
  invFun p := (src p.1 p.2, p.2)
  left_inv p := Prod.ext (src_peer p.1 p.2) rfl
  right_inv p := Prod.ext (peer_src p.1 p.2) rfl

/-! ## The kernel's device chains

Signal number `k` and copy number `k` both address the device `k` places after the one that runs them. -/

theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 3 := by revert c; decide +kernel
theorem dev5_eq (c : Dev nD) : (⟨k0_dev5 c, k0_dev5_lt c⟩ : Dev nD) = peer c 4 := by revert c; decide +kernel
theorem dev6_eq (c : Dev nD) : (⟨k0_dev6 c, k0_dev6_lt c⟩ : Dev nD) = peer c 5 := by revert c; decide +kernel
theorem dev7_eq (c : Dev nD) : (⟨k0_dev7 c, k0_dev7_lt c⟩ : Dev nD) = peer c 6 := by revert c; decide +kernel
theorem dev8_eq (c : Dev nD) : (⟨k0_dev8 c, k0_dev8_lt c⟩ : Dev nD) = peer c 7 := by revert c; decide +kernel
theorem dev9_eq (c : Dev nD) : (⟨k0_dev9 c, k0_dev9_lt c⟩ : Dev nD) = peer c 8 := by revert c; decide +kernel
theorem dev10_eq (c : Dev nD) : (⟨k0_dev10 c, k0_dev10_lt c⟩ : Dev nD) = peer c 9 := by revert c; decide +kernel
theorem dev11_eq (c : Dev nD) : (⟨k0_dev11 c, k0_dev11_lt c⟩ : Dev nD) = peer c 10 := by revert c; decide +kernel
theorem dev12_eq (c : Dev nD) : (⟨k0_dev12 c, k0_dev12_lt c⟩ : Dev nD) = peer c 11 := by revert c; decide +kernel
theorem dev13_eq (c : Dev nD) : (⟨k0_dev13 c, k0_dev13_lt c⟩ : Dev nD) = peer c 12 := by revert c; decide +kernel
theorem dev14_eq (c : Dev nD) : (⟨k0_dev14 c, k0_dev14_lt c⟩ : Dev nD) = peer c 13 := by revert c; decide +kernel
theorem dev15_eq (c : Dev nD) : (⟨k0_dev15 c, k0_dev15_lt c⟩ : Dev nD) = peer c 14 := by revert c; decide +kernel
theorem dev16_eq (c : Dev nD) : (⟨k0_dev16 c, k0_dev16_lt c⟩ : Dev nD) = peer c 0 := by revert c; decide +kernel
theorem dev17_eq (c : Dev nD) : (⟨k0_dev17 c, k0_dev17_lt c⟩ : Dev nD) = peer c 1 := by revert c; decide +kernel
theorem dev18_eq (c : Dev nD) : (⟨k0_dev18 c, k0_dev18_lt c⟩ : Dev nD) = peer c 2 := by revert c; decide +kernel
theorem dev19_eq (c : Dev nD) : (⟨k0_dev19 c, k0_dev19_lt c⟩ : Dev nD) = peer c 3 := by revert c; decide +kernel
theorem dev20_eq (c : Dev nD) : (⟨k0_dev20 c, k0_dev20_lt c⟩ : Dev nD) = peer c 4 := by revert c; decide +kernel
theorem dev21_eq (c : Dev nD) : (⟨k0_dev21 c, k0_dev21_lt c⟩ : Dev nD) = peer c 5 := by revert c; decide +kernel
theorem dev22_eq (c : Dev nD) : (⟨k0_dev22 c, k0_dev22_lt c⟩ : Dev nD) = peer c 6 := by revert c; decide +kernel
theorem dev23_eq (c : Dev nD) : (⟨k0_dev23 c, k0_dev23_lt c⟩ : Dev nD) = peer c 7 := by revert c; decide +kernel
theorem dev24_eq (c : Dev nD) : (⟨k0_dev24 c, k0_dev24_lt c⟩ : Dev nD) = peer c 8 := by revert c; decide +kernel
theorem dev25_eq (c : Dev nD) : (⟨k0_dev25 c, k0_dev25_lt c⟩ : Dev nD) = peer c 9 := by revert c; decide +kernel
theorem dev26_eq (c : Dev nD) : (⟨k0_dev26 c, k0_dev26_lt c⟩ : Dev nD) = peer c 10 := by revert c; decide +kernel
theorem dev27_eq (c : Dev nD) : (⟨k0_dev27 c, k0_dev27_lt c⟩ : Dev nD) = peer c 11 := by revert c; decide +kernel
theorem dev28_eq (c : Dev nD) : (⟨k0_dev28 c, k0_dev28_lt c⟩ : Dev nD) = peer c 12 := by revert c; decide +kernel
theorem dev29_eq (c : Dev nD) : (⟨k0_dev29 c, k0_dev29_lt c⟩ : Dev nD) = peer c 13 := by revert c; decide +kernel
theorem dev30_eq (c : Dev nD) : (⟨k0_dev30 c, k0_dev30_lt c⟩ : Dev nD) = peer c 14 := by revert c; decide +kernel

/-- The row a receive wait names is the own row of the device the copy comes from. -/
theorem off2_eq (c : Dev nD) (j : Fin 15) : k0_off2 c (BitVec.ofNat 32 (1 + j.val)) = k0_off1 (src c j) := by
  revert c j; decide +kernel

/-! ## The semaphores the kernel slices out of its two arrays -/

theorem sendSem1_eq : ((cc0_scratch2.slice (Rect.unit (s := S16) ![1] S1.size inb_S16_S1_1)).squeeze S_ squeezes_S1_S_).sem = sendS 0 := by decide +kernel
theorem sendSem2_eq : ((cc0_scratch2.slice (Rect.unit (s := S16) ![2] S1.size inb_S16_S1_2)).squeeze S_ squeezes_S1_S_).sem = sendS 1 := by decide +kernel
theorem sendSem3_eq : ((cc0_scratch2.slice (Rect.unit (s := S16) ![3] S1.size inb_S16_S1_3)).squeeze S_ squeezes_S1_S_).sem = sendS 2 := by decide +kernel
theorem sendSem4_eq : ((cc0_scratch2.slice (Rect.unit (s := S16) ![4] S1.size inb_S16_S1_4)).squeeze S_ squeezes_S1_S_).sem = sendS 3 := by decide +kernel
theorem sendSem5_eq : ((cc0_scratch2.slice (Rect.unit (s := S16) ![5] S1.size inb_S16_S1_5)).squeeze S_ squeezes_S1_S_).sem = sendS 4 := by decide +kernel
theorem sendSem6_eq : ((cc0_scratch2.slice (Rect.unit (s := S16) ![6] S1.size inb_S16_S1_6)).squeeze S_ squeezes_S1_S_).sem = sendS 5 := by decide +kernel
theorem sendSem7_eq : ((cc0_scratch2.slice (Rect.unit (s := S16) ![7] S1.size inb_S16_S1_7)).squeeze S_ squeezes_S1_S_).sem = sendS 6 := by decide +kernel
theorem sendSem8_eq : ((cc0_scratch2.slice (Rect.unit (s := S16) ![8] S1.size inb_S16_S1_8)).squeeze S_ squeezes_S1_S_).sem = sendS 7 := by decide +kernel
theorem sendSem9_eq : ((cc0_scratch2.slice (Rect.unit (s := S16) ![9] S1.size inb_S16_S1_9)).squeeze S_ squeezes_S1_S_).sem = sendS 8 := by decide +kernel
theorem sendSem10_eq : ((cc0_scratch2.slice (Rect.unit (s := S16) ![10] S1.size inb_S16_S1_10)).squeeze S_ squeezes_S1_S_).sem = sendS 9 := by decide +kernel
theorem sendSem11_eq : ((cc0_scratch2.slice (Rect.unit (s := S16) ![11] S1.size inb_S16_S1_11)).squeeze S_ squeezes_S1_S_).sem = sendS 10 := by decide +kernel
theorem sendSem12_eq : ((cc0_scratch2.slice (Rect.unit (s := S16) ![12] S1.size inb_S16_S1_12)).squeeze S_ squeezes_S1_S_).sem = sendS 11 := by decide +kernel
theorem sendSem13_eq : ((cc0_scratch2.slice (Rect.unit (s := S16) ![13] S1.size inb_S16_S1_13)).squeeze S_ squeezes_S1_S_).sem = sendS 12 := by decide +kernel
theorem sendSem14_eq : ((cc0_scratch2.slice (Rect.unit (s := S16) ![14] S1.size inb_S16_S1_14)).squeeze S_ squeezes_S1_S_).sem = sendS 13 := by decide +kernel
theorem sendSem15_eq : ((cc0_scratch2.slice (Rect.unit (s := S16) ![15] S1.size inb_S16_S1_15)).squeeze S_ squeezes_S1_S_).sem = sendS 14 := by decide +kernel
theorem recvSem1_eq : ((cc0_scratch3.slice (Rect.unit (s := S16) ![1] S1.size inb_S16_S1_1)).squeeze S_ squeezes_S1_S_).sem = recvS 0 := by decide +kernel
theorem recvSem2_eq : ((cc0_scratch3.slice (Rect.unit (s := S16) ![2] S1.size inb_S16_S1_2)).squeeze S_ squeezes_S1_S_).sem = recvS 1 := by decide +kernel
theorem recvSem3_eq : ((cc0_scratch3.slice (Rect.unit (s := S16) ![3] S1.size inb_S16_S1_3)).squeeze S_ squeezes_S1_S_).sem = recvS 2 := by decide +kernel
theorem recvSem4_eq : ((cc0_scratch3.slice (Rect.unit (s := S16) ![4] S1.size inb_S16_S1_4)).squeeze S_ squeezes_S1_S_).sem = recvS 3 := by decide +kernel
theorem recvSem5_eq : ((cc0_scratch3.slice (Rect.unit (s := S16) ![5] S1.size inb_S16_S1_5)).squeeze S_ squeezes_S1_S_).sem = recvS 4 := by decide +kernel
theorem recvSem6_eq : ((cc0_scratch3.slice (Rect.unit (s := S16) ![6] S1.size inb_S16_S1_6)).squeeze S_ squeezes_S1_S_).sem = recvS 5 := by decide +kernel
theorem recvSem7_eq : ((cc0_scratch3.slice (Rect.unit (s := S16) ![7] S1.size inb_S16_S1_7)).squeeze S_ squeezes_S1_S_).sem = recvS 6 := by decide +kernel
theorem recvSem8_eq : ((cc0_scratch3.slice (Rect.unit (s := S16) ![8] S1.size inb_S16_S1_8)).squeeze S_ squeezes_S1_S_).sem = recvS 7 := by decide +kernel
theorem recvSem9_eq : ((cc0_scratch3.slice (Rect.unit (s := S16) ![9] S1.size inb_S16_S1_9)).squeeze S_ squeezes_S1_S_).sem = recvS 8 := by decide +kernel
theorem recvSem10_eq : ((cc0_scratch3.slice (Rect.unit (s := S16) ![10] S1.size inb_S16_S1_10)).squeeze S_ squeezes_S1_S_).sem = recvS 9 := by decide +kernel
theorem recvSem11_eq : ((cc0_scratch3.slice (Rect.unit (s := S16) ![11] S1.size inb_S16_S1_11)).squeeze S_ squeezes_S1_S_).sem = recvS 10 := by decide +kernel
theorem recvSem12_eq : ((cc0_scratch3.slice (Rect.unit (s := S16) ![12] S1.size inb_S16_S1_12)).squeeze S_ squeezes_S1_S_).sem = recvS 11 := by decide +kernel
theorem recvSem13_eq : ((cc0_scratch3.slice (Rect.unit (s := S16) ![13] S1.size inb_S16_S1_13)).squeeze S_ squeezes_S1_S_).sem = recvS 12 := by decide +kernel
theorem recvSem14_eq : ((cc0_scratch3.slice (Rect.unit (s := S16) ![14] S1.size inb_S16_S1_14)).squeeze S_ squeezes_S1_S_).sem = recvS 13 := by decide +kernel
theorem recvSem15_eq : ((cc0_scratch3.slice (Rect.unit (s := S16) ![15] S1.size inb_S16_S1_15)).squeeze S_ squeezes_S1_S_).sem = recvS 14 := by decide +kernel

/-! ## The cells -/

theorem csem_kb : csem kb = .reg barS := rfl
theorem csem_ks (j : Fin 15) : csem (ks j) = .dma (sendS j) := by revert j; decide
theorem csem_kr (j : Fin 15) : csem (kr j) = .dma (recvS j) := by revert j; decide
theorem csem_injective : Function.Injective csem := by
  intro a b; revert a b; decide +kernel
theorem kcell_injective : Function.Injective (kcell : Dev nD × Fin 31 → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

theorem xferIdx_send (j : Fin 15) : xferIdx (.dma (sendS j)) = some (false, j) := by revert j; decide
theorem xferIdx_recv (j : Fin 15) : xferIdx (.dma (recvS j)) = some (true, j) := by revert j; decide
theorem xferIdx_bar : xferIdx (.reg barS : SemLoc sig) = none := rfl

/-! ## Big separating conjunctions over fifteen, thirty-one and thirty-two names, written out -/

theorem bigSep_fin15 {M : Type} [URA M] (Φ : Fin 15 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide +kernel) (by decide +kernel) Φ
theorem bigSep_fin31 {M : Type} [URA M] (Φ : Fin 31 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30) :=
  bigSep_univ_eq_bigSepL [0, 1, 2, 3, 4, 5, 6, 7, 8, 9, 10, 11, 12, 13, 14, 15, 16, 17, 18, 19, 20, 21, 22, 23, 24, 25, 26, 27, 28, 29, 30] (by decide +kernel) (by decide +kernel) Φ
theorem bigSep_fin32 {M : Type} [URA M] (Φ : Fin 32 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28, 29, 30, 31] (by decide +kernel) (by decide +kernel) Φ

/-- info: 'Cert.KernelIdeal.Proto.kcell_injective' depends on axioms: [propext, Classical.choice, Quot.sound] -/
#guard_msgs in #print axioms kcell_injective

end Cert.KernelIdeal.Proto

end
-- ==== Proof.Tables.lean ====
/-
  The tables of the one-round schedule: for each of a device's thirty-one cells, the duties of round 0, what
  each contributes and hands over, and that no later round has any; the levels of the cells; where the units a
  device owes at launch, and after its barrier signals, can lie; and that a wait on a cell of level 0, or on
  the barrier cell once only receive credit is owed, sits below everything still owed.
-/
import proofs.«900923_g7700000000000924_dist_max_ax0_shard0_i_m512_n256_v7x_i16_f32_1_alg».proof.Proof.Protocol
import proofs.«900923_g7700000000000924_dist_max_ax0_shard0_i_m512_n256_v7x_i16_f32_1_alg».proof.Proof.Mesh

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

/-! ## The schedule's tables -/

section Sched
variable (m : (ℓ : Loc nD τ sig) → Buf (Elt F) ℓ)

theorem send_ne_bar (j : Fin 15) : (SemLoc.dma (sendS j) : SemLoc sig) ≠ .reg barS := fun h => by cases h
theorem recv_ne_bar (j : Fin 15) : (SemLoc.dma (recvS j) : SemLoc sig) ≠ .reg barS := fun h => by cases h
theorem not_bar_send (c : Dev nD) (j : Fin 15) : ¬ IsBar (sendCell c j) := fun h => send_ne_bar j h.2
theorem not_bar_recv (c : Dev nD) (j : Fin 15) : ¬ IsBar (recvCell c j) := fun h => recv_ne_bar j h.2
theorem xfer_send (c : Dev nD) (j : Fin 15) : IsXfer (sendCell c j) := ⟨rfl, by rw [xferIdx_send]; rfl⟩
theorem xfer_recv (c : Dev nD) (j : Fin 15) : IsXfer (recvCell c j) := ⟨rfl, by rw [xferIdx_recv]; rfl⟩

theorem duties_bar (c : Dev nD) : (Rd (F := F) m).duties (barCell c) 0 = Finset.univ := by
  dsimp only [Rd]; exact if_pos ⟨rfl, rfl, rfl⟩
theorem duties_send (c : Dev nD) (j : Fin 15) : (Rd (F := F) m).duties (sendCell c j) 0 = {0} := by
  dsimp only [Rd]; rw [if_neg (fun h => not_bar_send c j h.2)]; exact if_pos ⟨rfl, xfer_send c j⟩
theorem duties_recv (c : Dev nD) (j : Fin 15) : (Rd (F := F) m).duties (recvCell c j) 0 = {0} := by
  dsimp only [Rd]; rw [if_neg (fun h => not_bar_recv c j h.2)]; exact if_pos ⟨rfl, xfer_recv c j⟩
theorem duties_later (g : GSem nD τ sig) : ∀ r, 1 ≤ r → (Rd (F := F) m).duties g r = ∅ :=
  fun r hr => by dsimp only [Rd]; rw [if_neg fun h => by omega, if_neg fun h => by omega]

theorem amount_bar (c : Dev nD) (d : Fin 15) : (Rd (F := F) m).amount (barCell c) 0 d = 1 := by
  dsimp only [Rd]; exact if_pos rfl
theorem amount_send (c : Dev nD) (j d : Fin 15) : (Rd (F := F) m).amount (sendCell c j) 0 d = N := by
  dsimp only [Rd]; exact if_neg (send_ne_bar j)
theorem amount_recv (c : Dev nD) (j d : Fin 15) : (Rd (F := F) m).amount (recvCell c j) 0 d = N := by
  dsimp only [Rd]; exact if_neg (recv_ne_bar j)

theorem expect_bar (c : Dev nD) : (Rd (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_send (c : Dev nD) (j : Fin 15) : (Rd (F := F) m).expect (sendCell c j) 0 = N := by
  unfold Schedule.expect Schedule.amountOf; rw [duties_send, Finset.sum_singleton, amount_send]
theorem expect_recv (c : Dev nD) (j : Fin 15) : (Rd (F := F) m).expect (recvCell c j) 0 = N := by
  unfold Schedule.expect Schedule.amountOf; rw [duties_recv, Finset.sum_singleton, amount_recv]

theorem payload_bar (c : Dev nD) (d : Fin 15) : (Rd (F := F) m).payload (barCell c) 0 d = rowPts (src c d) c initC := by
  dsimp only [Rd]; rw [if_pos rfl]
theorem payload_send (c : Dev nD) (j d : Fin 15) :
    (Rd (F := F) m).payload (sendCell c j) 0 d = ownPts c (shareTok fullShare 15 j) (ownC m c) := by
  dsimp only [Rd]; rw [if_neg (send_ne_bar j), xferIdx_send]
theorem payload_recv (c : Dev nD) (j d : Fin 15) :
    (Rd (F := F) m).payload (recvCell c j) 0 d = rowPts c (src c j) (gathC m c) := by
  dsimp only [Rd]; rw [if_neg (recv_ne_bar j), xferIdx_recv]

/-- The whole of the barrier cell's round, no duty taken: the fifteen rows of the peers' gather buffers that are
    reserved for this device, each at its initial contents. -/
theorem rest_bar (c : Dev nD) :
    bigSep ((Rd (F := F) m).duties (barCell c) 0 \ ∅) (fun d => (Rd (F := F) m).payload (barCell c) 0 d)
      = bigSep Finset.univ fun d : Fin 15 => rowPts (F := F) (src c d) c initC := by
  rw [Finset.sdiff_empty, duties_bar]
  exact congrArg (bigSep Finset.univ) (funext fun d => payload_bar m c d)
theorem rest_send (c : Dev nD) (j : Fin 15) :
    bigSep ((Rd (F := F) m).duties (sendCell c j) 0 \ ∅) (fun d => (Rd (F := F) m).payload (sendCell c j) 0 d)
      = ownPts c (shareTok fullShare 15 j) (ownC m c) := by
  rw [Finset.sdiff_empty, duties_send, bigSep_singleton, payload_send]
theorem rest_recv (c : Dev nD) (j : Fin 15) :
    bigSep ((Rd (F := F) m).duties (recvCell c j) 0 \ ∅) (fun d => (Rd (F := F) m).payload (recvCell c j) 0 d)
      = rowPts c (src c j) (gathC m c) := by
  rw [Finset.sdiff_empty, duties_recv, bigSep_singleton, payload_recv]

end Sched

/-! ## The levels -/

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (c : Dev nD) (j : Fin 15) : lv (recvCell c j) () = 2 := by
  dsimp only [lv]; rw [if_neg (recv_ne_bar j), xferIdx_recv]

/-! ## Where the owed units lie -/

/-- A tally at one cell is positive only at that cell. -/
theorem tallyAt_pos {g g' : GSem nD τ sig} {k : ℕ} {u : Unit} (h : 0 < tallyAt g' () k g u) : g = g' := by
  rw [tallyAt_apply] at h
  by_contra hn
  rw [if_neg (fun h' => hn h'.1)] at h
  exact Nat.lt_irrefl 0 h

/-- Once the barrier signals are out a device owes only the receive cells its copies pay. -/
theorem OR_pos {c : Dev nD} {g : GSem nD τ sig} {u : Unit} (h : 0 < OR c g u) : ∃ j, g = recvCell (peer c j) j := by
  unfold OR at h
  rcases Pipeline.add_pos_cases h with h | h
  swap; · exact ⟨0, tallyAt_pos h⟩
  rcases Pipeline.add_pos_cases h with h | h
  swap; · exact ⟨1, tallyAt_pos h⟩
  rcases Pipeline.add_pos_cases h with h | h
  swap; · exact ⟨2, tallyAt_pos h⟩
  rcases Pipeline.add_pos_cases h with h | h
  swap; · exact ⟨3, tallyAt_pos h⟩
  rcases Pipeline.add_pos_cases h with h | h
  swap; · exact ⟨4, tallyAt_pos h⟩
  rcases Pipeline.add_pos_cases h with h | h
  swap; · exact ⟨5, tallyAt_pos h⟩
  rcases Pipeline.add_pos_cases h with h | h
  swap; · exact ⟨6, tallyAt_pos h⟩
  rcases Pipeline.add_pos_cases h with h | h
  swap; · exact ⟨7, tallyAt_pos h⟩
  rcases Pipeline.add_pos_cases h with h | h
  swap; · exact ⟨8, tallyAt_pos h⟩
  rcases Pipeline.add_pos_cases h with h | h
  swap; · exact ⟨9, tallyAt_pos h⟩
  rcases Pipeline.add_pos_cases h with h | h
  swap; · exact ⟨10, tallyAt_pos h⟩
  rcases Pipeline.add_pos_cases h with h | h
  swap; · exact ⟨11, tallyAt_pos h⟩
  rcases Pipeline.add_pos_cases h with h | h
  swap; · exact ⟨12, tallyAt_pos h⟩
  rcases Pipeline.add_pos_cases h with h | h
  swap; · exact ⟨13, tallyAt_pos h⟩
  exact ⟨14, tallyAt_pos h⟩

/-- At launch it owes those and its peers' barrier cells. -/
theorem O₀_pos {c : Dev nD} {g : GSem nD τ sig} {u : Unit} (h : 0 < O₀ c g u) :
    (∃ j, g = recvCell (peer c j) j) ∨ (∃ j, g = barCell (peer c j)) := by
  unfold O₀ at h
  rcases Pipeline.add_pos_cases h with h | h
  swap; · exact .inr ⟨0, tallyAt_pos h⟩
  rcases Pipeline.add_pos_cases h with h | h
  swap; · exact .inr ⟨1, tallyAt_pos h⟩
  rcases Pipeline.add_pos_cases h with h | h
  swap; · exact .inr ⟨2, tallyAt_pos h⟩
  rcases Pipeline.add_pos_cases h with h | h
  swap; · exact .inr ⟨3, tallyAt_pos h⟩
  rcases Pipeline.add_pos_cases h with h | h
  swap; · exact .inr ⟨4, tallyAt_pos h⟩
  rcases Pipeline.add_pos_cases h with h | h
  swap; · exact .inr ⟨5, tallyAt_pos h⟩
  rcases Pipeline.add_pos_cases h with h | h
  swap; · exact .inr ⟨6, tallyAt_pos h⟩
  rcases Pipeline.add_pos_cases h with h | h
  swap; · exact .inr ⟨7, tallyAt_pos h⟩
  rcases Pipeline.add_pos_cases h with h | h
  swap; · exact .inr ⟨8, tallyAt_pos h⟩
  rcases Pipeline.add_pos_cases h with h | h
  swap; · exact .inr ⟨9, tallyAt_pos h⟩
  rcases Pipeline.add_pos_cases h with h | h
  swap; · exact .inr ⟨10, tallyAt_pos h⟩
  rcases Pipeline.add_pos_cases h with h | h
  swap; · exact .inr ⟨11, tallyAt_pos h⟩
  rcases Pipeline.add_pos_cases h with h | h
  swap; · exact .inr ⟨12, tallyAt_pos h⟩
  rcases Pipeline.add_pos_cases h with h | h
  swap; · exact .inr ⟨13, tallyAt_pos h⟩
  rcases Pipeline.add_pos_cases h with h | h
  swap; · exact .inr ⟨14, tallyAt_pos h⟩
  exact .inl (OR_pos (c := c) h)

/-! ## The waits -/

omit [FloatOps F] in
/-- A wait on a cell of level 0 is below everything a device can owe: receive cells at 2 and barrier cells at 1. -/
theorem mayWait_low (c : Dev nD) (q : DmaSem sig) (hq : lv ((c : Thread nD τ), .dma q) () = 0)
    (O : CellTallies nD τ sig Unit) (hO : O = O₀ c ∨ O = OR c ∨ O = 0) :
    (levAts L lv : sProp (MT nD τ sig Unit (Elt F) ℕ UU ℕ)) ⊢ MayWait (c : Thread nD τ) (.dma q) () O := by
  rcases hO with rfl | rfl | rfl
  · refine MayOwe.of_cut (L := L) (lev := lv) 0
      (fun p hp => by rw [Finset.mem_singleton.mp hp, L_tc]; exact Finset.mem_singleton_self _)
      (fun g u hg => by
        rcases O₀_pos hg with ⟨j, rfl⟩ | ⟨j, rfl⟩ <;> (rw [L_tc]; exact Finset.mem_singleton_self _))
      (fun p hp => by rw [Finset.mem_singleton.mp hp]; exact le_of_eq hq)
      (fun g u hg => by
        rcases O₀_pos hg with ⟨j, rfl⟩ | ⟨j, rfl⟩
        · rw [show u = () from rfl, lv_recv]; decide
        · rw [show u = () from rfl, lv_bar]; decide)
  · refine MayOwe.of_cut (L := L) (lev := lv) 0
      (fun p hp => by rw [Finset.mem_singleton.mp hp, L_tc]; exact Finset.mem_singleton_self _)
      (fun g u hg => by
        obtain ⟨j, rfl⟩ := OR_pos hg; rw [L_tc]; exact Finset.mem_singleton_self _)
      (fun p hp => by rw [Finset.mem_singleton.mp hp]; exact le_of_eq hq)
      (fun g u hg => by
        obtain ⟨j, rfl⟩ := OR_pos hg; rw [show u = () from rfl, lv_recv]; decide)
  · rw [MayWait_zero]; iintro -; iempintro

omit [FloatOps F] in
/-- At its barrier wait a device owes receive credit only: receive cells, above its barrier cell. -/
theorem mayWait_bar (c : Dev nD) :
    (levAts L lv : sProp (MT nD τ sig Unit (Elt F) ℕ UU ℕ)) ⊢ MayWait (c : Thread nD τ) (.reg barS) () (OR c) :=
  MayOwe.of_cut (L := L) (lev := lv) 1
    (fun p hp => by rw [Finset.mem_singleton.mp hp, L_tc]; exact Finset.mem_singleton_self _)
    (fun g u hg => by obtain ⟨j, rfl⟩ := OR_pos hg; rw [L_tc]; exact Finset.mem_singleton_self _)
    (fun p hp => by rw [Finset.mem_singleton.mp hp]; exact le_of_eq (lv_bar c))
    (fun g u hg => by obtain ⟨j, rfl⟩ := OR_pos hg; rw [show u = () from rfl, lv_recv]; decide)

/-- info: 'Cert.KernelIdeal.Proto.mayWait_low' depends on axioms: [propext, Classical.choice, Quot.sound] -/
#guard_msgs in #print axioms mayWait_low

end Cert.KernelIdeal.Proto

end
-- ==== Proof.Launch.lean ====
/-
  The launch: from the proof of one device's body to the run of the whole mesh.
  The launch element funds the protocol's copy of the rounds algebra with the round state, the position and
  the reached-mark of every one of the 16 × 31 cells and with one token per duty: fifteen for each barrier
  cell, one for each send and each receive cell. Under one update for the whole mesh every cell's invariant is
  allocated from its counter at zero, and the tokens go round the mesh: duty `j` of a barrier cell to the device
  `j + 1` places back, which pays it, the duty of receive cell `j` likewise, the duty of a send cell stays.
  What the mesh owes a device at launch is fifteen units on its barrier cell and one row's credit on each of its
  receive cells; that is its launch credit. The two scratch semaphores no copy names stay at zero throughout.
-/
import proofs.«900923_g7700000000000924_dist_max_ax0_shard0_i_m512_n256_v7x_i16_f32_1_alg».proof.Proof.Protocol
import proofs.«900923_g7700000000000924_dist_max_ax0_shard0_i_m512_n256_v7x_i16_f32_1_alg».proof.Proof.Mesh
import proofs.«900923_g7700000000000924_dist_max_ax0_shard0_i_m512_n256_v7x_i16_f32_1_alg».proof.Proof.Tables
import proofs.«900923_g7700000000000924_dist_max_ax0_shard0_i_m512_n256_v7x_i16_f32_1_alg».proof.Proof.Gen.KernelIdeal.Points
import Mathlib.Algebra.BigOperators.Group.Finset.Basic
import Mathlib.Algebra.BigOperators.Fin
import Mathlib.Data.Fintype.Card
import Mathlib.Data.Fintype.BigOperators
import Mathlib.Tactic.Abel

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m 0 c).share w = fullShare := by unfold Dat.share; split <;> rfl

/-- The protocol's cells: thirty-one on each device. -/
def ringCells : Finset (GSem nD τ sig) := Finset.univ.map ⟨kcell, kcell_injective⟩

theorem tok_sendS_inj {j j' : Fin 15} (h : sendS j = sendS j') : j = j' := by
  have := congrArg Fin.val h; exact Fin.ext (by simp only [sendS] at this; omega)
theorem tok_recvS_inj {j j' : Fin 15} (h : recvS j = recvS j') : j = j' := by
  have := congrArg Fin.val h; exact Fin.ext (by simp only [recvS] at this; omega)
theorem tok_sendS_ne_recvS (j j' : Fin 15) : sendS j ≠ recvS j' := fun h => by
  have := congrArg Fin.val h; simp only [sendS, recvS] at this; omega

/-- The duty tokens as minted, by device, kind of cell and `j`: duty `j` of the barrier cell, the duty of send cell `j`,
    the duty of receive cell `j`. -/
abbrev tokOf (x : Dev nD × (Fin 3 × Fin 15)) : GSem nD τ sig × ℕ × Fin 15 := match x.2.1 with
  | 0 => (barCell x.1, 0, x.2.2) | 1 => (sendCell x.1 x.2.2, 0, 0) | 2 => (recvCell x.1 x.2.2, 0, 0)

theorem tokOf_injective : Function.Injective (tokOf : Dev nD × (Fin 3 × Fin 15) → GSem nD τ sig × ℕ × Fin 15) := by
  rintro ⟨c, k, j⟩ ⟨c', k', j'⟩ h
  have h1 : c = c' := by
    have := congrArg (fun x : GSem nD τ sig × ℕ × Fin 15 => x.1.1.1) h
    fin_cases k <;> fin_cases k' <;> exact this
  subst h1
  have hs := congrArg (fun x : GSem nD τ sig × ℕ × Fin 15 => x.1.2) h
  have hd := congrArg (fun x : GSem nD τ sig × ℕ × Fin 15 => x.2.2) h
  fin_cases k <;> fin_cases k'
  · have : j = j' := hd
    subst this; rfl
  · exact absurd hs (fun h' => by cases h')
  · exact absurd hs (fun h' => by cases h')
  · exact absurd hs (fun h' => by cases h')
  · have : j = j' := tok_sendS_inj (SemLoc.dma.inj hs)
    subst this; rfl
  · exact absurd (SemLoc.dma.inj hs) (tok_sendS_ne_recvS j j')
  · exact absurd hs (fun h' => by cases h')
  · exact absurd (SemLoc.dma.inj hs).symm (tok_sendS_ne_recvS j' j)
  · have : j = j' := tok_recvS_inj (SemLoc.dma.inj hs)
    subst this; rfl

def ringToks : Finset (GSem nD τ sig × ℕ × Fin 15) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun j : Fin 15 => dutyTok ER (barCell c) 0 j)
    ∗ (bigSep Finset.univ fun j : Fin 15 => dutyTok ER (sendCell c j) 0 0)
    ∗ (bigSep Finset.univ fun j : Fin 15 => dutyTok ER (recvCell c j) 0 0))

/-- The two scratch semaphores no copy names, at zero. -/
def idleSems (c : Dev nD) : sProp 𝕄 := iprop(semVal ((c : Thread nD τ), .dma idleS₀) 0 ∗ semVal ((c : Thread nD τ), .dma idleS₁) 0)

/-- What the launch element deals device `c`. -/
def G (c : Dev nD) : sProp 𝕄 :=
  iprop((bigSep Finset.univ fun k : Fin 31 => roundState ER (Rd m) (kcell (c, k)) 0)
    ∗ (bigSep Finset.univ fun k : Fin 31 => iprop(atPos ER (kcell (c, k)) 0 ∅ 0 ∗ reached ER (kcell (c, k)) 0)) ∗ toks c)

/-- What the global step makes of it, beside the two idle semaphores. -/
def G' (c : Dev nD) : sProp 𝕄 := iprop((∃ K, ghost m K c) ∗ idleSems c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 31 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks; rw [bigSep_univ_prod, bigSep_fin3]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A hypothesis that is one conjunct of a separating conjunction gives that conjunct. -/
local macro "itake " h:ident : tactic => `(tactic| (isplitl [$h]; · iexact $h))

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's thirty-two own semaphores and the barrier semaphore are the thirty-one cells of the protocol and the idle two. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 31 => semVal (kcell (c, k)) 0) ∗ idleSems c) : sProp 𝕄) := by
  unfold Pipeline.ownSems0 idleSems
  rw [bigSep_fin32, unscopedSems0_eq, bigSep_fin31]
  iintro ⟨⟨I0, S0, S1, S2, S3, S4, S5, S6, S7, S8, S9, S10, S11, S12, S13, S14, I1, R0, R1, R2, R3, R4, R5, R6, R7, R8, R9, R10, R11, R12, R13, R14⟩, HB⟩
  isplitr [I0 I1]
  · itake HB; itake S0; itake S1; itake S2; itake S3; itake S4; itake S5; itake S6; itake S7; itake S8; itake S9; itake S10; itake S11; itake S12; itake S13; itake S14
    itake R0; itake R1; itake R2; itake R3; itake R4; itake R5; itake R6; itake R7; itake R8; itake R9; itake R10; itake R11; itake R12; itake R13
    iexact R14
  · itake I0
    iexact I1

/-- The send and receive cells closed and the idle two are the kernel's thirty-two own semaphores at zero. -/
theorem ownSems0_intro (c : Dev nD) :
    (iprop((bigSep Finset.univ fun j : Fin 15 => semVal (sendCell c j) 0) ∗ (bigSep Finset.univ fun j : Fin 15 => semVal (recvCell c j) 0) ∗ idleSems c) : sProp 𝕄)
      ⊢ Pipeline.ownSems0 (Ix := Unit) (Name := ℕ) (U := UU) (Lvl := ℕ) (Val := Elt F) (τ := τ) osem c := by
  unfold Pipeline.ownSems0 idleSems
  rw [bigSep_fin32, bigSep_fin15, bigSep_fin15]
  iintro ⟨⟨S0, S1, S2, S3, S4, S5, S6, S7, S8, S9, S10, S11, S12, S13, S14⟩, ⟨R0, R1, R2, R3, R4, R5, R6, R7, R8, R9, R10, R11, R12, R13, R14⟩, I0, I1⟩
  itake I0; itake S0; itake S1; itake S2; itake S3; itake S4; itake S5; itake S6; itake S7; itake S8; itake S9; itake S10; itake S11; itake S12; itake S13; itake S14
  itake I1; itake R0; itake R1; itake R2; itake R3; itake R4; itake R5; itake R6; itake R7; itake R8; itake R9; itake R10; itake R11; itake R12; itake R13
  iexact R14

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ idleSems c) := by
  unfold G
  iintro ⟨Hos, Hus, Hst, Hat, Htok⟩
  ihave Hv := (sems0_eq (F := F) c) $$ [Hos Hus]
  · isplitl [Hos] <;> iassumption
  icases Hv with ⟨Hv, Hi⟩
  imod (show iprop((bigSep Finset.univ fun k : Fin 31 => semVal (kcell (c, k)) 0) ∗ bigSep Finset.univ fun k : Fin 31 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hi

theorem ghost_intro (K : Dev nD × Fin 31 → ℕ) (c : Dev nD) : iprop(records m K ∗ (positions c ∗ payToks c) ∗ idleSems c) ⊢ G' m c := by
  unfold G' ghost
  iintro ⟨#HR, ⟨Hp, Ht⟩, Hi⟩
  isplitl [Hp Ht]
  · iexists K
    isplitr; · iexact HR
    isplitl [Hp]; · iexact Hp
    iexact Ht
  · iexact Hi

/-- The tokens dealt round the mesh: duty `j` of a barrier cell and the duty of receive cell `j` go to the device `j + 1`
    places back, whose peer number `j` the cell's owner is; a send cell's duty stays with its owner. -/
theorem toks_around : (bigSep Finset.univ fun c : Dev nD => (toks c : sProp 𝕄)) ⊢ bigSep Finset.univ fun c : Dev nD => payToks c := by
  have hring (f : Dev nD → Fin 15 → sProp 𝕄) :
      (bigSep Finset.univ fun c : Dev nD => bigSep Finset.univ fun j : Fin 15 => f c j)
        = bigSep Finset.univ fun c : Dev nD => bigSep Finset.univ fun j : Fin 15 => f (peer c j) j :=
    ((bigSep_univ_prod (fun x : Dev nD × Fin 15 => f x.1 x.2)).symm.trans (bigSep_univ_equiv ring (fun x : Dev nD × Fin 15 => f x.1 x.2))).trans
      (bigSep_univ_prod (fun x : Dev nD × Fin 15 => f (ring x).1 (ring x).2))
  unfold toks payToks
  rw [bigSep_sep', bigSep_sep', bigSep_sep', bigSep_sep',
    hring (fun c j => dutyTok ER (barCell c) 0 j), hring (fun c j => dutyTok ER (recvCell c j) 0 0)]
  iintro ⟨H1, H2, H3⟩
  isplitl [H1]; · iexact H1
  isplitl [H3]; · iexact H3
  iexact H2

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ idleSems c) : sProp 𝕄)
      ⊢ bigSep Finset.univ (G' m) := by
  rw [bigSep_sep', bigSep_sep', bigSep_sep', ← bigSep_univ_prod (fun ck : Dev nD × Fin 31 => iprop(∃ κ : ℕ, cellInv ER (Rd m) κ (kcell ck))),
    bigSep_congr (s := Finset.univ) (fun (c : Dev nD) _ => bigSep_sep' Finset.univ (fun k : Fin 31 => (atPos ER (kcell (c, k)) 0 ∅ 0 : sProp 𝕄)) (fun k => reached ER (kcell (c, k)) 0)),
    bigSep_sep', ← bigSep_univ_prod (fun ck : Dev nD × Fin 31 => (reached ER (kcell ck) 0 : sProp 𝕄))]
  iintro ⟨HI, ⟨Hat, #HR⟩, Htok, Hidle⟩
  ihave HK := (BI.bigSep_exists_pi Finset.univ (fun (ck : Dev nD × Fin 31) (κ : ℕ) => (cellInv ER (Rd m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · rw [bigSep_sep', bigSep_sep']
    isplitl [Hat Htk]
    · isplitl [Hat]
      · unfold positions; iexact Hat
      · iexact Htk
    · iexact Hidle

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- What the mesh owes device `c`'s cells: fifteen units on its barrier cell, one row's credit on each receive cell. -/
def dueTo (c : Dev nD) : CellTallies nD τ sig Unit := tallyAt (barCell c) () 15 + ∑ j : Fin 15, tallyAt (recvCell c j) () N

theorem fin15_range : List.finRange 15 = [0, 1, 2, 3, 4, 5, 6, 7, 8, 9, 10, 11, 12, 13, 14] := by decide

/-- What a device owes, summed by kind. -/
theorem O₀_sum (d : Dev nD) : O₀ d = (∑ j : Fin 15, rT d j) + ∑ j : Fin 15, bT d j := by
  unfold O₀
  rw [Fin.sum_univ_def, Fin.sum_univ_def, fin15_range]
  simp only [List.map_cons, List.map_nil, List.sum_cons, List.sum_nil]
  abel

theorem nsmul_tallyAt (g : GSem nD τ sig) (n : ℕ) : n • (tallyAt g () 1 : CellTallies nD τ sig Unit) = tallyAt g () n := by
  induction n with
  | zero => rw [zero_nsmul, tallyAt_zero]
  | succ n ih => rw [succ_nsmul, ih, tallyAt_add]

/-- Summed over the mesh, what the devices owe is what each device's cells are due: every device is peer number `j` of
    exactly one device. -/
theorem sum_O₀ : (∑ d : Dev nD, O₀ d) = ∑ d : Dev nD, dueTo d := by
  have hring (f : Dev nD → Fin 15 → CellTallies nD τ sig Unit) : (∑ d : Dev nD, ∑ j : Fin 15, f (peer d j) j) = ∑ d : Dev nD, ∑ j : Fin 15, f d j :=
    ((Fintype.sum_prod_type' (fun d j => f (peer d j) j)).symm.trans (Equiv.sum_comp ring (fun x : Dev nD × Fin 15 => f x.1 x.2))).trans
      (Fintype.sum_prod_type' f)
  have hb : (∑ d : Dev nD, ∑ j : Fin 15, bT d j) = ∑ d : Dev nD, tallyAt (barCell d) () 15 :=
    (hring (fun d _ => tallyAt (barCell d) () 1)).trans (Finset.sum_congr rfl fun d _ => by
      rw [Finset.sum_const, Finset.card_univ, Fintype.card_fin, nsmul_tallyAt])
  have hr : (∑ d : Dev nD, ∑ j : Fin 15, rT d j) = ∑ d : Dev nD, ∑ j : Fin 15, tallyAt (recvCell d j) () N :=
    hring (fun d j => tallyAt (recvCell d j) () N)
  calc (∑ d : Dev nD, O₀ d) = ∑ d : Dev nD, ((∑ j : Fin 15, rT d j) + ∑ j : Fin 15, bT d j) := Finset.sum_congr rfl fun d _ => O₀_sum d
    _ = (∑ d : Dev nD, ∑ j : Fin 15, rT d j) + ∑ d : Dev nD, ∑ j : Fin 15, bT d j := Finset.sum_add_distrib
    _ = (∑ d : Dev nD, ∑ j : Fin 15, tallyAt (recvCell d j) () N) + ∑ d : Dev nD, tallyAt (barCell d) () 15 := by rw [hr, hb]
    _ = (∑ d : Dev nD, tallyAt (barCell d) () 15) + ∑ d : Dev nD, ∑ j : Fin 15, tallyAt (recvCell d j) () N := add_comm _ _
    _ = ∑ d : Dev nD, dueTo d := Finset.sum_add_distrib.symm

theorem dueTo_own (d : Dev nD) (g : GSem nD τ sig) (h : dueTo d g ≠ 0) : g.1 = (d : Thread nD τ) := by
  by_contra hne
  refine h ?_
  unfold dueTo
  rw [Pi.add_apply, Finset.sum_apply, tallyAt_ne_cell (fun e => hne (by rw [e])), zero_add]
  exact Finset.sum_eq_zero fun j _ => tallyAt_ne_cell (fun e => hne (by rw [e])) () N

theorem creds (c : Dev nD) :
    (Pipeline.launchCred O₀ c : sProp 𝕄) ⊢ iprop(cred (tallyAt (barCell c) () 15) ∗ bigSep Finset.univ fun j : Fin 15 => cred (tallyAt (recvCell c j) () N)) := by
  rw [Pipeline.launchCred_of_sum O₀ dueTo sum_O₀ dueTo_own c]
  unfold dueTo
  refine (cred_add _ _).1.trans (sep_mono_right (Entails.of_eq ?_))
  exact Pipeline.cred_finsetSum Finset.univ fun j : Fin 15 => tallyAt (recvCell c j) () N

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' idleSems
  iintro ⟨-, Hlev, Hcr, -, HK, Hi⟩
  ihave Hc := (creds (F := F) c) $$ Hcr
  icases Hc with ⟨H1, HN⟩
  imodintro
  isplitl
  · isplitl [HK]; · iexact HK
    isplitl [H1]; · iexact H1
    isplitl [HN]; · iexact HN
    isplitl [Hi]; · iexact Hi
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq]
  unfold Φ₁
  iintro ⟨Ho, Hg, HS, HR, Hi⟩
  isplitr; · iempintro
  isplitl [HS HR Hi]
  · iapply (ownSems0_intro (F := F) c)
    isplitl [HS]; · iexact HS
    isplitl [HR]; · iexact HR
    unfold idleSems; iexact Hi
  isplitl [Ho]
  · iexists (ownC m c); iexact Ho
  · iexists (gathC m c); iexact Hg

theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> rfl) _ (by
      rcases t with ⟨_ | _, ht⟩
      · exact Or.inl rfl
      · exact Or.inr (Or.inr rfl))

/-! ### The run -/

def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- At the compiled mesh of sixteen devices, for any float values, from any memory with zero counters, given the body
    obligation of every device: every weakly fair execution of @main terminates, and every final state has each device's
    arrays at the contents the proof data name. -/
theorem run_main (hbody : ∀ c : Dev nD, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : (dats (F := F) m 0 c).arrAt (0 : Fin 2) cfg0.N = m (win0_0.arr.view.loc (c : Thread nD τ)) :=
  (dats (F := F) m 0 c).arrAt_in (0 : Fin 2) rfl _

/-- The result array after the run is the body's result. -/
theorem finalA_out (c : Dev nD) : (dats (F := F) m 0 c).arrAt (1 : Fin 2) cfg0.N = outC m c := by
  have h := (dats (F := F) m 0 c).arrAt_succ (1 : Fin 2) t0_0
  rw [if_pos (flush0_1 t0_0)] at h
  refine h.trans ?_
  exact Memref.write_access_unit_zero_univ (Elt F) main_v1 (funext fun a => Nat.zero_mul _) _ _ _

/-- info: 'Cert.KernelIdeal.Proto.run_main' depends on axioms: [propext, Classical.choice, Quot.sound] -/
#guard_msgs in #print axioms run_main

end Cert.KernelIdeal.Proto

end
-- ==== Proof.BodyDefs.lean ====
/-
  The body's pre- and postcondition laid out flat: one conjunct per resource, each buffer held through its memref's
  view and each cell named as `barCell`, `sendCell j` or `recvCell j`.
  Before: every cell's invariant the device opens, the reached-marks and tokens of the duties it pays, its four
  buffers, what it owes, its positions and credit. After: the four buffers at their final contents, nothing owed,
  and its thirty transfer cells one round on.
-/
import proofs.«900923_g7700000000000924_dist_max_ax0_shard0_i_m512_n256_v7x_i16_f32_1_alg».proof.Proof.Protocol

noncomputable section
namespace Cert.KernelIdeal.Proto
open Cert.KernelIdeal Cert.KernelIdeal.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

def preFlat (K : Dev nD × Fin 31 → ℕ) (c : Dev nD) (W : Waits sig Unit) (g1 : Buf (Elt F) (oM.view.loc (c : Thread nD τ)))
    (f0 : Buf (Elt F) (ownM.view.loc (c : Thread nD τ))) (f1 : Buf (Elt F) (commM.view.loc (c : Thread nD τ))) : sProp 𝕄 :=
  iprop(cellInv ER (Rd m) (K (c, kb)) (barCell c)
        ∗ cellInv ER (Rd m) (K (c, ks 0)) (sendCell c 0)
        ∗ cellInv ER (Rd m) (K (c, ks 1)) (sendCell c 1)
        ∗ cellInv ER (Rd m) (K (c, ks 2)) (sendCell c 2)
        ∗ cellInv ER (Rd m) (K (c, ks 3)) (sendCell c 3)
        ∗ cellInv ER (Rd m) (K (c, ks 4)) (sendCell c 4)
        ∗ cellInv ER (Rd m) (K (c, ks 5)) (sendCell c 5)
        ∗ cellInv ER (Rd m) (K (c, ks 6)) (sendCell c 6)
        ∗ cellInv ER (Rd m) (K (c, ks 7)) (sendCell c 7)
        ∗ cellInv ER (Rd m) (K (c, ks 8)) (sendCell c 8)
        ∗ cellInv ER (Rd m) (K (c, ks 9)) (sendCell c 9)
        ∗ cellInv ER (Rd m) (K (c, ks 10)) (sendCell c 10)
        ∗ cellInv ER (Rd m) (K (c, ks 11)) (sendCell c 11)
        ∗ cellInv ER (Rd m) (K (c, ks 12)) (sendCell c 12)
        ∗ cellInv ER (Rd m) (K (c, ks 13)) (sendCell c 13)
        ∗ cellInv ER (Rd m) (K (c, ks 14)) (sendCell c 14)
        ∗ cellInv ER (Rd m) (K (c, kr 0)) (recvCell c 0)
        ∗ cellInv ER (Rd m) (K (c, kr 1)) (recvCell c 1)
        ∗ cellInv ER (Rd m) (K (c, kr 2)) (recvCell c 2)
        ∗ cellInv ER (Rd m) (K (c, kr 3)) (recvCell c 3)
        ∗ cellInv ER (Rd m) (K (c, kr 4)) (recvCell c 4)
        ∗ cellInv ER (Rd m) (K (c, kr 5)) (recvCell c 5)
        ∗ cellInv ER (Rd m) (K (c, kr 6)) (recvCell c 6)
        ∗ cellInv ER (Rd m) (K (c, kr 7)) (recvCell c 7)
        ∗ cellInv ER (Rd m) (K (c, kr 8)) (recvCell c 8)
        ∗ cellInv ER (Rd m) (K (c, kr 9)) (recvCell c 9)
        ∗ cellInv ER (Rd m) (K (c, kr 10)) (recvCell c 10)
        ∗ cellInv ER (Rd m) (K (c, kr 11)) (recvCell c 11)
        ∗ cellInv ER (Rd m) (K (c, kr 12)) (recvCell c 12)
        ∗ cellInv ER (Rd m) (K (c, kr 13)) (recvCell c 13)
        ∗ cellInv ER (Rd m) (K (c, kr 14)) (recvCell c 14)
        ∗ cellInv ER (Rd m) (K (peer c 0, kb)) (barCell (peer c 0))
        ∗ cellInv ER (Rd m) (K (peer c 1, kb)) (barCell (peer c 1))
        ∗ cellInv ER (Rd m) (K (peer c 2, kb)) (barCell (peer c 2))
        ∗ cellInv ER (Rd m) (K (peer c 3, kb)) (barCell (peer c 3))
        ∗ cellInv ER (Rd m) (K (peer c 4, kb)) (barCell (peer c 4))
        ∗ cellInv ER (Rd m) (K (peer c 5, kb)) (barCell (peer c 5))
        ∗ cellInv ER (Rd m) (K (peer c 6, kb)) (barCell (peer c 6))
        ∗ cellInv ER (Rd m) (K (peer c 7, kb)) (barCell (peer c 7))
        ∗ cellInv ER (Rd m) (K (peer c 8, kb)) (barCell (peer c 8))
        ∗ cellInv ER (Rd m) (K (peer c 9, kb)) (barCell (peer c 9))
        ∗ cellInv ER (Rd m) (K (peer c 10, kb)) (barCell (peer c 10))
        ∗ cellInv ER (Rd m) (K (peer c 11, kb)) (barCell (peer c 11))
        ∗ cellInv ER (Rd m) (K (peer c 12, kb)) (barCell (peer c 12))
        ∗ cellInv ER (Rd m) (K (peer c 13, kb)) (barCell (peer c 13))
        ∗ cellInv ER (Rd m) (K (peer c 14, kb)) (barCell (peer c 14))
        ∗ cellInv ER (Rd m) (K (peer c 0, kr 0)) (recvCell (peer c 0) 0)
        ∗ cellInv ER (Rd m) (K (peer c 1, kr 1)) (recvCell (peer c 1) 1)
        ∗ cellInv ER (Rd m) (K (peer c 2, kr 2)) (recvCell (peer c 2) 2)
        ∗ cellInv ER (Rd m) (K (peer c 3, kr 3)) (recvCell (peer c 3) 3)
        ∗ cellInv ER (Rd m) (K (peer c 4, kr 4)) (recvCell (peer c 4) 4)
        ∗ cellInv ER (Rd m) (K (peer c 5, kr 5)) (recvCell (peer c 5) 5)
        ∗ cellInv ER (Rd m) (K (peer c 6, kr 6)) (recvCell (peer c 6) 6)
        ∗ cellInv ER (Rd m) (K (peer c 7, kr 7)) (recvCell (peer c 7) 7)
        ∗ cellInv ER (Rd m) (K (peer c 8, kr 8)) (recvCell (peer c 8) 8)
        ∗ cellInv ER (Rd m) (K (peer c 9, kr 9)) (recvCell (peer c 9) 9)
        ∗ cellInv ER (Rd m) (K (peer c 10, kr 10)) (recvCell (peer c 10) 10)
        ∗ cellInv ER (Rd m) (K (peer c 11, kr 11)) (recvCell (peer c 11) 11)
        ∗ cellInv ER (Rd m) (K (peer c 12, kr 12)) (recvCell (peer c 12) 12)
        ∗ cellInv ER (Rd m) (K (peer c 13, kr 13)) (recvCell (peer c 13) 13)
        ∗ cellInv ER (Rd m) (K (peer c 14, kr 14)) (recvCell (peer c 14) 14)
        ∗ reached ER (barCell (peer c 0)) 0
        ∗ reached ER (barCell (peer c 1)) 0
        ∗ reached ER (barCell (peer c 2)) 0
        ∗ reached ER (barCell (peer c 3)) 0
        ∗ reached ER (barCell (peer c 4)) 0
        ∗ reached ER (barCell (peer c 5)) 0
        ∗ reached ER (barCell (peer c 6)) 0
        ∗ reached ER (barCell (peer c 7)) 0
        ∗ reached ER (barCell (peer c 8)) 0
        ∗ reached ER (barCell (peer c 9)) 0
        ∗ reached ER (barCell (peer c 10)) 0
        ∗ reached ER (barCell (peer c 11)) 0
        ∗ reached ER (barCell (peer c 12)) 0
        ∗ reached ER (barCell (peer c 13)) 0
        ∗ reached ER (barCell (peer c 14)) 0
        ∗ reached ER (recvCell (peer c 0) 0) 0
        ∗ reached ER (recvCell (peer c 1) 1) 0
        ∗ reached ER (recvCell (peer c 2) 2) 0
        ∗ reached ER (recvCell (peer c 3) 3) 0
        ∗ reached ER (recvCell (peer c 4) 4) 0
        ∗ reached ER (recvCell (peer c 5) 5) 0
        ∗ reached ER (recvCell (peer c 6) 6) 0
        ∗ reached ER (recvCell (peer c 7) 7) 0
        ∗ reached ER (recvCell (peer c 8) 8) 0
        ∗ reached ER (recvCell (peer c 9) 9) 0
        ∗ reached ER (recvCell (peer c 10) 10) 0
        ∗ reached ER (recvCell (peer c 11) 11) 0
        ∗ reached ER (recvCell (peer c 12) 12) 0
        ∗ reached ER (recvCell (peer c 13) 13) 0
        ∗ reached ER (recvCell (peer c 14) 14) 0
        ∗ reached ER (sendCell c 0) 0
        ∗ reached ER (sendCell c 1) 0
        ∗ reached ER (sendCell c 2) 0
        ∗ reached ER (sendCell c 3) 0
        ∗ reached ER (sendCell c 4) 0
        ∗ reached ER (sendCell c 5) 0
        ∗ reached ER (sendCell c 6) 0
        ∗ reached ER (sendCell c 7) 0
        ∗ reached ER (sendCell c 8) 0
        ∗ reached ER (sendCell c 9) 0
        ∗ reached ER (sendCell c 10) 0
        ∗ reached ER (sendCell c 11) 0
        ∗ reached ER (sendCell c 12) 0
        ∗ reached ER (sendCell c 13) 0
        ∗ reached ER (sendCell c 14) 0
        ∗ levAts L lv
        ∗ (xM.view.loc (c : Thread nD τ) ↦{fullShare} xstg m c)
        ∗ (oM.view.loc (c : Thread nD τ) ↦{fullShare} g1)
        ∗ (ownM.view.loc (c : Thread nD τ) ↦{fullShare} f0)
        ∗ (commM.view.loc (c : Thread nD τ) ↦{fullShare} f1)
        ∗ owes (c : Thread nD τ) (rT c 14 + rT c 13 + rT c 12 + rT c 11 + rT c 10 + rT c 9 + rT c 8 + rT c 7 + rT c 6 + rT c 5 + rT c 4 + rT c 3 + rT c 2 + rT c 1 + rT c 0 + bT c 14 + bT c 13 + bT c 12 + bT c 11 + bT c 10 + bT c 9 + bT c 8 + bT c 7 + bT c 6 + bT c 5 + bT c 4 + bT c 3 + bT c 2 + bT c 1 + bT c 0) W
        ∗ dutyTok ER (barCell (peer c 0)) 0 0
        ∗ dutyTok ER (barCell (peer c 1)) 0 1
        ∗ dutyTok ER (barCell (peer c 2)) 0 2
        ∗ dutyTok ER (barCell (peer c 3)) 0 3
        ∗ dutyTok ER (barCell (peer c 4)) 0 4
        ∗ dutyTok ER (barCell (peer c 5)) 0 5
        ∗ dutyTok ER (barCell (peer c 6)) 0 6
        ∗ dutyTok ER (barCell (peer c 7)) 0 7
        ∗ dutyTok ER (barCell (peer c 8)) 0 8
        ∗ dutyTok ER (barCell (peer c 9)) 0 9
        ∗ dutyTok ER (barCell (peer c 10)) 0 10
        ∗ dutyTok ER (barCell (peer c 11)) 0 11
        ∗ dutyTok ER (barCell (peer c 12)) 0 12
        ∗ dutyTok ER (barCell (peer c 13)) 0 13
        ∗ dutyTok ER (barCell (peer c 14)) 0 14
        ∗ dutyTok ER (recvCell (peer c 0) 0) 0 0
        ∗ dutyTok ER (recvCell (peer c 1) 1) 0 0
        ∗ dutyTok ER (recvCell (peer c 2) 2) 0 0
        ∗ dutyTok ER (recvCell (peer c 3) 3) 0 0
        ∗ dutyTok ER (recvCell (peer c 4) 4) 0 0
        ∗ dutyTok ER (recvCell (peer c 5) 5) 0 0
        ∗ dutyTok ER (recvCell (peer c 6) 6) 0 0
        ∗ dutyTok ER (recvCell (peer c 7) 7) 0 0
        ∗ dutyTok ER (recvCell (peer c 8) 8) 0 0
        ∗ dutyTok ER (recvCell (peer c 9) 9) 0 0
        ∗ dutyTok ER (recvCell (peer c 10) 10) 0 0
        ∗ dutyTok ER (recvCell (peer c 11) 11) 0 0
        ∗ dutyTok ER (recvCell (peer c 12) 12) 0 0
        ∗ dutyTok ER (recvCell (peer c 13) 13) 0 0
        ∗ dutyTok ER (recvCell (peer c 14) 14) 0 0
        ∗ dutyTok ER (sendCell c 0) 0 0
        ∗ dutyTok ER (sendCell c 1) 0 0
        ∗ dutyTok ER (sendCell c 2) 0 0
        ∗ dutyTok ER (sendCell c 3) 0 0
        ∗ dutyTok ER (sendCell c 4) 0 0
        ∗ dutyTok ER (sendCell c 5) 0 0
        ∗ dutyTok ER (sendCell c 6) 0 0
        ∗ dutyTok ER (sendCell c 7) 0 0
        ∗ dutyTok ER (sendCell c 8) 0 0
        ∗ dutyTok ER (sendCell c 9) 0 0
        ∗ dutyTok ER (sendCell c 10) 0 0
        ∗ dutyTok ER (sendCell c 11) 0 0
        ∗ dutyTok ER (sendCell c 12) 0 0
        ∗ dutyTok ER (sendCell c 13) 0 0
        ∗ dutyTok ER (sendCell c 14) 0 0
        ∗ atPos ER (barCell c) 0 ∅ 0
        ∗ atPos ER (sendCell c 0) 0 ∅ 0
        ∗ atPos ER (sendCell c 1) 0 ∅ 0
        ∗ atPos ER (sendCell c 2) 0 ∅ 0
        ∗ atPos ER (sendCell c 3) 0 ∅ 0
        ∗ atPos ER (sendCell c 4) 0 ∅ 0
        ∗ atPos ER (sendCell c 5) 0 ∅ 0
        ∗ atPos ER (sendCell c 6) 0 ∅ 0
        ∗ atPos ER (sendCell c 7) 0 ∅ 0
        ∗ atPos ER (sendCell c 8) 0 ∅ 0
        ∗ atPos ER (sendCell c 9) 0 ∅ 0
        ∗ atPos ER (sendCell c 10) 0 ∅ 0
        ∗ atPos ER (sendCell c 11) 0 ∅ 0
        ∗ atPos ER (sendCell c 12) 0 ∅ 0
        ∗ atPos ER (sendCell c 13) 0 ∅ 0
        ∗ atPos ER (sendCell c 14) 0 ∅ 0
        ∗ atPos ER (recvCell c 0) 0 ∅ 0
        ∗ atPos ER (recvCell c 1) 0 ∅ 0
        ∗ atPos ER (recvCell c 2) 0 ∅ 0
        ∗ atPos ER (recvCell c 3) 0 ∅ 0
        ∗ atPos ER (recvCell c 4) 0 ∅ 0
        ∗ atPos ER (recvCell c 5) 0 ∅ 0
        ∗ atPos ER (recvCell c 6) 0 ∅ 0
        ∗ atPos ER (recvCell c 7) 0 ∅ 0
        ∗ atPos ER (recvCell c 8) 0 ∅ 0
        ∗ atPos ER (recvCell c 9) 0 ∅ 0
        ∗ atPos ER (recvCell c 10) 0 ∅ 0
        ∗ atPos ER (recvCell c 11) 0 ∅ 0
        ∗ atPos ER (recvCell c 12) 0 ∅ 0
        ∗ atPos ER (recvCell c 13) 0 ∅ 0
        ∗ atPos ER (recvCell c 14) 0 ∅ 0
        ∗ cred (tallyAt (barCell c) () 15)
        ∗ cred (tallyAt (recvCell c 0) () N)
        ∗ cred (tallyAt (recvCell c 1) () N)
        ∗ cred (tallyAt (recvCell c 2) () N)
        ∗ cred (tallyAt (recvCell c 3) () N)
        ∗ cred (tallyAt (recvCell c 4) () N)
        ∗ cred (tallyAt (recvCell c 5) () N)
        ∗ cred (tallyAt (recvCell c 6) () N)
        ∗ cred (tallyAt (recvCell c 7) () N)
        ∗ cred (tallyAt (recvCell c 8) () N)
        ∗ cred (tallyAt (recvCell c 9) () N)
        ∗ cred (tallyAt (recvCell c 10) () N)
        ∗ cred (tallyAt (recvCell c 11) () N)
        ∗ cred (tallyAt (recvCell c 12) () N)
        ∗ cred (tallyAt (recvCell c 13) () N)
        ∗ cred (tallyAt (recvCell c 14) () N))

def postFlat (c : Dev nD) : sProp 𝕄 :=
  iprop((xM.view.loc (c : Thread nD τ) ↦{fullShare} xstg m c)
        ∗ (oM.view.loc (c : Thread nD τ) ↦{fullShare} outC m c)
        ∗ (ownM.view.loc (c : Thread nD τ) ↦{fullShare} ownC m c)
        ∗ (commM.view.loc (c : Thread nD τ) ↦{fullShare} gathC m c)
        ∗ (∃ W' : Waits sig Unit, owes (c : Thread nD τ) 0 W')
        ∗ atPos ER (sendCell c 0) (0 + 1) ∅ 0
        ∗ atPos ER (sendCell c 1) (0 + 1) ∅ 0
        ∗ atPos ER (sendCell c 2) (0 + 1) ∅ 0
        ∗ atPos ER (sendCell c 3) (0 + 1) ∅ 0
        ∗ atPos ER (sendCell c 4) (0 + 1) ∅ 0
        ∗ atPos ER (sendCell c 5) (0 + 1) ∅ 0
        ∗ atPos ER (sendCell c 6) (0 + 1) ∅ 0
        ∗ atPos ER (sendCell c 7) (0 + 1) ∅ 0
        ∗ atPos ER (sendCell c 8) (0 + 1) ∅ 0
        ∗ atPos ER (sendCell c 9) (0 + 1) ∅ 0
        ∗ atPos ER (sendCell c 10) (0 + 1) ∅ 0
        ∗ atPos ER (sendCell c 11) (0 + 1) ∅ 0
        ∗ atPos ER (sendCell c 12) (0 + 1) ∅ 0
        ∗ atPos ER (sendCell c 13) (0 + 1) ∅ 0
        ∗ atPos ER (sendCell c 14) (0 + 1) ∅ 0
        ∗ atPos ER (recvCell c 0) (0 + 1) ∅ 0
        ∗ atPos ER (recvCell c 1) (0 + 1) ∅ 0
        ∗ atPos ER (recvCell c 2) (0 + 1) ∅ 0
        ∗ atPos ER (recvCell c 3) (0 + 1) ∅ 0
        ∗ atPos ER (recvCell c 4) (0 + 1) ∅ 0
        ∗ atPos ER (recvCell c 5) (0 + 1) ∅ 0
        ∗ atPos ER (recvCell c 6) (0 + 1) ∅ 0
        ∗ atPos ER (recvCell c 7) (0 + 1) ∅ 0
        ∗ atPos ER (recvCell c 8) (0 + 1) ∅ 0
        ∗ atPos ER (recvCell c 9) (0 + 1) ∅ 0
        ∗ atPos ER (recvCell c 10) (0 + 1) ∅ 0
        ∗ atPos ER (recvCell c 11) (0 + 1) ∅ 0
        ∗ atPos ER (recvCell c 12) (0 + 1) ∅ 0
        ∗ atPos ER (recvCell c 13) (0 + 1) ∅ 0
        ∗ atPos ER (recvCell c 14) (0 + 1) ∅ 0)

end Cert.KernelIdeal.Proto
end
-- ==== Proof.Rows.lean ====
/-
  The gather buffer of one device and its sixteen rows.
  The buffer has shape 16 x 1 x 256; row r is the one-row slice at offsets (r, 0, 0), squeezed to 1 x 256.
  An element lies in row r exactly when its first coordinate is r, so the sixteen rows are pairwise disjoint
  and cover the buffer: the buffer at contents f is its sixteen rows at f. Column j of row r sits at the
  buffer's index (r, 0, j); hence a copy of device r's column maxima into row r leaves there what the gathered
  buffer holds in that row, and a device's own row, never written, keeps the minus infinity it started with.
-/
import proofs.«900923_g7700000000000924_dist_max_ax0_shard0_i_m512_n256_v7x_i16_f32_1_alg».proof.Proof.Protocol
import Idealize.ShloMosaic.Lib.Pipeline.Value
import Idealize.ShloMosaic.Lib.ValueIdx
import Idealize.ShloMosaic.Rules.PointsTo

noncomputable section

namespace Cert.KernelIdeal.Proto

open Cert.KernelIdeal Cert.KernelIdeal.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## Which elements a row holds -/

/-- The one-row rectangle of the buffer at offsets (r, 0, 0). -/
abbrev rowRect (r : Dev nD) : Rect S16x1x256 := Rect.unit (s := S16x1x256) (k0_off1 r) S1x1x256.size (k0_off1_inb r)

/-- A row's elements are its rectangle's: squeezing re-indexes them, and the buffer is taken whole. -/
theorem row_set (r : Dev nD) : ((rowM r).view.set : Finset S16x1x256.Idx) = (rowRect r).set := by
  show (((View.whole cc0_scratch1 : View sig .tc _ _ _).slice (rowRect r)).reshape S1x256 squeezes_S1x1x256_S1x256.numel_eq).set = _
  rw [View.set_reshape, View.set_slice_whole]

/-- An index lies in the rectangle of row r iff its first coordinate is r: the other two axes are kept whole. -/
theorem mem_rowRect_iff (r : Dev nD) (i : S16x1x256.Idx) : i ∈ (rowRect r).set ↔ (i 0).val = r.val := by
  rw [Rect.mem_set_unit, k0_off1_eq]
  constructor
  · intro h
    have h0 : r.val ≤ (i 0).val ∧ (i 0).val < r.val + 1 := h (0 : Fin 3)
    omega
  · intro h a
    match a with
    | ⟨0, _⟩ => exact ⟨by show r.val ≤ (i 0).val; omega, by show (i 0).val < r.val + 1; omega⟩
    | ⟨1, _⟩ =>
      have h1 : (i 1).val < 1 := (i 1).isLt
      exact ⟨Nat.zero_le _, by show (i 1).val < 0 + 1; omega⟩
    | ⟨2, _⟩ =>
      have h2 : (i 2).val < 256 := (i 2).isLt
      exact ⟨Nat.zero_le _, by show (i 2).val < 0 + 256; omega⟩

/-- an element of the gather buffer lies in row r iff its first coordinate is r -/
theorem mem_row_iff (c r : Dev nD) (i : S16x1x256.Idx) : i ∈ ((rowM r).view.set : Finset S16x1x256.Idx) ↔ (i 0).val = r.val :=
  (Iff.of_eq (congrArg (fun s : Finset S16x1x256.Idx => i ∈ s) (row_set r))).trans (mem_rowRect_iff r i)

/-- off the row the contents are irrelevant -/
theorem rowPts_congr (d r : Dev nD) {f g : Buf (Elt F) ((rowM r).view.loc (d : Thread nD τ))}
    (h : ∀ i : S16x1x256.Idx, (i 0).val = r.val → f i = g i) : rowPts (F := F) d r f = rowPts d r g := by
  unfold rowPts
  exact pointsTo_congr fun i hi => h i ((mem_row_iff d r i).mp hi)

/-! ## Where a row's columns sit in the buffer -/

/-- The index of the one-row slice that column x of a row names. -/
abbrev rowLift (x : S1x256.Idx) : S1x1x256.Idx :=
  ix3 (n0 := 1) (n1 := 1) (n2 := 256) ⟨0, Nat.one_pos⟩ ⟨0, Nat.one_pos⟩ (x 1)

/-- Squeezing matches column x of the row with (0, 0, x): both stand at row-major position x. -/
theorem reshape_row (h : S1x256.numel = S1x1x256.numel) (x : S1x256.Idx) : Shape.reshapeEquiv h x = rowLift x :=
  Shape.reshapeEquiv_eq_of_rowMajor h (by
    rw [Shape.rowMajor_val_three, Shape.rowMajor_val_two]
    have h0 : (x 0).val < 1 := (x 0).isLt
    show (0 * 1 + 0) * 256 + (x 1).val = (x 0).val * 256 + (x 1).val
    omega)

/-- Column x of row r is the buffer's element (r, 0, x). -/
theorem row_emb (r : Dev nD) (x : S1x256.Idx) : ((rowM r).view.emb x : S16x1x256.Idx) = (rowRect r).emb (rowLift x) := by
  show (rowRect r).emb (Shape.reshapeEquiv squeezes_S1x1x256_S1x256.numel_eq x) = _
  rw [reshape_row]

/-- It belongs to device r, -/
theorem rowDev_emb (r : Dev nD) (x : S1x256.Idx) : Spec.rowDev ((rowRect r).emb (rowLift x)) = r := by
  refine Fin.ext ?_
  show (((rowRect r).emb (rowLift x) 0 : Fin _) : ℕ) = r.val
  rw [Rect.emb_apply, Rect.off_unit, k0_off1_eq]
  show r.val + 1 * 0 = r.val
  omega

/-- and names column x. -/
theorem rowIdx_emb (r : Dev nD) (x : S1x256.Idx) : Spec.rowIdx ((rowRect r).emb (rowLift x)) = x := by
  funext a
  refine Fin.ext ?_
  match a with
  | ⟨0, _⟩ =>
    have h0 : (x 0).val < 1 := (x 0).isLt
    show (((rowRect r).emb (rowLift x) 1 : Fin _) : ℕ) = (x 0).val
    rw [Rect.emb_apply, Rect.off_unit, k0_off1_eq]
    show 0 + 1 * 0 = (x 0).val
    omega
  | ⟨1, _⟩ =>
    show (((rowRect r).emb (rowLift x) 2 : Fin _) : ℕ) = (x 1).val
    rw [Rect.emb_apply, Rect.off_unit, k0_off1_eq]
    show 0 + 1 * (x 1).val = (x 1).val
    omega

/-! ## What a row holds -/

/-- device c's own row is never written: the initial contents are the gathered buffer's there -/
theorem init_row_self (c : Dev nD) : rowPts (F := F) c c initC = rowPts c c (gathC m c) := by
  refine rowPts_congr c c fun i hi => ?_
  show k0_pay1 (F := F) i = Spec.gathered (xstg m) c i
  unfold Spec.gathered
  rw [if_pos (show Spec.rowDev i = c from Fin.ext hi)]

/-- what a copy of device r's send buffer into row r of device c's gather buffer leaves on that row is what the
    gathered buffer holds there, whatever was there before (r ≠ c) -/
theorem landed_row (c r : Dev nD) (hr : r ≠ c) (fd : Buf (Elt F) ((rowM r).view.loc (c : Thread nD τ))) :
    rowPts (F := F) c r ((rowM r).view.write (Elt F) fd ((ownM : Memref sig .tc .vmem S1x256 .f32).view.read (Elt F) (ownC m r)) Finset.univ)
      = rowPts c r (gathC m c) := by
  refine rowPts_congr c r fun i hi => ?_
  obtain ⟨x, rfl⟩ := View.exists_emb_of_mem_set (rowM r).view ((mem_row_iff c r i).mpr hi)
  refine (View.write_emb_of_mem (v := (rowM r).view) (Val := Elt F) fd _ (Finset.mem_univ x)).trans ?_
  refine (cast_eq _ _).trans ?_
  have hread : (ownM : Memref sig .tc .vmem S1x256 .f32).view.read (Elt F) (ownC m r) = ownC m r := View.read_whole cc0_scratch0 (ownC m r)
  rw [hread, row_emb]
  unfold gathC ownC Spec.gathered
  rw [rowDev_emb, rowIdx_emb, if_neg hr]

/-! ## The buffer is its rows -/

theorem rows_disjoint (c : Dev nD) {r r' : Dev nD} (h : r ≠ r') :
    Disjoint ((rowM r).view.set : Finset S16x1x256.Idx) ((rowM r').view.set) := by
  rw [Finset.disjoint_left]
  intro i hi hi'
  exact h (Fin.ext (((mem_row_iff c r i).mp hi).symm.trans ((mem_row_iff c r' i).mp hi')))

theorem rows_cover (c : Dev nD) :
    (Finset.univ : Finset (Dev nD)).biUnion (fun r : Dev nD => ((rowM r).view.set : Finset S16x1x256.Idx)) = (Finset.univ : Finset S16x1x256.Idx) := by
  refine Finset.eq_univ_iff_forall.mpr fun i => ?_
  exact Finset.mem_biUnion.mpr ⟨Spec.rowDev i, Finset.mem_univ _, (mem_row_iff c (Spec.rowDev i) i).mpr rfl⟩

/-- the whole buffer at contents f is its sixteen rows at f -/
theorem rows_split (c : Dev nD) (f : Buf (Elt F) ((c : Thread nD τ).loc cc0_scratch1)) :
    ((((c : Thread nD τ).loc cc0_scratch1) ↦{fullShare} f) : sProp 𝕄) = bigSep Finset.univ fun r : Dev nD => rowPts c r f := by
  have h := pointsTo_biUnion (Lvl := ℕ) (Name := ℕ) (Ix := Unit) (U := UU) (Val := Elt F) (ℓ := (c : Thread nD τ).loc cc0_scratch1) (q := fullShare) (f := f)
    (Finset.univ : Finset (Dev nD)) (fun r => (rowM r).view.set) (fun r _ r' _ hne => rows_disjoint c hne)
  exact (congrArg (fun I => ((((c : Thread nD τ).loc cc0_scratch1) ↦[I]{fullShare} f) : sProp 𝕄)) (rows_cover c).symm).trans h

/-- info: 'Cert.KernelIdeal.Proto.landed_row' depends on axioms: [propext, Classical.choice, Quot.sound] -/
#guard_msgs in #print axioms landed_row

/-- info: 'Cert.KernelIdeal.Proto.init_row_self' depends on axioms: [propext, Classical.choice, Quot.sound] -/
#guard_msgs in #print axioms init_row_self

/-- info: 'Cert.KernelIdeal.Proto.rows_split' depends on axioms: [propext, Classical.choice, Quot.sound] -/
#guard_msgs in #print axioms rows_split

end Cert.KernelIdeal.Proto

end
-- ==== Proof.Glue.lean ====
/-
  Rearrangements of what a device holds of its two scratch buffers.
  The other fifteen devices are a device's peers, and equally its sources: a separating conjunction over the
  mesh is the device's own summand and the fifteen of its peers (or of its sources), and the source j + 1
  places back is the peer 15 - j places on. The gather buffer, once the initialising store has replaced its
  contents by minus infinity everywhere, is the device's own row and its peers' fifteen rows, all at the
  initial contents; the own row, never written, and the fifteen landed rows are the buffer at its final
  contents. The send buffer held whole is its fifteen read shares and what remains of the full share.
-/
import proofs.«900923_g7700000000000924_dist_max_ax0_shard0_i_m512_n256_v7x_i16_f32_1_alg».proof.Proof.Protocol
import proofs.«900923_g7700000000000924_dist_max_ax0_shard0_i_m512_n256_v7x_i16_f32_1_alg».proof.Proof.Mesh
import proofs.«900923_g7700000000000924_dist_max_ax0_shard0_i_m512_n256_v7x_i16_f32_1_alg».proof.Proof.Rows
import proofs.«900923_g7700000000000924_dist_max_ax0_shard0_i_m512_n256_v7x_i16_f32_1_alg».proof.Proof.Tables
import Idealize.ShloMosaic.Lib.Transfers
import Idealize.ShloMosaic.Lib.Writes
import Idealize.SL.ProofMode.BigOp

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)

/-! ## The mesh seen from one device -/

/-- Counting the fifteen places the other way round. -/
def rev15 (j : Fin 15) : Fin 15 := ⟨14 - j.val, by omega⟩

/-- src c j = peer c (14 - j) -/
theorem src_eq_peer (c : Dev nD) (j : Fin 15) : src c j = peer c (rev15 j) := by revert c j; decide
theorem peer_eq_src (c : Dev nD) (j : Fin 15) : peer c j = src c (rev15 j) := by revert c j; decide

/-- Every other device is one of the peers, -/
theorem exists_peer (c d : Dev nD) (h : d ≠ c) : ∃ j, peer c j = d := by revert c d; decide +kernel
/-- and one of the sources. -/
theorem exists_src (c d : Dev nD) (h : d ≠ c) : ∃ j, src c j = d := by revert c d; decide +kernel

/-- device c's peers are all the other devices -/
theorem univ_by_peer (c : Dev nD) : (Finset.univ : Finset (Dev nD)) = insert c (Finset.univ.image (peer c)) := by
  refine (Finset.eq_univ_iff_forall.mpr fun d => ?_).symm
  by_cases h : d = c
  · exact h ▸ Finset.mem_insert_self _ _
  · obtain ⟨j, rfl⟩ := exists_peer c d h
    exact Finset.mem_insert_of_mem (Finset.mem_image_of_mem _ (Finset.mem_univ j))

/-- and so are its sources -/
theorem univ_by_src (c : Dev nD) : (Finset.univ : Finset (Dev nD)) = insert c (Finset.univ.image (src c)) := by
  refine (Finset.eq_univ_iff_forall.mpr fun d => ?_).symm
  by_cases h : d = c
  · exact h ▸ Finset.mem_insert_self _ _
  · obtain ⟨j, rfl⟩ := exists_src c d h
    exact Finset.mem_insert_of_mem (Finset.mem_image_of_mem _ (Finset.mem_univ j))

theorem sep_by_peer {M : Type} [URA M] (c : Dev nD) (Φ : Dev nD → sProp M) :
    bigSep Finset.univ Φ = iprop(Φ c ∗ bigSep Finset.univ fun j : Fin 15 => Φ (peer c j)) := by
  have hc : c ∉ (Finset.univ : Finset (Fin 15)).image (peer c) := fun h => by
    obtain ⟨j, -, e⟩ := Finset.mem_image.mp h
    exact peer_ne_self c j e
  have hi : Set.InjOn (peer c) ((Finset.univ : Finset (Fin 15)) : Set (Fin 15)) := fun j _ j' _ h => peer_inj c h
  calc bigSep Finset.univ Φ = bigSep (insert c (Finset.univ.image (peer c))) Φ := congrArg (fun s => bigSep s Φ) (univ_by_peer c)
    _ = iprop(Φ c ∗ bigSep ((Finset.univ : Finset (Fin 15)).image (peer c)) Φ) := bigSep_insert hc
    _ = iprop(Φ c ∗ bigSep Finset.univ fun j : Fin 15 => Φ (peer c j)) := by rw [bigSep_image_of_injOn hi Φ]

theorem sep_by_src {M : Type} [URA M] (c : Dev nD) (Φ : Dev nD → sProp M) :
    bigSep Finset.univ Φ = iprop(Φ c ∗ bigSep Finset.univ fun j : Fin 15 => Φ (src c j)) := by
  have hc : c ∉ (Finset.univ : Finset (Fin 15)).image (src c) := fun h => by
    obtain ⟨j, -, e⟩ := Finset.mem_image.mp h
    exact src_ne_self c j e
  have hi : Set.InjOn (src c) ((Finset.univ : Finset (Fin 15)) : Set (Fin 15)) := fun j _ j' _ h => src_inj c h
  calc bigSep Finset.univ Φ = bigSep (insert c (Finset.univ.image (src c))) Φ := congrArg (fun s => bigSep s Φ) (univ_by_src c)
    _ = iprop(Φ c ∗ bigSep ((Finset.univ : Finset (Fin 15)).image (src c)) Φ) := bigSep_insert hc
    _ = iprop(Φ c ∗ bigSep Finset.univ fun j : Fin 15 => Φ (src c j)) := by rw [bigSep_image_of_injOn hi Φ]

/-! ## The two scratch buffers, named raw or through their memrefs -/

theorem own_raw (c : Dev nD) (f : Buf (Elt F) ((c : Thread nD τ).loc cc0_scratch0)) :
    ((((c : Thread nD τ).loc cc0_scratch0) ↦{fullShare} f) : sProp 𝕄) = ((ownM.view.loc (c : Thread nD τ)) ↦{fullShare} f) := rfl

theorem comm_raw (c : Dev nD) (f : Buf (Elt F) ((c : Thread nD τ).loc cc0_scratch1)) :
    ((((c : Thread nD τ).loc cc0_scratch1) ↦{fullShare} f) : sProp 𝕄) = ((commM.view.loc (c : Thread nD τ)) ↦{fullShare} f) := rfl

/-! ## The send buffer and its read shares -/

/-- The send buffer's memref takes the buffer whole. -/
theorem own_set : (ownM : Memref sig .tc .vmem S1x256 .f32).view.set = Finset.univ := View.set_whole cc0_scratch0

/-- the send buffer held whole, as its fifteen read shares and the remainder -/
theorem own_split (c : Dev nD) (f : Buf (Elt F) (ownM.view.loc (c : Thread nD τ))) :
    ((ownM.view.loc (c : Thread nD τ)) ↦{fullShare} f : sProp 𝕄)
      ⊢ iprop(ownPts c (shareDrop fullShare 15) f ∗ bigSep Finset.univ fun j : Fin 15 => ownPts c (shareTok fullShare 15 j) f) := by
  unfold ownPts
  rw [own_set]
  exact Transfers.pointsTo_toks_split fullShare 15

theorem own_join (c : Dev nD) (f : Buf (Elt F) (ownM.view.loc (c : Thread nD τ))) :
    (iprop(ownPts c (shareDrop fullShare 15) f ∗ bigSep Finset.univ fun j : Fin 15 => ownPts c (shareTok fullShare 15 j) f) : sProp 𝕄)
      ⊢ ((ownM.view.loc (c : Thread nD τ)) ↦{fullShare} f) := by
  unfold ownPts
  rw [own_set]
  exact Transfers.pointsTo_toks_join fullShare 15

/-- A load of the staged block through the whole rectangle reads its contents. -/
theorem x_read_whole (f : (cc0_stg0_0 : Ref sig .tc).ty.Contents (Elt F)) :
    View.readAt (Elt F) xM.view (Rect.unit (s := S512x256) ![0, 0] S512x256.size inb_S512x256_S512x256_0_0).toLoadRect f = f :=
  Memref.readAt_unit_zero (Elt F) cc0_stg0_0 (off := ![0, 0]) (by decide) inb_S512x256_S512x256_0_0 f

/-- One store into the send buffer through the whole rectangle replaces the contents, whatever they were. -/
theorem own_store (c : Dev nD) (f0 : Buf (Elt F) (ownM.view.loc (c : Thread nD τ))) (w : (cc0_scratch0 : Ref sig .tc).ty.Contents (Elt F)) :
    ownM.view.writes (Elt F) f0 [⟨Rect.unit (s := S1x256) ![0, 0] S1x256.size inb_S1x256_S1x256_0_0, w⟩] = w :=
  Memref.write_access_unit_zero_univ (Elt F) cc0_scratch0 (off := ![0, 0]) (by decide) inb_S1x256_S1x256_0_0 f0 w

/-- One store into the result's staging buffer through the whole rectangle replaces the contents, whatever they were. -/
theorem out_store (c : Dev nD) (g1 : Buf (Elt F) (oM.view.loc (c : Thread nD τ))) (w : FVec F S1x256 .f32) :
    oM.view.writes (Elt F) g1 [⟨Rect.unit (s := S1x256) ![0, 0] S1x256.size inb_S1x256_S1x256_0_0, w⟩] = w :=
  Memref.write_access_unit_zero_univ (Elt F) cc0_stg1_0 (off := ![0, 0]) (by decide) inb_S1x256_S1x256_0_0 g1 w

/-- A load of the gather buffer through the whole rectangle reads its contents. -/
theorem comm_read_whole (f : (cc0_scratch1 : Ref sig .tc).ty.Contents (Elt F)) :
    View.readAt (Elt F) commM.view (Rect.unit (s := S16x1x256) ![0, 0, 0] S16x1x256.size inb_S16x1x256_S16x1x256_0_0_0).toLoadRect f = f :=
  Memref.readAt_unit_zero (Elt F) cc0_scratch1 (off := ![0, 0, 0]) (by decide) inb_S16x1x256_S16x1x256_0_0_0 f

/-- the send buffer after its one store: the block's column maxima. The block is read whole, and one store through
    the whole rectangle replaces the contents. -/
theorem own_written (c : Dev nD) (f0 : Buf (Elt F) (ownM.view.loc (c : Thread nD τ))) :
    ownM.view.writes (Elt F) f0 [⟨Rect.unit (s := S1x256) ![0, 0] S1x256.size inb_S1x256_S1x256_0_0,
      k0_pay3 (View.readAt (Elt F) xM.view (Rect.unit (s := S512x256) ![0, 0] S512x256.size inb_S512x256_S512x256_0_0).toLoadRect (xstg m c))⟩] = ownC m c := by
  rw [x_read_whole, own_store]
  unfold ownC Spec.colMax
  rfl

/-! ## The gather buffer and its rows -/

/-- One store through the whole rectangle replaces the contents, whatever they were. -/
theorem comm_init_contents (c : Dev nD) (f1 : Buf (Elt F) (commM.view.loc (c : Thread nD τ))) :
    commM.view.writes (Elt F) f1 [⟨Rect.unit (s := S16x1x256) ![0, 0, 0] S16x1x256.size inb_S16x1x256_S16x1x256_0_0_0, k0_pay1 (F := F)⟩]
      = (initC : (cc0_scratch1 : Ref sig .tc).ty.Contents (Elt F)) :=
  Memref.write_access_unit_zero_univ (Elt F) cc0_scratch1 (off := ![0, 0, 0]) (by decide) inb_S16x1x256_S16x1x256_0_0_0 f1 (k0_pay1 (F := F))

/-- after the initialising store the gather buffer is its own row and the fifteen rows of its peers, all at the
    initial contents -/
theorem comm_init_split (c : Dev nD) (f1 : Buf (Elt F) (commM.view.loc (c : Thread nD τ))) :
    ((commM.view.loc (c : Thread nD τ)) ↦{fullShare} commM.view.writes (Elt F) f1 [⟨Rect.unit (s := S16x1x256) ![0, 0, 0] S16x1x256.size inb_S16x1x256_S16x1x256_0_0_0, k0_pay1 (F := F)⟩] : sProp 𝕄)
      ⊢ iprop(rowPts c c initC ∗ bigSep Finset.univ fun j : Fin 15 => rowPts c (peer c j) initC) := by
  rw [comm_init_contents c f1]
  exact Entails.of_eq (((comm_raw c initC).symm.trans (rows_split c initC)).trans (sep_by_peer c fun r => rowPts c r initC))

/-- the own row (never written) and the fifteen landed rows are the whole buffer at its final contents -/
theorem comm_join (c : Dev nD) :
    (iprop(rowPts c c initC ∗ bigSep Finset.univ fun j : Fin 15 => rowPts c (src c j) (gathC m c)) : sProp 𝕄)
      ⊢ ((commM.view.loc (c : Thread nD τ)) ↦{fullShare} gathC m c) := by
  rw [init_row_self m c]
  exact Entails.of_eq (((comm_raw c (gathC m c)).symm.trans ((rows_split c (gathC m c)).trans (sep_by_src c fun r => rowPts c r (gathC m c)))).symm)

/-- what the barrier wait hands device c: row c of every peer's gather buffer at the initial contents (duty d comes
    from src c d = peer c (14 - d)), the conjuncts from peer 14 down to peer 0 -/
theorem bar_payloads (c : Dev nD) : (bigSep Finset.univ (fun d : Fin 15 => (Rd (F := F) m).payload (barCell c) 0 d) : sProp 𝕄)
    ⊢ iprop(rowPts (F := F) (peer c 14) c initC ∗ rowPts (F := F) (peer c 13) c initC ∗ rowPts (F := F) (peer c 12) c initC ∗ rowPts (F := F) (peer c 11) c initC ∗ rowPts (F := F) (peer c 10) c initC ∗ rowPts (F := F) (peer c 9) c initC ∗ rowPts (F := F) (peer c 8) c initC ∗ rowPts (F := F) (peer c 7) c initC ∗ rowPts (F := F) (peer c 6) c initC ∗ rowPts (F := F) (peer c 5) c initC ∗ rowPts (F := F) (peer c 4) c initC ∗ rowPts (F := F) (peer c 3) c initC ∗ rowPts (F := F) (peer c 2) c initC ∗ rowPts (F := F) (peer c 1) c initC ∗ rowPts (F := F) (peer c 0) c initC) := by
  have h : (fun d : Fin 15 => (Rd (F := F) m).payload (barCell c) 0 d) = fun d : Fin 15 => rowPts (F := F) (peer c (rev15 d)) c initC :=
    funext fun d => by rw [payload_bar m c d, src_eq_peer]
  rw [h, bigSep_fin15]
  exact Entails.rfl

/-- info: 'Cert.KernelIdeal.Proto.bar_payloads' depends on axioms: [propext, Classical.choice, Quot.sound] -/
#guard_msgs in #print axioms bar_payloads

/-- info: 'Cert.KernelIdeal.Proto.own_written' depends on axioms: [propext, Classical.choice, Quot.sound] -/
#guard_msgs in #print axioms own_written

/-- info: 'Cert.KernelIdeal.Proto.comm_init_split' depends on axioms: [propext, Classical.choice, Quot.sound] -/
#guard_msgs in #print axioms comm_init_split

/-- info: 'Cert.KernelIdeal.Proto.comm_join' depends on axioms: [propext, Classical.choice, Quot.sound] -/
#guard_msgs in #print axioms comm_join

/-- info: 'Cert.KernelIdeal.Proto.own_split' depends on axioms: [propext, Classical.choice, Quot.sound] -/
#guard_msgs in #print axioms own_split

/-- info: 'Cert.KernelIdeal.Proto.own_join' depends on axioms: [propext, Classical.choice, Quot.sound] -/
#guard_msgs in #print axioms own_join

end Cert.KernelIdeal.Proto

end
-- ==== Proof.Body.lean ====
/-
  One device's body, run once at a symbolic device `c` of the sixteen.
  From its four buffers, the invariants of the cells it touches, the tokens of the forty-five duties it pays, its
  positions and credit on its own thirty-one cells and what it owes at launch, the run goes: the gather buffer is
  set to minus infinity and cut into its sixteen rows; each of the fifteen signals to a peer's barrier cell hands
  that peer the row reserved for it; the block's column maxima are stored in the send buffer; the wait for fifteen
  units on the device's own barrier cell brings row `c` of every peer's gather buffer; the send buffer is held as
  fifteen read shares, one lent to each copy, and copy `j` overwrites row `c` on `peer c j` with the column maxima,
  paying that peer's receive cell `j`; the fifteen receive waits bring back the fifteen foreign rows of the device's
  own gather buffer, each holding its sender's column maxima, and with the device's own row, still at minus
  infinity, they are the buffer whole at its final contents; the maximum over it and the device's own column maxima
  is stored as the result; the fifteen send waits return the read shares, which rejoin to the send buffer.
  Nothing is owed at the end, and the thirty transfer cells stand one round on.
-/
import proofs.«900923_g7700000000000924_dist_max_ax0_shard0_i_m512_n256_v7x_i16_f32_1_alg».proof.Proof.BodyDefs
import proofs.«900923_g7700000000000924_dist_max_ax0_shard0_i_m512_n256_v7x_i16_f32_1_alg».proof.Proof.Mesh
import proofs.«900923_g7700000000000924_dist_max_ax0_shard0_i_m512_n256_v7x_i16_f32_1_alg».proof.Proof.Tables
import proofs.«900923_g7700000000000924_dist_max_ax0_shard0_i_m512_n256_v7x_i16_f32_1_alg».proof.Proof.Rows
import proofs.«900923_g7700000000000924_dist_max_ax0_shard0_i_m512_n256_v7x_i16_f32_1_alg».proof.Proof.Glue

noncomputable section
namespace Cert.KernelIdeal.Proto
open Cert.KernelIdeal Cert.KernelIdeal.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The schedule's entries as the body meets them -/

/-- What device `c`'s signal number `j` hands the peer it goes to: row `peer c j` of `c`'s own gather buffer, at its
    initial contents (the peer is the `j`-th after `c`, so `c` is the `j`-th before the peer). -/
theorem tb_pay_sig (c : Dev nD) (j : Fin 15) : (Rd (F := F) m).payload (barCell (peer c j)) 0 j
    = ((rowM (peer c j)).view.loc (c : Thread nD τ) ↦[(rowM (peer c j)).view.set]{fullShare} initC) := by
  rw [payload_bar, src_peer]; rfl
/-- Every duty name is a duty of a barrier cell's one round. -/
theorem tb_mem_bar (c : Dev nD) (j : Fin 15) : j ∈ (Rd (F := F) m).duties (barCell c) 0 := by rw [duties_bar]; exact Finset.mem_univ _
/-- What the send cell `j` hands back once copy `j` has been read out: the read share of the send buffer lent to it. -/
theorem tb_pay_send (c : Dev nD) (j d : Fin 15) : (Rd (F := F) m).payload (sendCell c j) 0 d
    = (ownM.view.loc (c : Thread nD τ) ↦[ownM.view.set]{shareTok fullShare 15 j} ownC m c) := by
  rw [payload_send]; rfl
/-- What copy `j` lands on its target: row `c` of the gather buffer of `peer c j`, the row's initial contents
    overwritten by `c`'s column maxima — which is what that buffer finally holds there. -/
theorem tb_pay_recv_peer (c : Dev nD) (j d : Fin 15) : (Rd (F := F) m).payload (recvCell (peer c j) j) 0 d
    = ((rowM c).view.loc (peer c j : Thread nD τ) ↦[(rowM c).view.set]{fullShare}
        (rowM c).view.write (Elt F) initC (ownM.view.read (Elt F) (ownC m c)) Finset.univ) := by
  rw [payload_recv, src_peer]
  exact (landed_row m (peer c j) c (peer_ne_self c j).symm initC).symm

attribute [local sl_rounds] tb_pay_sig tb_pay_send tb_pay_recv_peer duties_bar duties_send duties_recv amount_bar amount_send amount_recv expect_bar expect_send expect_recv tb_mem_bar
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq sendSem1_eq sendSem2_eq sendSem3_eq sendSem4_eq sendSem5_eq sendSem6_eq sendSem7_eq sendSem8_eq sendSem9_eq sendSem10_eq sendSem11_eq sendSem12_eq sendSem13_eq sendSem14_eq sendSem15_eq recvSem1_eq recvSem2_eq recvSem3_eq recvSem4_eq recvSem5_eq recvSem6_eq recvSem7_eq recvSem8_eq recvSem9_eq recvSem10_eq recvSem11_eq recvSem12_eq recvSem13_eq recvSem14_eq recvSem15_eq

/-! ## Rejoining -/

/-- The own row, never written, and the fifteen rows the receive waits handed over are the whole gather buffer at its
    final contents. -/
theorem recv_rejoin (c : Dev nD) :
    (iprop(rowPts c c initC ∗ (Rd (F := F) m).payload (recvCell c 0) 0 0 ∗ (Rd (F := F) m).payload (recvCell c 1) 0 0 ∗ (Rd (F := F) m).payload (recvCell c 2) 0 0 ∗ (Rd (F := F) m).payload (recvCell c 3) 0 0 ∗ (Rd (F := F) m).payload (recvCell c 4) 0 0 ∗ (Rd (F := F) m).payload (recvCell c 5) 0 0 ∗ (Rd (F := F) m).payload (recvCell c 6) 0 0 ∗ (Rd (F := F) m).payload (recvCell c 7) 0 0 ∗ (Rd (F := F) m).payload (recvCell c 8) 0 0 ∗ (Rd (F := F) m).payload (recvCell c 9) 0 0 ∗ (Rd (F := F) m).payload (recvCell c 10) 0 0 ∗ (Rd (F := F) m).payload (recvCell c 11) 0 0 ∗ (Rd (F := F) m).payload (recvCell c 12) 0 0 ∗ (Rd (F := F) m).payload (recvCell c 13) 0 0 ∗ (Rd (F := F) m).payload (recvCell c 14) 0 0) : sProp 𝕄)
      ⊢ ((commM.view.loc (c : Thread nD τ)) ↦{fullShare} gathC m c) := by
  simp only [payload_recv]
  iintro ⟨Hc, Hs⟩
  iapply (comm_join m c)
  isplitl [Hc]; · iexact Hc
  iapply (Entails.of_eq (bigSep_fin15 (fun j : Fin 15 => rowPts (F := F) c (src c j) (gathC m c))).symm)
  iexact Hs

/-- The remainder and the fifteen read shares the send waits handed back are the send buffer whole. -/
theorem own_rejoin (c : Dev nD) :
    (iprop(ownPts c (shareDrop fullShare 15) (ownC m c) ∗ ownPts (F := F) c (shareTok fullShare 15 0) (ownC m c) ∗ ownPts (F := F) c (shareTok fullShare 15 1) (ownC m c) ∗ ownPts (F := F) c (shareTok fullShare 15 2) (ownC m c) ∗ ownPts (F := F) c (shareTok fullShare 15 3) (ownC m c) ∗ ownPts (F := F) c (shareTok fullShare 15 4) (ownC m c) ∗ ownPts (F := F) c (shareTok fullShare 15 5) (ownC m c) ∗ ownPts (F := F) c (shareTok fullShare 15 6) (ownC m c) ∗ ownPts (F := F) c (shareTok fullShare 15 7) (ownC m c) ∗ ownPts (F := F) c (shareTok fullShare 15 8) (ownC m c) ∗ ownPts (F := F) c (shareTok fullShare 15 9) (ownC m c) ∗ ownPts (F := F) c (shareTok fullShare 15 10) (ownC m c) ∗ ownPts (F := F) c (shareTok fullShare 15 11) (ownC m c) ∗ ownPts (F := F) c (shareTok fullShare 15 12) (ownC m c) ∗ ownPts (F := F) c (shareTok fullShare 15 13) (ownC m c) ∗ ownPts (F := F) c (shareTok fullShare 15 14) (ownC m c)) : sProp 𝕄)
      ⊢ ((ownM.view.loc (c : Thread nD τ)) ↦{fullShare} ownC m c) := by
  iintro ⟨HR, Hs⟩
  iapply (own_join (F := F) c (ownC m c))
  isplitl [HR]; · iexact HR
  iapply (Entails.of_eq (bigSep_fin15 (fun j : Fin 15 => ownPts (F := F) c (shareTok fullShare 15 j) (ownC m c))).symm)
  iexact Hs

/-! ## The body -/

set_option maxHeartbeats 0 in
theorem sound_body (K : Dev nD × Fin 31 → ℕ) (c : Dev nD) (W : Waits sig Unit) (g1 : Buf (Elt F) (oM.view.loc (c : Thread nD τ)))
    (f0 : Buf (Elt F) (ownM.view.loc (c : Thread nD τ))) (f1 : Buf (Elt F) (commM.view.loc (c : Thread nD τ)))
    (Q : PUnit → sProp 𝕄) :
    iprop(preFlat m K c W g1 f0 f1 ∗ (postFlat m c -∗ Q ⟨⟩))
      ⊢ wp frame (wpE (defs₀ (F := F)) 𝒱₀ c none) Set.univ
          (cc0_body xM xM_whole oM oM_whole ownM ownM_whole commM commM_whole cc0_scratch2 cc0_scratch3) Q := by
  unfold preFlat
  iintro ⟨⟨#HIb, #HIs0, #HIs1, #HIs2, #HIs3, #HIs4, #HIs5, #HIs6, #HIs7, #HIs8, #HIs9, #HIs10, #HIs11, #HIs12, #HIs13, #HIs14, #HIr0, #HIr1, #HIr2, #HIr3, #HIr4, #HIr5, #HIr6, #HIr7, #HIr8, #HIr9, #HIr10, #HIr11, #HIr12, #HIr13, #HIr14, #HIbp0, #HIbp1, #HIbp2, #HIbp3, #HIbp4, #HIbp5, #HIbp6, #HIbp7, #HIbp8, #HIbp9, #HIbp10, #HIbp11, #HIbp12, #HIbp13, #HIbp14, #HIrp0, #HIrp1, #HIrp2, #HIrp3, #HIrp4, #HIrp5, #HIrp6, #HIrp7, #HIrp8, #HIrp9, #HIrp10, #HIrp11, #HIrp12, #HIrp13, #HIrp14, #HRbp0, #HRbp1, #HRbp2, #HRbp3, #HRbp4, #HRbp5, #HRbp6, #HRbp7, #HRbp8, #HRbp9, #HRbp10, #HRbp11, #HRbp12, #HRbp13, #HRbp14, #HRrp0, #HRrp1, #HRrp2, #HRrp3, #HRrp4, #HRrp5, #HRrp6, #HRrp7, #HRrp8, #HRrp9, #HRrp10, #HRrp11, #HRrp12, #HRrp13, #HRrp14, #HRs0, #HRs1, #HRs2, #HRs3, #HRs4, #HRs5, #HRs6, #HRs7, #HRs8, #HRs9, #HRs10, #HRs11, #HRs12, #HRs13, #HRs14, #Hlev, Hx, Hout, Hown, Hcomm, HO, Htb0, Htb1, Htb2, Htb3, Htb4, Htb5, Htb6, Htb7, Htb8, Htb9, Htb10, Htb11, Htb12, Htb13, Htb14, Htr0, Htr1, Htr2, Htr3, Htr4, Htr5, Htr6, Htr7, Htr8, Htr9, Htr10, Htr11, Htr12, Htr13, Htr14, Hts0, Hts1, Hts2, Hts3, Hts4, Hts5, Hts6, Hts7, Hts8, Hts9, Hts10, Hts11, Hts12, Hts13, Hts14, HaB, HaS0, HaS1, HaS2, HaS3, HaS4, HaS5, HaS6, HaS7, HaS8, HaS9, HaS10, HaS11, HaS12, HaS13, HaS14, HaR0, HaR1, HaR2, HaR3, HaR4, HaR5, HaR6, HaR7, HaR8, HaR9, HaR10, HaR11, HaR12, HaR13, HaR14, HcB, HcR0, HcR1, HcR2, HcR3, HcR4, HcR5, HcR6, HcR7, HcR8, HcR9, HcR10, HcR11, HcR12, HcR13, HcR14⟩, Hk⟩
  sl_unfold [cc0_body]
  -- the gather buffer initialised
  set_option sl_exec.maxSteps 5 in sl_exec
  -- … and cut into its rows: one for each peer, one of its own
  ihave Hrows := (comm_init_split (F := F) c f1) $$ Hcomm
  icases Hrows with ⟨Hrowc, Hrows⟩
  ihave Hrows' := (Entails.of_eq (bigSep_fin15 (fun j : Fin 15 => rowPts (F := F) c (peer c j) initC))) $$ Hrows
  unfold rowPts
  icases Hrows' with ⟨Hrow0, Hrow1, Hrow2, Hrow3, Hrow4, Hrow5, Hrow6, Hrow7, Hrow8, Hrow9, Hrow10, Hrow11, Hrow12, Hrow13, Hrow14⟩
  have hmw : (levAts L lv : sProp 𝕄) ⊢ MayWait (c : Thread nD τ) (.reg barS) () (rT c 14 + rT c 13 + rT c 12 + rT c 11 + rT c 10 + rT c 9 + rT c 8 + rT c 7 + rT c 6 + rT c 5 + rT c 4 + rT c 3 + rT c 2 + rT c 1 + rT c 0) := mayWait_bar (F := F) c
  -- the fifteen signals, the block reduced and stored, the wait for the fifteen peers
  set_option sl_exec.maxSteps 66 in sl_exec
  -- what the wait hands over: row c of every peer's gather buffer
  ihave Hd := (bar_payloads m c) $$ HaB_pay1
  unfold rowPts
  icases Hd with ⟨Hd14, Hd13, Hd12, Hd11, Hd10, Hd9, Hd8, Hd7, Hd6, Hd5, Hd4, Hd3, Hd2, Hd1, Hd0⟩
  -- the send buffer at its contents, as fifteen read shares and a remainder
  rw [own_written m c f0]
  ihave Hsh := (own_split (F := F) c (ownC m c)) $$ Hown
  icases Hsh with ⟨HownR, Hsh⟩
  ihave Hsh' := (Entails.of_eq (bigSep_fin15 (fun j : Fin 15 => ownPts (F := F) c (shareTok fullShare 15 j) (ownC m c)))) $$ Hsh
  unfold ownPts
  icases Hsh' with ⟨Hsh0, Hsh1, Hsh2, Hsh3, Hsh4, Hsh5, Hsh6, Hsh7, Hsh8, Hsh9, Hsh10, Hsh11, Hsh12, Hsh13, Hsh14⟩
  -- the fifteen copies out, the fifteen rows in
  sl_exec (disch := simp only [dev16_eq, dev17_eq, dev18_eq, dev19_eq, dev20_eq, dev21_eq, dev22_eq, dev23_eq, dev24_eq, dev25_eq, dev26_eq, dev27_eq, dev28_eq, dev29_eq, dev30_eq])
  -- the gather buffer whole again
  ihave Hcomm := (recv_rejoin m c) $$ [Hrowc HaR0_pay1 HaR1_pay1 HaR2_pay1 HaR3_pay1 HaR4_pay1 HaR5_pay1 HaR6_pay1 HaR7_pay1 HaR8_pay1 HaR9_pay1 HaR10_pay1 HaR11_pay1 HaR12_pay1 HaR13_pay1 HaR14_pay1]
  · unfold rowPts
    isplitl [Hrowc]; · iexact Hrowc
    isplitl [HaR0_pay1]; · iexact HaR0_pay1
    isplitl [HaR1_pay1]; · iexact HaR1_pay1
    isplitl [HaR2_pay1]; · iexact HaR2_pay1
    isplitl [HaR3_pay1]; · iexact HaR3_pay1
    isplitl [HaR4_pay1]; · iexact HaR4_pay1
    isplitl [HaR5_pay1]; · iexact HaR5_pay1
    isplitl [HaR6_pay1]; · iexact HaR6_pay1
    isplitl [HaR7_pay1]; · iexact HaR7_pay1
    isplitl [HaR8_pay1]; · iexact HaR8_pay1
    isplitl [HaR9_pay1]; · iexact HaR9_pay1
    isplitl [HaR10_pay1]; · iexact HaR10_pay1
    isplitl [HaR11_pay1]; · iexact HaR11_pay1
    isplitl [HaR12_pay1]; · iexact HaR12_pay1
    isplitl [HaR13_pay1]; · iexact HaR13_pay1
    iexact HaR14_pay1
  -- the maximum taken and stored, the fifteen copies read out
  sl_exec
  sl_step
  iapply Hk
  unfold postFlat
  have hr : sound_body.sl.r m c = k0_pay2 (xstg m c) := by unfold sound_body.sl.r; rw [x_read_whole]
  rw [out_store, comm_read_whole, hr]
  isplitl [Hx]; · iexact Hx
  isplitl [Hout]
  · rw [show outC m c = k0_pay4 (k0_pay2 (xstg m c)) (gathC m c) from rfl]; iexact Hout
  isplitl [HownR HaS0_pay1 HaS1_pay1 HaS2_pay1 HaS3_pay1 HaS4_pay1 HaS5_pay1 HaS6_pay1 HaS7_pay1 HaS8_pay1 HaS9_pay1 HaS10_pay1 HaS11_pay1 HaS12_pay1 HaS13_pay1 HaS14_pay1]
  · iapply (own_rejoin m c)
    unfold ownPts
    isplitl [HownR]; · iexact HownR
    isplitl [HaS0_pay1]; · iexact HaS0_pay1
    isplitl [HaS1_pay1]; · iexact HaS1_pay1
    isplitl [HaS2_pay1]; · iexact HaS2_pay1
    isplitl [HaS3_pay1]; · iexact HaS3_pay1
    isplitl [HaS4_pay1]; · iexact HaS4_pay1
    isplitl [HaS5_pay1]; · iexact HaS5_pay1
    isplitl [HaS6_pay1]; · iexact HaS6_pay1
    isplitl [HaS7_pay1]; · iexact HaS7_pay1
    isplitl [HaS8_pay1]; · iexact HaS8_pay1
    isplitl [HaS9_pay1]; · iexact HaS9_pay1
    isplitl [HaS10_pay1]; · iexact HaS10_pay1
    isplitl [HaS11_pay1]; · iexact HaS11_pay1
    isplitl [HaS12_pay1]; · iexact HaS12_pay1
    isplitl [HaS13_pay1]; · iexact HaS13_pay1
    iexact HaS14_pay1
  isplitl [Hcomm]; · iexact Hcomm
  isplitl [HO]; · iexists _; iexact HO
  isplitl [HaS0]; · iexact HaS0
  isplitl [HaS1]; · iexact HaS1
  isplitl [HaS2]; · iexact HaS2
  isplitl [HaS3]; · iexact HaS3
  isplitl [HaS4]; · iexact HaS4
  isplitl [HaS5]; · iexact HaS5
  isplitl [HaS6]; · iexact HaS6
  isplitl [HaS7]; · iexact HaS7
  isplitl [HaS8]; · iexact HaS8
  isplitl [HaS9]; · iexact HaS9
  isplitl [HaS10]; · iexact HaS10
  isplitl [HaS11]; · iexact HaS11
  isplitl [HaS12]; · iexact HaS12
  isplitl [HaS13]; · iexact HaS13
  isplitl [HaS14]; · iexact HaS14
  isplitl [HaR0]; · iexact HaR0
  isplitl [HaR1]; · iexact HaR1
  isplitl [HaR2]; · iexact HaR2
  isplitl [HaR3]; · iexact HaR3
  isplitl [HaR4]; · iexact HaR4
  isplitl [HaR5]; · iexact HaR5
  isplitl [HaR6]; · iexact HaR6
  isplitl [HaR7]; · iexact HaR7
  isplitl [HaR8]; · iexact HaR8
  isplitl [HaR9]; · iexact HaR9
  isplitl [HaR10]; · iexact HaR10
  isplitl [HaR11]; · iexact HaR11
  isplitl [HaR12]; · iexact HaR12
  isplitl [HaR13]; · iexact HaR13
  iexact HaR14

/-- info: 'Cert.KernelIdeal.Proto.sound_body' depends on axioms: [propext, Classical.choice, Quot.sound] -/
#guard_msgs in #print axioms sound_body

end Cert.KernelIdeal.Proto
end
-- ==== Proof.Ghost.lean ====
/-
  Single cells out of the launch's records, and the thirty own cells closed.
  The records hold every cell's invariant and that every cell's round 0 is reached, indexed by (device, one of
  thirty-one); a device's positions are indexed the same way. Here each is read at a named cell: the barrier
  cell, send cell `j`, receive cell `j`. The thirty-one indices are the barrier's, the fifteen send cells' and
  the fifteen receive cells', so a conjunction over them splits in those three. A send or receive cell has one
  round only, so once its owner stands at round 1 with nothing taken the cell closes and its counter, at zero,
  is the device's again.
-/
import proofs.«900923_g7700000000000924_dist_max_ax0_shard0_i_m512_n256_v7x_i16_f32_1_alg».proof.Proof.Protocol
import proofs.«900923_g7700000000000924_dist_max_ax0_shard0_i_m512_n256_v7x_i16_f32_1_alg».proof.Proof.Mesh
import proofs.«900923_g7700000000000924_dist_max_ax0_shard0_i_m512_n256_v7x_i16_f32_1_alg».proof.Proof.Tables

noncomputable section

namespace Cert.KernelIdeal.Proto

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells by name -/

theorem kcell_kb (x : Dev nD) : kcell (x, kb) = barCell x := rfl
theorem kcell_ks (x : Dev nD) (j : Fin 15) : kcell (x, ks j) = sendCell x j :=
  congrArg (Prod.mk (x : Thread nD τ)) (csem_ks j)
theorem kcell_kr (x : Dev nD) (j : Fin 15) : kcell (x, kr j) = recvCell x j :=
  congrArg (Prod.mk (x : Thread nD τ)) (csem_kr j)

/-! ## One cell's invariant and reached-mark out of the records -/

theorem inv_at (K : Dev nD × Fin 31 → ℕ) (ck : Dev nD × Fin 31) :
    records m K ⊢ cellInv ER (Rd m) (K ck) (kcell ck) := by
  unfold records
  iintro ⟨HI, -⟩
  iapply (show (bigSep Finset.univ fun ck : Dev nD × Fin 31 => (cellInv ER (Rd m) (K ck) (kcell ck) : sProp 𝕄))
      ⊢ cellInv ER (Rd m) (K ck) (kcell ck) from bigSep_elim (Finset.mem_univ ck))
  iexact HI

theorem reached_at (K : Dev nD × Fin 31 → ℕ) (ck : Dev nD × Fin 31) :
    records m K ⊢ (reached ER (kcell ck) 0 : sProp 𝕄) := by
  unfold records
  iintro ⟨-, HR⟩
  iapply (show (bigSep Finset.univ fun ck : Dev nD × Fin 31 => (reached ER (kcell ck) 0 : sProp 𝕄))
      ⊢ reached ER (kcell ck) 0 from bigSep_elim (Finset.mem_univ ck))
  iexact HR

theorem inv_bar (K : Dev nD × Fin 31 → ℕ) (x : Dev nD) :
    records m K ⊢ cellInv ER (Rd m) (K (x, kb)) (barCell x) := inv_at m K (x, kb)
theorem inv_send (K : Dev nD × Fin 31 → ℕ) (x : Dev nD) (j : Fin 15) :
    records m K ⊢ cellInv ER (Rd m) (K (x, ks j)) (sendCell x j) := by
  have h := inv_at m K (x, ks j); rw [kcell_ks] at h; exact h
theorem inv_recv (K : Dev nD × Fin 31 → ℕ) (x : Dev nD) (j : Fin 15) :
    records m K ⊢ cellInv ER (Rd m) (K (x, kr j)) (recvCell x j) := by
  have h := inv_at m K (x, kr j); rw [kcell_kr] at h; exact h

theorem reached_bar (K : Dev nD × Fin 31 → ℕ) (x : Dev nD) :
    records m K ⊢ (reached ER (barCell x) 0 : sProp 𝕄) := reached_at m K (x, kb)
theorem reached_send (K : Dev nD × Fin 31 → ℕ) (x : Dev nD) (j : Fin 15) :
    records m K ⊢ (reached ER (sendCell x j) 0 : sProp 𝕄) := by
  have h := reached_at m K (x, ks j); rw [kcell_ks] at h; exact h
theorem reached_recv (K : Dev nD × Fin 31 → ℕ) (x : Dev nD) (j : Fin 15) :
    records m K ⊢ (reached ER (recvCell x j) 0 : sProp 𝕄) := by
  have h := reached_at m K (x, kr j); rw [kcell_kr] at h; exact h

/-! ## A device's positions, cell by cell -/

/-- The thirty-one cells of a device: its barrier cell, its fifteen send cells, its fifteen receive cells. -/
def cellsEquiv : Unit ⊕ (Fin 15 ⊕ Fin 15) ≃ Fin 31 where
  toFun
    | .inl _ => kb
    | .inr (.inl j) => ks j
    | .inr (.inr j) => kr j
  invFun k :=
    if h0 : k.val = 0 then .inl ()
    else if h1 : k.val ≤ 15 then .inr (.inl ⟨k.val - 1, by omega⟩)
    else .inr (.inr ⟨k.val - 16, by have := k.isLt; omega⟩)
  left_inv a := by
    rcases a with u | j | j
    · rfl
    · revert j; decide
    · revert j; decide
  right_inv k := by revert k; decide

omit [FloatOps F] in
theorem positions_eq (c : Dev nD) :
    (positions (F := F) c) = iprop(atPos ER (barCell c) 0 ∅ 0
      ∗ (bigSep Finset.univ fun j : Fin 15 => atPos ER (sendCell c j) 0 ∅ 0)
      ∗ (bigSep Finset.univ fun j : Fin 15 => atPos ER (recvCell c j) 0 ∅ 0)) := by
  have hs : (fun j : Fin 15 => (atPos ER (sendCell c j) 0 ∅ 0 : sProp 𝕄)) = fun j => atPos ER (kcell (c, ks j)) 0 ∅ 0 :=
    funext fun j => by rw [kcell_ks]
  have hr : (fun j : Fin 15 => (atPos ER (recvCell c j) 0 ∅ 0 : sProp 𝕄)) = fun j => atPos ER (kcell (c, kr j)) 0 ∅ 0 :=
    funext fun j => by rw [kcell_kr]
  unfold positions
  rw [hs, hr, bigSep_univ_equiv cellsEquiv, bigSep_univ_sum, bigSep_univ_sum, bigSep_univ_of_subsingleton ()]
  rfl

/-! ## The own cells closed -/

theorem close_send (K : Dev nD × Fin 31 → ℕ) (c : Dev nD) (j : Fin 15) :
    iprop(records m K ∗ atPos ER (sendCell c j) (0 + 1) ∅ 0) ⊢ (|={Set.univ}=> semVal (sendCell c j) 0 : sProp 𝕄) :=
  (sep_mono_left (inv_send m K c j)).trans
    (Rounds.cell_close ER (Rd m) (Set.mem_univ (K (c, ks j))) (fun h => h) (R := 0 + 1) (duties_later m (sendCell c j)))

theorem close_recv (K : Dev nD × Fin 31 → ℕ) (c : Dev nD) (j : Fin 15) :
    iprop(records m K ∗ atPos ER (recvCell c j) (0 + 1) ∅ 0) ⊢ (|={Set.univ}=> semVal (recvCell c j) 0 : sProp 𝕄) :=
  (sep_mono_left (inv_recv m K c j)).trans
    (Rounds.cell_close ER (Rd m) (Set.mem_univ (K (c, kr j))) (fun h => h) (R := 0 + 1) (duties_later m (recvCell c j)))

/-- info: 'Cert.KernelIdeal.Proto.close_recv' depends on axioms: [propext, Classical.choice, Quot.sound] -/
#guard_msgs in #print axioms close_recv
/-- info: 'Cert.KernelIdeal.Proto.positions_eq' depends on axioms: [propext, Classical.choice, Quot.sound] -/
#guard_msgs in #print axioms positions_eq

end Cert.KernelIdeal.Proto

end
-- ==== Proof.Oblig.lean ====
/-
  The launch's body obligation from the body's run.
  At the one grid point the obligation hands a device its ghost state, what it owes, and its two staged buffers;
  the body's run is stated over the same resources laid out one by one. Here the first is unpacked into the
  second: each cell's invariant and reached-mark is read out of the launch's records, the positions, tokens and
  credits are enumerated, the staged buffers are named through their memrefs. After the run the thirty transfer
  cells, each one round on with nothing taken, close, and their counters at zero go back with the buffers.
-/
import proofs.«900923_g7700000000000924_dist_max_ax0_shard0_i_m512_n256_v7x_i16_f32_1_alg».proof.Proof.Body
import proofs.«900923_g7700000000000924_dist_max_ax0_shard0_i_m512_n256_v7x_i16_f32_1_alg».proof.Proof.Ghost

noncomputable section
namespace Cert.KernelIdeal.Proto
open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The one grid point, and a staged buffer as the obligation holds it -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The four buffers, named raw or through their memrefs -/

omit [FloatOps F] in
theorem stg0_raw (c : Dev nD) (f : Buf (Elt F) ((c : Thread nD τ).loc cc0_stg0_0)) :
    ((((c : Thread nD τ).loc cc0_stg0_0) ↦{fullShare} f) : sProp 𝕄) = ((xM.view.loc (c : Thread nD τ)) ↦{fullShare} f) := rfl
omit [FloatOps F] in
theorem stg1_raw (c : Dev nD) (f : Buf (Elt F) ((c : Thread nD τ).loc cc0_stg1_0)) :
    ((((c : Thread nD τ).loc cc0_stg1_0) ↦{fullShare} f) : sProp 𝕄) = ((oM.view.loc (c : Thread nD τ)) ↦{fullShare} f) := rfl
omit [FloatOps F] in
theorem scr0_raw (c : Dev nD) (f : Buf (Elt F) ((c : Thread nD τ).loc cc0_scratch0)) :
    ((((c : Thread nD τ).loc cc0_scratch0) ↦{fullShare} f) : sProp 𝕄) = ((ownM.view.loc (c : Thread nD τ)) ↦{fullShare} f) := rfl
omit [FloatOps F] in
theorem scr1_raw (c : Dev nD) (f : Buf (Elt F) ((c : Thread nD τ).loc cc0_scratch1)) :
    ((((c : Thread nD τ).loc cc0_scratch1) ↦{fullShare} f) : sProp 𝕄) = ((commM.view.loc (c : Thread nD τ)) ↦{fullShare} f) := rfl

/-! ## The obligation's two ends -/

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xstg m c) ∗ stg c cc0_stg1_0 (outC m c))

set_option maxRecDepth 8000 in
set_option maxHeartbeats 1600000 in
/-- From the obligation's precondition the body runs to its postcondition behind one more update: the launch's
    ghost state is laid out flat for the body's run, and after it the thirty transfer cells, one round on, close. -/
theorem body_wrap_fupd (c : Dev nD) :
    bodyPre' m c ⊢ wp frame (wpE (defs₀ (F := F)) 𝒱₀ c none) Set.univ
      (cc0_body xM xM_whole oM oM_whole ownM ownM_whole commM commM_whole cc0_scratch2 cc0_scratch3) (fun _ => iprop(|={Set.univ}=> bodyPost m c)) := by
  unfold bodyPre' Φ₀ start ghost payToks
  rw [positions_eq]
  simp only [bigSep_fin15]
  iintro ⟨⟨⟨⟨%K, #Hrec, ⟨HpB, ⟨HpS0, HpS1, HpS2, HpS3, HpS4, HpS5, HpS6, HpS7, HpS8, HpS9, HpS10, HpS11, HpS12, HpS13, HpS14⟩, ⟨HpR0, HpR1, HpR2, HpR3, HpR4, HpR5, HpR6, HpR7, HpR8, HpR9, HpR10, HpR11, HpR12, HpR13, HpR14⟩⟩, ⟨HtB0, HtB1, HtB2, HtB3, HtB4, HtB5, HtB6, HtB7, HtB8, HtB9, HtB10, HtB11, HtB12, HtB13, HtB14⟩, ⟨HtR0, HtR1, HtR2, HtR3, HtR4, HtR5, HtR6, HtR7, HtR8, HtR9, HtR10, HtR11, HtR12, HtR13, HtR14⟩, ⟨HtS0, HtS1, HtS2, HtS3, HtS4, HtS5, HtS6, HtS7, HtS8, HtS9, HtS10, HtS11, HtS12, HtS13, HtS14⟩⟩, HcB, ⟨HcR0, HcR1, HcR2, HcR3, HcR4, HcR5, HcR6, HcR7, HcR8, HcR9, HcR10, HcR11, HcR12, HcR13, HcR14⟩, Hidle, #Hlev⟩, ⟨%f0, Hown⟩, ⟨%f1, Hcomm⟩⟩, Ho, ⟨%d0, %g0, %hg0, Hx⟩, ⟨%d1, %g1, %hg1, Hout⟩⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀
  iapply (sound_body m K c W g1 f0 f1 (fun _ => iprop(|={Set.univ}=> bodyPost m c)))
  isplitr [Hidle]
  · unfold preFlat
    rw [← stg0_raw c (xstg m c), ← stg1_raw c g1, ← scr0_raw c f0, ← scr1_raw c f1]
    isplitr; · iapply (inv_bar m K c); iexact Hrec
    isplitr; · iapply (inv_send m K c 0); iexact Hrec
    isplitr; · iapply (inv_send m K c 1); iexact Hrec
    isplitr; · iapply (inv_send m K c 2); iexact Hrec
    isplitr; · iapply (inv_send m K c 3); iexact Hrec
    isplitr; · iapply (inv_send m K c 4); iexact Hrec
    isplitr; · iapply (inv_send m K c 5); iexact Hrec
    isplitr; · iapply (inv_send m K c 6); iexact Hrec
    isplitr; · iapply (inv_send m K c 7); iexact Hrec
    isplitr; · iapply (inv_send m K c 8); iexact Hrec
    isplitr; · iapply (inv_send m K c 9); iexact Hrec
    isplitr; · iapply (inv_send m K c 10); iexact Hrec
    isplitr; · iapply (inv_send m K c 11); iexact Hrec
    isplitr; · iapply (inv_send m K c 12); iexact Hrec
    isplitr; · iapply (inv_send m K c 13); iexact Hrec
    isplitr; · iapply (inv_send m K c 14); iexact Hrec
    isplitr; · iapply (inv_recv m K c 0); iexact Hrec
    isplitr; · iapply (inv_recv m K c 1); iexact Hrec
    isplitr; · iapply (inv_recv m K c 2); iexact Hrec
    isplitr; · iapply (inv_recv m K c 3); iexact Hrec
    isplitr; · iapply (inv_recv m K c 4); iexact Hrec
    isplitr; · iapply (inv_recv m K c 5); iexact Hrec
    isplitr; · iapply (inv_recv m K c 6); iexact Hrec
    isplitr; · iapply (inv_recv m K c 7); iexact Hrec
    isplitr; · iapply (inv_recv m K c 8); iexact Hrec
    isplitr; · iapply (inv_recv m K c 9); iexact Hrec
    isplitr; · iapply (inv_recv m K c 10); iexact Hrec
    isplitr; · iapply (inv_recv m K c 11); iexact Hrec
    isplitr; · iapply (inv_recv m K c 12); iexact Hrec
    isplitr; · iapply (inv_recv m K c 13); iexact Hrec
    isplitr; · iapply (inv_recv m K c 14); iexact Hrec
    isplitr; · iapply (inv_bar m K (peer c 0)); iexact Hrec
    isplitr; · iapply (inv_bar m K (peer c 1)); iexact Hrec
    isplitr; · iapply (inv_bar m K (peer c 2)); iexact Hrec
    isplitr; · iapply (inv_bar m K (peer c 3)); iexact Hrec
    isplitr; · iapply (inv_bar m K (peer c 4)); iexact Hrec
    isplitr; · iapply (inv_bar m K (peer c 5)); iexact Hrec
    isplitr; · iapply (inv_bar m K (peer c 6)); iexact Hrec
    isplitr; · iapply (inv_bar m K (peer c 7)); iexact Hrec
    isplitr; · iapply (inv_bar m K (peer c 8)); iexact Hrec
    isplitr; · iapply (inv_bar m K (peer c 9)); iexact Hrec
    isplitr; · iapply (inv_bar m K (peer c 10)); iexact Hrec
    isplitr; · iapply (inv_bar m K (peer c 11)); iexact Hrec
    isplitr; · iapply (inv_bar m K (peer c 12)); iexact Hrec
    isplitr; · iapply (inv_bar m K (peer c 13)); iexact Hrec
    isplitr; · iapply (inv_bar m K (peer c 14)); iexact Hrec
    isplitr; · iapply (inv_recv m K (peer c 0) 0); iexact Hrec
    isplitr; · iapply (inv_recv m K (peer c 1) 1); iexact Hrec
    isplitr; · iapply (inv_recv m K (peer c 2) 2); iexact Hrec
    isplitr; · iapply (inv_recv m K (peer c 3) 3); iexact Hrec
    isplitr; · iapply (inv_recv m K (peer c 4) 4); iexact Hrec
    isplitr; · iapply (inv_recv m K (peer c 5) 5); iexact Hrec
    isplitr; · iapply (inv_recv m K (peer c 6) 6); iexact Hrec
    isplitr; · iapply (inv_recv m K (peer c 7) 7); iexact Hrec
    isplitr; · iapply (inv_recv m K (peer c 8) 8); iexact Hrec
    isplitr; · iapply (inv_recv m K (peer c 9) 9); iexact Hrec
    isplitr; · iapply (inv_recv m K (peer c 10) 10); iexact Hrec
    isplitr; · iapply (inv_recv m K (peer c 11) 11); iexact Hrec
    isplitr; · iapply (inv_recv m K (peer c 12) 12); iexact Hrec
    isplitr; · iapply (inv_recv m K (peer c 13) 13); iexact Hrec
    isplitr; · iapply (inv_recv m K (peer c 14) 14); iexact Hrec
    isplitr; · iapply (reached_bar m K (peer c 0)); iexact Hrec
    isplitr; · iapply (reached_bar m K (peer c 1)); iexact Hrec
    isplitr; · iapply (reached_bar m K (peer c 2)); iexact Hrec
    isplitr; · iapply (reached_bar m K (peer c 3)); iexact Hrec
    isplitr; · iapply (reached_bar m K (peer c 4)); iexact Hrec
    isplitr; · iapply (reached_bar m K (peer c 5)); iexact Hrec
    isplitr; · iapply (reached_bar m K (peer c 6)); iexact Hrec
    isplitr; · iapply (reached_bar m K (peer c 7)); iexact Hrec
    isplitr; · iapply (reached_bar m K (peer c 8)); iexact Hrec
    isplitr; · iapply (reached_bar m K (peer c 9)); iexact Hrec
    isplitr; · iapply (reached_bar m K (peer c 10)); iexact Hrec
    isplitr; · iapply (reached_bar m K (peer c 11)); iexact Hrec
    isplitr; · iapply (reached_bar m K (peer c 12)); iexact Hrec
    isplitr; · iapply (reached_bar m K (peer c 13)); iexact Hrec
    isplitr; · iapply (reached_bar m K (peer c 14)); iexact Hrec
    isplitr; · iapply (reached_recv m K (peer c 0) 0); iexact Hrec
    isplitr; · iapply (reached_recv m K (peer c 1) 1); iexact Hrec
    isplitr; · iapply (reached_recv m K (peer c 2) 2); iexact Hrec
    isplitr; · iapply (reached_recv m K (peer c 3) 3); iexact Hrec
    isplitr; · iapply (reached_recv m K (peer c 4) 4); iexact Hrec
    isplitr; · iapply (reached_recv m K (peer c 5) 5); iexact Hrec
    isplitr; · iapply (reached_recv m K (peer c 6) 6); iexact Hrec
    isplitr; · iapply (reached_recv m K (peer c 7) 7); iexact Hrec
    isplitr; · iapply (reached_recv m K (peer c 8) 8); iexact Hrec
    isplitr; · iapply (reached_recv m K (peer c 9) 9); iexact Hrec
    isplitr; · iapply (reached_recv m K (peer c 10) 10); iexact Hrec
    isplitr; · iapply (reached_recv m K (peer c 11) 11); iexact Hrec
    isplitr; · iapply (reached_recv m K (peer c 12) 12); iexact Hrec
    isplitr; · iapply (reached_recv m K (peer c 13) 13); iexact Hrec
    isplitr; · iapply (reached_recv m K (peer c 14) 14); iexact Hrec
    isplitr; · iapply (reached_send m K c 0); iexact Hrec
    isplitr; · iapply (reached_send m K c 1); iexact Hrec
    isplitr; · iapply (reached_send m K c 2); iexact Hrec
    isplitr; · iapply (reached_send m K c 3); iexact Hrec
    isplitr; · iapply (reached_send m K c 4); iexact Hrec
    isplitr; · iapply (reached_send m K c 5); iexact Hrec
    isplitr; · iapply (reached_send m K c 6); iexact Hrec
    isplitr; · iapply (reached_send m K c 7); iexact Hrec
    isplitr; · iapply (reached_send m K c 8); iexact Hrec
    isplitr; · iapply (reached_send m K c 9); iexact Hrec
    isplitr; · iapply (reached_send m K c 10); iexact Hrec
    isplitr; · iapply (reached_send m K c 11); iexact Hrec
    isplitr; · iapply (reached_send m K c 12); iexact Hrec
    isplitr; · iapply (reached_send m K c 13); iexact Hrec
    isplitr; · iapply (reached_send m K c 14); iexact Hrec
    isplitr; · iexact Hlev
    isplitl [Hx]; · iexact Hx
    isplitl [Hout]; · iexact Hout
    isplitl [Hown]; · iexact Hown
    isplitl [Hcomm]; · iexact Hcomm
    isplitl [HO]; · iexact HO
    isplitl [HtB0]; · iexact HtB0
    isplitl [HtB1]; · iexact HtB1
    isplitl [HtB2]; · iexact HtB2
    isplitl [HtB3]; · iexact HtB3
    isplitl [HtB4]; · iexact HtB4
    isplitl [HtB5]; · iexact HtB5
    isplitl [HtB6]; · iexact HtB6
    isplitl [HtB7]; · iexact HtB7
    isplitl [HtB8]; · iexact HtB8
    isplitl [HtB9]; · iexact HtB9
    isplitl [HtB10]; · iexact HtB10
    isplitl [HtB11]; · iexact HtB11
    isplitl [HtB12]; · iexact HtB12
    isplitl [HtB13]; · iexact HtB13
    isplitl [HtB14]; · iexact HtB14
    isplitl [HtR0]; · iexact HtR0
    isplitl [HtR1]; · iexact HtR1
    isplitl [HtR2]; · iexact HtR2
    isplitl [HtR3]; · iexact HtR3
    isplitl [HtR4]; · iexact HtR4
    isplitl [HtR5]; · iexact HtR5
    isplitl [HtR6]; · iexact HtR6
    isplitl [HtR7]; · iexact HtR7
    isplitl [HtR8]; · iexact HtR8
    isplitl [HtR9]; · iexact HtR9
    isplitl [HtR10]; · iexact HtR10
    isplitl [HtR11]; · iexact HtR11
    isplitl [HtR12]; · iexact HtR12
    isplitl [HtR13]; · iexact HtR13
    isplitl [HtR14]; · iexact HtR14
    isplitl [HtS0]; · iexact HtS0
    isplitl [HtS1]; · iexact HtS1
    isplitl [HtS2]; · iexact HtS2
    isplitl [HtS3]; · iexact HtS3
    isplitl [HtS4]; · iexact HtS4
    isplitl [HtS5]; · iexact HtS5
    isplitl [HtS6]; · iexact HtS6
    isplitl [HtS7]; · iexact HtS7
    isplitl [HtS8]; · iexact HtS8
    isplitl [HtS9]; · iexact HtS9
    isplitl [HtS10]; · iexact HtS10
    isplitl [HtS11]; · iexact HtS11
    isplitl [HtS12]; · iexact HtS12
    isplitl [HtS13]; · iexact HtS13
    isplitl [HtS14]; · iexact HtS14
    isplitl [HpB]; · iexact HpB
    isplitl [HpS0]; · iexact HpS0
    isplitl [HpS1]; · iexact HpS1
    isplitl [HpS2]; · iexact HpS2
    isplitl [HpS3]; · iexact HpS3
    isplitl [HpS4]; · iexact HpS4
    isplitl [HpS5]; · iexact HpS5
    isplitl [HpS6]; · iexact HpS6
    isplitl [HpS7]; · iexact HpS7
    isplitl [HpS8]; · iexact HpS8
    isplitl [HpS9]; · iexact HpS9
    isplitl [HpS10]; · iexact HpS10
    isplitl [HpS11]; · iexact HpS11
    isplitl [HpS12]; · iexact HpS12
    isplitl [HpS13]; · iexact HpS13
    isplitl [HpS14]; · iexact HpS14
    isplitl [HpR0]; · iexact HpR0
    isplitl [HpR1]; · iexact HpR1
    isplitl [HpR2]; · iexact HpR2
    isplitl [HpR3]; · iexact HpR3
    isplitl [HpR4]; · iexact HpR4
    isplitl [HpR5]; · iexact HpR5
    isplitl [HpR6]; · iexact HpR6
    isplitl [HpR7]; · iexact HpR7
    isplitl [HpR8]; · iexact HpR8
    isplitl [HpR9]; · iexact HpR9
    isplitl [HpR10]; · iexact HpR10
    isplitl [HpR11]; · iexact HpR11
    isplitl [HpR12]; · iexact HpR12
    isplitl [HpR13]; · iexact HpR13
    isplitl [HpR14]; · iexact HpR14
    isplitl [HcB]; · iexact HcB
    isplitl [HcR0]; · iexact HcR0
    isplitl [HcR1]; · iexact HcR1
    isplitl [HcR2]; · iexact HcR2
    isplitl [HcR3]; · iexact HcR3
    isplitl [HcR4]; · iexact HcR4
    isplitl [HcR5]; · iexact HcR5
    isplitl [HcR6]; · iexact HcR6
    isplitl [HcR7]; · iexact HcR7
    isplitl [HcR8]; · iexact HcR8
    isplitl [HcR9]; · iexact HcR9
    isplitl [HcR10]; · iexact HcR10
    isplitl [HcR11]; · iexact HcR11
    isplitl [HcR12]; · iexact HcR12
    isplitl [HcR13]; · iexact HcR13
    iexact HcR14
  · iintro Hpost
    unfold postFlat
    rw [← stg0_raw c (xstg m c), ← stg1_raw c (outC m c), ← scr0_raw c (ownC m c), ← scr1_raw c (gathC m c)]
    icases Hpost with ⟨Hx, Hout, Hown, Hcomm, ⟨%W', HO⟩, HaS0, HaS1, HaS2, HaS3, HaS4, HaS5, HaS6, HaS7, HaS8, HaS9, HaS10, HaS11, HaS12, HaS13, HaS14, HaR0, HaR1, HaR2, HaR3, HaR4, HaR5, HaR6, HaR7, HaR8, HaR9, HaR10, HaR11, HaR12, HaR13, HaR14⟩
    imod (close_send m K c 0) $$ [HaS0] with HzS0
    · isplitr; · iexact Hrec
      iexact HaS0
    imod (close_send m K c 1) $$ [HaS1] with HzS1
    · isplitr; · iexact Hrec
      iexact HaS1
    imod (close_send m K c 2) $$ [HaS2] with HzS2
    · isplitr; · iexact Hrec
      iexact HaS2
    imod (close_send m K c 3) $$ [HaS3] with HzS3
    · isplitr; · iexact Hrec
      iexact HaS3
    imod (close_send m K c 4) $$ [HaS4] with HzS4
    · isplitr; · iexact Hrec
      iexact HaS4
    imod (close_send m K c 5) $$ [HaS5] with HzS5
    · isplitr; · iexact Hrec
      iexact HaS5
    imod (close_send m K c 6) $$ [HaS6] with HzS6
    · isplitr; · iexact Hrec
      iexact HaS6
    imod (close_send m K c 7) $$ [HaS7] with HzS7
    · isplitr; · iexact Hrec
      iexact HaS7
    imod (close_send m K c 8) $$ [HaS8] with HzS8
    · isplitr; · iexact Hrec
      iexact HaS8
    imod (close_send m K c 9) $$ [HaS9] with HzS9
    · isplitr; · iexact Hrec
      iexact HaS9
    imod (close_send m K c 10) $$ [HaS10] with HzS10
    · isplitr; · iexact Hrec
      iexact HaS10
    imod (close_send m K c 11) $$ [HaS11] with HzS11
    · isplitr; · iexact Hrec
      iexact HaS11
    imod (close_send m K c 12) $$ [HaS12] with HzS12
    · isplitr; · iexact Hrec
      iexact HaS12
    imod (close_send m K c 13) $$ [HaS13] with HzS13
    · isplitr; · iexact Hrec
      iexact HaS13
    imod (close_send m K c 14) $$ [HaS14] with HzS14
    · isplitr; · iexact Hrec
      iexact HaS14
    imod (close_recv m K c 0) $$ [HaR0] with HzR0
    · isplitr; · iexact Hrec
      iexact HaR0
    imod (close_recv m K c 1) $$ [HaR1] with HzR1
    · isplitr; · iexact Hrec
      iexact HaR1
    imod (close_recv m K c 2) $$ [HaR2] with HzR2
    · isplitr; · iexact Hrec
      iexact HaR2
    imod (close_recv m K c 3) $$ [HaR3] with HzR3
    · isplitr; · iexact Hrec
      iexact HaR3
    imod (close_recv m K c 4) $$ [HaR4] with HzR4
    · isplitr; · iexact Hrec
      iexact HaR4
    imod (close_recv m K c 5) $$ [HaR5] with HzR5
    · isplitr; · iexact Hrec
      iexact HaR5
    imod (close_recv m K c 6) $$ [HaR6] with HzR6
    · isplitr; · iexact Hrec
      iexact HaR6
    imod (close_recv m K c 7) $$ [HaR7] with HzR7
    · isplitr; · iexact Hrec
      iexact HaR7
    imod (close_recv m K c 8) $$ [HaR8] with HzR8
    · isplitr; · iexact Hrec
      iexact HaR8
    imod (close_recv m K c 9) $$ [HaR9] with HzR9
    · isplitr; · iexact Hrec
      iexact HaR9
    imod (close_recv m K c 10) $$ [HaR10] with HzR10
    · isplitr; · iexact Hrec
      iexact HaR10
    imod (close_recv m K c 11) $$ [HaR11] with HzR11
    · isplitr; · iexact Hrec
      iexact HaR11
    imod (close_recv m K c 12) $$ [HaR12] with HzR12
    · isplitr; · iexact Hrec
      iexact HaR12
    imod (close_recv m K c 13) $$ [HaR13] with HzR13
    · isplitr; · iexact Hrec
      iexact HaR13
    imod (close_recv m K c 14) $$ [HaR14] with HzR14
    · isplitr; · iexact Hrec
      iexact HaR14
    imodintro
    unfold bodyPost Φ₁ Dat.owesAt Pipeline.owesWithin
    rw [show (dats m 0 c).owed t₀.succ = 0 from rfl]
    simp only [bigSep_fin15]
    isplitl [Hown Hcomm HzS0 HzS1 HzS2 HzS3 HzS4 HzS5 HzS6 HzS7 HzS8 HzS9 HzS10 HzS11 HzS12 HzS13 HzS14 HzR0 HzR1 HzR2 HzR3 HzR4 HzR5 HzR6 HzR7 HzR8 HzR9 HzR10 HzR11 HzR12 HzR13 HzR14 Hidle]
    · isplitl [Hown]; · iexact Hown
      isplitl [Hcomm]; · iexact Hcomm
      isplitl [HzS0 HzS1 HzS2 HzS3 HzS4 HzS5 HzS6 HzS7 HzS8 HzS9 HzS10 HzS11 HzS12 HzS13 HzS14]
      · isplitl [HzS0]; · iexact HzS0
        isplitl [HzS1]; · iexact HzS1
        isplitl [HzS2]; · iexact HzS2
        isplitl [HzS3]; · iexact HzS3
        isplitl [HzS4]; · iexact HzS4
        isplitl [HzS5]; · iexact HzS5
        isplitl [HzS6]; · iexact HzS6
        isplitl [HzS7]; · iexact HzS7
        isplitl [HzS8]; · iexact HzS8
        isplitl [HzS9]; · iexact HzS9
        isplitl [HzS10]; · iexact HzS10
        isplitl [HzS11]; · iexact HzS11
        isplitl [HzS12]; · iexact HzS12
        isplitl [HzS13]; · iexact HzS13
        iexact HzS14
      isplitl [HzR0 HzR1 HzR2 HzR3 HzR4 HzR5 HzR6 HzR7 HzR8 HzR9 HzR10 HzR11 HzR12 HzR13 HzR14]
      · isplitl [HzR0]; · iexact HzR0
        isplitl [HzR1]; · iexact HzR1
        isplitl [HzR2]; · iexact HzR2
        isplitl [HzR3]; · iexact HzR3
        isplitl [HzR4]; · iexact HzR4
        isplitl [HzR5]; · iexact HzR5
        isplitl [HzR6]; · iexact HzR6
        isplitl [HzR7]; · iexact HzR7
        isplitl [HzR8]; · iexact HzR8
        isplitl [HzR9]; · iexact HzR9
        isplitl [HzR10]; · iexact HzR10
        isplitl [HzR11]; · iexact HzR11
        isplitl [HzR12]; · iexact HzR12
        isplitl [HzR13]; · iexact HzR13
        iexact HzR14
      iexact Hidle
    isplitl [HO]
    · iexists W'
      isplitr; · ipureintro; exact fun _ _ => Or.inl trivial
      iexact HO
    isplitl [Hx]
    · iexists _; isplitr; · (ipureintro; rfl)
      iexact Hx
    iexists _; isplitr; · (ipureintro; rfl)
    iexact Hout

theorem body_wrap (c : Dev nD) :
    bodyPre' m c ⊢ wp frame (wpE (defs₀ (F := F)) 𝒱₀ c none) Set.univ
      (cc0_body xM xM_whole oM oM_whole ownM ownM_whole commM commM_whole cc0_scratch2 cc0_scratch3) (fun _ => bodyPost m c) :=
  (body_wrap_fupd m c).trans (wp_fupd frame (wpE (defs₀ (F := F)) 𝒱₀ c none) Set.univ _ _)

set_option maxRecDepth 8000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body xM xM_whole oM oM_whole ownM ownM_whole commM commM_whole cc0_scratch2 cc0_scratch3) (fun _ => bodyPost m c)
  exact body_wrap m c

/-- info: 'Cert.KernelIdeal.Proto.body_obligation' depends on axioms: [propext, Classical.choice, Quot.sound] -/
#guard_msgs in #print axioms body_obligation

end Cert.KernelIdeal.Proto
end
-- ==== Proof.Run.lean ====
/-
  The run with its values.
  Once every device's body is proved, the launch gives the run of the whole mesh from any memory with its
  counters at zero: every weakly fair execution terminates, nothing faults, and each array of each device ends at
  the contents the proof data name for it after the one grid point. The result array is window 1's: it is written
  back whole at that point, so it ends at what the device's body leaves in its output block, the maximum of the
  device's own column maxima and of the fifteen rows it received. The argument array is window 0's: an input
  window is never written back, so it ends as it began. Stated for any float instance.
-/
import proofs.«900923_g7700000000000924_dist_max_ax0_shard0_i_m512_n256_v7x_i16_f32_1_alg».proof.Proof.Launch
import proofs.«900923_g7700000000000924_dist_max_ax0_shard0_i_m512_n256_v7x_i16_f32_1_alg».proof.Proof.Oblig

noncomputable section

namespace Cert.KernelIdeal.Proto

open Cert.KernelIdeal Cert.KernelIdeal.Gen

open Idealize.ShloMosaic
open Idealize.ShloMosaic.TcCoe
open Idealize.SL.Sem
open Idealize.ShloMosaic.Pipeline (Dat Cfg Window BodyObligation cellOf)

variable {F : FTy → Type} [FloatOps F]

/-- The run of the mesh with both arrays of every device named: the result at the protocol's `outC`, the argument
    unchanged. -/
theorem run_strong (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v1) = outC m c
      ∧ r.2.mem ((c.tc : Thread nD τ).loc main_arg0) = m ((c.tc : Thread nD τ).loc main_arg0)) :=
  (θ_run defs _ _).mono
    (fun _ h c => ⟨(h c (1 : Fin 2)).trans (finalA_out m c), (h c (0 : Fin 2)).trans (finalA_x m c)⟩)
    (run_main m ρ (body_obligation m))

/-- info: 'Cert.KernelIdeal.Proto.run_strong' depends on axioms: [propext, Classical.choice, Quot.sound] -/
#guard_msgs in #print axioms run_strong

end Cert.KernelIdeal.Proto

end
-- ==== Proof.KSpec.lean ====
/-
  What one device computes, as a pure function of every device's block of the input.
  Each device reduces its own 512 rows to their column maxima, sends that row to every other device, and
  takes the maximum of its own row and the fifteen it receives; the slot of its gather buffer that belongs
  to itself is never written after its initialisation to minus infinity, the neutral element of the maximum.
  The definitions are over the payload terms of the kernel's skeleton, for any float instance.
-/
import proofs.«900923_g7700000000000924_dist_max_ax0_shard0_i_m512_n256_v7x_i16_f32_1_alg».proof.Proof.Gen.Kernel.Skeleton
import Idealize.ShloMosaic.Lib.ValueIdx

noncomputable section

namespace Cert.Kernel.Spec

open Idealize.ShloMosaic Idealize.ShloMosaic.ValueIdx Cert.Kernel Cert.Kernel.Gen

variable {F : FTy → Type} [FloatOps F]

/-- The column maxima of one device's block, as the kernel stores them in its send buffer. -/
def colMax (x : Vec F S512x256 .f32) : Vec F S1x256 .f32 := k0_pay3 x

/-- The device a row of the gather buffer belongs to. -/
def rowDev (i : S16x1x256.Idx) : Dev nD := ⟨(i 0).val, (i 0).isLt⟩

/-- The column a gather-buffer index names, as an index of one row. -/
def rowIdx (i : S16x1x256.Idx) : S1x256.Idx := ix2 (n0 := 1) (n1 := 256) (i 1) (i 2)

/-- What device `c`'s gather buffer holds once every peer's row has landed: row `r` is device `r`'s column
    maxima, and the device's own row the minus infinity it was initialised to. -/
def gathered (X : Dev nD → Vec F S512x256 .f32) (c : Dev nD) : Vec F S16x1x256 .f32 :=
  fun i => if rowDev i = c then (k0_pay1 (F := F)) i else colMax (X (rowDev i)) (rowIdx i)

/-- Device `c`'s result: the maximum of its own column maxima and the column maxima over its gather buffer. -/
def result (X : Dev nD → Vec F S512x256 .f32) (c : Dev nD) : Vec F S1x256 .f32 :=
  k0_pay4 (k0_pay2 (X c)) (gathered X c)

end Cert.Kernel.Spec

end
-- ==== Proof.KProtocol.lean ====
/-
  The devices' protocol, stated once for every float instance.
  Sixteen devices. Device `c` initialises its gather buffer to minus infinity, tells each of its fifteen peers
  (`peer c j`, the device `j + 1` places further round the mesh) through that peer's barrier semaphore that
  the row of `c`'s gather buffer reserved for the peer may be written, reduces its block to its column maxima,
  waits for the fifteen peers' words, copies its column maxima into its own row of every peer's gather buffer
  (send semaphore `j + 1` here, receive semaphore `j + 1` there), waits for the fifteen rows addressed to it
  (receive semaphore `j + 1`: the row of `src c j`, the device `j + 1` places back), takes the maximum, and
  waits for its own fifteen copies to have been read out.
  Under the rounds discipline every cell has one round. A barrier cell has fifteen duties of one unit, duty
  `j` paid by `src c j` and handing `c` that device's row `c`, still at its initial contents; a receive cell
  one duty, handing the landed row at its final contents; a send cell one duty, handing back the share of the
  send buffer lent to the copy.
-/
import proofs.«900923_g7700000000000924_dist_max_ax0_shard0_i_m512_n256_v7x_i16_f32_1_alg».proof.Proof.KSpec
import proofs.«900923_g7700000000000924_dist_max_ax0_shard0_i_m512_n256_v7x_i16_f32_1_alg».proof.Proof.Gen.Kernel
import proofs.«900923_g7700000000000924_dist_max_ax0_shard0_i_m512_n256_v7x_i16_f32_1_alg».proof.Proof.Gen.Kernel.Skeleton
import proofs.«900923_g7700000000000924_dist_max_ax0_shard0_i_m512_n256_v7x_i16_f32_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

/-! ## The resource algebra: the pipeline library's copy and the protocol's, duties named by `Fin 15` -/

abbrev UB : Type := URounds (GSem nD τ sig) (Fin 15)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The mesh -/

/-- The device `j + 1` places after `c`: the target of `c`'s copy number `j`. -/
def peer (c : Dev nD) (j : Fin 15) : Dev nD := ⟨(c.val + j.val + 1) % 16, Nat.mod_lt _ (by decide)⟩
/-- The device `j + 1` places before `c`: the source of the copy `c` receives on cell `j`. -/
def src (c : Dev nD) (j : Fin 15) : Dev nD := ⟨(c.val + 15 - j.val) % 16, Nat.mod_lt _ (by decide)⟩

/-! ## The memrefs and the cells -/

/- The four buffers the body is called with, as whole-buffer memrefs: each is `Memref.whole` of its buffer, so its view
   is the buffer taken whole. -/
def xM : Memref sig .tc .vmem S512x256 .f32 := Memref.whole cc0_stg0_0
def oM : Memref sig .tc .vmem S1x256 .f32 := Memref.whole cc0_stg1_0
def ownM : Memref sig .tc .vmem S1x256 .f32 := Memref.whole cc0_scratch0
def commM : Memref sig .tc .vmem S16x1x256 .f32 := Memref.whole cc0_scratch1
theorem xM_whole : xM.IsWhole := Memref.isWhole_whole _
theorem oM_whole : oM.IsWhole := Memref.isWhole_whole _
theorem ownM_whole : ownM.IsWhole := Memref.isWhole_whole _
theorem commM_whole : commM.IsWhole := Memref.isWhole_whole _
/-- Row `i` of the gather buffer, as the kernel addresses it: the one-row slice at offsets (i, 0, 0), squeezed to one row. -/
abbrev rowM (i : Dev nD) : Memref sig .tc .vmem S1x256 .f32 :=
  ((commM.slice (Rect.unit (s := S16x1x256) (k0_off1 i) S1x1x256.size (k0_off1_inb i)) (fun _ => rfl)).squeeze S1x256 squeezes_S1x1x256_S1x256)

abbrev barS : Sem sig := (SemArray.scalar (sig.barrier 0 rfl) : Sems sig S_).sem
/-- Send semaphore `j + 1` of the sixteen (the first is never used). -/
def sendS (j : Fin 15) : DmaSem sig := ⟨3 + j.val, by have := j.isLt; show 3 + j.val < 34; omega⟩
/-- Receive semaphore `j + 1` of the sixteen (the first is never used). -/
def recvS (j : Fin 15) : DmaSem sig := ⟨19 + j.val, by have := j.isLt; show 19 + j.val < 34; omega⟩
/-- The two scratch semaphores no copy names. -/
abbrev idleS₀ : DmaSem sig := ⟨2, by decide⟩
abbrev idleS₁ : DmaSem sig := ⟨18, by decide⟩

abbrev barCell (c : Dev nD) : GSem nD τ sig := ((c : Thread nD τ), .reg barS)
abbrev sendCell (c : Dev nD) (j : Fin 15) : GSem nD τ sig := ((c : Thread nD τ), .dma (sendS j))
abbrev recvCell (c : Dev nD) (j : Fin 15) : GSem nD τ sig := ((c : Thread nD τ), .dma (recvS j))

/-- The kernel's own (scoped) semaphores as the launch theorem indexes them: the thirty-two scratch ones. -/
abbrev osem : Fin 32 → SemLoc sig := fun k => .dma ⟨2 + k.val, by have := k.isLt; show 2 + k.val < 34; omega⟩

/-- The protocol's cells of one device: the barrier, the fifteen send cells, the fifteen receive cells. -/
def csem (k : Fin 31) : SemLoc sig :=
  if h0 : k.val = 0 then .reg barS
  else if h1 : k.val ≤ 15 then .dma (sendS ⟨k.val - 1, by omega⟩)
  else .dma (recvS ⟨k.val - 16, by have := k.isLt; omega⟩)
abbrev kcell (ck : Dev nD × Fin 31) : GSem nD τ sig := ((ck.1 : Thread nD τ), csem ck.2)
abbrev kb : Fin 31 := 0
abbrev ks (j : Fin 15) : Fin 31 := ⟨1 + j.val, by have := j.isLt; omega⟩
abbrev kr (j : Fin 15) : Fin 31 := ⟨16 + j.val, by have := j.isLt; omega⟩

/-- One row's credit. -/
abbrev N : ℕ := (Memref.whole cc0_scratch0 : Memref sig .tc .vmem S1x256 .f32).view.dmaCredit
theorem N_pos : 0 < N := View.dmaCredit_pos _ (by decide)

/-! ## Contents -/

/-- Device `c`'s block of the input, as its staging buffer holds it. -/
def xstg (c : Dev nD) : (cc0_stg0_0 : Ref sig .tc).ty.Contents (Elt F) :=
  (win0_0.blk (0 : Fin 1)).view.read (Elt F) (m ((c : Thread nD τ).loc main_arg0))
/-- The send buffer once written: the block's column maxima. -/
def ownC (c : Dev nD) : (cc0_scratch0 : Ref sig .tc).ty.Contents (Elt F) := Spec.colMax (xstg m c)
/-- The gather buffer as initialised. -/
def initC : (cc0_scratch1 : Ref sig .tc).ty.Contents (Elt F) := k0_pay1 (F := F)
/-- The gather buffer once every row has landed. -/
def gathC (c : Dev nD) : (cc0_scratch1 : Ref sig .tc).ty.Contents (Elt F) := Spec.gathered (xstg m) c
/-- The result. -/
def outC (c : Dev nD) : (cc0_stg1_0 : Ref sig .tc).ty.Contents (Elt F) := Spec.result (xstg m) c

/-- The send buffer of device `c` held at share `q`. -/
def ownPts (c : Dev nD) (q : PosShare TreeShare) (f : Buf (Elt F) ((ownM : Memref sig .tc .vmem S1x256 .f32).view.loc (c : Thread nD τ))) : sProp 𝕄 :=
  (ownM : Memref sig .tc .vmem S1x256 .f32).view.loc (c : Thread nD τ) ↦[(ownM : Memref sig .tc .vmem S1x256 .f32).view.set]{q} f
/-- Row `r` of device `d`'s gather buffer. -/
def rowPts (d r : Dev nD) (f : Buf (Elt F) ((rowM r).view.loc (d : Thread nD τ))) : sProp 𝕄 :=
  (rowM r).view.loc (d : Thread nD τ) ↦[(rowM r).view.set]{fullShare} f

omit [FloatOps F] in
instance ownPts_storable (c : Dev nD) (q) (f) : BI.Storable (upEmb : UEmb _ 𝕄) (ownPts (F := F) c q f) := by unfold ownPts; infer_instance
omit [FloatOps F] in
instance rowPts_storable (d r : Dev nD) (f) : BI.Storable (upEmb : UEmb _ 𝕄) (rowPts (F := F) d r f) := by unfold rowPts; infer_instance

/-! ## The schedule -/

/-- Which copy a DMA semaphore serves: `(false, j)` for send semaphore `j + 1`, `(true, j)` for receive semaphore `j + 1`. -/
def xferIdx : SemLoc sig → Option (Bool × Fin 15)
  | .dma q => if h : 3 ≤ q.val ∧ q.val < 18 then some (false, ⟨q.val - 3, by omega⟩)
      else if h' : 19 ≤ q.val ∧ q.val < 34 then some (true, ⟨q.val - 19, by omega⟩) else none
  | _ => none

abbrev IsBar (g : GSem nD τ sig) : Prop := g.1.2 = .tc ∧ g.2 = .reg barS
abbrev IsXfer (g : GSem nD τ sig) : Prop := g.1.2 = .tc ∧ (xferIdx g.2).isSome

/-- One round. A barrier cell: fifteen duties of one unit, duty `j` handing over row `c` of `src c j`'s gather
    buffer at its initial contents. A send cell: one duty of a row's credit, handing back the lent share of the
    send buffer. A receive cell: one duty of a row's credit, handing over the landed row. -/
def Rd : Rounds.Schedule (GSem nD τ sig) (Fin 15) 𝕄 where
  duties g r := if r = 0 ∧ IsBar g then Finset.univ else if r = 0 ∧ IsXfer g then {0} else ∅
  unitless _ := False
  amount g _ _ := if g.2 = .reg barS then 1 else N
  payload g _ d :=
    if g.2 = .reg barS then rowPts (src g.1.1 d) g.1.1 initC
    else match xferIdx g.2 with
      | some (false, j) => ownPts g.1.1 (shareTok fullShare 15 j) (ownC m g.1.1)
      | some (true, j) => rowPts g.1.1 (src g.1.1 j) (gathC m g.1.1)
      | none => iprop(emp)
  amount_pos g _ _ _ := by
    by_cases h : g.2 = .reg barS
    · rw [if_pos h]; exact Nat.one_pos
    · rw [if_neg h]; exact N_pos

instance Rd_payload_storable (g : GSem nD τ sig) (r : ℕ) (d : Fin 15) :
    BI.Storable (upEmb : UEmb _ 𝕄) ((Rd (F := F) m).payload g r d) := by
  show BI.Storable upEmb (if g.2 = .reg barS then rowPts (src g.1.1 d) g.1.1 initC
    else match xferIdx g.2 with
      | some (false, j) => ownPts g.1.1 (shareTok fullShare 15 j) (ownC m g.1.1)
      | some (true, j) => rowPts g.1.1 (src g.1.1 j) (gathC m g.1.1)
      | none => iprop(emp))
  split
  · exact rowPts_storable _ _ _
  · split
    · exact ownPts_storable _ _ _
    · exact rowPts_storable _ _ _
    · infer_instance

/-! ## What each device owes at launch; the levels -/

abbrev rT (c : Dev nD) (j : Fin 15) : CellTallies nD τ sig Unit := tallyAt (recvCell (peer c j) j) () N
abbrev bT (c : Dev nD) (j : Fin 15) : CellTallies nD τ sig Unit := tallyAt (barCell (peer c j)) () 1

/-- What is left to pay once the barrier signals are out: the fifteen rows' credit. -/
def OR (c : Dev nD) : CellTallies nD τ sig Unit := rT c 14 + rT c 13 + rT c 12 + rT c 11 + rT c 10 + rT c 9 + rT c 8 + rT c 7 + rT c 6 + rT c 5 + rT c 4 + rT c 3 + rT c 2 + rT c 1 + rT c 0
/-- At launch: those, and one unit to each peer's barrier cell; the summands stand in the reverse of the order in
    which the program pays them. -/
def O₀ (c : Dev nD) : CellTallies nD τ sig Unit := rT c 14 + rT c 13 + rT c 12 + rT c 11 + rT c 10 + rT c 9 + rT c 8 + rT c 7 + rT c 6 + rT c 5 + rT c 4 + rT c 3 + rT c 2 + rT c 1 + rT c 0 + bT c 14 + bT c 13 + bT c 12 + bT c 11 + bT c 10 + bT c 9 + bT c 8 + bT c 7 + bT c 6 + bT c 5 + bT c 4 + bT c 3 + bT c 2 + bT c 1 + bT c 0

def L (g : GSem nD τ sig) : Finset Unit := if g.1.2 = .tc then {()} else ∅
/-- Barrier cells at 1, receive cells at 2, everything else (staging, send, idle) at 0. -/
def lv (g : GSem nD τ sig) (_ : Unit) : ℕ :=
  if g.2 = .reg barS then 1 else match xferIdx g.2 with | some (true, _) => 2 | _ => 0

/-! ## The ghost state and the pipeline's proof data -/

/-- Every cell's invariant at the names the launch allocated, and that every cell's round 0 is reached. -/
def records (K : Dev nD × Fin 31 → ℕ) : sProp 𝕄 :=
  iprop((bigSep Finset.univ fun ck : Dev nD × Fin 31 => cellInv ER (Rd m) (K ck) (kcell ck))
    ∗ bigSep Finset.univ fun ck : Dev nD × Fin 31 => reached ER (kcell ck) 0)

instance records_persistent (K : Dev nD × Fin 31 → ℕ) : BI.Persistent (records m K) := by unfold records; infer_instance

/-- The tokens of the duties device `c` pays: duty `j` of `peer c j`'s barrier cell, the duty of `peer c j`'s receive
    cell `j`, the duty of its own send cell `j`. -/
def payToks (c : Dev nD) : sProp 𝕄 :=
  iprop((bigSep Finset.univ fun j : Fin 15 => dutyTok ER (barCell (peer c j)) 0 j)
    ∗ (bigSep Finset.univ fun j : Fin 15 => dutyTok ER (recvCell (peer c j) j) 0 0)
    ∗ (bigSep Finset.univ fun j : Fin 15 => dutyTok ER (sendCell c j) 0 0))
/-- Its positions on its own thirty-one cells. -/
def positions (c : Dev nD) : sProp 𝕄 := bigSep Finset.univ fun k : Fin 31 => atPos ER (kcell (c, k)) 0 ∅ 0

def ghost (K : Dev nD × Fin 31 → ℕ) (c : Dev nD) : sProp 𝕄 := iprop(records m K ∗ positions c ∗ payToks c)

/-- What device `c`'s body starts from beside its buffers: the ghost state at some names, its credit on its
    barrier cell and on its fifteen receive cells, the two idle semaphores at zero, the level facts. -/
def start (c : Dev nD) : sProp 𝕄 :=
  iprop((∃ K, ghost m K c) ∗ cred (tallyAt (barCell c) () 15)
    ∗ (bigSep Finset.univ fun j : Fin 15 => cred (tallyAt (recvCell c j) () N))
    ∗ (semVal ((c : Thread nD τ), .dma idleS₀) 0 ∗ semVal ((c : Thread nD τ), .dma idleS₁) 0) ∗ levAts L lv)

def Φ₀ (c : Dev nD) : sProp 𝕄 :=
  iprop(start m c ∗ (∃ f, ((c : Thread nD τ).loc cc0_scratch0) ↦{fullShare} f) ∗ (∃ f, ((c : Thread nD τ).loc cc0_scratch1) ↦{fullShare} f))
/-- After the body: both scratch buffers at their final contents, the thirty own cells closed at zero, the idle two untouched. -/
def Φ₁ (c : Dev nD) : sProp 𝕄 :=
  iprop((((c : Thread nD τ).loc cc0_scratch0) ↦{fullShare} ownC m c) ∗ (((c : Thread nD τ).loc cc0_scratch1) ↦{fullShare} gathC m c)
    ∗ (bigSep Finset.univ fun j : Fin 15 => semVal (sendCell c j) 0)
    ∗ (bigSep Finset.univ fun j : Fin 15 => semVal (recvCell c j) 0)
    ∗ (semVal ((c : Thread nD τ), .dma idleS₀) 0 ∗ semVal ((c : Thread nD τ), .dma idleS₁) 0))

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outC m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev 𝒱₀ : Variants := Variants.none

end Cert.Kernel.Proto

end
-- ==== Proof.KMesh.lean ====
/-
  Arithmetic on the mesh of sixteen devices, and the names of its cells.
  `peer c j` is the device `j + 1` places after `c` and `src c j` the device `j + 1` places before it; for a
  fixed `j` the two are inverse permutations of the mesh, and for a fixed device each is injective in `j` and
  never the device itself. The kernel computes the device a signal or a copy addresses, and the row a receive
  wait names, by word arithmetic on its own position: each of those chains is evaluated at the sixteen devices
  and equals the corresponding `peer` or `src`. The thirty semaphores the kernel slices out of its two arrays
  are the send and receive semaphores of the protocol, and the thirty-one cells of a device are distinct.
-/
import proofs.«900923_g7700000000000924_dist_max_ax0_shard0_i_m512_n256_v7x_i16_f32_1_alg».proof.Proof.KProtocol

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

/-! ## The two shifts -/

theorem src_peer (c : Dev nD) (j : Fin 15) : src (peer c j) j = c := by revert c j; decide
theorem peer_src (c : Dev nD) (j : Fin 15) : peer (src c j) j = c := by revert c j; decide
theorem peer_ne_self (c : Dev nD) (j : Fin 15) : peer c j ≠ c := by revert c j; decide
theorem src_ne_self (c : Dev nD) (j : Fin 15) : src c j ≠ c := by revert c j; decide
theorem peer_inj (c : Dev nD) {j j' : Fin 15} (h : peer c j = peer c j') : j = j' := by
  revert c j j'; decide +kernel
theorem src_inj (c : Dev nD) {j j' : Fin 15} (h : src c j = src c j') : j = j' := by
  revert c j j'; decide +kernel
theorem peer_eq_iff (c d : Dev nD) (j : Fin 15) : peer c j = d ↔ c = src d j :=
  ⟨fun h => by rw [← h, src_peer], fun h => by rw [h, peer_src]⟩

/-- For each `j` the shift by `j + 1` places permutes the mesh: the pairs (device, `j`) are carried to
    (its `j`-th peer, `j`), and back by `src`. -/
def ring : Dev nD × Fin 15 ≃ Dev nD × Fin 15 where
  toFun p := (peer p.1 p.2, p.2)
  invFun p := (src p.1 p.2, p.2)
  left_inv p := Prod.ext (src_peer p.1 p.2) rfl
  right_inv p := Prod.ext (peer_src p.1 p.2) rfl

/-! ## The kernel's device chains

Signal number `k` and copy number `k` both address the device `k` places after the one that runs them. -/

theorem dev1_eq (c : Dev nD) : (⟨k0_dev1 c, k0_dev1_lt c⟩ : Dev nD) = peer c 0 := by revert c; decide +kernel
theorem dev2_eq (c : Dev nD) : (⟨k0_dev2 c, k0_dev2_lt c⟩ : Dev nD) = peer c 1 := by revert c; decide +kernel
theorem dev3_eq (c : Dev nD) : (⟨k0_dev3 c, k0_dev3_lt c⟩ : Dev nD) = peer c 2 := by revert c; decide +kernel
theorem dev4_eq (c : Dev nD) : (⟨k0_dev4 c, k0_dev4_lt c⟩ : Dev nD) = peer c 3 := by revert c; decide +kernel
theorem dev5_eq (c : Dev nD) : (⟨k0_dev5 c, k0_dev5_lt c⟩ : Dev nD) = peer c 4 := by revert c; decide +kernel
theorem dev6_eq (c : Dev nD) : (⟨k0_dev6 c, k0_dev6_lt c⟩ : Dev nD) = peer c 5 := by revert c; decide +kernel
theorem dev7_eq (c : Dev nD) : (⟨k0_dev7 c, k0_dev7_lt c⟩ : Dev nD) = peer c 6 := by revert c; decide +kernel
theorem dev8_eq (c : Dev nD) : (⟨k0_dev8 c, k0_dev8_lt c⟩ : Dev nD) = peer c 7 := by revert c; decide +kernel
theorem dev9_eq (c : Dev nD) : (⟨k0_dev9 c, k0_dev9_lt c⟩ : Dev nD) = peer c 8 := by revert c; decide +kernel
theorem dev10_eq (c : Dev nD) : (⟨k0_dev10 c, k0_dev10_lt c⟩ : Dev nD) = peer c 9 := by revert c; decide +kernel
theorem dev11_eq (c : Dev nD) : (⟨k0_dev11 c, k0_dev11_lt c⟩ : Dev nD) = peer c 10 := by revert c; decide +kernel
theorem dev12_eq (c : Dev nD) : (⟨k0_dev12 c, k0_dev12_lt c⟩ : Dev nD) = peer c 11 := by revert c; decide +kernel
theorem dev13_eq (c : Dev nD) : (⟨k0_dev13 c, k0_dev13_lt c⟩ : Dev nD) = peer c 12 := by revert c; decide +kernel
theorem dev14_eq (c : Dev nD) : (⟨k0_dev14 c, k0_dev14_lt c⟩ : Dev nD) = peer c 13 := by revert c; decide +kernel
theorem dev15_eq (c : Dev nD) : (⟨k0_dev15 c, k0_dev15_lt c⟩ : Dev nD) = peer c 14 := by revert c; decide +kernel
theorem dev16_eq (c : Dev nD) : (⟨k0_dev16 c, k0_dev16_lt c⟩ : Dev nD) = peer c 0 := by revert c; decide +kernel
theorem dev17_eq (c : Dev nD) : (⟨k0_dev17 c, k0_dev17_lt c⟩ : Dev nD) = peer c 1 := by revert c; decide +kernel
theorem dev18_eq (c : Dev nD) : (⟨k0_dev18 c, k0_dev18_lt c⟩ : Dev nD) = peer c 2 := by revert c; decide +kernel
theorem dev19_eq (c : Dev nD) : (⟨k0_dev19 c, k0_dev19_lt c⟩ : Dev nD) = peer c 3 := by revert c; decide +kernel
theorem dev20_eq (c : Dev nD) : (⟨k0_dev20 c, k0_dev20_lt c⟩ : Dev nD) = peer c 4 := by revert c; decide +kernel
theorem dev21_eq (c : Dev nD) : (⟨k0_dev21 c, k0_dev21_lt c⟩ : Dev nD) = peer c 5 := by revert c; decide +kernel
theorem dev22_eq (c : Dev nD) : (⟨k0_dev22 c, k0_dev22_lt c⟩ : Dev nD) = peer c 6 := by revert c; decide +kernel
theorem dev23_eq (c : Dev nD) : (⟨k0_dev23 c, k0_dev23_lt c⟩ : Dev nD) = peer c 7 := by revert c; decide +kernel
theorem dev24_eq (c : Dev nD) : (⟨k0_dev24 c, k0_dev24_lt c⟩ : Dev nD) = peer c 8 := by revert c; decide +kernel
theorem dev25_eq (c : Dev nD) : (⟨k0_dev25 c, k0_dev25_lt c⟩ : Dev nD) = peer c 9 := by revert c; decide +kernel
theorem dev26_eq (c : Dev nD) : (⟨k0_dev26 c, k0_dev26_lt c⟩ : Dev nD) = peer c 10 := by revert c; decide +kernel
theorem dev27_eq (c : Dev nD) : (⟨k0_dev27 c, k0_dev27_lt c⟩ : Dev nD) = peer c 11 := by revert c; decide +kernel
theorem dev28_eq (c : Dev nD) : (⟨k0_dev28 c, k0_dev28_lt c⟩ : Dev nD) = peer c 12 := by revert c; decide +kernel
theorem dev29_eq (c : Dev nD) : (⟨k0_dev29 c, k0_dev29_lt c⟩ : Dev nD) = peer c 13 := by revert c; decide +kernel
theorem dev30_eq (c : Dev nD) : (⟨k0_dev30 c, k0_dev30_lt c⟩ : Dev nD) = peer c 14 := by revert c; decide +kernel

/-- The row a receive wait names is the own row of the device the copy comes from. -/
theorem off2_eq (c : Dev nD) (j : Fin 15) : k0_off2 c (BitVec.ofNat 32 (1 + j.val)) = k0_off1 (src c j) := by
  revert c j; decide +kernel

/-! ## The semaphores the kernel slices out of its two arrays -/

theorem sendSem1_eq : ((cc0_scratch2.slice (Rect.unit (s := S16) ![1] S1.size inb_S16_S1_1)).squeeze S_ squeezes_S1_S_).sem = sendS 0 := by decide +kernel
theorem sendSem2_eq : ((cc0_scratch2.slice (Rect.unit (s := S16) ![2] S1.size inb_S16_S1_2)).squeeze S_ squeezes_S1_S_).sem = sendS 1 := by decide +kernel
theorem sendSem3_eq : ((cc0_scratch2.slice (Rect.unit (s := S16) ![3] S1.size inb_S16_S1_3)).squeeze S_ squeezes_S1_S_).sem = sendS 2 := by decide +kernel
theorem sendSem4_eq : ((cc0_scratch2.slice (Rect.unit (s := S16) ![4] S1.size inb_S16_S1_4)).squeeze S_ squeezes_S1_S_).sem = sendS 3 := by decide +kernel
theorem sendSem5_eq : ((cc0_scratch2.slice (Rect.unit (s := S16) ![5] S1.size inb_S16_S1_5)).squeeze S_ squeezes_S1_S_).sem = sendS 4 := by decide +kernel
theorem sendSem6_eq : ((cc0_scratch2.slice (Rect.unit (s := S16) ![6] S1.size inb_S16_S1_6)).squeeze S_ squeezes_S1_S_).sem = sendS 5 := by decide +kernel
theorem sendSem7_eq : ((cc0_scratch2.slice (Rect.unit (s := S16) ![7] S1.size inb_S16_S1_7)).squeeze S_ squeezes_S1_S_).sem = sendS 6 := by decide +kernel
theorem sendSem8_eq : ((cc0_scratch2.slice (Rect.unit (s := S16) ![8] S1.size inb_S16_S1_8)).squeeze S_ squeezes_S1_S_).sem = sendS 7 := by decide +kernel
theorem sendSem9_eq : ((cc0_scratch2.slice (Rect.unit (s := S16) ![9] S1.size inb_S16_S1_9)).squeeze S_ squeezes_S1_S_).sem = sendS 8 := by decide +kernel
theorem sendSem10_eq : ((cc0_scratch2.slice (Rect.unit (s := S16) ![10] S1.size inb_S16_S1_10)).squeeze S_ squeezes_S1_S_).sem = sendS 9 := by decide +kernel
theorem sendSem11_eq : ((cc0_scratch2.slice (Rect.unit (s := S16) ![11] S1.size inb_S16_S1_11)).squeeze S_ squeezes_S1_S_).sem = sendS 10 := by decide +kernel
theorem sendSem12_eq : ((cc0_scratch2.slice (Rect.unit (s := S16) ![12] S1.size inb_S16_S1_12)).squeeze S_ squeezes_S1_S_).sem = sendS 11 := by decide +kernel
theorem sendSem13_eq : ((cc0_scratch2.slice (Rect.unit (s := S16) ![13] S1.size inb_S16_S1_13)).squeeze S_ squeezes_S1_S_).sem = sendS 12 := by decide +kernel
theorem sendSem14_eq : ((cc0_scratch2.slice (Rect.unit (s := S16) ![14] S1.size inb_S16_S1_14)).squeeze S_ squeezes_S1_S_).sem = sendS 13 := by decide +kernel
theorem sendSem15_eq : ((cc0_scratch2.slice (Rect.unit (s := S16) ![15] S1.size inb_S16_S1_15)).squeeze S_ squeezes_S1_S_).sem = sendS 14 := by decide +kernel
theorem recvSem1_eq : ((cc0_scratch3.slice (Rect.unit (s := S16) ![1] S1.size inb_S16_S1_1)).squeeze S_ squeezes_S1_S_).sem = recvS 0 := by decide +kernel
theorem recvSem2_eq : ((cc0_scratch3.slice (Rect.unit (s := S16) ![2] S1.size inb_S16_S1_2)).squeeze S_ squeezes_S1_S_).sem = recvS 1 := by decide +kernel
theorem recvSem3_eq : ((cc0_scratch3.slice (Rect.unit (s := S16) ![3] S1.size inb_S16_S1_3)).squeeze S_ squeezes_S1_S_).sem = recvS 2 := by decide +kernel
theorem recvSem4_eq : ((cc0_scratch3.slice (Rect.unit (s := S16) ![4] S1.size inb_S16_S1_4)).squeeze S_ squeezes_S1_S_).sem = recvS 3 := by decide +kernel
theorem recvSem5_eq : ((cc0_scratch3.slice (Rect.unit (s := S16) ![5] S1.size inb_S16_S1_5)).squeeze S_ squeezes_S1_S_).sem = recvS 4 := by decide +kernel
theorem recvSem6_eq : ((cc0_scratch3.slice (Rect.unit (s := S16) ![6] S1.size inb_S16_S1_6)).squeeze S_ squeezes_S1_S_).sem = recvS 5 := by decide +kernel
theorem recvSem7_eq : ((cc0_scratch3.slice (Rect.unit (s := S16) ![7] S1.size inb_S16_S1_7)).squeeze S_ squeezes_S1_S_).sem = recvS 6 := by decide +kernel
theorem recvSem8_eq : ((cc0_scratch3.slice (Rect.unit (s := S16) ![8] S1.size inb_S16_S1_8)).squeeze S_ squeezes_S1_S_).sem = recvS 7 := by decide +kernel
theorem recvSem9_eq : ((cc0_scratch3.slice (Rect.unit (s := S16) ![9] S1.size inb_S16_S1_9)).squeeze S_ squeezes_S1_S_).sem = recvS 8 := by decide +kernel
theorem recvSem10_eq : ((cc0_scratch3.slice (Rect.unit (s := S16) ![10] S1.size inb_S16_S1_10)).squeeze S_ squeezes_S1_S_).sem = recvS 9 := by decide +kernel
theorem recvSem11_eq : ((cc0_scratch3.slice (Rect.unit (s := S16) ![11] S1.size inb_S16_S1_11)).squeeze S_ squeezes_S1_S_).sem = recvS 10 := by decide +kernel
theorem recvSem12_eq : ((cc0_scratch3.slice (Rect.unit (s := S16) ![12] S1.size inb_S16_S1_12)).squeeze S_ squeezes_S1_S_).sem = recvS 11 := by decide +kernel
theorem recvSem13_eq : ((cc0_scratch3.slice (Rect.unit (s := S16) ![13] S1.size inb_S16_S1_13)).squeeze S_ squeezes_S1_S_).sem = recvS 12 := by decide +kernel
theorem recvSem14_eq : ((cc0_scratch3.slice (Rect.unit (s := S16) ![14] S1.size inb_S16_S1_14)).squeeze S_ squeezes_S1_S_).sem = recvS 13 := by decide +kernel
theorem recvSem15_eq : ((cc0_scratch3.slice (Rect.unit (s := S16) ![15] S1.size inb_S16_S1_15)).squeeze S_ squeezes_S1_S_).sem = recvS 14 := by decide +kernel

/-! ## The cells -/

theorem csem_kb : csem kb = .reg barS := rfl
theorem csem_ks (j : Fin 15) : csem (ks j) = .dma (sendS j) := by revert j; decide
theorem csem_kr (j : Fin 15) : csem (kr j) = .dma (recvS j) := by revert j; decide
theorem csem_injective : Function.Injective csem := by
  intro a b; revert a b; decide +kernel
theorem kcell_injective : Function.Injective (kcell : Dev nD × Fin 31 → GSem nD τ sig) := by
  rintro ⟨c, k⟩ ⟨c', k'⟩ h
  have h1 : c = c' := congrArg (fun g : GSem nD τ sig => g.1.1) h
  subst h1
  have h2 : k = k' := csem_injective (congrArg Prod.snd h)
  subst h2; rfl

theorem xferIdx_send (j : Fin 15) : xferIdx (.dma (sendS j)) = some (false, j) := by revert j; decide
theorem xferIdx_recv (j : Fin 15) : xferIdx (.dma (recvS j)) = some (true, j) := by revert j; decide
theorem xferIdx_bar : xferIdx (.reg barS : SemLoc sig) = none := rfl

/-! ## Big separating conjunctions over fifteen, thirty-one and thirty-two names, written out -/

theorem bigSep_fin15 {M : Type} [URA M] (Φ : Fin 15 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14) :=
  bigSep_univ_eq_bigSepL [0, 1, 2, 3, 4, 5, 6, 7, 8, 9, 10, 11, 12, 13, 14] (by decide +kernel) (by decide +kernel) Φ
theorem bigSep_fin31 {M : Type} [URA M] (Φ : Fin 31 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30) :=
  bigSep_univ_eq_bigSepL [0, 1, 2, 3, 4, 5, 6, 7, 8, 9, 10, 11, 12, 13, 14, 15, 16, 17, 18, 19, 20, 21, 22, 23, 24, 25, 26, 27, 28, 29, 30] (by decide +kernel) (by decide +kernel) Φ
theorem bigSep_fin32 {M : Type} [URA M] (Φ : Fin 32 → sProp M) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31) :=
  bigSep_univ_eq_bigSepL [0, 1, 2, 3, 4, 5, 6, 7, 8, 9, 10, 11, 12, 13, 14, 15, 16, 17, 18, 19, 20, 21, 22, 23, 24, 25, 26, 27, 28, 29, 30, 31] (by decide +kernel) (by decide +kernel) Φ

/-- info: 'Cert.Kernel.Proto.kcell_injective' depends on axioms: [propext, Classical.choice, Quot.sound] -/
#guard_msgs in #print axioms kcell_injective

end Cert.Kernel.Proto

end
-- ==== Proof.KTables.lean ====
/-
  The tables of the one-round schedule: for each of a device's thirty-one cells, the duties of round 0, what
  each contributes and hands over, and that no later round has any; the levels of the cells; where the units a
  device owes at launch, and after its barrier signals, can lie; and that a wait on a cell of level 0, or on
  the barrier cell once only receive credit is owed, sits below everything still owed.
-/
import proofs.«900923_g7700000000000924_dist_max_ax0_shard0_i_m512_n256_v7x_i16_f32_1_alg».proof.Proof.KProtocol
import proofs.«900923_g7700000000000924_dist_max_ax0_shard0_i_m512_n256_v7x_i16_f32_1_alg».proof.Proof.KMesh

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

/-! ## The schedule's tables -/

section Sched
variable (m : (ℓ : Loc nD τ sig) → Buf (Elt F) ℓ)

theorem send_ne_bar (j : Fin 15) : (SemLoc.dma (sendS j) : SemLoc sig) ≠ .reg barS := fun h => by cases h
theorem recv_ne_bar (j : Fin 15) : (SemLoc.dma (recvS j) : SemLoc sig) ≠ .reg barS := fun h => by cases h
theorem not_bar_send (c : Dev nD) (j : Fin 15) : ¬ IsBar (sendCell c j) := fun h => send_ne_bar j h.2
theorem not_bar_recv (c : Dev nD) (j : Fin 15) : ¬ IsBar (recvCell c j) := fun h => recv_ne_bar j h.2
theorem xfer_send (c : Dev nD) (j : Fin 15) : IsXfer (sendCell c j) := ⟨rfl, by rw [xferIdx_send]; rfl⟩
theorem xfer_recv (c : Dev nD) (j : Fin 15) : IsXfer (recvCell c j) := ⟨rfl, by rw [xferIdx_recv]; rfl⟩

theorem duties_bar (c : Dev nD) : (Rd (F := F) m).duties (barCell c) 0 = Finset.univ := by
  dsimp only [Rd]; exact if_pos ⟨rfl, rfl, rfl⟩
theorem duties_send (c : Dev nD) (j : Fin 15) : (Rd (F := F) m).duties (sendCell c j) 0 = {0} := by
  dsimp only [Rd]; rw [if_neg (fun h => not_bar_send c j h.2)]; exact if_pos ⟨rfl, xfer_send c j⟩
theorem duties_recv (c : Dev nD) (j : Fin 15) : (Rd (F := F) m).duties (recvCell c j) 0 = {0} := by
  dsimp only [Rd]; rw [if_neg (fun h => not_bar_recv c j h.2)]; exact if_pos ⟨rfl, xfer_recv c j⟩
theorem duties_later (g : GSem nD τ sig) : ∀ r, 1 ≤ r → (Rd (F := F) m).duties g r = ∅ :=
  fun r hr => by dsimp only [Rd]; rw [if_neg fun h => by omega, if_neg fun h => by omega]

theorem amount_bar (c : Dev nD) (d : Fin 15) : (Rd (F := F) m).amount (barCell c) 0 d = 1 := by
  dsimp only [Rd]; exact if_pos rfl
theorem amount_send (c : Dev nD) (j d : Fin 15) : (Rd (F := F) m).amount (sendCell c j) 0 d = N := by
  dsimp only [Rd]; exact if_neg (send_ne_bar j)
theorem amount_recv (c : Dev nD) (j d : Fin 15) : (Rd (F := F) m).amount (recvCell c j) 0 d = N := by
  dsimp only [Rd]; exact if_neg (recv_ne_bar j)

theorem expect_bar (c : Dev nD) : (Rd (F := F) m).expect (barCell c) 0 = 15 := by
  unfold Schedule.expect Schedule.amountOf
  rw [duties_bar, Finset.sum_congr rfl fun d _ => amount_bar m c d, Finset.sum_const, Finset.card_univ, Fintype.card_fin, smul_eq_mul]
theorem expect_send (c : Dev nD) (j : Fin 15) : (Rd (F := F) m).expect (sendCell c j) 0 = N := by
  unfold Schedule.expect Schedule.amountOf; rw [duties_send, Finset.sum_singleton, amount_send]
theorem expect_recv (c : Dev nD) (j : Fin 15) : (Rd (F := F) m).expect (recvCell c j) 0 = N := by
  unfold Schedule.expect Schedule.amountOf; rw [duties_recv, Finset.sum_singleton, amount_recv]

theorem payload_bar (c : Dev nD) (d : Fin 15) : (Rd (F := F) m).payload (barCell c) 0 d = rowPts (src c d) c initC := by
  dsimp only [Rd]; rw [if_pos rfl]
theorem payload_send (c : Dev nD) (j d : Fin 15) :
    (Rd (F := F) m).payload (sendCell c j) 0 d = ownPts c (shareTok fullShare 15 j) (ownC m c) := by
  dsimp only [Rd]; rw [if_neg (send_ne_bar j), xferIdx_send]
theorem payload_recv (c : Dev nD) (j d : Fin 15) :
    (Rd (F := F) m).payload (recvCell c j) 0 d = rowPts c (src c j) (gathC m c) := by
  dsimp only [Rd]; rw [if_neg (recv_ne_bar j), xferIdx_recv]

/-- The whole of the barrier cell's round, no duty taken: the fifteen rows of the peers' gather buffers that are
    reserved for this device, each at its initial contents. -/
theorem rest_bar (c : Dev nD) :
    bigSep ((Rd (F := F) m).duties (barCell c) 0 \ ∅) (fun d => (Rd (F := F) m).payload (barCell c) 0 d)
      = bigSep Finset.univ fun d : Fin 15 => rowPts (F := F) (src c d) c initC := by
  rw [Finset.sdiff_empty, duties_bar]
  exact congrArg (bigSep Finset.univ) (funext fun d => payload_bar m c d)
theorem rest_send (c : Dev nD) (j : Fin 15) :
    bigSep ((Rd (F := F) m).duties (sendCell c j) 0 \ ∅) (fun d => (Rd (F := F) m).payload (sendCell c j) 0 d)
      = ownPts c (shareTok fullShare 15 j) (ownC m c) := by
  rw [Finset.sdiff_empty, duties_send, bigSep_singleton, payload_send]
theorem rest_recv (c : Dev nD) (j : Fin 15) :
    bigSep ((Rd (F := F) m).duties (recvCell c j) 0 \ ∅) (fun d => (Rd (F := F) m).payload (recvCell c j) 0 d)
      = rowPts c (src c j) (gathC m c) := by
  rw [Finset.sdiff_empty, duties_recv, bigSep_singleton, payload_recv]

end Sched

/-! ## The levels -/

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) : lv (barCell c) () = 1 := if_pos rfl
theorem lv_recv (c : Dev nD) (j : Fin 15) : lv (recvCell c j) () = 2 := by
  dsimp only [lv]; rw [if_neg (recv_ne_bar j), xferIdx_recv]

/-! ## Where the owed units lie -/

/-- A tally at one cell is positive only at that cell. -/
theorem tallyAt_pos {g g' : GSem nD τ sig} {k : ℕ} {u : Unit} (h : 0 < tallyAt g' () k g u) : g = g' := by
  rw [tallyAt_apply] at h
  by_contra hn
  rw [if_neg (fun h' => hn h'.1)] at h
  exact Nat.lt_irrefl 0 h

/-- Once the barrier signals are out a device owes only the receive cells its copies pay. -/
theorem OR_pos {c : Dev nD} {g : GSem nD τ sig} {u : Unit} (h : 0 < OR c g u) : ∃ j, g = recvCell (peer c j) j := by
  unfold OR at h
  rcases Pipeline.add_pos_cases h with h | h
  swap; · exact ⟨0, tallyAt_pos h⟩
  rcases Pipeline.add_pos_cases h with h | h
  swap; · exact ⟨1, tallyAt_pos h⟩
  rcases Pipeline.add_pos_cases h with h | h
  swap; · exact ⟨2, tallyAt_pos h⟩
  rcases Pipeline.add_pos_cases h with h | h
  swap; · exact ⟨3, tallyAt_pos h⟩
  rcases Pipeline.add_pos_cases h with h | h
  swap; · exact ⟨4, tallyAt_pos h⟩
  rcases Pipeline.add_pos_cases h with h | h
  swap; · exact ⟨5, tallyAt_pos h⟩
  rcases Pipeline.add_pos_cases h with h | h
  swap; · exact ⟨6, tallyAt_pos h⟩
  rcases Pipeline.add_pos_cases h with h | h
  swap; · exact ⟨7, tallyAt_pos h⟩
  rcases Pipeline.add_pos_cases h with h | h
  swap; · exact ⟨8, tallyAt_pos h⟩
  rcases Pipeline.add_pos_cases h with h | h
  swap; · exact ⟨9, tallyAt_pos h⟩
  rcases Pipeline.add_pos_cases h with h | h
  swap; · exact ⟨10, tallyAt_pos h⟩
  rcases Pipeline.add_pos_cases h with h | h
  swap; · exact ⟨11, tallyAt_pos h⟩
  rcases Pipeline.add_pos_cases h with h | h
  swap; · exact ⟨12, tallyAt_pos h⟩
  rcases Pipeline.add_pos_cases h with h | h
  swap; · exact ⟨13, tallyAt_pos h⟩
  exact ⟨14, tallyAt_pos h⟩

/-- At launch it owes those and its peers' barrier cells. -/
theorem O₀_pos {c : Dev nD} {g : GSem nD τ sig} {u : Unit} (h : 0 < O₀ c g u) :
    (∃ j, g = recvCell (peer c j) j) ∨ (∃ j, g = barCell (peer c j)) := by
  unfold O₀ at h
  rcases Pipeline.add_pos_cases h with h | h
  swap; · exact .inr ⟨0, tallyAt_pos h⟩
  rcases Pipeline.add_pos_cases h with h | h
  swap; · exact .inr ⟨1, tallyAt_pos h⟩
  rcases Pipeline.add_pos_cases h with h | h
  swap; · exact .inr ⟨2, tallyAt_pos h⟩
  rcases Pipeline.add_pos_cases h with h | h
  swap; · exact .inr ⟨3, tallyAt_pos h⟩
  rcases Pipeline.add_pos_cases h with h | h
  swap; · exact .inr ⟨4, tallyAt_pos h⟩
  rcases Pipeline.add_pos_cases h with h | h
  swap; · exact .inr ⟨5, tallyAt_pos h⟩
  rcases Pipeline.add_pos_cases h with h | h
  swap; · exact .inr ⟨6, tallyAt_pos h⟩
  rcases Pipeline.add_pos_cases h with h | h
  swap; · exact .inr ⟨7, tallyAt_pos h⟩
  rcases Pipeline.add_pos_cases h with h | h
  swap; · exact .inr ⟨8, tallyAt_pos h⟩
  rcases Pipeline.add_pos_cases h with h | h
  swap; · exact .inr ⟨9, tallyAt_pos h⟩
  rcases Pipeline.add_pos_cases h with h | h
  swap; · exact .inr ⟨10, tallyAt_pos h⟩
  rcases Pipeline.add_pos_cases h with h | h
  swap; · exact .inr ⟨11, tallyAt_pos h⟩
  rcases Pipeline.add_pos_cases h with h | h
  swap; · exact .inr ⟨12, tallyAt_pos h⟩
  rcases Pipeline.add_pos_cases h with h | h
  swap; · exact .inr ⟨13, tallyAt_pos h⟩
  rcases Pipeline.add_pos_cases h with h | h
  swap; · exact .inr ⟨14, tallyAt_pos h⟩
  exact .inl (OR_pos (c := c) h)

/-! ## The waits -/

omit [FloatOps F] in
/-- A wait on a cell of level 0 is below everything a device can owe: receive cells at 2 and barrier cells at 1. -/
theorem mayWait_low (c : Dev nD) (q : DmaSem sig) (hq : lv ((c : Thread nD τ), .dma q) () = 0)
    (O : CellTallies nD τ sig Unit) (hO : O = O₀ c ∨ O = OR c ∨ O = 0) :
    (levAts L lv : sProp (MT nD τ sig Unit (Elt F) ℕ UU ℕ)) ⊢ MayWait (c : Thread nD τ) (.dma q) () O := by
  rcases hO with rfl | rfl | rfl
  · refine MayOwe.of_cut (L := L) (lev := lv) 0
      (fun p hp => by rw [Finset.mem_singleton.mp hp, L_tc]; exact Finset.mem_singleton_self _)
      (fun g u hg => by
        rcases O₀_pos hg with ⟨j, rfl⟩ | ⟨j, rfl⟩ <;> (rw [L_tc]; exact Finset.mem_singleton_self _))
      (fun p hp => by rw [Finset.mem_singleton.mp hp]; exact le_of_eq hq)
      (fun g u hg => by
        rcases O₀_pos hg with ⟨j, rfl⟩ | ⟨j, rfl⟩
        · rw [show u = () from rfl, lv_recv]; decide
        · rw [show u = () from rfl, lv_bar]; decide)
  · refine MayOwe.of_cut (L := L) (lev := lv) 0
      (fun p hp => by rw [Finset.mem_singleton.mp hp, L_tc]; exact Finset.mem_singleton_self _)
      (fun g u hg => by
        obtain ⟨j, rfl⟩ := OR_pos hg; rw [L_tc]; exact Finset.mem_singleton_self _)
      (fun p hp => by rw [Finset.mem_singleton.mp hp]; exact le_of_eq hq)
      (fun g u hg => by
        obtain ⟨j, rfl⟩ := OR_pos hg; rw [show u = () from rfl, lv_recv]; decide)
  · rw [MayWait_zero]; iintro -; iempintro

omit [FloatOps F] in
/-- At its barrier wait a device owes receive credit only: receive cells, above its barrier cell. -/
theorem mayWait_bar (c : Dev nD) :
    (levAts L lv : sProp (MT nD τ sig Unit (Elt F) ℕ UU ℕ)) ⊢ MayWait (c : Thread nD τ) (.reg barS) () (OR c) :=
  MayOwe.of_cut (L := L) (lev := lv) 1
    (fun p hp => by rw [Finset.mem_singleton.mp hp, L_tc]; exact Finset.mem_singleton_self _)
    (fun g u hg => by obtain ⟨j, rfl⟩ := OR_pos hg; rw [L_tc]; exact Finset.mem_singleton_self _)
    (fun p hp => by rw [Finset.mem_singleton.mp hp]; exact le_of_eq (lv_bar c))
    (fun g u hg => by obtain ⟨j, rfl⟩ := OR_pos hg; rw [show u = () from rfl, lv_recv]; decide)

/-- info: 'Cert.Kernel.Proto.mayWait_low' depends on axioms: [propext, Classical.choice, Quot.sound] -/
#guard_msgs in #print axioms mayWait_low

end Cert.Kernel.Proto

end
-- ==== Proof.KLaunch.lean ====
/-
  The launch: from the proof of one device's body to the run of the whole mesh.
  The launch element funds the protocol's copy of the rounds algebra with the round state, the position and
  the reached-mark of every one of the 16 × 31 cells and with one token per duty: fifteen for each barrier
  cell, one for each send and each receive cell. Under one update for the whole mesh every cell's invariant is
  allocated from its counter at zero, and the tokens go round the mesh: duty `j` of a barrier cell to the device
  `j + 1` places back, which pays it, the duty of receive cell `j` likewise, the duty of a send cell stays.
  What the mesh owes a device at launch is fifteen units on its barrier cell and one row's credit on each of its
  receive cells; that is its launch credit. The two scratch semaphores no copy names stay at zero throughout.
-/
import proofs.«900923_g7700000000000924_dist_max_ax0_shard0_i_m512_n256_v7x_i16_f32_1_alg».proof.Proof.KProtocol
import proofs.«900923_g7700000000000924_dist_max_ax0_shard0_i_m512_n256_v7x_i16_f32_1_alg».proof.Proof.KMesh
import proofs.«900923_g7700000000000924_dist_max_ax0_shard0_i_m512_n256_v7x_i16_f32_1_alg».proof.Proof.KTables
import proofs.«900923_g7700000000000924_dist_max_ax0_shard0_i_m512_n256_v7x_i16_f32_1_alg».proof.Proof.Gen.Kernel.Points
import Mathlib.Algebra.BigOperators.Group.Finset.Basic
import Mathlib.Algebra.BigOperators.Fin
import Mathlib.Data.Fintype.Card
import Mathlib.Data.Fintype.BigOperators
import Mathlib.Tactic.Abel

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The launch -/

theorem ownSemFacts : Pipeline.OwnSemFacts cfg0.spec osem := by decide

theorem share_eq (c : Dev nD) (w : Fin cfg0.W) : (dats m 0 c).share w = fullShare := by unfold Dat.share; split <;> rfl

/-- The protocol's cells: thirty-one on each device. -/
def ringCells : Finset (GSem nD τ sig) := Finset.univ.map ⟨kcell, kcell_injective⟩

theorem tok_sendS_inj {j j' : Fin 15} (h : sendS j = sendS j') : j = j' := by
  have := congrArg Fin.val h; exact Fin.ext (by simp only [sendS] at this; omega)
theorem tok_recvS_inj {j j' : Fin 15} (h : recvS j = recvS j') : j = j' := by
  have := congrArg Fin.val h; exact Fin.ext (by simp only [recvS] at this; omega)
theorem tok_sendS_ne_recvS (j j' : Fin 15) : sendS j ≠ recvS j' := fun h => by
  have := congrArg Fin.val h; simp only [sendS, recvS] at this; omega

/-- The duty tokens as minted, by device, kind of cell and `j`: duty `j` of the barrier cell, the duty of send cell `j`,
    the duty of receive cell `j`. -/
abbrev tokOf (x : Dev nD × (Fin 3 × Fin 15)) : GSem nD τ sig × ℕ × Fin 15 := match x.2.1 with
  | 0 => (barCell x.1, 0, x.2.2) | 1 => (sendCell x.1 x.2.2, 0, 0) | 2 => (recvCell x.1 x.2.2, 0, 0)

theorem tokOf_injective : Function.Injective (tokOf : Dev nD × (Fin 3 × Fin 15) → GSem nD τ sig × ℕ × Fin 15) := by
  rintro ⟨c, k, j⟩ ⟨c', k', j'⟩ h
  have h1 : c = c' := by
    have := congrArg (fun x : GSem nD τ sig × ℕ × Fin 15 => x.1.1.1) h
    fin_cases k <;> fin_cases k' <;> exact this
  subst h1
  have hs := congrArg (fun x : GSem nD τ sig × ℕ × Fin 15 => x.1.2) h
  have hd := congrArg (fun x : GSem nD τ sig × ℕ × Fin 15 => x.2.2) h
  fin_cases k <;> fin_cases k'
  · have : j = j' := hd
    subst this; rfl
  · exact absurd hs (fun h' => by cases h')
  · exact absurd hs (fun h' => by cases h')
  · exact absurd hs (fun h' => by cases h')
  · have : j = j' := tok_sendS_inj (SemLoc.dma.inj hs)
    subst this; rfl
  · exact absurd (SemLoc.dma.inj hs) (tok_sendS_ne_recvS j j')
  · exact absurd hs (fun h' => by cases h')
  · exact absurd (SemLoc.dma.inj hs).symm (tok_sendS_ne_recvS j' j)
  · have : j = j' := tok_recvS_inj (SemLoc.dma.inj hs)
    subst this; rfl

def ringToks : Finset (GSem nD τ sig × ℕ × Fin 15) := Finset.univ.map ⟨tokOf, tokOf_injective⟩

def u₀ : UU :=
  (initOf (Pipeline.cells cfgs cellOf_inj) (Pipeline.launchToks cfgs cellOf_inj), initOf ringCells ringToks)

/-- The duty tokens of device `c`'s own cells. -/
def toks (c : Dev nD) : sProp 𝕄 :=
  iprop((bigSep Finset.univ fun j : Fin 15 => dutyTok ER (barCell c) 0 j)
    ∗ (bigSep Finset.univ fun j : Fin 15 => dutyTok ER (sendCell c j) 0 0)
    ∗ (bigSep Finset.univ fun j : Fin 15 => dutyTok ER (recvCell c j) 0 0))

/-- The two scratch semaphores no copy names, at zero. -/
def idleSems (c : Dev nD) : sProp 𝕄 := iprop(semVal ((c : Thread nD τ), .dma idleS₀) 0 ∗ semVal ((c : Thread nD τ), .dma idleS₁) 0)

/-- What the launch element deals device `c`. -/
def G (c : Dev nD) : sProp 𝕄 :=
  iprop((bigSep Finset.univ fun k : Fin 31 => roundState ER (Rd m) (kcell (c, k)) 0)
    ∗ (bigSep Finset.univ fun k : Fin 31 => iprop(atPos ER (kcell (c, k)) 0 ∅ 0 ∗ reached ER (kcell (c, k)) 0)) ∗ toks c)

/-- What the global step makes of it, beside the two idle semaphores. -/
def G' (c : Dev nD) : sProp 𝕄 := iprop((∃ K, ghost m K c) ∗ idleSems c)

theorem bigSep_fin3 (Φ : Fin 3 → sProp 𝕄) : bigSep Finset.univ Φ = iprop(Φ 0 ∗ Φ 1 ∗ Φ 2) := bigSep_univ_eq_bigSepL [0, 1, 2] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 31 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by
      unfold toks; rw [bigSep_univ_prod, bigSep_fin3]; rfl
  iintro HX
  imod (Rounds.fund ER (Rd m) ringCells ringToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-- A hypothesis that is one conjunct of a separating conjunction gives that conjunct. -/
local macro "itake " h:ident : tactic => `(tactic| (isplitl [$h]; · iexact $h))

/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- The kernel's thirty-two own semaphores and the barrier semaphore are the thirty-one cells of the protocol and the idle two. -/
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Fin 31 => semVal (kcell (c, k)) 0) ∗ idleSems c) : sProp 𝕄) := by
  unfold Pipeline.ownSems0 idleSems
  rw [bigSep_fin32, unscopedSems0_eq, bigSep_fin31]
  iintro ⟨⟨I0, S0, S1, S2, S3, S4, S5, S6, S7, S8, S9, S10, S11, S12, S13, S14, I1, R0, R1, R2, R3, R4, R5, R6, R7, R8, R9, R10, R11, R12, R13, R14⟩, HB⟩
  isplitr [I0 I1]
  · itake HB; itake S0; itake S1; itake S2; itake S3; itake S4; itake S5; itake S6; itake S7; itake S8; itake S9; itake S10; itake S11; itake S12; itake S13; itake S14
    itake R0; itake R1; itake R2; itake R3; itake R4; itake R5; itake R6; itake R7; itake R8; itake R9; itake R10; itake R11; itake R12; itake R13
    iexact R14
  · itake I0
    iexact I1

/-- The send and receive cells closed and the idle two are the kernel's thirty-two own semaphores at zero. -/
theorem ownSems0_intro (c : Dev nD) :
    (iprop((bigSep Finset.univ fun j : Fin 15 => semVal (sendCell c j) 0) ∗ (bigSep Finset.univ fun j : Fin 15 => semVal (recvCell c j) 0) ∗ idleSems c) : sProp 𝕄)
      ⊢ Pipeline.ownSems0 (Ix := Unit) (Name := ℕ) (U := UU) (Lvl := ℕ) (Val := Elt F) (τ := τ) osem c := by
  unfold Pipeline.ownSems0 idleSems
  rw [bigSep_fin32, bigSep_fin15, bigSep_fin15]
  iintro ⟨⟨S0, S1, S2, S3, S4, S5, S6, S7, S8, S9, S10, S11, S12, S13, S14⟩, ⟨R0, R1, R2, R3, R4, R5, R6, R7, R8, R9, R10, R11, R12, R13, R14⟩, I0, I1⟩
  itake I0; itake S0; itake S1; itake S2; itake S3; itake S4; itake S5; itake S6; itake S7; itake S8; itake S9; itake S10; itake S11; itake S12; itake S13; itake S14
  itake I1; itake R0; itake R1; itake R2; itake R3; itake R4; itake R5; itake R6; itake R7; itake R8; itake R9; itake R10; itake R11; itake R12; itake R13
  iexact R14

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ idleSems c) := by
  unfold G
  iintro ⟨Hos, Hus, Hst, Hat, Htok⟩
  ihave Hv := (sems0_eq (F := F) c) $$ [Hos Hus]
  · isplitl [Hos] <;> iassumption
  icases Hv with ⟨Hv, Hi⟩
  imod (show iprop((bigSep Finset.univ fun k : Fin 31 => semVal (kcell (c, k)) 0) ∗ bigSep Finset.univ fun k : Fin 31 => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact Hi

theorem ghost_intro (K : Dev nD × Fin 31 → ℕ) (c : Dev nD) : iprop(records m K ∗ (positions c ∗ payToks c) ∗ idleSems c) ⊢ G' m c := by
  unfold G' ghost
  iintro ⟨#HR, ⟨Hp, Ht⟩, Hi⟩
  isplitl [Hp Ht]
  · iexists K
    isplitr; · iexact HR
    isplitl [Hp]; · iexact Hp
    iexact Ht
  · iexact Hi

/-- The tokens dealt round the mesh: duty `j` of a barrier cell and the duty of receive cell `j` go to the device `j + 1`
    places back, whose peer number `j` the cell's owner is; a send cell's duty stays with its owner. -/
theorem toks_around : (bigSep Finset.univ fun c : Dev nD => (toks c : sProp 𝕄)) ⊢ bigSep Finset.univ fun c : Dev nD => payToks c := by
  have hring (f : Dev nD → Fin 15 → sProp 𝕄) :
      (bigSep Finset.univ fun c : Dev nD => bigSep Finset.univ fun j : Fin 15 => f c j)
        = bigSep Finset.univ fun c : Dev nD => bigSep Finset.univ fun j : Fin 15 => f (peer c j) j :=
    ((bigSep_univ_prod (fun x : Dev nD × Fin 15 => f x.1 x.2)).symm.trans (bigSep_univ_equiv ring (fun x : Dev nD × Fin 15 => f x.1 x.2))).trans
      (bigSep_univ_prod (fun x : Dev nD × Fin 15 => f (ring x).1 (ring x).2))
  unfold toks payToks
  rw [bigSep_sep', bigSep_sep', bigSep_sep', bigSep_sep',
    hring (fun c j => dutyTok ER (barCell c) 0 j), hring (fun c j => dutyTok ER (recvCell c j) 0 0)]
  iintro ⟨H1, H2, H3⟩
  isplitl [H1]; · iexact H1
  isplitl [H3]; · iexact H3
  iexact H2

theorem regroup :
    (bigSep Finset.univ fun c : Dev nD => iprop((bigSep Finset.univ fun k => iprop(∃ κ : ℕ, cellInv ER (Rd m) κ (kcell (c, k))))
          ∗ (bigSep Finset.univ fun k => iprop(atPos ER (kcell (c, k)) 0 ∅ 0 ∗ reached ER (kcell (c, k)) 0)) ∗ toks c ∗ idleSems c) : sProp 𝕄)
      ⊢ bigSep Finset.univ (G' m) := by
  rw [bigSep_sep', bigSep_sep', bigSep_sep', ← bigSep_univ_prod (fun ck : Dev nD × Fin 31 => iprop(∃ κ : ℕ, cellInv ER (Rd m) κ (kcell ck))),
    bigSep_congr (s := Finset.univ) (fun (c : Dev nD) _ => bigSep_sep' Finset.univ (fun k : Fin 31 => (atPos ER (kcell (c, k)) 0 ∅ 0 : sProp 𝕄)) (fun k => reached ER (kcell (c, k)) 0)),
    bigSep_sep', ← bigSep_univ_prod (fun ck : Dev nD × Fin 31 => (reached ER (kcell ck) 0 : sProp 𝕄))]
  iintro ⟨HI, ⟨Hat, #HR⟩, Htok, Hidle⟩
  ihave HK := (BI.bigSep_exists_pi Finset.univ (fun (ck : Dev nD × Fin 31) (κ : ℕ) => (cellInv ER (Rd m) κ (kcell ck) : sProp 𝕄))) $$ HI
  icases HK with ⟨%K, #HI⟩
  ihave Htk := (toks_around (F := F)) $$ Htok
  iapply (BI.bigSep_with_persistent (R := records m K) fun c _ => ghost_intro m K c)
  isplitr
  · unfold records; isplitl; · iexact HI
    iexact HR
  · rw [bigSep_sep', bigSep_sep']
    isplitl [Hat Htk]
    · isplitl [Hat]
      · unfold positions; iexact Hat
      · iexact Htk
    · iexact Hidle

/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

/-- What the mesh owes device `c`'s cells: fifteen units on its barrier cell, one row's credit on each receive cell. -/
def dueTo (c : Dev nD) : CellTallies nD τ sig Unit := tallyAt (barCell c) () 15 + ∑ j : Fin 15, tallyAt (recvCell c j) () N

theorem fin15_range : List.finRange 15 = [0, 1, 2, 3, 4, 5, 6, 7, 8, 9, 10, 11, 12, 13, 14] := by decide

/-- What a device owes, summed by kind. -/
theorem O₀_sum (d : Dev nD) : O₀ d = (∑ j : Fin 15, rT d j) + ∑ j : Fin 15, bT d j := by
  unfold O₀
  rw [Fin.sum_univ_def, Fin.sum_univ_def, fin15_range]
  simp only [List.map_cons, List.map_nil, List.sum_cons, List.sum_nil]
  abel

theorem nsmul_tallyAt (g : GSem nD τ sig) (n : ℕ) : n • (tallyAt g () 1 : CellTallies nD τ sig Unit) = tallyAt g () n := by
  induction n with
  | zero => rw [zero_nsmul, tallyAt_zero]
  | succ n ih => rw [succ_nsmul, ih, tallyAt_add]

/-- Summed over the mesh, what the devices owe is what each device's cells are due: every device is peer number `j` of
    exactly one device. -/
theorem sum_O₀ : (∑ d : Dev nD, O₀ d) = ∑ d : Dev nD, dueTo d := by
  have hring (f : Dev nD → Fin 15 → CellTallies nD τ sig Unit) : (∑ d : Dev nD, ∑ j : Fin 15, f (peer d j) j) = ∑ d : Dev nD, ∑ j : Fin 15, f d j :=
    ((Fintype.sum_prod_type' (fun d j => f (peer d j) j)).symm.trans (Equiv.sum_comp ring (fun x : Dev nD × Fin 15 => f x.1 x.2))).trans
      (Fintype.sum_prod_type' f)
  have hb : (∑ d : Dev nD, ∑ j : Fin 15, bT d j) = ∑ d : Dev nD, tallyAt (barCell d) () 15 :=
    (hring (fun d _ => tallyAt (barCell d) () 1)).trans (Finset.sum_congr rfl fun d _ => by
      rw [Finset.sum_const, Finset.card_univ, Fintype.card_fin, nsmul_tallyAt])
  have hr : (∑ d : Dev nD, ∑ j : Fin 15, rT d j) = ∑ d : Dev nD, ∑ j : Fin 15, tallyAt (recvCell d j) () N :=
    hring (fun d j => tallyAt (recvCell d j) () N)
  calc (∑ d : Dev nD, O₀ d) = ∑ d : Dev nD, ((∑ j : Fin 15, rT d j) + ∑ j : Fin 15, bT d j) := Finset.sum_congr rfl fun d _ => O₀_sum d
    _ = (∑ d : Dev nD, ∑ j : Fin 15, rT d j) + ∑ d : Dev nD, ∑ j : Fin 15, bT d j := Finset.sum_add_distrib
    _ = (∑ d : Dev nD, ∑ j : Fin 15, tallyAt (recvCell d j) () N) + ∑ d : Dev nD, tallyAt (barCell d) () 15 := by rw [hr, hb]
    _ = (∑ d : Dev nD, tallyAt (barCell d) () 15) + ∑ d : Dev nD, ∑ j : Fin 15, tallyAt (recvCell d j) () N := add_comm _ _
    _ = ∑ d : Dev nD, dueTo d := Finset.sum_add_distrib.symm

theorem dueTo_own (d : Dev nD) (g : GSem nD τ sig) (h : dueTo d g ≠ 0) : g.1 = (d : Thread nD τ) := by
  by_contra hne
  refine h ?_
  unfold dueTo
  rw [Pi.add_apply, Finset.sum_apply, tallyAt_ne_cell (fun e => hne (by rw [e])), zero_add]
  exact Finset.sum_eq_zero fun j _ => tallyAt_ne_cell (fun e => hne (by rw [e])) () N

theorem creds (c : Dev nD) :
    (Pipeline.launchCred O₀ c : sProp 𝕄) ⊢ iprop(cred (tallyAt (barCell c) () 15) ∗ bigSep Finset.univ fun j : Fin 15 => cred (tallyAt (recvCell c j) () N)) := by
  rw [Pipeline.launchCred_of_sum O₀ dueTo sum_O₀ dueTo_own c]
  unfold dueTo
  refine (cred_add _ _).1.trans (sep_mono_right (Entails.of_eq ?_))
  exact Pipeline.cred_finsetSum Finset.univ fun j : Fin 15 => tallyAt (recvCell c j) () N

/-! ### The launch theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  unfold start G' idleSems
  iintro ⟨-, Hlev, Hcr, -, HK, Hi⟩
  ihave Hc := (creds (F := F) c) $$ Hcr
  icases Hc with ⟨H1, HN⟩
  imodintro
  isplitl
  · isplitl [HK]; · iexact HK
    isplitl [H1]; · iexact H1
    isplitl [HN]; · iexact HN
    isplitl [Hi]; · iexact Hi
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq]
  unfold Φ₁
  iintro ⟨Ho, Hg, HS, HR, Hi⟩
  isplitr; · iempintro
  isplitl [HS HR Hi]
  · iapply (ownSems0_intro (F := F) c)
    isplitl [HS]; · iexact HS
    isplitl [HR]; · iexact HR
    unfold idleSems; iexact Hi
  isplitl [Ho]
  · iexists (ownC m c); iexact Ho
  · iexists (gathC m c); iexact Hg

theorem waits (c : Dev nD) : (levAts L lv : sProp 𝕄) ⊢ Pipeline.cellsWaits cfgs (dats m) () 0 c :=
  Pipeline.cellsWaits_intro cfgs (dats m) () 0 c fun w s t =>
    mayWait_low c _ (by fin_cases w <;> fin_cases s <;> rfl) _ (by
      rcases t with ⟨_ | _, ht⟩
      · exact Or.inl rfl
      · exact Or.inr (Or.inr rfl))

/-! ### The run -/

def QC : PUnit × MemSt nD τ sig (Elt F) → Prop := fun r =>
  ∀ c : Dev nD, ∀ w : Fin cfg0.W, r.2.mem ((cfg0.win w).arr.view.loc (c : Thread nD τ)) = (dats m 0 c).arrAt w cfg0.N

set_option maxRecDepth 8000 in
/-- At the compiled mesh of sixteen devices, for any float values, from any memory with zero counters, given the body
    obligation of every device: every weakly fair execution of @main terminates, and every final state has each device's
    arrays at the contents the proof data name. -/
theorem run_main (hbody : ∀ c : Dev nD, BodyObligation (dats (F := F) m 0 c) (defs₀ (F := F)) 𝒱₀ () Set.univ) :
    θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The input array after the run holds what it held. -/
theorem finalA_x (c : Dev nD) : (dats (F := F) m 0 c).arrAt (0 : Fin 2) cfg0.N = m (win0_0.arr.view.loc (c : Thread nD τ)) :=
  (dats (F := F) m 0 c).arrAt_in (0 : Fin 2) rfl _

/-- The result array after the run is the body's result. -/
theorem finalA_out (c : Dev nD) : (dats (F := F) m 0 c).arrAt (1 : Fin 2) cfg0.N = outC m c := by
  have h := (dats (F := F) m 0 c).arrAt_succ (1 : Fin 2) t0_0
  rw [if_pos (flush0_1 t0_0)] at h
  refine h.trans ?_
  exact Memref.write_access_unit_zero_univ (Elt F) main_v1 (funext fun a => Nat.zero_mul _) _ _ _

/-- info: 'Cert.Kernel.Proto.run_main' depends on axioms: [propext, Classical.choice, Quot.sound] -/
#guard_msgs in #print axioms run_main

end Cert.Kernel.Proto

end
-- ==== Proof.KBodyDefs.lean ====
/-
  The body's pre- and postcondition laid out flat: one conjunct per resource, each buffer held through its memref's
  view and each cell named as `barCell`, `sendCell j` or `recvCell j`.
  Before: every cell's invariant the device opens, the reached-marks and tokens of the duties it pays, its four
  buffers, what it owes, its positions and credit. After: the four buffers at their final contents, nothing owed,
  and its thirty transfer cells one round on.
-/
import proofs.«900923_g7700000000000924_dist_max_ax0_shard0_i_m512_n256_v7x_i16_f32_1_alg».proof.Proof.KProtocol

noncomputable section
namespace Cert.Kernel.Proto
open Cert.Kernel Cert.Kernel.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

def preFlat (K : Dev nD × Fin 31 → ℕ) (c : Dev nD) (W : Waits sig Unit) (g1 : Buf (Elt F) (oM.view.loc (c : Thread nD τ)))
    (f0 : Buf (Elt F) (ownM.view.loc (c : Thread nD τ))) (f1 : Buf (Elt F) (commM.view.loc (c : Thread nD τ))) : sProp 𝕄 :=
  iprop(cellInv ER (Rd m) (K (c, kb)) (barCell c)
        ∗ cellInv ER (Rd m) (K (c, ks 0)) (sendCell c 0)
        ∗ cellInv ER (Rd m) (K (c, ks 1)) (sendCell c 1)
        ∗ cellInv ER (Rd m) (K (c, ks 2)) (sendCell c 2)
        ∗ cellInv ER (Rd m) (K (c, ks 3)) (sendCell c 3)
        ∗ cellInv ER (Rd m) (K (c, ks 4)) (sendCell c 4)
        ∗ cellInv ER (Rd m) (K (c, ks 5)) (sendCell c 5)
        ∗ cellInv ER (Rd m) (K (c, ks 6)) (sendCell c 6)
        ∗ cellInv ER (Rd m) (K (c, ks 7)) (sendCell c 7)
        ∗ cellInv ER (Rd m) (K (c, ks 8)) (sendCell c 8)
        ∗ cellInv ER (Rd m) (K (c, ks 9)) (sendCell c 9)
        ∗ cellInv ER (Rd m) (K (c, ks 10)) (sendCell c 10)
        ∗ cellInv ER (Rd m) (K (c, ks 11)) (sendCell c 11)
        ∗ cellInv ER (Rd m) (K (c, ks 12)) (sendCell c 12)
        ∗ cellInv ER (Rd m) (K (c, ks 13)) (sendCell c 13)
        ∗ cellInv ER (Rd m) (K (c, ks 14)) (sendCell c 14)
        ∗ cellInv ER (Rd m) (K (c, kr 0)) (recvCell c 0)
        ∗ cellInv ER (Rd m) (K (c, kr 1)) (recvCell c 1)
        ∗ cellInv ER (Rd m) (K (c, kr 2)) (recvCell c 2)
        ∗ cellInv ER (Rd m) (K (c, kr 3)) (recvCell c 3)
        ∗ cellInv ER (Rd m) (K (c, kr 4)) (recvCell c 4)
        ∗ cellInv ER (Rd m) (K (c, kr 5)) (recvCell c 5)
        ∗ cellInv ER (Rd m) (K (c, kr 6)) (recvCell c 6)
        ∗ cellInv ER (Rd m) (K (c, kr 7)) (recvCell c 7)
        ∗ cellInv ER (Rd m) (K (c, kr 8)) (recvCell c 8)
        ∗ cellInv ER (Rd m) (K (c, kr 9)) (recvCell c 9)
        ∗ cellInv ER (Rd m) (K (c, kr 10)) (recvCell c 10)
        ∗ cellInv ER (Rd m) (K (c, kr 11)) (recvCell c 11)
        ∗ cellInv ER (Rd m) (K (c, kr 12)) (recvCell c 12)
        ∗ cellInv ER (Rd m) (K (c, kr 13)) (recvCell c 13)
        ∗ cellInv ER (Rd m) (K (c, kr 14)) (recvCell c 14)
        ∗ cellInv ER (Rd m) (K (peer c 0, kb)) (barCell (peer c 0))
        ∗ cellInv ER (Rd m) (K (peer c 1, kb)) (barCell (peer c 1))
        ∗ cellInv ER (Rd m) (K (peer c 2, kb)) (barCell (peer c 2))
        ∗ cellInv ER (Rd m) (K (peer c 3, kb)) (barCell (peer c 3))
        ∗ cellInv ER (Rd m) (K (peer c 4, kb)) (barCell (peer c 4))
        ∗ cellInv ER (Rd m) (K (peer c 5, kb)) (barCell (peer c 5))
        ∗ cellInv ER (Rd m) (K (peer c 6, kb)) (barCell (peer c 6))
        ∗ cellInv ER (Rd m) (K (peer c 7, kb)) (barCell (peer c 7))
        ∗ cellInv ER (Rd m) (K (peer c 8, kb)) (barCell (peer c 8))
        ∗ cellInv ER (Rd m) (K (peer c 9, kb)) (barCell (peer c 9))
        ∗ cellInv ER (Rd m) (K (peer c 10, kb)) (barCell (peer c 10))
        ∗ cellInv ER (Rd m) (K (peer c 11, kb)) (barCell (peer c 11))
        ∗ cellInv ER (Rd m) (K (peer c 12, kb)) (barCell (peer c 12))
        ∗ cellInv ER (Rd m) (K (peer c 13, kb)) (barCell (peer c 13))
        ∗ cellInv ER (Rd m) (K (peer c 14, kb)) (barCell (peer c 14))
        ∗ cellInv ER (Rd m) (K (peer c 0, kr 0)) (recvCell (peer c 0) 0)
        ∗ cellInv ER (Rd m) (K (peer c 1, kr 1)) (recvCell (peer c 1) 1)
        ∗ cellInv ER (Rd m) (K (peer c 2, kr 2)) (recvCell (peer c 2) 2)
        ∗ cellInv ER (Rd m) (K (peer c 3, kr 3)) (recvCell (peer c 3) 3)
        ∗ cellInv ER (Rd m) (K (peer c 4, kr 4)) (recvCell (peer c 4) 4)
        ∗ cellInv ER (Rd m) (K (peer c 5, kr 5)) (recvCell (peer c 5) 5)
        ∗ cellInv ER (Rd m) (K (peer c 6, kr 6)) (recvCell (peer c 6) 6)
        ∗ cellInv ER (Rd m) (K (peer c 7, kr 7)) (recvCell (peer c 7) 7)
        ∗ cellInv ER (Rd m) (K (peer c 8, kr 8)) (recvCell (peer c 8) 8)
        ∗ cellInv ER (Rd m) (K (peer c 9, kr 9)) (recvCell (peer c 9) 9)
        ∗ cellInv ER (Rd m) (K (peer c 10, kr 10)) (recvCell (peer c 10) 10)
        ∗ cellInv ER (Rd m) (K (peer c 11, kr 11)) (recvCell (peer c 11) 11)
        ∗ cellInv ER (Rd m) (K (peer c 12, kr 12)) (recvCell (peer c 12) 12)
        ∗ cellInv ER (Rd m) (K (peer c 13, kr 13)) (recvCell (peer c 13) 13)
        ∗ cellInv ER (Rd m) (K (peer c 14, kr 14)) (recvCell (peer c 14) 14)
        ∗ reached ER (barCell (peer c 0)) 0
        ∗ reached ER (barCell (peer c 1)) 0
        ∗ reached ER (barCell (peer c 2)) 0
        ∗ reached ER (barCell (peer c 3)) 0
        ∗ reached ER (barCell (peer c 4)) 0
        ∗ reached ER (barCell (peer c 5)) 0
        ∗ reached ER (barCell (peer c 6)) 0
        ∗ reached ER (barCell (peer c 7)) 0
        ∗ reached ER (barCell (peer c 8)) 0
        ∗ reached ER (barCell (peer c 9)) 0
        ∗ reached ER (barCell (peer c 10)) 0
        ∗ reached ER (barCell (peer c 11)) 0
        ∗ reached ER (barCell (peer c 12)) 0
        ∗ reached ER (barCell (peer c 13)) 0
        ∗ reached ER (barCell (peer c 14)) 0
        ∗ reached ER (recvCell (peer c 0) 0) 0
        ∗ reached ER (recvCell (peer c 1) 1) 0
        ∗ reached ER (recvCell (peer c 2) 2) 0
        ∗ reached ER (recvCell (peer c 3) 3) 0
        ∗ reached ER (recvCell (peer c 4) 4) 0
        ∗ reached ER (recvCell (peer c 5) 5) 0
        ∗ reached ER (recvCell (peer c 6) 6) 0
        ∗ reached ER (recvCell (peer c 7) 7) 0
        ∗ reached ER (recvCell (peer c 8) 8) 0
        ∗ reached ER (recvCell (peer c 9) 9) 0
        ∗ reached ER (recvCell (peer c 10) 10) 0
        ∗ reached ER (recvCell (peer c 11) 11) 0
        ∗ reached ER (recvCell (peer c 12) 12) 0
        ∗ reached ER (recvCell (peer c 13) 13) 0
        ∗ reached ER (recvCell (peer c 14) 14) 0
        ∗ reached ER (sendCell c 0) 0
        ∗ reached ER (sendCell c 1) 0
        ∗ reached ER (sendCell c 2) 0
        ∗ reached ER (sendCell c 3) 0
        ∗ reached ER (sendCell c 4) 0
        ∗ reached ER (sendCell c 5) 0
        ∗ reached ER (sendCell c 6) 0
        ∗ reached ER (sendCell c 7) 0
        ∗ reached ER (sendCell c 8) 0
        ∗ reached ER (sendCell c 9) 0
        ∗ reached ER (sendCell c 10) 0
        ∗ reached ER (sendCell c 11) 0
        ∗ reached ER (sendCell c 12) 0
        ∗ reached ER (sendCell c 13) 0
        ∗ reached ER (sendCell c 14) 0
        ∗ levAts L lv
        ∗ (xM.view.loc (c : Thread nD τ) ↦{fullShare} xstg m c)
        ∗ (oM.view.loc (c : Thread nD τ) ↦{fullShare} g1)
        ∗ (ownM.view.loc (c : Thread nD τ) ↦{fullShare} f0)
        ∗ (commM.view.loc (c : Thread nD τ) ↦{fullShare} f1)
        ∗ owes (c : Thread nD τ) (rT c 14 + rT c 13 + rT c 12 + rT c 11 + rT c 10 + rT c 9 + rT c 8 + rT c 7 + rT c 6 + rT c 5 + rT c 4 + rT c 3 + rT c 2 + rT c 1 + rT c 0 + bT c 14 + bT c 13 + bT c 12 + bT c 11 + bT c 10 + bT c 9 + bT c 8 + bT c 7 + bT c 6 + bT c 5 + bT c 4 + bT c 3 + bT c 2 + bT c 1 + bT c 0) W
        ∗ dutyTok ER (barCell (peer c 0)) 0 0
        ∗ dutyTok ER (barCell (peer c 1)) 0 1
        ∗ dutyTok ER (barCell (peer c 2)) 0 2
        ∗ dutyTok ER (barCell (peer c 3)) 0 3
        ∗ dutyTok ER (barCell (peer c 4)) 0 4
        ∗ dutyTok ER (barCell (peer c 5)) 0 5
        ∗ dutyTok ER (barCell (peer c 6)) 0 6
        ∗ dutyTok ER (barCell (peer c 7)) 0 7
        ∗ dutyTok ER (barCell (peer c 8)) 0 8
        ∗ dutyTok ER (barCell (peer c 9)) 0 9
        ∗ dutyTok ER (barCell (peer c 10)) 0 10
        ∗ dutyTok ER (barCell (peer c 11)) 0 11
        ∗ dutyTok ER (barCell (peer c 12)) 0 12
        ∗ dutyTok ER (barCell (peer c 13)) 0 13
        ∗ dutyTok ER (barCell (peer c 14)) 0 14
        ∗ dutyTok ER (recvCell (peer c 0) 0) 0 0
        ∗ dutyTok ER (recvCell (peer c 1) 1) 0 0
        ∗ dutyTok ER (recvCell (peer c 2) 2) 0 0
        ∗ dutyTok ER (recvCell (peer c 3) 3) 0 0
        ∗ dutyTok ER (recvCell (peer c 4) 4) 0 0
        ∗ dutyTok ER (recvCell (peer c 5) 5) 0 0
        ∗ dutyTok ER (recvCell (peer c 6) 6) 0 0
        ∗ dutyTok ER (recvCell (peer c 7) 7) 0 0
        ∗ dutyTok ER (recvCell (peer c 8) 8) 0 0
        ∗ dutyTok ER (recvCell (peer c 9) 9) 0 0
        ∗ dutyTok ER (recvCell (peer c 10) 10) 0 0
        ∗ dutyTok ER (recvCell (peer c 11) 11) 0 0
        ∗ dutyTok ER (recvCell (peer c 12) 12) 0 0
        ∗ dutyTok ER (recvCell (peer c 13) 13) 0 0
        ∗ dutyTok ER (recvCell (peer c 14) 14) 0 0
        ∗ dutyTok ER (sendCell c 0) 0 0
        ∗ dutyTok ER (sendCell c 1) 0 0
        ∗ dutyTok ER (sendCell c 2) 0 0
        ∗ dutyTok ER (sendCell c 3) 0 0
        ∗ dutyTok ER (sendCell c 4) 0 0
        ∗ dutyTok ER (sendCell c 5) 0 0
        ∗ dutyTok ER (sendCell c 6) 0 0
        ∗ dutyTok ER (sendCell c 7) 0 0
        ∗ dutyTok ER (sendCell c 8) 0 0
        ∗ dutyTok ER (sendCell c 9) 0 0
        ∗ dutyTok ER (sendCell c 10) 0 0
        ∗ dutyTok ER (sendCell c 11) 0 0
        ∗ dutyTok ER (sendCell c 12) 0 0
        ∗ dutyTok ER (sendCell c 13) 0 0
        ∗ dutyTok ER (sendCell c 14) 0 0
        ∗ atPos ER (barCell c) 0 ∅ 0
        ∗ atPos ER (sendCell c 0) 0 ∅ 0
        ∗ atPos ER (sendCell c 1) 0 ∅ 0
        ∗ atPos ER (sendCell c 2) 0 ∅ 0
        ∗ atPos ER (sendCell c 3) 0 ∅ 0
        ∗ atPos ER (sendCell c 4) 0 ∅ 0
        ∗ atPos ER (sendCell c 5) 0 ∅ 0
        ∗ atPos ER (sendCell c 6) 0 ∅ 0
        ∗ atPos ER (sendCell c 7) 0 ∅ 0
        ∗ atPos ER (sendCell c 8) 0 ∅ 0
        ∗ atPos ER (sendCell c 9) 0 ∅ 0
        ∗ atPos ER (sendCell c 10) 0 ∅ 0
        ∗ atPos ER (sendCell c 11) 0 ∅ 0
        ∗ atPos ER (sendCell c 12) 0 ∅ 0
        ∗ atPos ER (sendCell c 13) 0 ∅ 0
        ∗ atPos ER (sendCell c 14) 0 ∅ 0
        ∗ atPos ER (recvCell c 0) 0 ∅ 0
        ∗ atPos ER (recvCell c 1) 0 ∅ 0
        ∗ atPos ER (recvCell c 2) 0 ∅ 0
        ∗ atPos ER (recvCell c 3) 0 ∅ 0
        ∗ atPos ER (recvCell c 4) 0 ∅ 0
        ∗ atPos ER (recvCell c 5) 0 ∅ 0
        ∗ atPos ER (recvCell c 6) 0 ∅ 0
        ∗ atPos ER (recvCell c 7) 0 ∅ 0
        ∗ atPos ER (recvCell c 8) 0 ∅ 0
        ∗ atPos ER (recvCell c 9) 0 ∅ 0
        ∗ atPos ER (recvCell c 10) 0 ∅ 0
        ∗ atPos ER (recvCell c 11) 0 ∅ 0
        ∗ atPos ER (recvCell c 12) 0 ∅ 0
        ∗ atPos ER (recvCell c 13) 0 ∅ 0
        ∗ atPos ER (recvCell c 14) 0 ∅ 0
        ∗ cred (tallyAt (barCell c) () 15)
        ∗ cred (tallyAt (recvCell c 0) () N)
        ∗ cred (tallyAt (recvCell c 1) () N)
        ∗ cred (tallyAt (recvCell c 2) () N)
        ∗ cred (tallyAt (recvCell c 3) () N)
        ∗ cred (tallyAt (recvCell c 4) () N)
        ∗ cred (tallyAt (recvCell c 5) () N)
        ∗ cred (tallyAt (recvCell c 6) () N)
        ∗ cred (tallyAt (recvCell c 7) () N)
        ∗ cred (tallyAt (recvCell c 8) () N)
        ∗ cred (tallyAt (recvCell c 9) () N)
        ∗ cred (tallyAt (recvCell c 10) () N)
        ∗ cred (tallyAt (recvCell c 11) () N)
        ∗ cred (tallyAt (recvCell c 12) () N)
        ∗ cred (tallyAt (recvCell c 13) () N)
        ∗ cred (tallyAt (recvCell c 14) () N))

def postFlat (c : Dev nD) : sProp 𝕄 :=
  iprop((xM.view.loc (c : Thread nD τ) ↦{fullShare} xstg m c)
        ∗ (oM.view.loc (c : Thread nD τ) ↦{fullShare} outC m c)
        ∗ (ownM.view.loc (c : Thread nD τ) ↦{fullShare} ownC m c)
        ∗ (commM.view.loc (c : Thread nD τ) ↦{fullShare} gathC m c)
        ∗ (∃ W' : Waits sig Unit, owes (c : Thread nD τ) 0 W')
        ∗ atPos ER (sendCell c 0) (0 + 1) ∅ 0
        ∗ atPos ER (sendCell c 1) (0 + 1) ∅ 0
        ∗ atPos ER (sendCell c 2) (0 + 1) ∅ 0
        ∗ atPos ER (sendCell c 3) (0 + 1) ∅ 0
        ∗ atPos ER (sendCell c 4) (0 + 1) ∅ 0
        ∗ atPos ER (sendCell c 5) (0 + 1) ∅ 0
        ∗ atPos ER (sendCell c 6) (0 + 1) ∅ 0
        ∗ atPos ER (sendCell c 7) (0 + 1) ∅ 0
        ∗ atPos ER (sendCell c 8) (0 + 1) ∅ 0
        ∗ atPos ER (sendCell c 9) (0 + 1) ∅ 0
        ∗ atPos ER (sendCell c 10) (0 + 1) ∅ 0
        ∗ atPos ER (sendCell c 11) (0 + 1) ∅ 0
        ∗ atPos ER (sendCell c 12) (0 + 1) ∅ 0
        ∗ atPos ER (sendCell c 13) (0 + 1) ∅ 0
        ∗ atPos ER (sendCell c 14) (0 + 1) ∅ 0
        ∗ atPos ER (recvCell c 0) (0 + 1) ∅ 0
        ∗ atPos ER (recvCell c 1) (0 + 1) ∅ 0
        ∗ atPos ER (recvCell c 2) (0 + 1) ∅ 0
        ∗ atPos ER (recvCell c 3) (0 + 1) ∅ 0
        ∗ atPos ER (recvCell c 4) (0 + 1) ∅ 0
        ∗ atPos ER (recvCell c 5) (0 + 1) ∅ 0
        ∗ atPos ER (recvCell c 6) (0 + 1) ∅ 0
        ∗ atPos ER (recvCell c 7) (0 + 1) ∅ 0
        ∗ atPos ER (recvCell c 8) (0 + 1) ∅ 0
        ∗ atPos ER (recvCell c 9) (0 + 1) ∅ 0
        ∗ atPos ER (recvCell c 10) (0 + 1) ∅ 0
        ∗ atPos ER (recvCell c 11) (0 + 1) ∅ 0
        ∗ atPos ER (recvCell c 12) (0 + 1) ∅ 0
        ∗ atPos ER (recvCell c 13) (0 + 1) ∅ 0
        ∗ atPos ER (recvCell c 14) (0 + 1) ∅ 0)

end Cert.Kernel.Proto
end
-- ==== Proof.KRows.lean ====
/-
  The gather buffer of one device and its sixteen rows.
  The buffer has shape 16 x 1 x 256; row r is the one-row slice at offsets (r, 0, 0), squeezed to 1 x 256.
  An element lies in row r exactly when its first coordinate is r, so the sixteen rows are pairwise disjoint
  and cover the buffer: the buffer at contents f is its sixteen rows at f. Column j of row r sits at the
  buffer's index (r, 0, j); hence a copy of device r's column maxima into row r leaves there what the gathered
  buffer holds in that row, and a device's own row, never written, keeps the minus infinity it started with.
-/
import proofs.«900923_g7700000000000924_dist_max_ax0_shard0_i_m512_n256_v7x_i16_f32_1_alg».proof.Proof.KProtocol
import Idealize.ShloMosaic.Lib.Pipeline.Value
import Idealize.ShloMosaic.Lib.ValueIdx
import Idealize.ShloMosaic.Rules.PointsTo

noncomputable section

namespace Cert.Kernel.Proto

open Cert.Kernel Cert.Kernel.Gen

open Idealize.ShloMosaic Idealize.ShloMosaic.ValueIdx
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

variable (m : (ℓ : Loc nD τ sig) → Buf (Elt F) ℓ)

/-! ## Which elements a row holds -/

/-- The one-row rectangle of the buffer at offsets (r, 0, 0). -/
abbrev rowRect (r : Dev nD) : Rect S16x1x256 := Rect.unit (s := S16x1x256) (k0_off1 r) S1x1x256.size (k0_off1_inb r)

/-- A row's elements are its rectangle's: squeezing re-indexes them, and the buffer is taken whole. -/
theorem row_set (r : Dev nD) : ((rowM r).view.set : Finset S16x1x256.Idx) = (rowRect r).set := by
  show (((View.whole cc0_scratch1 : View sig .tc _ _ _).slice (rowRect r)).reshape S1x256 squeezes_S1x1x256_S1x256.numel_eq).set = _
  rw [View.set_reshape, View.set_slice_whole]

/-- An index lies in the rectangle of row r iff its first coordinate is r: the other two axes are kept whole. -/
theorem mem_rowRect_iff (r : Dev nD) (i : S16x1x256.Idx) : i ∈ (rowRect r).set ↔ (i 0).val = r.val := by
  rw [Rect.mem_set_unit, k0_off1_eq]
  constructor
  · intro h
    have h0 : r.val ≤ (i 0).val ∧ (i 0).val < r.val + 1 := h (0 : Fin 3)
    omega
  · intro h a
    match a with
    | ⟨0, _⟩ => exact ⟨by show r.val ≤ (i 0).val; omega, by show (i 0).val < r.val + 1; omega⟩
    | ⟨1, _⟩ =>
      have h1 : (i 1).val < 1 := (i 1).isLt
      exact ⟨Nat.zero_le _, by show (i 1).val < 0 + 1; omega⟩
    | ⟨2, _⟩ =>
      have h2 : (i 2).val < 256 := (i 2).isLt
      exact ⟨Nat.zero_le _, by show (i 2).val < 0 + 256; omega⟩

/-- an element of the gather buffer lies in row r iff its first coordinate is r -/
theorem mem_row_iff (c r : Dev nD) (i : S16x1x256.Idx) : i ∈ ((rowM r).view.set : Finset S16x1x256.Idx) ↔ (i 0).val = r.val :=
  (Iff.of_eq (congrArg (fun s : Finset S16x1x256.Idx => i ∈ s) (row_set r))).trans (mem_rowRect_iff r i)

/-- off the row the contents are irrelevant -/
theorem rowPts_congr (d r : Dev nD) {f g : Buf (Elt F) ((rowM r).view.loc (d : Thread nD τ))}
    (h : ∀ i : S16x1x256.Idx, (i 0).val = r.val → f i = g i) : rowPts (F := F) d r f = rowPts d r g := by
  unfold rowPts
  exact pointsTo_congr fun i hi => h i ((mem_row_iff d r i).mp hi)

/-! ## Where a row's columns sit in the buffer -/

/-- The index of the one-row slice that column x of a row names. -/
abbrev rowLift (x : S1x256.Idx) : S1x1x256.Idx :=
  ix3 (n0 := 1) (n1 := 1) (n2 := 256) ⟨0, Nat.one_pos⟩ ⟨0, Nat.one_pos⟩ (x 1)

/-- Squeezing matches column x of the row with (0, 0, x): both stand at row-major position x. -/
theorem reshape_row (h : S1x256.numel = S1x1x256.numel) (x : S1x256.Idx) : Shape.reshapeEquiv h x = rowLift x :=
  Shape.reshapeEquiv_eq_of_rowMajor h (by
    rw [Shape.rowMajor_val_three, Shape.rowMajor_val_two]
    have h0 : (x 0).val < 1 := (x 0).isLt
    show (0 * 1 + 0) * 256 + (x 1).val = (x 0).val * 256 + (x 1).val
    omega)

/-- Column x of row r is the buffer's element (r, 0, x). -/
theorem row_emb (r : Dev nD) (x : S1x256.Idx) : ((rowM r).view.emb x : S16x1x256.Idx) = (rowRect r).emb (rowLift x) := by
  show (rowRect r).emb (Shape.reshapeEquiv squeezes_S1x1x256_S1x256.numel_eq x) = _
  rw [reshape_row]

/-- It belongs to device r, -/
theorem rowDev_emb (r : Dev nD) (x : S1x256.Idx) : Spec.rowDev ((rowRect r).emb (rowLift x)) = r := by
  refine Fin.ext ?_
  show (((rowRect r).emb (rowLift x) 0 : Fin _) : ℕ) = r.val
  rw [Rect.emb_apply, Rect.off_unit, k0_off1_eq]
  show r.val + 1 * 0 = r.val
  omega

/-- and names column x. -/
theorem rowIdx_emb (r : Dev nD) (x : S1x256.Idx) : Spec.rowIdx ((rowRect r).emb (rowLift x)) = x := by
  funext a
  refine Fin.ext ?_
  match a with
  | ⟨0, _⟩ =>
    have h0 : (x 0).val < 1 := (x 0).isLt
    show (((rowRect r).emb (rowLift x) 1 : Fin _) : ℕ) = (x 0).val
    rw [Rect.emb_apply, Rect.off_unit, k0_off1_eq]
    show 0 + 1 * 0 = (x 0).val
    omega
  | ⟨1, _⟩ =>
    show (((rowRect r).emb (rowLift x) 2 : Fin _) : ℕ) = (x 1).val
    rw [Rect.emb_apply, Rect.off_unit, k0_off1_eq]
    show 0 + 1 * (x 1).val = (x 1).val
    omega

/-! ## What a row holds -/

/-- device c's own row is never written: the initial contents are the gathered buffer's there -/
theorem init_row_self (c : Dev nD) : rowPts (F := F) c c initC = rowPts c c (gathC m c) := by
  refine rowPts_congr c c fun i hi => ?_
  show k0_pay1 (F := F) i = Spec.gathered (xstg m) c i
  unfold Spec.gathered
  rw [if_pos (show Spec.rowDev i = c from Fin.ext hi)]

/-- what a copy of device r's send buffer into row r of device c's gather buffer leaves on that row is what the
    gathered buffer holds there, whatever was there before (r ≠ c) -/
theorem landed_row (c r : Dev nD) (hr : r ≠ c) (fd : Buf (Elt F) ((rowM r).view.loc (c : Thread nD τ))) :
    rowPts (F := F) c r ((rowM r).view.write (Elt F) fd ((ownM : Memref sig .tc .vmem S1x256 .f32).view.read (Elt F) (ownC m r)) Finset.univ)
      = rowPts c r (gathC m c) := by
  refine rowPts_congr c r fun i hi => ?_
  obtain ⟨x, rfl⟩ := View.exists_emb_of_mem_set (rowM r).view ((mem_row_iff c r i).mpr hi)
  refine (View.write_emb_of_mem (v := (rowM r).view) (Val := Elt F) fd _ (Finset.mem_univ x)).trans ?_
  refine (cast_eq _ _).trans ?_
  have hread : (ownM : Memref sig .tc .vmem S1x256 .f32).view.read (Elt F) (ownC m r) = ownC m r := View.read_whole cc0_scratch0 (ownC m r)
  rw [hread, row_emb]
  unfold gathC ownC Spec.gathered
  rw [rowDev_emb, rowIdx_emb, if_neg hr]

/-! ## The buffer is its rows -/

theorem rows_disjoint (c : Dev nD) {r r' : Dev nD} (h : r ≠ r') :
    Disjoint ((rowM r).view.set : Finset S16x1x256.Idx) ((rowM r').view.set) := by
  rw [Finset.disjoint_left]
  intro i hi hi'
  exact h (Fin.ext (((mem_row_iff c r i).mp hi).symm.trans ((mem_row_iff c r' i).mp hi')))

theorem rows_cover (c : Dev nD) :
    (Finset.univ : Finset (Dev nD)).biUnion (fun r : Dev nD => ((rowM r).view.set : Finset S16x1x256.Idx)) = (Finset.univ : Finset S16x1x256.Idx) := by
  refine Finset.eq_univ_iff_forall.mpr fun i => ?_
  exact Finset.mem_biUnion.mpr ⟨Spec.rowDev i, Finset.mem_univ _, (mem_row_iff c (Spec.rowDev i) i).mpr rfl⟩

/-- the whole buffer at contents f is its sixteen rows at f -/
theorem rows_split (c : Dev nD) (f : Buf (Elt F) ((c : Thread nD τ).loc cc0_scratch1)) :
    ((((c : Thread nD τ).loc cc0_scratch1) ↦{fullShare} f) : sProp 𝕄) = bigSep Finset.univ fun r : Dev nD => rowPts c r f := by
  have h := pointsTo_biUnion (Lvl := ℕ) (Name := ℕ) (Ix := Unit) (U := UU) (Val := Elt F) (ℓ := (c : Thread nD τ).loc cc0_scratch1) (q := fullShare) (f := f)
    (Finset.univ : Finset (Dev nD)) (fun r => (rowM r).view.set) (fun r _ r' _ hne => rows_disjoint c hne)
  exact (congrArg (fun I => ((((c : Thread nD τ).loc cc0_scratch1) ↦[I]{fullShare} f) : sProp 𝕄)) (rows_cover c).symm).trans h

/-- info: 'Cert.Kernel.Proto.landed_row' depends on axioms: [propext, Classical.choice, Quot.sound] -/
#guard_msgs in #print axioms landed_row

/-- info: 'Cert.Kernel.Proto.init_row_self' depends on axioms: [propext, Classical.choice, Quot.sound] -/
#guard_msgs in #print axioms init_row_self

/-- info: 'Cert.Kernel.Proto.rows_split' depends on axioms: [propext, Classical.choice, Quot.sound] -/
#guard_msgs in #print axioms rows_split

end Cert.Kernel.Proto

end
-- ==== Proof.KGlue.lean ====
/-
  Rearrangements of what a device holds of its two scratch buffers.
  The other fifteen devices are a device's peers, and equally its sources: a separating conjunction over the
  mesh is the device's own summand and the fifteen of its peers (or of its sources), and the source j + 1
  places back is the peer 15 - j places on. The gather buffer, once the initialising store has replaced its
  contents by minus infinity everywhere, is the device's own row and its peers' fifteen rows, all at the
  initial contents; the own row, never written, and the fifteen landed rows are the buffer at its final
  contents. The send buffer held whole is its fifteen read shares and what remains of the full share.
-/
import proofs.«900923_g7700000000000924_dist_max_ax0_shard0_i_m512_n256_v7x_i16_f32_1_alg».proof.Proof.KProtocol
import proofs.«900923_g7700000000000924_dist_max_ax0_shard0_i_m512_n256_v7x_i16_f32_1_alg».proof.Proof.KMesh
import proofs.«900923_g7700000000000924_dist_max_ax0_shard0_i_m512_n256_v7x_i16_f32_1_alg».proof.Proof.KRows
import proofs.«900923_g7700000000000924_dist_max_ax0_shard0_i_m512_n256_v7x_i16_f32_1_alg».proof.Proof.KTables
import Idealize.ShloMosaic.Lib.Transfers
import Idealize.ShloMosaic.Lib.Writes
import Idealize.SL.ProofMode.BigOp

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)

variable {F : FTy → Type} [FloatOps F]

local notation "𝕄" => MT nD τ sig Unit (Elt F) ℕ UU ℕ

variable (m : (ℓ : Loc nD τ sig) → Buf (Elt F) ℓ)

/-! ## The mesh seen from one device -/

/-- Counting the fifteen places the other way round. -/
def rev15 (j : Fin 15) : Fin 15 := ⟨14 - j.val, by omega⟩

/-- src c j = peer c (14 - j) -/
theorem src_eq_peer (c : Dev nD) (j : Fin 15) : src c j = peer c (rev15 j) := by revert c j; decide
theorem peer_eq_src (c : Dev nD) (j : Fin 15) : peer c j = src c (rev15 j) := by revert c j; decide

/-- Every other device is one of the peers, -/
theorem exists_peer (c d : Dev nD) (h : d ≠ c) : ∃ j, peer c j = d := by revert c d; decide +kernel
/-- and one of the sources. -/
theorem exists_src (c d : Dev nD) (h : d ≠ c) : ∃ j, src c j = d := by revert c d; decide +kernel

/-- device c's peers are all the other devices -/
theorem univ_by_peer (c : Dev nD) : (Finset.univ : Finset (Dev nD)) = insert c (Finset.univ.image (peer c)) := by
  refine (Finset.eq_univ_iff_forall.mpr fun d => ?_).symm
  by_cases h : d = c
  · exact h ▸ Finset.mem_insert_self _ _
  · obtain ⟨j, rfl⟩ := exists_peer c d h
    exact Finset.mem_insert_of_mem (Finset.mem_image_of_mem _ (Finset.mem_univ j))

/-- and so are its sources -/
theorem univ_by_src (c : Dev nD) : (Finset.univ : Finset (Dev nD)) = insert c (Finset.univ.image (src c)) := by
  refine (Finset.eq_univ_iff_forall.mpr fun d => ?_).symm
  by_cases h : d = c
  · exact h ▸ Finset.mem_insert_self _ _
  · obtain ⟨j, rfl⟩ := exists_src c d h
    exact Finset.mem_insert_of_mem (Finset.mem_image_of_mem _ (Finset.mem_univ j))

theorem sep_by_peer {M : Type} [URA M] (c : Dev nD) (Φ : Dev nD → sProp M) :
    bigSep Finset.univ Φ = iprop(Φ c ∗ bigSep Finset.univ fun j : Fin 15 => Φ (peer c j)) := by
  have hc : c ∉ (Finset.univ : Finset (Fin 15)).image (peer c) := fun h => by
    obtain ⟨j, -, e⟩ := Finset.mem_image.mp h
    exact peer_ne_self c j e
  have hi : Set.InjOn (peer c) ((Finset.univ : Finset (Fin 15)) : Set (Fin 15)) := fun j _ j' _ h => peer_inj c h
  calc bigSep Finset.univ Φ = bigSep (insert c (Finset.univ.image (peer c))) Φ := congrArg (fun s => bigSep s Φ) (univ_by_peer c)
    _ = iprop(Φ c ∗ bigSep ((Finset.univ : Finset (Fin 15)).image (peer c)) Φ) := bigSep_insert hc
    _ = iprop(Φ c ∗ bigSep Finset.univ fun j : Fin 15 => Φ (peer c j)) := by rw [bigSep_image_of_injOn hi Φ]

theorem sep_by_src {M : Type} [URA M] (c : Dev nD) (Φ : Dev nD → sProp M) :
    bigSep Finset.univ Φ = iprop(Φ c ∗ bigSep Finset.univ fun j : Fin 15 => Φ (src c j)) := by
  have hc : c ∉ (Finset.univ : Finset (Fin 15)).image (src c) := fun h => by
    obtain ⟨j, -, e⟩ := Finset.mem_image.mp h
    exact src_ne_self c j e
  have hi : Set.InjOn (src c) ((Finset.univ : Finset (Fin 15)) : Set (Fin 15)) := fun j _ j' _ h => src_inj c h
  calc bigSep Finset.univ Φ = bigSep (insert c (Finset.univ.image (src c))) Φ := congrArg (fun s => bigSep s Φ) (univ_by_src c)
    _ = iprop(Φ c ∗ bigSep ((Finset.univ : Finset (Fin 15)).image (src c)) Φ) := bigSep_insert hc
    _ = iprop(Φ c ∗ bigSep Finset.univ fun j : Fin 15 => Φ (src c j)) := by rw [bigSep_image_of_injOn hi Φ]

/-! ## The two scratch buffers, named raw or through their memrefs -/

theorem own_raw (c : Dev nD) (f : Buf (Elt F) ((c : Thread nD τ).loc cc0_scratch0)) :
    ((((c : Thread nD τ).loc cc0_scratch0) ↦{fullShare} f) : sProp 𝕄) = ((ownM.view.loc (c : Thread nD τ)) ↦{fullShare} f) := rfl

theorem comm_raw (c : Dev nD) (f : Buf (Elt F) ((c : Thread nD τ).loc cc0_scratch1)) :
    ((((c : Thread nD τ).loc cc0_scratch1) ↦{fullShare} f) : sProp 𝕄) = ((commM.view.loc (c : Thread nD τ)) ↦{fullShare} f) := rfl

/-! ## The send buffer and its read shares -/

/-- The send buffer's memref takes the buffer whole. -/
theorem own_set : (ownM : Memref sig .tc .vmem S1x256 .f32).view.set = Finset.univ := View.set_whole cc0_scratch0

/-- the send buffer held whole, as its fifteen read shares and the remainder -/
theorem own_split (c : Dev nD) (f : Buf (Elt F) (ownM.view.loc (c : Thread nD τ))) :
    ((ownM.view.loc (c : Thread nD τ)) ↦{fullShare} f : sProp 𝕄)
      ⊢ iprop(ownPts c (shareDrop fullShare 15) f ∗ bigSep Finset.univ fun j : Fin 15 => ownPts c (shareTok fullShare 15 j) f) := by
  unfold ownPts
  rw [own_set]
  exact Transfers.pointsTo_toks_split fullShare 15

theorem own_join (c : Dev nD) (f : Buf (Elt F) (ownM.view.loc (c : Thread nD τ))) :
    (iprop(ownPts c (shareDrop fullShare 15) f ∗ bigSep Finset.univ fun j : Fin 15 => ownPts c (shareTok fullShare 15 j) f) : sProp 𝕄)
      ⊢ ((ownM.view.loc (c : Thread nD τ)) ↦{fullShare} f) := by
  unfold ownPts
  rw [own_set]
  exact Transfers.pointsTo_toks_join fullShare 15

/-- A load of the staged block through the whole rectangle reads its contents. -/
theorem x_read_whole (f : (cc0_stg0_0 : Ref sig .tc).ty.Contents (Elt F)) :
    View.readAt (Elt F) xM.view (Rect.unit (s := S512x256) ![0, 0] S512x256.size inb_S512x256_S512x256_0_0).toLoadRect f = f :=
  Memref.readAt_unit_zero (Elt F) cc0_stg0_0 (off := ![0, 0]) (by decide) inb_S512x256_S512x256_0_0 f

/-- One store into the send buffer through the whole rectangle replaces the contents, whatever they were. -/
theorem own_store (c : Dev nD) (f0 : Buf (Elt F) (ownM.view.loc (c : Thread nD τ))) (w : (cc0_scratch0 : Ref sig .tc).ty.Contents (Elt F)) :
    ownM.view.writes (Elt F) f0 [⟨Rect.unit (s := S1x256) ![0, 0] S1x256.size inb_S1x256_S1x256_0_0, w⟩] = w :=
  Memref.write_access_unit_zero_univ (Elt F) cc0_scratch0 (off := ![0, 0]) (by decide) inb_S1x256_S1x256_0_0 f0 w

/-- One store into the result's staging buffer through the whole rectangle replaces the contents, whatever they were. -/
theorem out_store (c : Dev nD) (g1 : Buf (Elt F) (oM.view.loc (c : Thread nD τ))) (w : FVec F S1x256 .f32) :
    oM.view.writes (Elt F) g1 [⟨Rect.unit (s := S1x256) ![0, 0] S1x256.size inb_S1x256_S1x256_0_0, w⟩] = w :=
  Memref.write_access_unit_zero_univ (Elt F) cc0_stg1_0 (off := ![0, 0]) (by decide) inb_S1x256_S1x256_0_0 g1 w

/-- A load of the gather buffer through the whole rectangle reads its contents. -/
theorem comm_read_whole (f : (cc0_scratch1 : Ref sig .tc).ty.Contents (Elt F)) :
    View.readAt (Elt F) commM.view (Rect.unit (s := S16x1x256) ![0, 0, 0] S16x1x256.size inb_S16x1x256_S16x1x256_0_0_0).toLoadRect f = f :=
  Memref.readAt_unit_zero (Elt F) cc0_scratch1 (off := ![0, 0, 0]) (by decide) inb_S16x1x256_S16x1x256_0_0_0 f

/-- the send buffer after its one store: the block's column maxima. The block is read whole, and one store through
    the whole rectangle replaces the contents. -/
theorem own_written (c : Dev nD) (f0 : Buf (Elt F) (ownM.view.loc (c : Thread nD τ))) :
    ownM.view.writes (Elt F) f0 [⟨Rect.unit (s := S1x256) ![0, 0] S1x256.size inb_S1x256_S1x256_0_0,
      k0_pay3 (View.readAt (Elt F) xM.view (Rect.unit (s := S512x256) ![0, 0] S512x256.size inb_S512x256_S512x256_0_0).toLoadRect (xstg m c))⟩] = ownC m c := by
  rw [x_read_whole, own_store]
  unfold ownC Spec.colMax
  rfl

/-! ## The gather buffer and its rows -/

/-- One store through the whole rectangle replaces the contents, whatever they were. -/
theorem comm_init_contents (c : Dev nD) (f1 : Buf (Elt F) (commM.view.loc (c : Thread nD τ))) :
    commM.view.writes (Elt F) f1 [⟨Rect.unit (s := S16x1x256) ![0, 0, 0] S16x1x256.size inb_S16x1x256_S16x1x256_0_0_0, k0_pay1 (F := F)⟩]
      = (initC : (cc0_scratch1 : Ref sig .tc).ty.Contents (Elt F)) :=
  Memref.write_access_unit_zero_univ (Elt F) cc0_scratch1 (off := ![0, 0, 0]) (by decide) inb_S16x1x256_S16x1x256_0_0_0 f1 (k0_pay1 (F := F))

/-- after the initialising store the gather buffer is its own row and the fifteen rows of its peers, all at the
    initial contents -/
theorem comm_init_split (c : Dev nD) (f1 : Buf (Elt F) (commM.view.loc (c : Thread nD τ))) :
    ((commM.view.loc (c : Thread nD τ)) ↦{fullShare} commM.view.writes (Elt F) f1 [⟨Rect.unit (s := S16x1x256) ![0, 0, 0] S16x1x256.size inb_S16x1x256_S16x1x256_0_0_0, k0_pay1 (F := F)⟩] : sProp 𝕄)
      ⊢ iprop(rowPts c c initC ∗ bigSep Finset.univ fun j : Fin 15 => rowPts c (peer c j) initC) := by
  rw [comm_init_contents c f1]
  exact Entails.of_eq (((comm_raw c initC).symm.trans (rows_split c initC)).trans (sep_by_peer c fun r => rowPts c r initC))

/-- the own row (never written) and the fifteen landed rows are the whole buffer at its final contents -/
theorem comm_join (c : Dev nD) :
    (iprop(rowPts c c initC ∗ bigSep Finset.univ fun j : Fin 15 => rowPts c (src c j) (gathC m c)) : sProp 𝕄)
      ⊢ ((commM.view.loc (c : Thread nD τ)) ↦{fullShare} gathC m c) := by
  rw [init_row_self m c]
  exact Entails.of_eq (((comm_raw c (gathC m c)).symm.trans ((rows_split c (gathC m c)).trans (sep_by_src c fun r => rowPts c r (gathC m c)))).symm)

/-- what the barrier wait hands device c: row c of every peer's gather buffer at the initial contents (duty d comes
    from src c d = peer c (14 - d)), the conjuncts from peer 14 down to peer 0 -/
theorem bar_payloads (c : Dev nD) : (bigSep Finset.univ (fun d : Fin 15 => (Rd (F := F) m).payload (barCell c) 0 d) : sProp 𝕄)
    ⊢ iprop(rowPts (F := F) (peer c 14) c initC ∗ rowPts (F := F) (peer c 13) c initC ∗ rowPts (F := F) (peer c 12) c initC ∗ rowPts (F := F) (peer c 11) c initC ∗ rowPts (F := F) (peer c 10) c initC ∗ rowPts (F := F) (peer c 9) c initC ∗ rowPts (F := F) (peer c 8) c initC ∗ rowPts (F := F) (peer c 7) c initC ∗ rowPts (F := F) (peer c 6) c initC ∗ rowPts (F := F) (peer c 5) c initC ∗ rowPts (F := F) (peer c 4) c initC ∗ rowPts (F := F) (peer c 3) c initC ∗ rowPts (F := F) (peer c 2) c initC ∗ rowPts (F := F) (peer c 1) c initC ∗ rowPts (F := F) (peer c 0) c initC) := by
  have h : (fun d : Fin 15 => (Rd (F := F) m).payload (barCell c) 0 d) = fun d : Fin 15 => rowPts (F := F) (peer c (rev15 d)) c initC :=
    funext fun d => by rw [payload_bar m c d, src_eq_peer]
  rw [h, bigSep_fin15]
  exact Entails.rfl

/-- info: 'Cert.Kernel.Proto.bar_payloads' depends on axioms: [propext, Classical.choice, Quot.sound] -/
#guard_msgs in #print axioms bar_payloads

/-- info: 'Cert.Kernel.Proto.own_written' depends on axioms: [propext, Classical.choice, Quot.sound] -/
#guard_msgs in #print axioms own_written

/-- info: 'Cert.Kernel.Proto.comm_init_split' depends on axioms: [propext, Classical.choice, Quot.sound] -/
#guard_msgs in #print axioms comm_init_split

/-- info: 'Cert.Kernel.Proto.comm_join' depends on axioms: [propext, Classical.choice, Quot.sound] -/
#guard_msgs in #print axioms comm_join

/-- info: 'Cert.Kernel.Proto.own_split' depends on axioms: [propext, Classical.choice, Quot.sound] -/
#guard_msgs in #print axioms own_split

/-- info: 'Cert.Kernel.Proto.own_join' depends on axioms: [propext, Classical.choice, Quot.sound] -/
#guard_msgs in #print axioms own_join

end Cert.Kernel.Proto

end
-- ==== Proof.KBody.lean ====
/-
  One device's body, run once at a symbolic device `c` of the sixteen.
  From its four buffers, the invariants of the cells it touches, the tokens of the forty-five duties it pays, its
  positions and credit on its own thirty-one cells and what it owes at launch, the run goes: the gather buffer is
  set to minus infinity and cut into its sixteen rows; each of the fifteen signals to a peer's barrier cell hands
  that peer the row reserved for it; the block's column maxima are stored in the send buffer; the wait for fifteen
  units on the device's own barrier cell brings row `c` of every peer's gather buffer; the send buffer is held as
  fifteen read shares, one lent to each copy, and copy `j` overwrites row `c` on `peer c j` with the column maxima,
  paying that peer's receive cell `j`; the fifteen receive waits bring back the fifteen foreign rows of the device's
  own gather buffer, each holding its sender's column maxima, and with the device's own row, still at minus
  infinity, they are the buffer whole at its final contents; the maximum over it and the device's own column maxima
  is stored as the result; the fifteen send waits return the read shares, which rejoin to the send buffer.
  Nothing is owed at the end, and the thirty transfer cells stand one round on.
-/
import proofs.«900923_g7700000000000924_dist_max_ax0_shard0_i_m512_n256_v7x_i16_f32_1_alg».proof.Proof.KBodyDefs
import proofs.«900923_g7700000000000924_dist_max_ax0_shard0_i_m512_n256_v7x_i16_f32_1_alg».proof.Proof.KMesh
import proofs.«900923_g7700000000000924_dist_max_ax0_shard0_i_m512_n256_v7x_i16_f32_1_alg».proof.Proof.KTables
import proofs.«900923_g7700000000000924_dist_max_ax0_shard0_i_m512_n256_v7x_i16_f32_1_alg».proof.Proof.KRows
import proofs.«900923_g7700000000000924_dist_max_ax0_shard0_i_m512_n256_v7x_i16_f32_1_alg».proof.Proof.KGlue

noncomputable section
namespace Cert.Kernel.Proto
open Cert.Kernel Cert.Kernel.Gen
open Idealize.ShloMosaic
open Idealize.ShloMosaic.TcCoe
open Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The schedule's entries as the body meets them -/

/-- What device `c`'s signal number `j` hands the peer it goes to: row `peer c j` of `c`'s own gather buffer, at its
    initial contents (the peer is the `j`-th after `c`, so `c` is the `j`-th before the peer). -/
theorem tb_pay_sig (c : Dev nD) (j : Fin 15) : (Rd (F := F) m).payload (barCell (peer c j)) 0 j
    = ((rowM (peer c j)).view.loc (c : Thread nD τ) ↦[(rowM (peer c j)).view.set]{fullShare} initC) := by
  rw [payload_bar, src_peer]; rfl
/-- Every duty name is a duty of a barrier cell's one round. -/
theorem tb_mem_bar (c : Dev nD) (j : Fin 15) : j ∈ (Rd (F := F) m).duties (barCell c) 0 := by rw [duties_bar]; exact Finset.mem_univ _
/-- What the send cell `j` hands back once copy `j` has been read out: the read share of the send buffer lent to it. -/
theorem tb_pay_send (c : Dev nD) (j d : Fin 15) : (Rd (F := F) m).payload (sendCell c j) 0 d
    = (ownM.view.loc (c : Thread nD τ) ↦[ownM.view.set]{shareTok fullShare 15 j} ownC m c) := by
  rw [payload_send]; rfl
/-- What copy `j` lands on its target: row `c` of the gather buffer of `peer c j`, the row's initial contents
    overwritten by `c`'s column maxima — which is what that buffer finally holds there. -/
theorem tb_pay_recv_peer (c : Dev nD) (j d : Fin 15) : (Rd (F := F) m).payload (recvCell (peer c j) j) 0 d
    = ((rowM c).view.loc (peer c j : Thread nD τ) ↦[(rowM c).view.set]{fullShare}
        (rowM c).view.write (Elt F) initC (ownM.view.read (Elt F) (ownC m c)) Finset.univ) := by
  rw [payload_recv, src_peer]
  exact (landed_row m (peer c j) c (peer_ne_self c j).symm initC).symm

attribute [local sl_rounds] tb_pay_sig tb_pay_send tb_pay_recv_peer duties_bar duties_send duties_recv amount_bar amount_send amount_recv expect_bar expect_send expect_recv tb_mem_bar
attribute [local sl_canon] dev1_eq dev2_eq dev3_eq dev4_eq dev5_eq dev6_eq dev7_eq dev8_eq dev9_eq dev10_eq dev11_eq dev12_eq dev13_eq dev14_eq dev15_eq dev16_eq dev17_eq dev18_eq dev19_eq dev20_eq dev21_eq dev22_eq dev23_eq dev24_eq dev25_eq dev26_eq dev27_eq dev28_eq dev29_eq dev30_eq sendSem1_eq sendSem2_eq sendSem3_eq sendSem4_eq sendSem5_eq sendSem6_eq sendSem7_eq sendSem8_eq sendSem9_eq sendSem10_eq sendSem11_eq sendSem12_eq sendSem13_eq sendSem14_eq sendSem15_eq recvSem1_eq recvSem2_eq recvSem3_eq recvSem4_eq recvSem5_eq recvSem6_eq recvSem7_eq recvSem8_eq recvSem9_eq recvSem10_eq recvSem11_eq recvSem12_eq recvSem13_eq recvSem14_eq recvSem15_eq

/-! ## Rejoining -/

/-- The own row, never written, and the fifteen rows the receive waits handed over are the whole gather buffer at its
    final contents. -/
theorem recv_rejoin (c : Dev nD) :
    (iprop(rowPts c c initC ∗ (Rd (F := F) m).payload (recvCell c 0) 0 0 ∗ (Rd (F := F) m).payload (recvCell c 1) 0 0 ∗ (Rd (F := F) m).payload (recvCell c 2) 0 0 ∗ (Rd (F := F) m).payload (recvCell c 3) 0 0 ∗ (Rd (F := F) m).payload (recvCell c 4) 0 0 ∗ (Rd (F := F) m).payload (recvCell c 5) 0 0 ∗ (Rd (F := F) m).payload (recvCell c 6) 0 0 ∗ (Rd (F := F) m).payload (recvCell c 7) 0 0 ∗ (Rd (F := F) m).payload (recvCell c 8) 0 0 ∗ (Rd (F := F) m).payload (recvCell c 9) 0 0 ∗ (Rd (F := F) m).payload (recvCell c 10) 0 0 ∗ (Rd (F := F) m).payload (recvCell c 11) 0 0 ∗ (Rd (F := F) m).payload (recvCell c 12) 0 0 ∗ (Rd (F := F) m).payload (recvCell c 13) 0 0 ∗ (Rd (F := F) m).payload (recvCell c 14) 0 0) : sProp 𝕄)
      ⊢ ((commM.view.loc (c : Thread nD τ)) ↦{fullShare} gathC m c) := by
  simp only [payload_recv]
  iintro ⟨Hc, Hs⟩
  iapply (comm_join m c)
  isplitl [Hc]; · iexact Hc
  iapply (Entails.of_eq (bigSep_fin15 (fun j : Fin 15 => rowPts (F := F) c (src c j) (gathC m c))).symm)
  iexact Hs

/-- The remainder and the fifteen read shares the send waits handed back are the send buffer whole. -/
theorem own_rejoin (c : Dev nD) :
    (iprop(ownPts c (shareDrop fullShare 15) (ownC m c) ∗ ownPts (F := F) c (shareTok fullShare 15 0) (ownC m c) ∗ ownPts (F := F) c (shareTok fullShare 15 1) (ownC m c) ∗ ownPts (F := F) c (shareTok fullShare 15 2) (ownC m c) ∗ ownPts (F := F) c (shareTok fullShare 15 3) (ownC m c) ∗ ownPts (F := F) c (shareTok fullShare 15 4) (ownC m c) ∗ ownPts (F := F) c (shareTok fullShare 15 5) (ownC m c) ∗ ownPts (F := F) c (shareTok fullShare 15 6) (ownC m c) ∗ ownPts (F := F) c (shareTok fullShare 15 7) (ownC m c) ∗ ownPts (F := F) c (shareTok fullShare 15 8) (ownC m c) ∗ ownPts (F := F) c (shareTok fullShare 15 9) (ownC m c) ∗ ownPts (F := F) c (shareTok fullShare 15 10) (ownC m c) ∗ ownPts (F := F) c (shareTok fullShare 15 11) (ownC m c) ∗ ownPts (F := F) c (shareTok fullShare 15 12) (ownC m c) ∗ ownPts (F := F) c (shareTok fullShare 15 13) (ownC m c) ∗ ownPts (F := F) c (shareTok fullShare 15 14) (ownC m c)) : sProp 𝕄)
      ⊢ ((ownM.view.loc (c : Thread nD τ)) ↦{fullShare} ownC m c) := by
  iintro ⟨HR, Hs⟩
  iapply (own_join (F := F) c (ownC m c))
  isplitl [HR]; · iexact HR
  iapply (Entails.of_eq (bigSep_fin15 (fun j : Fin 15 => ownPts (F := F) c (shareTok fullShare 15 j) (ownC m c))).symm)
  iexact Hs

/-! ## The body -/

set_option maxHeartbeats 0 in
theorem sound_body (K : Dev nD × Fin 31 → ℕ) (c : Dev nD) (W : Waits sig Unit) (g1 : Buf (Elt F) (oM.view.loc (c : Thread nD τ)))
    (f0 : Buf (Elt F) (ownM.view.loc (c : Thread nD τ))) (f1 : Buf (Elt F) (commM.view.loc (c : Thread nD τ)))
    (Q : PUnit → sProp 𝕄) :
    iprop(preFlat m K c W g1 f0 f1 ∗ (postFlat m c -∗ Q ⟨⟩))
      ⊢ wp frame (wpE (defs₀ (F := F)) 𝒱₀ c none) Set.univ
          (cc0_body xM xM_whole oM oM_whole ownM ownM_whole commM commM_whole cc0_scratch2 cc0_scratch3) Q := by
  unfold preFlat
  iintro ⟨⟨#HIb, #HIs0, #HIs1, #HIs2, #HIs3, #HIs4, #HIs5, #HIs6, #HIs7, #HIs8, #HIs9, #HIs10, #HIs11, #HIs12, #HIs13, #HIs14, #HIr0, #HIr1, #HIr2, #HIr3, #HIr4, #HIr5, #HIr6, #HIr7, #HIr8, #HIr9, #HIr10, #HIr11, #HIr12, #HIr13, #HIr14, #HIbp0, #HIbp1, #HIbp2, #HIbp3, #HIbp4, #HIbp5, #HIbp6, #HIbp7, #HIbp8, #HIbp9, #HIbp10, #HIbp11, #HIbp12, #HIbp13, #HIbp14, #HIrp0, #HIrp1, #HIrp2, #HIrp3, #HIrp4, #HIrp5, #HIrp6, #HIrp7, #HIrp8, #HIrp9, #HIrp10, #HIrp11, #HIrp12, #HIrp13, #HIrp14, #HRbp0, #HRbp1, #HRbp2, #HRbp3, #HRbp4, #HRbp5, #HRbp6, #HRbp7, #HRbp8, #HRbp9, #HRbp10, #HRbp11, #HRbp12, #HRbp13, #HRbp14, #HRrp0, #HRrp1, #HRrp2, #HRrp3, #HRrp4, #HRrp5, #HRrp6, #HRrp7, #HRrp8, #HRrp9, #HRrp10, #HRrp11, #HRrp12, #HRrp13, #HRrp14, #HRs0, #HRs1, #HRs2, #HRs3, #HRs4, #HRs5, #HRs6, #HRs7, #HRs8, #HRs9, #HRs10, #HRs11, #HRs12, #HRs13, #HRs14, #Hlev, Hx, Hout, Hown, Hcomm, HO, Htb0, Htb1, Htb2, Htb3, Htb4, Htb5, Htb6, Htb7, Htb8, Htb9, Htb10, Htb11, Htb12, Htb13, Htb14, Htr0, Htr1, Htr2, Htr3, Htr4, Htr5, Htr6, Htr7, Htr8, Htr9, Htr10, Htr11, Htr12, Htr13, Htr14, Hts0, Hts1, Hts2, Hts3, Hts4, Hts5, Hts6, Hts7, Hts8, Hts9, Hts10, Hts11, Hts12, Hts13, Hts14, HaB, HaS0, HaS1, HaS2, HaS3, HaS4, HaS5, HaS6, HaS7, HaS8, HaS9, HaS10, HaS11, HaS12, HaS13, HaS14, HaR0, HaR1, HaR2, HaR3, HaR4, HaR5, HaR6, HaR7, HaR8, HaR9, HaR10, HaR11, HaR12, HaR13, HaR14, HcB, HcR0, HcR1, HcR2, HcR3, HcR4, HcR5, HcR6, HcR7, HcR8, HcR9, HcR10, HcR11, HcR12, HcR13, HcR14⟩, Hk⟩
  sl_unfold [cc0_body]
  -- the gather buffer initialised
  set_option sl_exec.maxSteps 5 in sl_exec
  -- … and cut into its rows: one for each peer, one of its own
  ihave Hrows := (comm_init_split (F := F) c f1) $$ Hcomm
  icases Hrows with ⟨Hrowc, Hrows⟩
  ihave Hrows' := (Entails.of_eq (bigSep_fin15 (fun j : Fin 15 => rowPts (F := F) c (peer c j) initC))) $$ Hrows
  unfold rowPts
  icases Hrows' with ⟨Hrow0, Hrow1, Hrow2, Hrow3, Hrow4, Hrow5, Hrow6, Hrow7, Hrow8, Hrow9, Hrow10, Hrow11, Hrow12, Hrow13, Hrow14⟩
  have hmw : (levAts L lv : sProp 𝕄) ⊢ MayWait (c : Thread nD τ) (.reg barS) () (rT c 14 + rT c 13 + rT c 12 + rT c 11 + rT c 10 + rT c 9 + rT c 8 + rT c 7 + rT c 6 + rT c 5 + rT c 4 + rT c 3 + rT c 2 + rT c 1 + rT c 0) := mayWait_bar (F := F) c
  -- the fifteen signals, the block reduced and stored, the wait for the fifteen peers
  set_option sl_exec.maxSteps 66 in sl_exec
  -- what the wait hands over: row c of every peer's gather buffer
  ihave Hd := (bar_payloads m c) $$ HaB_pay1
  unfold rowPts
  icases Hd with ⟨Hd14, Hd13, Hd12, Hd11, Hd10, Hd9, Hd8, Hd7, Hd6, Hd5, Hd4, Hd3, Hd2, Hd1, Hd0⟩
  -- the send buffer at its contents, as fifteen read shares and a remainder
  rw [own_written m c f0]
  ihave Hsh := (own_split (F := F) c (ownC m c)) $$ Hown
  icases Hsh with ⟨HownR, Hsh⟩
  ihave Hsh' := (Entails.of_eq (bigSep_fin15 (fun j : Fin 15 => ownPts (F := F) c (shareTok fullShare 15 j) (ownC m c)))) $$ Hsh
  unfold ownPts
  icases Hsh' with ⟨Hsh0, Hsh1, Hsh2, Hsh3, Hsh4, Hsh5, Hsh6, Hsh7, Hsh8, Hsh9, Hsh10, Hsh11, Hsh12, Hsh13, Hsh14⟩
  -- the fifteen copies out, the fifteen rows in
  sl_exec (disch := simp only [dev16_eq, dev17_eq, dev18_eq, dev19_eq, dev20_eq, dev21_eq, dev22_eq, dev23_eq, dev24_eq, dev25_eq, dev26_eq, dev27_eq, dev28_eq, dev29_eq, dev30_eq])
  -- the gather buffer whole again
  ihave Hcomm := (recv_rejoin m c) $$ [Hrowc HaR0_pay1 HaR1_pay1 HaR2_pay1 HaR3_pay1 HaR4_pay1 HaR5_pay1 HaR6_pay1 HaR7_pay1 HaR8_pay1 HaR9_pay1 HaR10_pay1 HaR11_pay1 HaR12_pay1 HaR13_pay1 HaR14_pay1]
  · unfold rowPts
    isplitl [Hrowc]; · iexact Hrowc
    isplitl [HaR0_pay1]; · iexact HaR0_pay1
    isplitl [HaR1_pay1]; · iexact HaR1_pay1
    isplitl [HaR2_pay1]; · iexact HaR2_pay1
    isplitl [HaR3_pay1]; · iexact HaR3_pay1
    isplitl [HaR4_pay1]; · iexact HaR4_pay1
    isplitl [HaR5_pay1]; · iexact HaR5_pay1
    isplitl [HaR6_pay1]; · iexact HaR6_pay1
    isplitl [HaR7_pay1]; · iexact HaR7_pay1
    isplitl [HaR8_pay1]; · iexact HaR8_pay1
    isplitl [HaR9_pay1]; · iexact HaR9_pay1
    isplitl [HaR10_pay1]; · iexact HaR10_pay1
    isplitl [HaR11_pay1]; · iexact HaR11_pay1
    isplitl [HaR12_pay1]; · iexact HaR12_pay1
    isplitl [HaR13_pay1]; · iexact HaR13_pay1
    iexact HaR14_pay1
  -- the maximum taken and stored, the fifteen copies read out
  sl_exec
  sl_step
  iapply Hk
  unfold postFlat
  have hr : sound_body.sl.r m c = k0_pay2 (xstg m c) := by unfold sound_body.sl.r; rw [x_read_whole]
  rw [out_store, comm_read_whole, hr]
  isplitl [Hx]; · iexact Hx
  isplitl [Hout]
  · rw [show outC m c = k0_pay4 (k0_pay2 (xstg m c)) (gathC m c) from rfl]; iexact Hout
  isplitl [HownR HaS0_pay1 HaS1_pay1 HaS2_pay1 HaS3_pay1 HaS4_pay1 HaS5_pay1 HaS6_pay1 HaS7_pay1 HaS8_pay1 HaS9_pay1 HaS10_pay1 HaS11_pay1 HaS12_pay1 HaS13_pay1 HaS14_pay1]
  · iapply (own_rejoin m c)
    unfold ownPts
    isplitl [HownR]; · iexact HownR
    isplitl [HaS0_pay1]; · iexact HaS0_pay1
    isplitl [HaS1_pay1]; · iexact HaS1_pay1
    isplitl [HaS2_pay1]; · iexact HaS2_pay1
    isplitl [HaS3_pay1]; · iexact HaS3_pay1
    isplitl [HaS4_pay1]; · iexact HaS4_pay1
    isplitl [HaS5_pay1]; · iexact HaS5_pay1
    isplitl [HaS6_pay1]; · iexact HaS6_pay1
    isplitl [HaS7_pay1]; · iexact HaS7_pay1
    isplitl [HaS8_pay1]; · iexact HaS8_pay1
    isplitl [HaS9_pay1]; · iexact HaS9_pay1
    isplitl [HaS10_pay1]; · iexact HaS10_pay1
    isplitl [HaS11_pay1]; · iexact HaS11_pay1
    isplitl [HaS12_pay1]; · iexact HaS12_pay1
    isplitl [HaS13_pay1]; · iexact HaS13_pay1
    iexact HaS14_pay1
  isplitl [Hcomm]; · iexact Hcomm
  isplitl [HO]; · iexists _; iexact HO
  isplitl [HaS0]; · iexact HaS0
  isplitl [HaS1]; · iexact HaS1
  isplitl [HaS2]; · iexact HaS2
  isplitl [HaS3]; · iexact HaS3
  isplitl [HaS4]; · iexact HaS4
  isplitl [HaS5]; · iexact HaS5
  isplitl [HaS6]; · iexact HaS6
  isplitl [HaS7]; · iexact HaS7
  isplitl [HaS8]; · iexact HaS8
  isplitl [HaS9]; · iexact HaS9
  isplitl [HaS10]; · iexact HaS10
  isplitl [HaS11]; · iexact HaS11
  isplitl [HaS12]; · iexact HaS12
  isplitl [HaS13]; · iexact HaS13
  isplitl [HaS14]; · iexact HaS14
  isplitl [HaR0]; · iexact HaR0
  isplitl [HaR1]; · iexact HaR1
  isplitl [HaR2]; · iexact HaR2
  isplitl [HaR3]; · iexact HaR3
  isplitl [HaR4]; · iexact HaR4
  isplitl [HaR5]; · iexact HaR5
  isplitl [HaR6]; · iexact HaR6
  isplitl [HaR7]; · iexact HaR7
  isplitl [HaR8]; · iexact HaR8
  isplitl [HaR9]; · iexact HaR9
  isplitl [HaR10]; · iexact HaR10
  isplitl [HaR11]; · iexact HaR11
  isplitl [HaR12]; · iexact HaR12
  isplitl [HaR13]; · iexact HaR13
  iexact HaR14

/-- info: 'Cert.Kernel.Proto.sound_body' depends on axioms: [propext, Classical.choice, Quot.sound] -/
#guard_msgs in #print axioms sound_body

end Cert.Kernel.Proto
end
-- ==== Proof.KGhost.lean ====
/-
  Single cells out of the launch's records, and the thirty own cells closed.
  The records hold every cell's invariant and that every cell's round 0 is reached, indexed by (device, one of
  thirty-one); a device's positions are indexed the same way. Here each is read at a named cell: the barrier
  cell, send cell `j`, receive cell `j`. The thirty-one indices are the barrier's, the fifteen send cells' and
  the fifteen receive cells', so a conjunction over them splits in those three. A send or receive cell has one
  round only, so once its owner stands at round 1 with nothing taken the cell closes and its counter, at zero,
  is the device's again.
-/
import proofs.«900923_g7700000000000924_dist_max_ax0_shard0_i_m512_n256_v7x_i16_f32_1_alg».proof.Proof.KProtocol
import proofs.«900923_g7700000000000924_dist_max_ax0_shard0_i_m512_n256_v7x_i16_f32_1_alg».proof.Proof.KMesh
import proofs.«900923_g7700000000000924_dist_max_ax0_shard0_i_m512_n256_v7x_i16_f32_1_alg».proof.Proof.KTables

noncomputable section

namespace Cert.Kernel.Proto

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells by name -/

theorem kcell_kb (x : Dev nD) : kcell (x, kb) = barCell x := rfl
theorem kcell_ks (x : Dev nD) (j : Fin 15) : kcell (x, ks j) = sendCell x j :=
  congrArg (Prod.mk (x : Thread nD τ)) (csem_ks j)
theorem kcell_kr (x : Dev nD) (j : Fin 15) : kcell (x, kr j) = recvCell x j :=
  congrArg (Prod.mk (x : Thread nD τ)) (csem_kr j)

/-! ## One cell's invariant and reached-mark out of the records -/

theorem inv_at (K : Dev nD × Fin 31 → ℕ) (ck : Dev nD × Fin 31) :
    records m K ⊢ cellInv ER (Rd m) (K ck) (kcell ck) := by
  unfold records
  iintro ⟨HI, -⟩
  iapply (show (bigSep Finset.univ fun ck : Dev nD × Fin 31 => (cellInv ER (Rd m) (K ck) (kcell ck) : sProp 𝕄))
      ⊢ cellInv ER (Rd m) (K ck) (kcell ck) from bigSep_elim (Finset.mem_univ ck))
  iexact HI

theorem reached_at (K : Dev nD × Fin 31 → ℕ) (ck : Dev nD × Fin 31) :
    records m K ⊢ (reached ER (kcell ck) 0 : sProp 𝕄) := by
  unfold records
  iintro ⟨-, HR⟩
  iapply (show (bigSep Finset.univ fun ck : Dev nD × Fin 31 => (reached ER (kcell ck) 0 : sProp 𝕄))
      ⊢ reached ER (kcell ck) 0 from bigSep_elim (Finset.mem_univ ck))
  iexact HR

theorem inv_bar (K : Dev nD × Fin 31 → ℕ) (x : Dev nD) :
    records m K ⊢ cellInv ER (Rd m) (K (x, kb)) (barCell x) := inv_at m K (x, kb)
theorem inv_send (K : Dev nD × Fin 31 → ℕ) (x : Dev nD) (j : Fin 15) :
    records m K ⊢ cellInv ER (Rd m) (K (x, ks j)) (sendCell x j) := by
  have h := inv_at m K (x, ks j); rw [kcell_ks] at h; exact h
theorem inv_recv (K : Dev nD × Fin 31 → ℕ) (x : Dev nD) (j : Fin 15) :
    records m K ⊢ cellInv ER (Rd m) (K (x, kr j)) (recvCell x j) := by
  have h := inv_at m K (x, kr j); rw [kcell_kr] at h; exact h

theorem reached_bar (K : Dev nD × Fin 31 → ℕ) (x : Dev nD) :
    records m K ⊢ (reached ER (barCell x) 0 : sProp 𝕄) := reached_at m K (x, kb)
theorem reached_send (K : Dev nD × Fin 31 → ℕ) (x : Dev nD) (j : Fin 15) :
    records m K ⊢ (reached ER (sendCell x j) 0 : sProp 𝕄) := by
  have h := reached_at m K (x, ks j); rw [kcell_ks] at h; exact h
theorem reached_recv (K : Dev nD × Fin 31 → ℕ) (x : Dev nD) (j : Fin 15) :
    records m K ⊢ (reached ER (recvCell x j) 0 : sProp 𝕄) := by
  have h := reached_at m K (x, kr j); rw [kcell_kr] at h; exact h

/-! ## A device's positions, cell by cell -/

/-- The thirty-one cells of a device: its barrier cell, its fifteen send cells, its fifteen receive cells. -/
def cellsEquiv : Unit ⊕ (Fin 15 ⊕ Fin 15) ≃ Fin 31 where
  toFun
    | .inl _ => kb
    | .inr (.inl j) => ks j
    | .inr (.inr j) => kr j
  invFun k :=
    if h0 : k.val = 0 then .inl ()
    else if h1 : k.val ≤ 15 then .inr (.inl ⟨k.val - 1, by omega⟩)
    else .inr (.inr ⟨k.val - 16, by have := k.isLt; omega⟩)
  left_inv a := by
    rcases a with u | j | j
    · rfl
    · revert j; decide
    · revert j; decide
  right_inv k := by revert k; decide

omit [FloatOps F] in
theorem positions_eq (c : Dev nD) :
    (positions (F := F) c) = iprop(atPos ER (barCell c) 0 ∅ 0
      ∗ (bigSep Finset.univ fun j : Fin 15 => atPos ER (sendCell c j) 0 ∅ 0)
      ∗ (bigSep Finset.univ fun j : Fin 15 => atPos ER (recvCell c j) 0 ∅ 0)) := by
  have hs : (fun j : Fin 15 => (atPos ER (sendCell c j) 0 ∅ 0 : sProp 𝕄)) = fun j => atPos ER (kcell (c, ks j)) 0 ∅ 0 :=
    funext fun j => by rw [kcell_ks]
  have hr : (fun j : Fin 15 => (atPos ER (recvCell c j) 0 ∅ 0 : sProp 𝕄)) = fun j => atPos ER (kcell (c, kr j)) 0 ∅ 0 :=
    funext fun j => by rw [kcell_kr]
  unfold positions
  rw [hs, hr, bigSep_univ_equiv cellsEquiv, bigSep_univ_sum, bigSep_univ_sum, bigSep_univ_of_subsingleton ()]
  rfl

/-! ## The own cells closed -/

theorem close_send (K : Dev nD × Fin 31 → ℕ) (c : Dev nD) (j : Fin 15) :
    iprop(records m K ∗ atPos ER (sendCell c j) (0 + 1) ∅ 0) ⊢ (|={Set.univ}=> semVal (sendCell c j) 0 : sProp 𝕄) :=
  (sep_mono_left (inv_send m K c j)).trans
    (Rounds.cell_close ER (Rd m) (Set.mem_univ (K (c, ks j))) (fun h => h) (R := 0 + 1) (duties_later m (sendCell c j)))

theorem close_recv (K : Dev nD × Fin 31 → ℕ) (c : Dev nD) (j : Fin 15) :
    iprop(records m K ∗ atPos ER (recvCell c j) (0 + 1) ∅ 0) ⊢ (|={Set.univ}=> semVal (recvCell c j) 0 : sProp 𝕄) :=
  (sep_mono_left (inv_recv m K c j)).trans
    (Rounds.cell_close ER (Rd m) (Set.mem_univ (K (c, kr j))) (fun h => h) (R := 0 + 1) (duties_later m (recvCell c j)))

/-- info: 'Cert.Kernel.Proto.close_recv' depends on axioms: [propext, Classical.choice, Quot.sound] -/
#guard_msgs in #print axioms close_recv
/-- info: 'Cert.Kernel.Proto.positions_eq' depends on axioms: [propext, Classical.choice, Quot.sound] -/
#guard_msgs in #print axioms positions_eq

end Cert.Kernel.Proto

end
-- ==== Proof.KOblig.lean ====
/-
  The launch's body obligation from the body's run.
  At the one grid point the obligation hands a device its ghost state, what it owes, and its two staged buffers;
  the body's run is stated over the same resources laid out one by one. Here the first is unpacked into the
  second: each cell's invariant and reached-mark is read out of the launch's records, the positions, tokens and
  credits are enumerated, the staged buffers are named through their memrefs. After the run the thirty transfer
  cells, each one round on with nothing taken, close, and their counters at zero go back with the buffers.
-/
import proofs.«900923_g7700000000000924_dist_max_ax0_shard0_i_m512_n256_v7x_i16_f32_1_alg».proof.Proof.KBody
import proofs.«900923_g7700000000000924_dist_max_ax0_shard0_i_m512_n256_v7x_i16_f32_1_alg».proof.Proof.KGhost

noncomputable section
namespace Cert.Kernel.Proto
open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (shareTok shareDrop)
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ)

/-! ## The one grid point, and a staged buffer as the obligation holds it -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

omit [FloatOps F] in
theorem bigSep_W (Φ : Fin cfg0.W → sProp 𝕄) : bigSep Finset.univ Φ = iprop(Φ (0 : Fin 2) ∗ Φ (1 : Fin 2)) := bigSep_W0 Φ

theorem fetch_0 (t : Fin cfg0.N) : (cfg0.win (0 : Fin 2)).fetch t = true := by rw [fin_N t]; rfl

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The four buffers, named raw or through their memrefs -/

omit [FloatOps F] in
theorem stg0_raw (c : Dev nD) (f : Buf (Elt F) ((c : Thread nD τ).loc cc0_stg0_0)) :
    ((((c : Thread nD τ).loc cc0_stg0_0) ↦{fullShare} f) : sProp 𝕄) = ((xM.view.loc (c : Thread nD τ)) ↦{fullShare} f) := rfl
omit [FloatOps F] in
theorem stg1_raw (c : Dev nD) (f : Buf (Elt F) ((c : Thread nD τ).loc cc0_stg1_0)) :
    ((((c : Thread nD τ).loc cc0_stg1_0) ↦{fullShare} f) : sProp 𝕄) = ((oM.view.loc (c : Thread nD τ)) ↦{fullShare} f) := rfl
omit [FloatOps F] in
theorem scr0_raw (c : Dev nD) (f : Buf (Elt F) ((c : Thread nD τ).loc cc0_scratch0)) :
    ((((c : Thread nD τ).loc cc0_scratch0) ↦{fullShare} f) : sProp 𝕄) = ((ownM.view.loc (c : Thread nD τ)) ↦{fullShare} f) := rfl
omit [FloatOps F] in
theorem scr1_raw (c : Dev nD) (f : Buf (Elt F) ((c : Thread nD τ).loc cc0_scratch1)) :
    ((((c : Thread nD τ).loc cc0_scratch1) ↦{fullShare} f) : sProp 𝕄) = ((commM.view.loc (c : Thread nD τ)) ↦{fullShare} f) := rfl

/-! ## The obligation's two ends -/

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xstg m c) ∗ stg c cc0_stg1_0 (outC m c))

set_option maxRecDepth 8000 in
set_option maxHeartbeats 1600000 in
/-- From the obligation's precondition the body runs to its postcondition behind one more update: the launch's
    ghost state is laid out flat for the body's run, and after it the thirty transfer cells, one round on, close. -/
theorem body_wrap_fupd (c : Dev nD) :
    bodyPre' m c ⊢ wp frame (wpE (defs₀ (F := F)) 𝒱₀ c none) Set.univ
      (cc0_body xM xM_whole oM oM_whole ownM ownM_whole commM commM_whole cc0_scratch2 cc0_scratch3) (fun _ => iprop(|={Set.univ}=> bodyPost m c)) := by
  unfold bodyPre' Φ₀ start ghost payToks
  rw [positions_eq]
  simp only [bigSep_fin15]
  iintro ⟨⟨⟨⟨%K, #Hrec, ⟨HpB, ⟨HpS0, HpS1, HpS2, HpS3, HpS4, HpS5, HpS6, HpS7, HpS8, HpS9, HpS10, HpS11, HpS12, HpS13, HpS14⟩, ⟨HpR0, HpR1, HpR2, HpR3, HpR4, HpR5, HpR6, HpR7, HpR8, HpR9, HpR10, HpR11, HpR12, HpR13, HpR14⟩⟩, ⟨HtB0, HtB1, HtB2, HtB3, HtB4, HtB5, HtB6, HtB7, HtB8, HtB9, HtB10, HtB11, HtB12, HtB13, HtB14⟩, ⟨HtR0, HtR1, HtR2, HtR3, HtR4, HtR5, HtR6, HtR7, HtR8, HtR9, HtR10, HtR11, HtR12, HtR13, HtR14⟩, ⟨HtS0, HtS1, HtS2, HtS3, HtS4, HtS5, HtS6, HtS7, HtS8, HtS9, HtS10, HtS11, HtS12, HtS13, HtS14⟩⟩, HcB, ⟨HcR0, HcR1, HcR2, HcR3, HcR4, HcR5, HcR6, HcR7, HcR8, HcR9, HcR10, HcR11, HcR12, HcR13, HcR14⟩, Hidle, #Hlev⟩, ⟨%f0, Hown⟩, ⟨%f1, Hcomm⟩⟩, Ho, ⟨%d0, %g0, %hg0, Hx⟩, ⟨%d1, %g1, %hg1, Hout⟩⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  unfold O₀
  iapply (sound_body m K c W g1 f0 f1 (fun _ => iprop(|={Set.univ}=> bodyPost m c)))
  isplitr [Hidle]
  · unfold preFlat
    rw [← stg0_raw c (xstg m c), ← stg1_raw c g1, ← scr0_raw c f0, ← scr1_raw c f1]
    isplitr; · iapply (inv_bar m K c); iexact Hrec
    isplitr; · iapply (inv_send m K c 0); iexact Hrec
    isplitr; · iapply (inv_send m K c 1); iexact Hrec
    isplitr; · iapply (inv_send m K c 2); iexact Hrec
    isplitr; · iapply (inv_send m K c 3); iexact Hrec
    isplitr; · iapply (inv_send m K c 4); iexact Hrec
    isplitr; · iapply (inv_send m K c 5); iexact Hrec
    isplitr; · iapply (inv_send m K c 6); iexact Hrec
    isplitr; · iapply (inv_send m K c 7); iexact Hrec
    isplitr; · iapply (inv_send m K c 8); iexact Hrec
    isplitr; · iapply (inv_send m K c 9); iexact Hrec
    isplitr; · iapply (inv_send m K c 10); iexact Hrec
    isplitr; · iapply (inv_send m K c 11); iexact Hrec
    isplitr; · iapply (inv_send m K c 12); iexact Hrec
    isplitr; · iapply (inv_send m K c 13); iexact Hrec
    isplitr; · iapply (inv_send m K c 14); iexact Hrec
    isplitr; · iapply (inv_recv m K c 0); iexact Hrec
    isplitr; · iapply (inv_recv m K c 1); iexact Hrec
    isplitr; · iapply (inv_recv m K c 2); iexact Hrec
    isplitr; · iapply (inv_recv m K c 3); iexact Hrec
    isplitr; · iapply (inv_recv m K c 4); iexact Hrec
    isplitr; · iapply (inv_recv m K c 5); iexact Hrec
    isplitr; · iapply (inv_recv m K c 6); iexact Hrec
    isplitr; · iapply (inv_recv m K c 7); iexact Hrec
    isplitr; · iapply (inv_recv m K c 8); iexact Hrec
    isplitr; · iapply (inv_recv m K c 9); iexact Hrec
    isplitr; · iapply (inv_recv m K c 10); iexact Hrec
    isplitr; · iapply (inv_recv m K c 11); iexact Hrec
    isplitr; · iapply (inv_recv m K c 12); iexact Hrec
    isplitr; · iapply (inv_recv m K c 13); iexact Hrec
    isplitr; · iapply (inv_recv m K c 14); iexact Hrec
    isplitr; · iapply (inv_bar m K (peer c 0)); iexact Hrec
    isplitr; · iapply (inv_bar m K (peer c 1)); iexact Hrec
    isplitr; · iapply (inv_bar m K (peer c 2)); iexact Hrec
    isplitr; · iapply (inv_bar m K (peer c 3)); iexact Hrec
    isplitr; · iapply (inv_bar m K (peer c 4)); iexact Hrec
    isplitr; · iapply (inv_bar m K (peer c 5)); iexact Hrec
    isplitr; · iapply (inv_bar m K (peer c 6)); iexact Hrec
    isplitr; · iapply (inv_bar m K (peer c 7)); iexact Hrec
    isplitr; · iapply (inv_bar m K (peer c 8)); iexact Hrec
    isplitr; · iapply (inv_bar m K (peer c 9)); iexact Hrec
    isplitr; · iapply (inv_bar m K (peer c 10)); iexact Hrec
    isplitr; · iapply (inv_bar m K (peer c 11)); iexact Hrec
    isplitr; · iapply (inv_bar m K (peer c 12)); iexact Hrec
    isplitr; · iapply (inv_bar m K (peer c 13)); iexact Hrec
    isplitr; · iapply (inv_bar m K (peer c 14)); iexact Hrec
    isplitr; · iapply (inv_recv m K (peer c 0) 0); iexact Hrec
    isplitr; · iapply (inv_recv m K (peer c 1) 1); iexact Hrec
    isplitr; · iapply (inv_recv m K (peer c 2) 2); iexact Hrec
    isplitr; · iapply (inv_recv m K (peer c 3) 3); iexact Hrec
    isplitr; · iapply (inv_recv m K (peer c 4) 4); iexact Hrec
    isplitr; · iapply (inv_recv m K (peer c 5) 5); iexact Hrec
    isplitr; · iapply (inv_recv m K (peer c 6) 6); iexact Hrec
    isplitr; · iapply (inv_recv m K (peer c 7) 7); iexact Hrec
    isplitr; · iapply (inv_recv m K (peer c 8) 8); iexact Hrec
    isplitr; · iapply (inv_recv m K (peer c 9) 9); iexact Hrec
    isplitr; · iapply (inv_recv m K (peer c 10) 10); iexact Hrec
    isplitr; · iapply (inv_recv m K (peer c 11) 11); iexact Hrec
    isplitr; · iapply (inv_recv m K (peer c 12) 12); iexact Hrec
    isplitr; · iapply (inv_recv m K (peer c 13) 13); iexact Hrec
    isplitr; · iapply (inv_recv m K (peer c 14) 14); iexact Hrec
    isplitr; · iapply (reached_bar m K (peer c 0)); iexact Hrec
    isplitr; · iapply (reached_bar m K (peer c 1)); iexact Hrec
    isplitr; · iapply (reached_bar m K (peer c 2)); iexact Hrec
    isplitr; · iapply (reached_bar m K (peer c 3)); iexact Hrec
    isplitr; · iapply (reached_bar m K (peer c 4)); iexact Hrec
    isplitr; · iapply (reached_bar m K (peer c 5)); iexact Hrec
    isplitr; · iapply (reached_bar m K (peer c 6)); iexact Hrec
    isplitr; · iapply (reached_bar m K (peer c 7)); iexact Hrec
    isplitr; · iapply (reached_bar m K (peer c 8)); iexact Hrec
    isplitr; · iapply (reached_bar m K (peer c 9)); iexact Hrec
    isplitr; · iapply (reached_bar m K (peer c 10)); iexact Hrec
    isplitr; · iapply (reached_bar m K (peer c 11)); iexact Hrec
    isplitr; · iapply (reached_bar m K (peer c 12)); iexact Hrec
    isplitr; · iapply (reached_bar m K (peer c 13)); iexact Hrec
    isplitr; · iapply (reached_bar m K (peer c 14)); iexact Hrec
    isplitr; · iapply (reached_recv m K (peer c 0) 0); iexact Hrec
    isplitr; · iapply (reached_recv m K (peer c 1) 1); iexact Hrec
    isplitr; · iapply (reached_recv m K (peer c 2) 2); iexact Hrec
    isplitr; · iapply (reached_recv m K (peer c 3) 3); iexact Hrec
    isplitr; · iapply (reached_recv m K (peer c 4) 4); iexact Hrec
    isplitr; · iapply (reached_recv m K (peer c 5) 5); iexact Hrec
    isplitr; · iapply (reached_recv m K (peer c 6) 6); iexact Hrec
    isplitr; · iapply (reached_recv m K (peer c 7) 7); iexact Hrec
    isplitr; · iapply (reached_recv m K (peer c 8) 8); iexact Hrec
    isplitr; · iapply (reached_recv m K (peer c 9) 9); iexact Hrec
    isplitr; · iapply (reached_recv m K (peer c 10) 10); iexact Hrec
    isplitr; · iapply (reached_recv m K (peer c 11) 11); iexact Hrec
    isplitr; · iapply (reached_recv m K (peer c 12) 12); iexact Hrec
    isplitr; · iapply (reached_recv m K (peer c 13) 13); iexact Hrec
    isplitr; · iapply (reached_recv m K (peer c 14) 14); iexact Hrec
    isplitr; · iapply (reached_send m K c 0); iexact Hrec
    isplitr; · iapply (reached_send m K c 1); iexact Hrec
    isplitr; · iapply (reached_send m K c 2); iexact Hrec
    isplitr; · iapply (reached_send m K c 3); iexact Hrec
    isplitr; · iapply (reached_send m K c 4); iexact Hrec
    isplitr; · iapply (reached_send m K c 5); iexact Hrec
    isplitr; · iapply (reached_send m K c 6); iexact Hrec
    isplitr; · iapply (reached_send m K c 7); iexact Hrec
    isplitr; · iapply (reached_send m K c 8); iexact Hrec
    isplitr; · iapply (reached_send m K c 9); iexact Hrec
    isplitr; · iapply (reached_send m K c 10); iexact Hrec
    isplitr; · iapply (reached_send m K c 11); iexact Hrec
    isplitr; · iapply (reached_send m K c 12); iexact Hrec
    isplitr; · iapply (reached_send m K c 13); iexact Hrec
    isplitr; · iapply (reached_send m K c 14); iexact Hrec
    isplitr; · iexact Hlev
    isplitl [Hx]; · iexact Hx
    isplitl [Hout]; · iexact Hout
    isplitl [Hown]; · iexact Hown
    isplitl [Hcomm]; · iexact Hcomm
    isplitl [HO]; · iexact HO
    isplitl [HtB0]; · iexact HtB0
    isplitl [HtB1]; · iexact HtB1
    isplitl [HtB2]; · iexact HtB2
    isplitl [HtB3]; · iexact HtB3
    isplitl [HtB4]; · iexact HtB4
    isplitl [HtB5]; · iexact HtB5
    isplitl [HtB6]; · iexact HtB6
    isplitl [HtB7]; · iexact HtB7
    isplitl [HtB8]; · iexact HtB8
    isplitl [HtB9]; · iexact HtB9
    isplitl [HtB10]; · iexact HtB10
    isplitl [HtB11]; · iexact HtB11
    isplitl [HtB12]; · iexact HtB12
    isplitl [HtB13]; · iexact HtB13
    isplitl [HtB14]; · iexact HtB14
    isplitl [HtR0]; · iexact HtR0
    isplitl [HtR1]; · iexact HtR1
    isplitl [HtR2]; · iexact HtR2
    isplitl [HtR3]; · iexact HtR3
    isplitl [HtR4]; · iexact HtR4
    isplitl [HtR5]; · iexact HtR5
    isplitl [HtR6]; · iexact HtR6
    isplitl [HtR7]; · iexact HtR7
    isplitl [HtR8]; · iexact HtR8
    isplitl [HtR9]; · iexact HtR9
    isplitl [HtR10]; · iexact HtR10
    isplitl [HtR11]; · iexact HtR11
    isplitl [HtR12]; · iexact HtR12
    isplitl [HtR13]; · iexact HtR13
    isplitl [HtR14]; · iexact HtR14
    isplitl [HtS0]; · iexact HtS0
    isplitl [HtS1]; · iexact HtS1
    isplitl [HtS2]; · iexact HtS2
    isplitl [HtS3]; · iexact HtS3
    isplitl [HtS4]; · iexact HtS4
    isplitl [HtS5]; · iexact HtS5
    isplitl [HtS6]; · iexact HtS6
    isplitl [HtS7]; · iexact HtS7
    isplitl [HtS8]; · iexact HtS8
    isplitl [HtS9]; · iexact HtS9
    isplitl [HtS10]; · iexact HtS10
    isplitl [HtS11]; · iexact HtS11
    isplitl [HtS12]; · iexact HtS12
    isplitl [HtS13]; · iexact HtS13
    isplitl [HtS14]; · iexact HtS14
    isplitl [HpB]; · iexact HpB
    isplitl [HpS0]; · iexact HpS0
    isplitl [HpS1]; · iexact HpS1
    isplitl [HpS2]; · iexact HpS2
    isplitl [HpS3]; · iexact HpS3
    isplitl [HpS4]; · iexact HpS4
    isplitl [HpS5]; · iexact HpS5
    isplitl [HpS6]; · iexact HpS6
    isplitl [HpS7]; · iexact HpS7
    isplitl [HpS8]; · iexact HpS8
    isplitl [HpS9]; · iexact HpS9
    isplitl [HpS10]; · iexact HpS10
    isplitl [HpS11]; · iexact HpS11
    isplitl [HpS12]; · iexact HpS12
    isplitl [HpS13]; · iexact HpS13
    isplitl [HpS14]; · iexact HpS14
    isplitl [HpR0]; · iexact HpR0
    isplitl [HpR1]; · iexact HpR1
    isplitl [HpR2]; · iexact HpR2
    isplitl [HpR3]; · iexact HpR3
    isplitl [HpR4]; · iexact HpR4
    isplitl [HpR5]; · iexact HpR5
    isplitl [HpR6]; · iexact HpR6
    isplitl [HpR7]; · iexact HpR7
    isplitl [HpR8]; · iexact HpR8
    isplitl [HpR9]; · iexact HpR9
    isplitl [HpR10]; · iexact HpR10
    isplitl [HpR11]; · iexact HpR11
    isplitl [HpR12]; · iexact HpR12
    isplitl [HpR13]; · iexact HpR13
    isplitl [HpR14]; · iexact HpR14
    isplitl [HcB]; · iexact HcB
    isplitl [HcR0]; · iexact HcR0
    isplitl [HcR1]; · iexact HcR1
    isplitl [HcR2]; · iexact HcR2
    isplitl [HcR3]; · iexact HcR3
    isplitl [HcR4]; · iexact HcR4
    isplitl [HcR5]; · iexact HcR5
    isplitl [HcR6]; · iexact HcR6
    isplitl [HcR7]; · iexact HcR7
    isplitl [HcR8]; · iexact HcR8
    isplitl [HcR9]; · iexact HcR9
    isplitl [HcR10]; · iexact HcR10
    isplitl [HcR11]; · iexact HcR11
    isplitl [HcR12]; · iexact HcR12
    isplitl [HcR13]; · iexact HcR13
    iexact HcR14
  · iintro Hpost
    unfold postFlat
    rw [← stg0_raw c (xstg m c), ← stg1_raw c (outC m c), ← scr0_raw c (ownC m c), ← scr1_raw c (gathC m c)]
    icases Hpost with ⟨Hx, Hout, Hown, Hcomm, ⟨%W', HO⟩, HaS0, HaS1, HaS2, HaS3, HaS4, HaS5, HaS6, HaS7, HaS8, HaS9, HaS10, HaS11, HaS12, HaS13, HaS14, HaR0, HaR1, HaR2, HaR3, HaR4, HaR5, HaR6, HaR7, HaR8, HaR9, HaR10, HaR11, HaR12, HaR13, HaR14⟩
    imod (close_send m K c 0) $$ [HaS0] with HzS0
    · isplitr; · iexact Hrec
      iexact HaS0
    imod (close_send m K c 1) $$ [HaS1] with HzS1
    · isplitr; · iexact Hrec
      iexact HaS1
    imod (close_send m K c 2) $$ [HaS2] with HzS2
    · isplitr; · iexact Hrec
      iexact HaS2
    imod (close_send m K c 3) $$ [HaS3] with HzS3
    · isplitr; · iexact Hrec
      iexact HaS3
    imod (close_send m K c 4) $$ [HaS4] with HzS4
    · isplitr; · iexact Hrec
      iexact HaS4
    imod (close_send m K c 5) $$ [HaS5] with HzS5
    · isplitr; · iexact Hrec
      iexact HaS5
    imod (close_send m K c 6) $$ [HaS6] with HzS6
    · isplitr; · iexact Hrec
      iexact HaS6
    imod (close_send m K c 7) $$ [HaS7] with HzS7
    · isplitr; · iexact Hrec
      iexact HaS7
    imod (close_send m K c 8) $$ [HaS8] with HzS8
    · isplitr; · iexact Hrec
      iexact HaS8
    imod (close_send m K c 9) $$ [HaS9] with HzS9
    · isplitr; · iexact Hrec
      iexact HaS9
    imod (close_send m K c 10) $$ [HaS10] with HzS10
    · isplitr; · iexact Hrec
      iexact HaS10
    imod (close_send m K c 11) $$ [HaS11] with HzS11
    · isplitr; · iexact Hrec
      iexact HaS11
    imod (close_send m K c 12) $$ [HaS12] with HzS12
    · isplitr; · iexact Hrec
      iexact HaS12
    imod (close_send m K c 13) $$ [HaS13] with HzS13
    · isplitr; · iexact Hrec
      iexact HaS13
    imod (close_send m K c 14) $$ [HaS14] with HzS14
    · isplitr; · iexact Hrec
      iexact HaS14
    imod (close_recv m K c 0) $$ [HaR0] with HzR0
    · isplitr; · iexact Hrec
      iexact HaR0
    imod (close_recv m K c 1) $$ [HaR1] with HzR1
    · isplitr; · iexact Hrec
      iexact HaR1
    imod (close_recv m K c 2) $$ [HaR2] with HzR2
    · isplitr; · iexact Hrec
      iexact HaR2
    imod (close_recv m K c 3) $$ [HaR3] with HzR3
    · isplitr; · iexact Hrec
      iexact HaR3
    imod (close_recv m K c 4) $$ [HaR4] with HzR4
    · isplitr; · iexact Hrec
      iexact HaR4
    imod (close_recv m K c 5) $$ [HaR5] with HzR5
    · isplitr; · iexact Hrec
      iexact HaR5
    imod (close_recv m K c 6) $$ [HaR6] with HzR6
    · isplitr; · iexact Hrec
      iexact HaR6
    imod (close_recv m K c 7) $$ [HaR7] with HzR7
    · isplitr; · iexact Hrec
      iexact HaR7
    imod (close_recv m K c 8) $$ [HaR8] with HzR8
    · isplitr; · iexact Hrec
      iexact HaR8
    imod (close_recv m K c 9) $$ [HaR9] with HzR9
    · isplitr; · iexact Hrec
      iexact HaR9
    imod (close_recv m K c 10) $$ [HaR10] with HzR10
    · isplitr; · iexact Hrec
      iexact HaR10
    imod (close_recv m K c 11) $$ [HaR11] with HzR11
    · isplitr; · iexact Hrec
      iexact HaR11
    imod (close_recv m K c 12) $$ [HaR12] with HzR12
    · isplitr; · iexact Hrec
      iexact HaR12
    imod (close_recv m K c 13) $$ [HaR13] with HzR13
    · isplitr; · iexact Hrec
      iexact HaR13
    imod (close_recv m K c 14) $$ [HaR14] with HzR14
    · isplitr; · iexact Hrec
      iexact HaR14
    imodintro
    unfold bodyPost Φ₁ Dat.owesAt Pipeline.owesWithin
    rw [show (dats m 0 c).owed t₀.succ = 0 from rfl]
    simp only [bigSep_fin15]
    isplitl [Hown Hcomm HzS0 HzS1 HzS2 HzS3 HzS4 HzS5 HzS6 HzS7 HzS8 HzS9 HzS10 HzS11 HzS12 HzS13 HzS14 HzR0 HzR1 HzR2 HzR3 HzR4 HzR5 HzR6 HzR7 HzR8 HzR9 HzR10 HzR11 HzR12 HzR13 HzR14 Hidle]
    · isplitl [Hown]; · iexact Hown
      isplitl [Hcomm]; · iexact Hcomm
      isplitl [HzS0 HzS1 HzS2 HzS3 HzS4 HzS5 HzS6 HzS7 HzS8 HzS9 HzS10 HzS11 HzS12 HzS13 HzS14]
      · isplitl [HzS0]; · iexact HzS0
        isplitl [HzS1]; · iexact HzS1
        isplitl [HzS2]; · iexact HzS2
        isplitl [HzS3]; · iexact HzS3
        isplitl [HzS4]; · iexact HzS4
        isplitl [HzS5]; · iexact HzS5
        isplitl [HzS6]; · iexact HzS6
        isplitl [HzS7]; · iexact HzS7
        isplitl [HzS8]; · iexact HzS8
        isplitl [HzS9]; · iexact HzS9
        isplitl [HzS10]; · iexact HzS10
        isplitl [HzS11]; · iexact HzS11
        isplitl [HzS12]; · iexact HzS12
        isplitl [HzS13]; · iexact HzS13
        iexact HzS14
      isplitl [HzR0 HzR1 HzR2 HzR3 HzR4 HzR5 HzR6 HzR7 HzR8 HzR9 HzR10 HzR11 HzR12 HzR13 HzR14]
      · isplitl [HzR0]; · iexact HzR0
        isplitl [HzR1]; · iexact HzR1
        isplitl [HzR2]; · iexact HzR2
        isplitl [HzR3]; · iexact HzR3
        isplitl [HzR4]; · iexact HzR4
        isplitl [HzR5]; · iexact HzR5
        isplitl [HzR6]; · iexact HzR6
        isplitl [HzR7]; · iexact HzR7
        isplitl [HzR8]; · iexact HzR8
        isplitl [HzR9]; · iexact HzR9
        isplitl [HzR10]; · iexact HzR10
        isplitl [HzR11]; · iexact HzR11
        isplitl [HzR12]; · iexact HzR12
        isplitl [HzR13]; · iexact HzR13
        iexact HzR14
      iexact Hidle
    isplitl [HO]
    · iexists W'
      isplitr; · ipureintro; exact fun _ _ => Or.inl trivial
      iexact HO
    isplitl [Hx]
    · iexists _; isplitr; · (ipureintro; rfl)
      iexact Hx
    iexists _; isplitr; · (ipureintro; rfl)
    iexact Hout

theorem body_wrap (c : Dev nD) :
    bodyPre' m c ⊢ wp frame (wpE (defs₀ (F := F)) 𝒱₀ c none) Set.univ
      (cc0_body xM xM_whole oM oM_whole ownM ownM_whole commM commM_whole cc0_scratch2 cc0_scratch3) (fun _ => bodyPost m c) :=
  (body_wrap_fupd m c).trans (wp_fupd frame (wpE (defs₀ (F := F)) 𝒱₀ c none) Set.univ _ _)

set_option maxRecDepth 8000 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body xM xM_whole oM oM_whole ownM ownM_whole commM commM_whole cc0_scratch2 cc0_scratch3) (fun _ => bodyPost m c)
  exact body_wrap m c

/-- info: 'Cert.Kernel.Proto.body_obligation' depends on axioms: [propext, Classical.choice, Quot.sound] -/
#guard_msgs in #print axioms body_obligation

end Cert.Kernel.Proto
end
-- ==== Proof.KRun.lean ====
/-
  The run with its values.
  Once every device's body is proved, the launch gives the run of the whole mesh from any memory with its
  counters at zero: every weakly fair execution terminates, nothing faults, and each array of each device ends at
  the contents the proof data name for it after the one grid point. The result array is window 1's: it is written
  back whole at that point, so it ends at what the device's body leaves in its output block, the maximum of the
  device's own column maxima and of the fifteen rows it received. The argument array is window 0's: an input
  window is never written back, so it ends as it began. Stated for any float instance.
-/
import proofs.«900923_g7700000000000924_dist_max_ax0_shard0_i_m512_n256_v7x_i16_f32_1_alg».proof.Proof.KLaunch
import proofs.«900923_g7700000000000924_dist_max_ax0_shard0_i_m512_n256_v7x_i16_f32_1_alg».proof.Proof.KOblig

noncomputable section

namespace Cert.Kernel.Proto

open Cert.Kernel Cert.Kernel.Gen

open Idealize.ShloMosaic
open Idealize.ShloMosaic.TcCoe
open Idealize.SL.Sem
open Idealize.ShloMosaic.Pipeline (Dat Cfg Window BodyObligation cellOf)

variable {F : FTy → Type} [FloatOps F]

/-- The run of the mesh with both arrays of every device named: the result at the protocol's `outC`, the argument
    unchanged. -/
theorem run_strong (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v1) = outC m c
      ∧ r.2.mem ((c.tc : Thread nD τ).loc main_arg0) = m ((c.tc : Thread nD τ).loc main_arg0)) :=
  (θ_run defs _ _).mono
    (fun _ h c => ⟨(h c (1 : Fin 2)).trans (finalA_out m c), (h c (0 : Fin 2)).trans (finalA_x m c)⟩)
    (run_main m ρ (body_obligation m))

/-- info: 'Cert.Kernel.Proto.run_strong' depends on axioms: [propext, Classical.choice, Quot.sound] -/
#guard_msgs in #print axioms run_strong

end Cert.Kernel.Proto

end
-- ==== Proof.Value.lean ====
/-
  The value: what every device's result holds is the reference's result of the whole array.

  Device `c` holds block `c` of the whole array: its row `r` is row `512 · c + r` of the whole. At a column
  `k` the device's result is the maximum of its own block's column maximum and of the column maxima over its
  gather buffer, whose row `d` is device `d`'s column maximum for `d ≠ c` and the initial word for `d = c`;
  every one of these maxima is a fold of `max` from the same initial word `b` (the word of minus infinity).
  The reference's result at `k` is the fold of `max` from `b` over all 8192 rows. A fold of `max` from `b`
  over a family is the least value above `b` and above every member, so both sides are the least value
  above `b` and above every entry of column `k`: each row of the whole array is a row of exactly one block.
  Only that `max` is a least upper bound is used; nothing is asked of `b` and no entry need be finite.
-/
import proofs.«900923_g7700000000000924_dist_max_ax0_shard0_i_m512_n256_v7x_i16_f32_1_alg».proof.Defs
import proofs.«900923_g7700000000000924_dist_max_ax0_shard0_i_m512_n256_v7x_i16_f32_1_alg».proof.Proof.Protocol
import proofs.«900923_g7700000000000924_dist_max_ax0_shard0_i_m512_n256_v7x_i16_f32_1_alg».proof.Proof.Gen.ReferenceIdeal.Run
import proofs.«900923_g7700000000000924_dist_max_ax0_shard0_i_m512_n256_v7x_i16_f32_1_alg».proof.Proof.Gen.ReferenceIdeal.Read
import proofs.«900923_g7700000000000924_dist_max_ax0_shard0_i_m512_n256_v7x_i16_f32_1_alg».proof.Proof.Gen.Pre_finite_inputs_ReferenceIdeal
import Idealize.ShloMosaic.Lib.Layout
import Idealize.ShloMosaic.Lib.ValueIdx
import Idealize.ShloMosaic.Lib.ValueLayout
import Idealize.ShloMosaic.Lib.Pipeline.Value
import Idealize.ShloMosaic.PureOps.Ideal.Laws
import Mathlib.Data.Finset.Fold

noncomputable section

namespace Cert.KernelIdeal.RefValue

open Idealize.ShloMosaic Idealize.ShloMosaic.TcCoe Idealize.SL.Sem Idealize.ShloMosaic.ValueIdx
open Cert.KernelIdeal Cert.KernelIdeal.Gen

/-! ## Maxima over the blocks of a column -/

/-- A column of 8192 entries cut into 16 blocks of 512: the maximum (from `b`) of block `c`'s maximum and of
    the maxima of the other blocks (`b` standing in block `c`'s place) is the maximum of the whole column.
    Both sides are below `z` exactly when `b` and every entry are. -/
theorem fold_blocks (b : EReal) (X : Fin 16 → Fin 512 → EReal) (A : Fin 8192 → EReal)
    (hXA : ∀ (d : Fin 16) (r : Fin 512), X d r = A ⟨512 * d.val + r.val, by have := d.isLt; have := r.isLt; omega⟩)
    (c : Fin 16) :
    max ((Finset.univ : Finset (Fin 512)).fold max b (X c))
        ((Finset.univ : Finset (Fin 16)).fold max b
          (fun d => if d = c then b else (Finset.univ : Finset (Fin 512)).fold max b (X d)))
      = (Finset.univ : Finset (Fin 8192)).fold max b A := by
  refine eq_of_forall_ge_iff fun z => ?_
  rw [max_le_iff, Finset.fold_max_le, Finset.fold_max_le, Finset.fold_max_le]
  constructor
  · rintro ⟨⟨hb, hc⟩, -, hd⟩
    refine ⟨hb, fun R _ => ?_⟩
    have hR := R.isLt
    have e : A R = X ⟨R.val / 512, by omega⟩ ⟨R.val % 512, Nat.mod_lt _ (by decide)⟩ := by
      rw [hXA]; exact congrArg A (Fin.ext (by show R.val = 512 * (R.val / 512) + R.val % 512; omega))
    rw [e]
    by_cases hdc : (⟨R.val / 512, by omega⟩ : Fin 16) = c
    · rw [hdc]; exact hc _ (Finset.mem_univ _)
    · have h := hd ⟨R.val / 512, by omega⟩ (Finset.mem_univ _)
      rw [if_neg hdc] at h
      exact ((Finset.fold_max_le z).mp h).2 _ (Finset.mem_univ _)
  · rintro ⟨hb, hA⟩
    refine ⟨⟨hb, fun r _ => by rw [hXA]; exact hA _ (Finset.mem_univ _)⟩, hb, fun d _ => ?_⟩
    by_cases hdc : d = c
    · rw [if_pos hdc]; exact hb
    · rw [if_neg hdc]
      exact (Finset.fold_max_le z).mpr ⟨hb, fun r _ => by rw [hXA]; exact hA _ (Finset.mem_univ _)⟩

/-! ## The kernel's payloads at a column -/

/-- The word every maximum starts from, read at the ideal values. -/
abbrev ninf : EReal := FloatOps.ofBits (F := Ideal) .f32 0xFF800000#32

/-- Over a matrix reduced along its rows, the source index above column `k` with row `r` inserted is `(r, k)`. -/
theorem lift_col {n0 n1 : ℕ} (h : (⟨2, ![n0, n1]⟩ : Shape).Reduces [0] ⟨1, ![n1]⟩) (k : Fin n1) (r : Fin n0) :
    h.lift (ix1 k) r = ix2 r k := by
  funext a
  apply Fin.ext
  match a with
  | ⟨0, _⟩ => rfl
  | ⟨1, _⟩ => rfl

/-- A maximum-reduction of a matrix along its rows, at column `k`: the fold of `max` over the column. -/
theorem colmax_apply {n0 n1 : ℕ} (x : FVec Ideal ⟨2, ![n0, n1]⟩ .f32)
    (h : (⟨2, ![n0, n1]⟩ : Shape).Reduces [0] ⟨1, ![n1]⟩) (hφ : FKind.Formats .f32)
    (hacc : (0xFF800000#32 : BitVec 32) = FKind.maximumf.neutral .f32 hφ) (k : Fin n1) :
    multiReduction (F := Ideal) .maximumf [0] ⟨1, ![n1]⟩ x 0xFF800000#32 h hφ hacc (ix1 k)
      = (Finset.univ : Finset (Fin n0)).fold max ninf (fun r => x (ix2 r k)) := by
  refine (Ideal.multiReduction_maximumf_single x _ h hφ hacc (ix1 k)).trans ?_
  show (Finset.univ : Finset (Fin n0)).fold max ninf (x ∘ h.lift (ix1 k)) = _
  exact congrArg (fun f => Finset.fold max ninf f Finset.univ) (funext fun r => congrArg x (lift_col h k r))

/-- The column maxima of a block, at column `k`. -/
theorem pay2_apply (x : Vec Ideal S512x256 .f32) (u : Fin 1) (k : Fin 256) :
    k0_pay2 (F := Ideal) x (ix2 u k) = (Finset.univ : Finset (Fin 512)).fold max ninf (fun r => x (ix2 r k)) := by
  unfold k0_pay2
  refine (shapeCast_a_1a_apply _ shapeCasts_S256_S1x256 u k).trans ?_
  rw [shapeCast_self]
  exact colmax_apply x reduces_S512x256_S256 (.inl rfl) rfl k

/-- What is stored in the send buffer is those column maxima. -/
theorem pay3_eq (x : Vec Ideal S512x256 .f32) : k0_pay3 (F := Ideal) x = k0_pay2 (F := Ideal) x := by
  unfold k0_pay3
  exact shapeCast_self _ _

/-- The initial contents of the gather buffer are the initial word everywhere. -/
theorem pay1_apply (i : S16x1x256.Idx) : k0_pay1 (F := Ideal) i = ninf := rfl

/-- The gather buffer with its unit axis dropped, at `(d, k)`. -/
theorem squeeze_apply {α : Type} (g : S16x1x256.Idx → α) (d : Fin 16) (k : Fin 256) :
    shapeCast S16x256 g shapeCasts_S16x1x256_S16x256 (ix2 d k) = g (ix3 d (0 : Fin 1) k) :=
  shapeCast_apply g _ _ _ (by
    rw [Shape.rowMajor_val_three, Shape.rowMajor_val_two]
    show (d.val * 1 + 0) * 256 + k.val = d.val * 256 + k.val
    omega)

/-- The result, at column `k`: the maximum of the device's own value and the column maximum over the sixteen
    rows of its gather buffer. -/
theorem pay4_apply (v : FVec Ideal S1x256 .f32) (g : Vec Ideal S16x1x256 .f32) (u : Fin 1) (k : Fin 256) :
    k0_pay4 (F := Ideal) v g (ix2 u k)
      = max (v (ix2 u k)) ((Finset.univ : Finset (Fin 16)).fold max ninf (fun d => g (ix3 d (0 : Fin 1) k))) := by
  unfold k0_pay4
  refine (maximumf_apply _ _ _).trans (congrArg (max (v (ix2 u k))) ?_)
  refine (shapeCast_a_1a_apply _ shapeCasts_S256_S1x256 u k).trans ?_
  refine (colmax_apply _ reduces_S16x256_S256 (.inl rfl) rfl k).trans ?_
  exact congrArg (fun f => Finset.fold max ninf f Finset.univ) (funext fun d => squeeze_apply g d k)

/-! ## The reference's result at a column -/

/-- The reference's result as a function of its whole argument array: the broadcast to one row of the
    maximum-reduction, from the initial word, of the array along its rows. -/
def refOut (A : (⟨Cert.ReferenceIdeal.S8192x256, .f32⟩ : BufTy).Contents (Elt Ideal)) :
    (⟨Cert.ReferenceIdeal.S1x256, .f32⟩ : BufTy).Contents (Elt Ideal) :=
  broadcastInDim Cert.ReferenceIdeal.S1x256 ![1] Cert.ReferenceIdeal.Gen.bcast_S256_S1x256_1
    (Host.reduce (FloatOps.maximumf (F := Ideal) (φ := .f32)) A (constant (F := Ideal) Cert.ReferenceIdeal.S_ .f32 0xFF800000#32)
      Cert.ReferenceIdeal.Gen.reducesTo_S8192x256_S256_d0 Cert.ReferenceIdeal.Gen.h_S_)

theorem refOut_eq_val (A : (⟨Cert.ReferenceIdeal.S8192x256, .f32⟩ : BufTy).Contents (Elt Ideal)) :
    refOut A = Cert.ReferenceIdeal.Read.val_main_v1 (F := Ideal) A := rfl

/-- At column `k` it is the fold of `max` over the whole column. -/
theorem refOut_apply (A : (⟨Cert.ReferenceIdeal.S8192x256, .f32⟩ : BufTy).Contents (Elt Ideal)) (u : Fin 1) (k : Fin 256) :
    refOut A (ix2 u k) = (Finset.univ : Finset (Fin 8192)).fold max ninf (fun R => A (ix2 R k)) := by
  have hR : Cert.ReferenceIdeal.S8192x256.Reduces [0] Cert.ReferenceIdeal.S256 := by decide
  have hi : Cert.ReferenceIdeal.Read.idx_main_v1 (ix2 u k) = ix1 k := funext fun a => match a with | ⟨0, _⟩ => rfl
  rw [refOut_eq_val]
  refine (Cert.ReferenceIdeal.Read.val_main_v1_apply (F := Ideal) A (ix2 u k)).trans ?_
  rw [hi]
  unfold Cert.ReferenceIdeal.Read.val_main_v0
  refine (Host.reduce_eq_fold_single _ _ _ Cert.ReferenceIdeal.Gen.reducesTo_S8192x256_S256_d0 hR Cert.ReferenceIdeal.Gen.h_S_ _).trans ?_
  show (Finset.univ : Finset (Fin 8192)).fold max ninf (A ∘ hR.lift (ix1 k)) = _
  exact congrArg (fun f => Finset.fold max ninf f Finset.univ) (funext fun R => congrArg A (lift_col hR k R))

/-- The reference runs, its result ends as `refOut` of its argument, and its argument ends unchanged. -/
theorem ref_run (m' : (ℓ : Loc Cert.ReferenceIdeal.nD Cert.ReferenceIdeal.τ Cert.ReferenceIdeal.sig) → Buf (Elt Ideal) ℓ)
    (ρ' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, ρ'⟩
      (fun r =>
        r.2.mem (((0 : Dev Cert.ReferenceIdeal.nD).tc : Thread Cert.ReferenceIdeal.nD Cert.ReferenceIdeal.τ).loc Cert.ReferenceIdeal.main_v1)
            = refOut (m' (((0 : Dev Cert.ReferenceIdeal.nD).tc : Thread Cert.ReferenceIdeal.nD Cert.ReferenceIdeal.τ).loc Cert.ReferenceIdeal.main_arg0))
          ∧ r.2.mem (((0 : Dev Cert.ReferenceIdeal.nD).tc : Thread Cert.ReferenceIdeal.nD Cert.ReferenceIdeal.τ).loc Cert.ReferenceIdeal.main_arg0)
            = m' (((0 : Dev Cert.ReferenceIdeal.nD).tc : Thread Cert.ReferenceIdeal.nD Cert.ReferenceIdeal.τ).loc Cert.ReferenceIdeal.main_arg0)) :=
  (θ_run Cert.ReferenceIdeal.defs _ _).mono (fun _ h => h 0) (Cert.ReferenceIdeal.Value.run (F := Ideal) m' ρ')

/-- The reference's frame: its run with the result dropped. -/
theorem frame_ri : Cert.frame_ReferenceIdeal :=
  fun m ρ _ => (θ_run Cert.ReferenceIdeal.defs _ _).mono (fun _ h c => (h c).2) (Cert.ReferenceIdeal.Value.run (F := Ideal) m ρ)

/-! ## A device's block, and the value -/

/-- Block `c` of the whole array at `(r, k)` is the whole array at `(512 · c + r, k)`. -/
theorem block_rows (A : (⟨2, ![8192, 256]⟩ : Shape).Idx → EReal) (c : Fin 16) (r : Fin 512) (k : Fin 256) :
    (Layout.block ⟨2, ![512, 256]⟩ ⟨2, ![8192, 256]⟩ 0 16 c A) (ix2 r k)
      = A (ix2 (⟨512 * c.val + r.val, by have := c.isLt; have := r.isLt; omega⟩ : Fin 8192) k) := by
  refine (Layout.block_apply c A _ (ix2 r k)).trans (congrArg A ?_)
  funext a
  apply Fin.ext
  match a with
  | ⟨0, _⟩ => show c.val * 512 + r.val = 512 * c.val + r.val; omega
  | ⟨1, _⟩ => rfl

/-- A device's staged block is its argument buffer: the window is the whole array. -/
theorem xstg_eq (m : (ℓ : Loc nD τ sig) → Buf (Elt Ideal) ℓ) (c : Dev nD) :
    Proto.xstg (F := Ideal) m c = m ((c : Thread nD τ).loc main_arg0) := by
  unfold Proto.xstg
  exact Memref.read_access_unit_zero (Elt Ideal) main_arg0 (funext fun a => Nat.zero_mul _) _ _

/-- Every device's result is the reference's result of the whole array. -/
theorem value_eq (m : (ℓ : Loc Cert.KernelIdeal.nD Cert.KernelIdeal.τ Cert.KernelIdeal.sig) → Buf (Elt Ideal) ℓ)
    (A : (⟨Cert.ReferenceIdeal.S8192x256, .f32⟩ : BufTy).Contents (Elt Ideal))
    (hagree : ∀ c : Dev Cert.KernelIdeal.nD,
      m ((c.tc : Thread Cert.KernelIdeal.nD Cert.KernelIdeal.τ).loc Cert.KernelIdeal.main_arg0)
        = Layout.block ⟨2, ![512, 256]⟩ ⟨2, ![8192, 256]⟩ 0 16 c A)
    (c : Dev Cert.KernelIdeal.nD) :
    Cert.KernelIdeal.Proto.outC (F := Ideal) m c = refOut A := by
  funext i
  obtain ⟨u, k, rfl⟩ : ∃ (u : Fin 1) (k : Fin 256), i = ix2 u k := ⟨i 0, i 1, eq_ix2 i⟩
  refine Eq.trans ?_ (refOut_apply A u k).symm
  have hg : (fun d : Fin 16 => Spec.gathered (Proto.xstg (F := Ideal) m) c (ix3 d (0 : Fin 1) k))
      = fun d => if d = c then ninf
          else (Finset.univ : Finset (Fin 512)).fold max ninf (fun r => Proto.xstg (F := Ideal) m d (ix2 r k)) := by
    funext d
    show (if d = c then k0_pay1 (F := Ideal) (ix3 d (0 : Fin 1) k)
      else k0_pay3 (F := Ideal) (Proto.xstg (F := Ideal) m d) (ix2 (0 : Fin 1) k)) = _
    rw [pay3_eq, pay2_apply, pay1_apply]
  show k0_pay4 (F := Ideal) (k0_pay2 (F := Ideal) (Proto.xstg (F := Ideal) m c)) (Spec.gathered (Proto.xstg (F := Ideal) m) c) (ix2 u k) = _
  refine (pay4_apply _ _ u k).trans ?_
  rw [pay2_apply, hg]
  exact fold_blocks ninf (fun d r => Proto.xstg (F := Ideal) m d (ix2 r k)) (fun R => A (ix2 R k))
    (fun d r => by rw [xstg_eq, hagree d]; exact block_rows A d r k) c

/-- info: 'Cert.KernelIdeal.RefValue.value_eq' depends on axioms: [propext, Classical.choice, Quot.sound] -/
#guard_msgs in #print axioms value_eq
/-- info: 'Cert.KernelIdeal.RefValue.ref_run' depends on axioms: [propext, Classical.choice, Quot.sound] -/
#guard_msgs in #print axioms ref_run
/-- info: 'Cert.KernelIdeal.RefValue.frame_ri' depends on axioms: [propext, Classical.choice, Quot.sound] -/
#guard_msgs in #print axioms frame_ri

end Cert.KernelIdeal.RefValue

end
-- ==== Proof.lean ====
/-
  The certificate of a maximum over the rows of an array laid across sixteen devices.

  The whole array has 8192 rows of 256 columns; device `c` holds rows `512 · c` to `512 · c + 511`. Every device
  reduces its block to its 256 column maxima, and the devices exchange these rows all to all: each device writes
  its row into its own slot of every other device's gather buffer and takes, column by column, the maximum of its
  own row and of the sixteen slots, its own slot still holding the minus infinity it was initialised to. Before a
  device writes into a peer's buffer it waits for that peer's word, on the barrier semaphore, that the peer has
  initialised the buffer; before it reads a slot it waits for the copy that fills it; before it leaves it waits for
  its own copies to have been read out. Every wait is for a signal or a copy some device has promised and is on
  its way to making, in an order that admits no cycle, so every fair execution ends and nothing faults; no copy's
  source or destination is touched while the copy is under way, so each slot ends holding exactly the sender's
  column maxima. The argument arrays are only read.
  The result of each device at a column is therefore the maximum of the column maxima of all sixteen blocks, and
  since each row of the whole array is a row of exactly one block, that is the maximum of the whole column: the
  reference's result, which every device holds alike. The maximum is a least upper bound whatever the entries
  are, so the equality needs no finiteness. The program as printed and its reading over the extended reals are
  one text, proved once for every float instance; the word-level modules are that text under the other name.
-/
import proofs.«900923_g7700000000000924_dist_max_ax0_shard0_i_m512_n256_v7x_i16_f32_1_alg».proof.Defs
import proofs.«900923_g7700000000000924_dist_max_ax0_shard0_i_m512_n256_v7x_i16_f32_1_alg».proof.Proof.Gen.Kernel
import proofs.«900923_g7700000000000924_dist_max_ax0_shard0_i_m512_n256_v7x_i16_f32_1_alg».proof.Proof.Gen.KernelIdeal
import proofs.«900923_g7700000000000924_dist_max_ax0_shard0_i_m512_n256_v7x_i16_f32_1_alg».proof.Proof.Gen.ReferenceIdeal
import proofs.«900923_g7700000000000924_dist_max_ax0_shard0_i_m512_n256_v7x_i16_f32_1_alg».proof.Proof.Gen.Pre_finite_inputs_Kernel
import proofs.«900923_g7700000000000924_dist_max_ax0_shard0_i_m512_n256_v7x_i16_f32_1_alg».proof.Proof.Gen.Pre_finite_inputs_ReferenceIdeal
import proofs.«900923_g7700000000000924_dist_max_ax0_shard0_i_m512_n256_v7x_i16_f32_1_alg».proof.Proof.Run
import proofs.«900923_g7700000000000924_dist_max_ax0_shard0_i_m512_n256_v7x_i16_f32_1_alg».proof.Proof.KRun
import proofs.«900923_g7700000000000924_dist_max_ax0_shard0_i_m512_n256_v7x_i16_f32_1_alg».proof.Proof.Value
import Idealize.ShloMosaic.Adequacy
import Idealize.ShloMosaic.Init

noncomputable section

namespace Cert.Proof

open Idealize.ShloMosaic Idealize.SL.Sem

/-- The program as printed runs to the end on every device and leaves its argument arrays unchanged: its run with
    the result dropped. -/
theorem frame_kernel : Cert.frame_Kernel := fun m g _ =>
  (θ_run Cert.Kernel.defs _ _).mono (fun _ h c => (h c).2) (Cert.Kernel.Proto.run_strong (F := Bits) m g)

/-- So does its reading over the extended reals. -/
theorem frame_kernelIdeal : Cert.frame_KernelIdeal := fun m g _ =>
  (θ_run Cert.KernelIdeal.defs _ _).mono (fun _ h c => (h c).2) (Cert.KernelIdeal.Proto.run_strong (F := Ideal) m g)

/-- From memories where device `c` holds block `c` of the reference's array, every device's result ends as the
    reference's: the column maxima of the whole array. -/
theorem algebraic : Cert.algebraic_KernelIdeal_ReferenceIdeal := fun m g m' g' _ hagree =>
  ⟨Cert.KernelIdeal.RefValue.refOut
      (m' (((0 : Dev Cert.ReferenceIdeal.nD).tc : Thread Cert.ReferenceIdeal.nD Cert.ReferenceIdeal.τ).loc Cert.ReferenceIdeal.main_arg0)),
    (θ_run Cert.KernelIdeal.defs _ _).mono
      (fun _ h c => ⟨(h c).1.trans (Cert.KernelIdeal.RefValue.value_eq m _ hagree c), (h c).2⟩)
      (Cert.KernelIdeal.Proto.run_strong (F := Ideal) m g),
    Cert.KernelIdeal.RefValue.ref_run m' g'⟩

theorem claim : Cert.Claim :=
  ⟨Cert.Kernel.Gen.facts, Cert.KernelIdeal.Gen.facts, Cert.ReferenceIdeal.Gen.facts,
    Cert.Pre_finite_inputs_Kernel.Gen.facts, Cert.Pre_finite_inputs_ReferenceIdeal.Gen.facts,
    frame_kernel, frame_kernelIdeal, Cert.KernelIdeal.RefValue.frame_ri, trivial, algebraic⟩

end Cert.Proof

end
